-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x393216 : Shape := ⟨2, ![2, 393216]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x128 : Shape := ⟨2, ![8, 128]⟩
abbrev S128 : Shape := ⟨1, ![128]⟩
abbrev S8x8 : Shape := ⟨2, ![8, 8]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S8x8 : S_.BroadcastsInDim S8x8 (![] : Fin 0 → Fin S8x8.rank)
  reducesTo_S8x8_S_d0_1 : S8x8.ReducesTo [0, 1] S_
  bcast_S_S2x393216 : S_.BroadcastsInDim S2x393216 (![] : Fin 0 → Fin S2x393216.rank)
  reducesTo_S2x393216_S_d0_1 : S2x393216.ReducesTo [0, 1] S_

variable [Facts]

def fn_part2 {F : FTy → Type} [FloatOps F] (main_arg1 : IVec S2x393216 32) (main_arg8 : FVec F S8x8 .f32) (main_arg9 : FVec F S8 .f32) (main_v33 : IVec S_ 1) : IVec S_ 1 :=
  let main_v34 : FVec F S8x8 .f32 := Host.absf main_arg8
  let main_cst_12 : FVec F S_ .f32 := constant S_ .f32 0x7F800000#32
  let main_v35 : FVec F S8x8 .f32 := broadcastInDim S8x8 ![] bcast_S_S8x8 main_cst_12
  let main_v36 : IVec S8x8 1 := cmpf .olt main_v34 main_v35
  let main_c_13 : IVec S_ 1 := constantI S_ 1 1#1
  let main_v37 : IVec S_ 1 := (fun x v => Host.reduce IntOp.andi x v reducesTo_S8x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_c_16 : IVec S_ 32 := constantI S_ 32 0#32
  let main_v44 : IVec S2x393216 32 := broadcastInDim S2x393216 ![] bcast_S_S2x393216 main_c_16
  let main_v45 : IVec S2x393216 1 := cmpi .sge main_arg1 main_v44
  let main_c_17 : IVec S_ 32 := constantI S_ 32 12288#32
  let main_v46 : IVec S2x393216 32 := broadcastInDim S2x393216 ![] bcast_S_S2x393216 main_c_17
  let main_v47 : IVec S2x393216 1 := cmpi .slt main_arg1 main_v46
  let main_v48 : IVec S2x393216 1 := andi main_v45 main_v47
  let main_c_18 : IVec S_ 1 := constantI S_ 1 1#1
  let main_v49 : IVec S_ 1 := (fun x v => Host.reduce IntOp.andi x v reducesTo_S2x393216_S_d0_1 h_S_) main_v48 main_c_18
  let main_v50 : IVec S_ 1 := andi main_v43 main_v49
  main_v50

def fn_part1 {F : FTy → Type} [FloatOps F] (main_arg1 : IVec S2x393216 32) (main_arg5 : FVec F S8 .f32) (main_arg6 : FVec F S8x128 .f32) (main_arg7 : FVec F S128 .f32) (main_arg8 : FVec F S8x8 .f32) (main_arg9 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x128 .f32 := Host.absf main_arg6
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S12288x128 .f32) (main_arg1 : IVec S2x393216 32) (main_arg2 : FVec F S128x16 .f32) (main_arg3 : FVec F S16 .f32) (main_arg4 : FVec F S16x8 .f32) (main_arg5 : FVec F S8 .f32) (main_arg6 : FVec F S8x128 .f32) (main_arg7 : FVec F S128 .f32) (main_arg8 : FVec F S8x8 .f32) (main_arg9 : FVec F S8 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg1 main_arg5 main_arg6 main_arg7 main_arg8 main_arg9 main_v13 main_v16
-- ==== Kernel.lean ====
abbrev S12288x128 : Shape := ⟨2, ![12288, 128]⟩
abbrev S2x393216 : Shape := ⟨2, ![2, 393216]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x128 : Shape := ⟨2, ![8, 128]⟩
abbrev S128 : Shape := ⟨1, ![128]⟩
abbrev S8x8 : Shape := ⟨2, ![8, 8]⟩
abbrev S12288 : Shape := ⟨1, ![12288]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S12288x12288 : Shape := ⟨2, ![12288, 12288]⟩
abbrev S405504x2 : Shape := ⟨2, ![405504, 2]⟩
abbrev S12288x16 : Shape := ⟨2, ![12288, 16]⟩
abbrev S2048x4096 : Shape := ⟨2, ![2048, 4096]⟩
abbrev S4096x16 : Shape := ⟨2, ![4096, 16]⟩
abbrev S2048x16 : Shape := ⟨2, ![2048, 16]⟩
abbrev S1x16 : Shape := ⟨2, ![1, 16]⟩
abbrev S12288x8 : Shape := ⟨2, ![12288, 8]⟩
abbrev S4096x8 : Shape := ⟨2, ![4096, 8]⟩
abbrev S2048x8 : Shape := ⟨2, ![2048, 8]⟩
abbrev S1x8 : Shape := ⟨2, ![1, 8]⟩
abbrev S8x256 : Shape := ⟨2, ![8, 256]⟩
abbrev S1 : Shape := ⟨1, ![1]⟩
abbrev S256 : Shape := ⟨1, ![256]⟩
abbrev S12288x256 : Shape := ⟨2, ![12288, 256]⟩
abbrev S4096x256 : Shape := ⟨2, ![4096, 256]⟩
abbrev S2048x256 : Shape := ⟨2, ![2048, 256]⟩
abbrev S1x256 : Shape := ⟨2, ![1, 256]⟩
abbrev S2048x2048 : Shape := ⟨2, ![2048, 2048]⟩

abbrev nBuf : Space → Nat
  | .hbm => 107
  | .vmem => 30
  | .smem => 0
  | _ => 0

abbrev bufTy : (tb : Table) → Fin (tcTables nBuf tb) → BufTy
  | .hbm, ⟨0, _⟩ => ⟨S12288x128, .f32⟩
  | .hbm, ⟨1, _⟩ => ⟨S2x393216, .i32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x128, .f32⟩
  | .hbm, ⟨7, _⟩ => ⟨S128, .f32⟩
  | .hbm, ⟨8, _⟩ => ⟨S8x8, .f32⟩
  | .hbm, ⟨9, _⟩ => ⟨S8, .f32⟩
  | .hbm, ⟨10, _⟩ => ⟨S12288, .i32⟩
  | .hbm, ⟨11, _⟩ => ⟨S1x393216, .i32⟩
  | .hbm, ⟨12, _⟩ => ⟨S393216, .i32⟩
  | .hbm, ⟨13, _⟩ => ⟨S405504, .i32⟩
  | .hbm, ⟨14, _⟩ => ⟨S1x393216, .i32⟩
  | .hbm, ⟨15, _⟩ => ⟨S393216, .i32⟩
  | .hbm, ⟨16, _⟩ => ⟨S405504, .i32⟩
  | .hbm, ⟨17, _⟩ => ⟨S_, .f32⟩
  | .hbm, ⟨18, _⟩ => ⟨S405504, .f32⟩
  | .hbm, ⟨19, _⟩ => ⟨S_, .f32⟩
  | .hbm, ⟨20, _⟩ => ⟨S12288, .f32⟩
  | .hbm, ⟨21, _⟩ => ⟨S405504x1, .i32⟩
  | .hbm, ⟨22, _⟩ => ⟨S12288, .f32⟩
  | .hbm, ⟨23, _⟩ => ⟨S_, .f32⟩
  | .hbm, ⟨24, _⟩ => ⟨S12288, .f32⟩
  | .hbm, ⟨25, _⟩ => ⟨S12288, .i1⟩
  | .hbm, ⟨26, _⟩ => ⟨S12288, .f32⟩
  | .hbm, ⟨27, _⟩ => ⟨S_, .f32⟩
  | .hbm, ⟨28, _⟩ => ⟨S_, .f32⟩
  | .hbm, ⟨29, _⟩ => ⟨S12288, .f32⟩
  | .hbm, ⟨30, _⟩ => ⟨S12288, .f32⟩
  | .hbm, ⟨31, _⟩ => ⟨S_, .i32⟩
  | .hbm, ⟨32, _⟩ => ⟨S405504, .i32⟩
  | .hbm, ⟨33, _⟩ => ⟨S405504, .i1⟩
  | .hbm, ⟨34, _⟩ => ⟨S_, .i32⟩
  | .hbm, ⟨35, _⟩ => ⟨S405504, .i32⟩
  | .hbm, ⟨36, _⟩ => ⟨S405504, .i32⟩
  | .hbm, ⟨37, _⟩ => ⟨S405504, .i32⟩
  | .hbm, ⟨38, _⟩ => ⟨S405504x1, .i32⟩
  | .hbm, ⟨39, _⟩ => ⟨S405504, .f32⟩
  | .hbm, ⟨40, _⟩ => ⟨S_, .i32⟩
  | .hbm, ⟨41, _⟩ => ⟨S405504, .i32⟩
  | .hbm, ⟨42, _⟩ => ⟨S405504, .i1⟩
  | .hbm, ⟨43, _⟩ => ⟨S_, .i32⟩
  | .hbm, ⟨44, _⟩ => ⟨S405504, .i32⟩
  | .hbm, ⟨45, _⟩ => ⟨S405504, .i32⟩
  | .hbm, ⟨46, _⟩ => ⟨S405504, .i32⟩
  | .hbm, ⟨47, _⟩ => ⟨S405504x1, .i32⟩
  | .hbm, ⟨48, _⟩ => ⟨S405504, .f32⟩
  | .hbm, ⟨49, _⟩ => ⟨S405504, .f32⟩
  | .hbm, ⟨50, _⟩ => ⟨S_, .f32⟩
  | .hbm, ⟨51, _⟩ => ⟨S12288x12288, .f32⟩
  | .hbm, ⟨52, _⟩ => ⟨S_, .i32⟩
  | .hbm, ⟨53, _⟩ => ⟨S405504, .i32⟩
  | .hbm, ⟨54, _⟩ => ⟨S405504, .i1⟩
  | .hbm, ⟨55, _⟩ => ⟨S_, .i32⟩
  | .hbm, ⟨56, _⟩ => ⟨S405504, .i32⟩
  | .hbm, ⟨57, _⟩ => ⟨S405504, .i32⟩
  | .hbm, ⟨58, _⟩ => ⟨S405504, .i32⟩
  | .hbm, ⟨59, _⟩ => ⟨S_, .i32⟩
  | .hbm, ⟨60, _⟩ => ⟨S405504, .i32⟩
  | .hbm, ⟨61, _⟩ => ⟨S405504, .i1⟩
  | .hbm, ⟨62, _⟩ => ⟨S_, .i32⟩
  | .hbm, ⟨63, _⟩ => ⟨S405504, .i32⟩
  | .hbm, ⟨64, _⟩ => ⟨S405504, .i32⟩
  | .hbm, ⟨65, _⟩ => ⟨S405504, .i32⟩
  | .hbm, ⟨66, _⟩ => ⟨S405504x1, .i32⟩
  | .hbm, ⟨67, _⟩ => ⟨S405504x1, .i32⟩
  | .hbm, ⟨68, _⟩ => ⟨S405504x2, .i32⟩
  | .hbm, ⟨69, _⟩ => ⟨S12288x12288, .f32⟩
  | .hbm, ⟨70, _⟩ => ⟨S12288x12288, .bf16⟩
  | .hbm, ⟨71, _⟩ => ⟨S12288x128, .bf16⟩
  | .hbm, ⟨72, _⟩ => ⟨S128x16, .bf16⟩
  | .hbm, ⟨73, _⟩ => ⟨S12288x16, .f32⟩
  | .hbm, ⟨74, _⟩ => ⟨S12288x16, .bf16⟩
  | .hbm, ⟨75, _⟩ => ⟨S12288x16, .bf16⟩
  | .hbm, ⟨76, _⟩ => ⟨S16x8, .bf16⟩
  | .hbm, ⟨77, _⟩ => ⟨S12288x8, .f32⟩
  | .hbm, ⟨78, _⟩ => ⟨S12288x8, .bf16⟩
  | .hbm, ⟨79, _⟩ => ⟨S12288x8, .bf16⟩
  | .hbm, ⟨80, _⟩ => ⟨S_, .f32⟩
  | .hbm, ⟨81, _⟩ => ⟨S8x256, .f32⟩
  | .hbm, ⟨82, _⟩ => ⟨S_, .i32⟩
  | .hbm, ⟨83, _⟩ => ⟨S1, .i32⟩
  | .hbm, ⟨84, _⟩ => ⟨S8x256, .f32⟩
  | .hbm, ⟨85, _⟩ => ⟨S_, .i32⟩
  | .hbm, ⟨86, _⟩ => ⟨S1, .i32⟩
  | .hbm, ⟨87, _⟩ => ⟨S8x256, .f32⟩
  | .hbm, ⟨88, _⟩ => ⟨S_, .f32⟩
  | .hbm, ⟨89, _⟩ => ⟨S256, .f32⟩
  | .hbm, ⟨90, _⟩ => ⟨S_, .i32⟩
  | .hbm, ⟨91, _⟩ => ⟨S1, .i32⟩
  | .hbm, ⟨92, _⟩ => ⟨S256, .f32⟩
  | .hbm, ⟨93, _⟩ => ⟨S_, .i32⟩
  | .hbm, ⟨94, _⟩ => ⟨S1, .i32⟩
  | .hbm, ⟨95, _⟩ => ⟨S256, .f32⟩
  | .hbm, ⟨96, _⟩ => ⟨S8x256, .bf16⟩
  | .hbm, ⟨97, _⟩ => ⟨S12288x256, .f32⟩
  | .hbm, ⟨98, _⟩ => ⟨S12288x256, .bf16⟩
  | .hbm, ⟨99, _⟩ => ⟨S12288x256, .f32⟩
  | .hbm, ⟨100, _⟩ => ⟨S12288x128, .f32⟩
  | .hbm, ⟨101, _⟩ => ⟨S12288x8, .f32⟩
  | .hbm, ⟨102, _⟩ => ⟨S_, .f32⟩
  | .hbm, ⟨103, _⟩ => ⟨S12288x8, .f32⟩
  | .hbm, ⟨104, _⟩ => ⟨S12288x8, .f32⟩
  | .hbm, ⟨105, _⟩ => ⟨S12288x8, .bf16⟩
  | .hbm, ⟨106, _⟩ => ⟨S12288x12288, .f32⟩
  | .local _ .vmem, ⟨0, _⟩ => ⟨S2048x4096, .bf16⟩
  | .local _ .vmem, ⟨1, _⟩ => ⟨S2048x4096, .bf16⟩
  | .local _ .vmem, ⟨2, _⟩ => ⟨S4096x16, .bf16⟩
  | .local _ .vmem, ⟨3, _⟩ => ⟨S4096x16, .bf16⟩
  | .local _ .vmem, ⟨4, _⟩ => ⟨S16, .f32⟩
  | .local _ .vmem, ⟨5, _⟩ => ⟨S2048x16, .bf16⟩
  | .local _ .vmem, ⟨6, _⟩ => ⟨S2048x16, .bf16⟩
  | .local _ .vmem, ⟨7, _⟩ => ⟨S2048x16, .f32⟩
  | .local _ .vmem, ⟨8, _⟩ => ⟨S2048x4096, .bf16⟩
  | .local _ .vmem, ⟨9, _⟩ => ⟨S2048x4096, .bf16⟩
  | .local _ .vmem, ⟨10, _⟩ => ⟨S4096x8, .bf16⟩
  | .local _ .vmem, ⟨11, _⟩ => ⟨S4096x8, .bf16⟩
  | .local _ .vmem, ⟨12, _⟩ => ⟨S8, .f32⟩
  | .local _ .vmem, ⟨13, _⟩ => ⟨S2048x8, .bf16⟩
  | .local _ .vmem, ⟨14, _⟩ => ⟨S2048x8, .bf16⟩
  | .local _ .vmem, ⟨15, _⟩ => ⟨S2048x8, .f32⟩
  | .local _ .vmem, ⟨16, _⟩ => ⟨S2048x4096, .bf16⟩
  | .local _ .vmem, ⟨17, _⟩ => ⟨S2048x4096, .bf16⟩
  | .local _ .vmem, ⟨18, _⟩ => ⟨S4096x256, .bf16⟩
  | .local _ .vmem, ⟨19, _⟩ => ⟨S4096x256, .bf16⟩
  | .local _ .vmem, ⟨20, _⟩ => ⟨S256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x8, .bf16⟩
  | .local _ .vmem, ⟨25, _⟩ => ⟨S2048x8, .bf16⟩
  | .local _ .vmem, ⟨26, _⟩ => ⟨S2048x8, .bf16⟩
  | .local _ .vmem, ⟨27, _⟩ => ⟨S2048x8, .bf16⟩
  | .local _ .vmem, ⟨28, _⟩ => ⟨S2048x2048, .f32⟩
  | .local _ .vmem, ⟨29, _⟩ => ⟨S2048x2048, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call1_cst : Ref sig .tc := ⟨.hbm, 102, rfl⟩
abbrev main_call1_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26

abbrev nD : Nat := 1
abbrev τ : Topo := Topo.v7x

variable {F : FTy → Type} [FloatOps F]

abbrev grid0 : Pipeline.Grid := ⟨2, ![6, 3], ![false, false]⟩

def k0_cond2 (i : grid0.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x16 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![6, 3], ![false, false]⟩

def k1_cond2 (i : grid1.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x8 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x8 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![6, 3], ![false, false]⟩

def k2_cond2 (i : grid2.Coords) : BitVec 1 :=
  let arg1 : BitVec 32 := BitVec.ofNat 32 (i 1).val
  let c2_i32 : BitVec 32 := 2#32
  let v13 : BitVec 1 := Scalar.cmpi .eq arg1 c2_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4096x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![6, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x8 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x8 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S_S12288x12288 : S_.BroadcastsInDim S12288x12288 (![] : Fin 0 → Fin S12288x12288.rank)
  concatenates_S405504x1_S405504x1_S405504x2_d1 : Shape.Concatenates [S405504x1, S405504x1] S405504x2 1
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  packedbf16_S2048x16_S2048x16_0_0 : (Rect.unit (s := S2048x16) ![0, 0] S2048x16.size inb_S2048x16_S2048x16_0_0).PackedRows (EltTy.packing .bf16)
  inb_S2048x8_S2048x8_0_0 : ∀ a, (![0, 0] : Fin 2 → Nat) a + S2048x8.size a ≤ S2048x8.size a
  h_S2048x8 : 0 < S2048x8.numel
  shapeCasts_S2048x8_S2048x8 : S2048x8.ShapeCasts S2048x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8_S8_0 : ∀ a, (![0] : Fin 1 → Nat) a + S8.size a ≤ S8.size a
  h_S8 : 0 < S8.numel
  shapeCasts_S8_S1x8 : S8.ShapeCasts S1x8
  broadcasts_S1x8_S2048x8 : S1x8.Broadcasts S2048x8
  packedbf16_S2048x8_S2048x8_0_0 : (Rect.unit (s := S2048x8) ![0, 0] S2048x8.size inb_S2048x8_S2048x8_0_0).PackedRows (EltTy.packing .bf16)
  bcast_S_S8x256 : S_.BroadcastsInDim S8x256 (![] : Fin 0 → Fin S8x256.rank)
  bcast_S_S1 : S_.BroadcastsInDim S1 (![] : Fin 0 → Fin S1.rank)
  bcast_S_S256 : S_.BroadcastsInDim S256 (![] : Fin 0 → Fin S256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2048x256 : S1x256.Broadcasts S2048x256
  slices_S12288x256_S12288x128_0_0 : S12288x256.Slices ![0, 0] S12288x128
  slices_S12288x256_S12288x8_0_128 : S12288x256.Slices ![0, 128] S12288x8
  bcast_S_S12288x8 : S_.BroadcastsInDim S12288x8 (![] : Fin 0 → Fin S12288x8.rank)
  inb_S2048x2048_S2048x2048_0_0 : ∀ a, (![0, 0] : Fin 2 → Nat) a + S2048x2048.size a ≤ S2048x2048.size a
  h_S2048x2048 : 0 < S2048x2048.numel
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  scatter_S12288x12288_S405504x2_S405504_n_01_01_1_wf : ScatterDims.WF S12288x12288 S405504x2 S405504 [] [0, 1] [0, 1] 1
  dot_S12288x128_S128x16_S12288x16_1_0_0_1_n_n_wf : DotDims.WF S12288x128 S128x16 S12288x16 [1] [0] [0] [1] [] []
  dot_S2048x4096_S4096x16_S2048x16_1_0_0_1_n_n_wf : DotDims.WF S2048x4096 S4096x16 S2048x16 [1] [0] [0] [1] [] []
  dot_S12288x16_S16x8_S12288x8_1_0_0_1_n_n_wf : DotDims.WF S12288x16 S16x8 S12288x8 [1] [0] [0] [1] [] []
  dot_S2048x4096_S4096x8_S2048x8_1_0_0_1_n_n_wf : DotDims.WF S2048x4096 S4096x8 S2048x8 [1] [0] [0] [1] [] []
  scatter_S8x256_S1_S8x128_01_n_1_0_wf : ScatterDims.WF S8x256 S1 S8x128 [0, 1] [] [1] 0
  scatter_S8x256_S1_S8x8_01_n_1_0_wf : ScatterDims.WF S8x256 S1 S8x8 [0, 1] [] [1] 0
  scatter_S256_S1_S128_0_n_0_0_wf : ScatterDims.WF S256 S1 S128 [0] [] [0] 0
  scatter_S256_S1_S8_0_n_0_0_wf : ScatterDims.WF S256 S1 S8 [0] [] [0] 0
  dot_S12288x8_S8x256_S12288x256_1_0_0_1_n_n_wf : DotDims.WF S12288x8 S8x256 S12288x256 [1] [0] [0] [1] [] []
  dot_S2048x4096_S4096x256_S2048x256_1_0_0_1_n_n_wf : DotDims.WF S2048x4096 S4096x256 S2048x256 [1] [0] [0] [1] [] []
  dot_S2048x8_S2048x8_S2048x2048_1_1_0_0_n_n_wf : DotDims.WF S2048x8 S2048x8 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S12288x12288.size a
  hwx0_0 : ∀ i : grid0.Coords, EltTy.bits .bf16 = 32 ∨ (Rect.block (s := S12288x12288) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x16.size a ≤ S12288x16.size a
  hwx0_1 : ∀ i : grid0.Coords, EltTy.bits .bf16 = 32 ∨ (Rect.block (s := S12288x16) S4096x16.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16.size a ≤ S16.size a
  hwx0_2 : ∀ i : grid0.Coords, EltTy.bits .f32 = 32 ∨ (Rect.block (s := S16) S16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S12288x16.size a
  hwx0_3 : ∀ i : grid0.Coords, EltTy.bits .bf16 = 32 ∨ (Rect.block (s := S12288x16) S2048x16.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S12288x12288.size a
  hwx1_0 : ∀ i : grid1.Coords, EltTy.bits .bf16 = 32 ∨ (Rect.block (s := S12288x12288) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x8.size a ≤ S12288x8.size a
  hwx1_1 : ∀ i : grid1.Coords, EltTy.bits .bf16 = 32 ∨ (Rect.block (s := S12288x8) S4096x8.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8.size a ≤ S8.size a
  hwx1_2 : ∀ i : grid1.Coords, EltTy.bits .f32 = 32 ∨ (Rect.block (s := S8) S8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x8.size a ≤ S12288x8.size a
  hwx1_3 : ∀ i : grid1.Coords, EltTy.bits .bf16 = 32 ∨ (Rect.block (s := S12288x8) S2048x8.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x4096.size a ≤ S12288x12288.size a
  hwx2_0 : ∀ i : grid2.Coords, EltTy.bits .bf16 = 32 ∨ (Rect.block (s := S12288x12288) S2048x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x256.size a ≤ S12288x256.size a
  hwx2_1 : ∀ i : grid2.Coords, EltTy.bits .bf16 = 32 ∨ (Rect.block (s := S12288x256) S4096x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x256.size a ≤ S12288x256.size a
  hwx2_3 : ∀ i : grid2.Coords, EltTy.bits .f32 = 32 ∨ (Rect.block (s := S12288x256) S2048x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x8.size a ≤ S12288x8.size a
  hwx3_0 : ∀ i : grid3.Coords, EltTy.bits .bf16 = 32 ∨ (Rect.block (s := S12288x8) S2048x8.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x8.size a ≤ S12288x8.size a
  hwx3_1 : ∀ i : grid3.Coords, EltTy.bits .bf16 = 32 ∨ (Rect.block (s := S12288x8) S2048x8.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x2048.size a ≤ S12288x12288.size a
  hwx3_2 : ∀ i : grid3.Coords, EltTy.bits .f32 = 32 ∨ (Rect.block (s := S12288x12288) S2048x2048.size (cc3_transform_2 i) (hinb3_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def scatter_S12288x12288_S405504x2_S405504_n_01_01_1 : ScatterDims S12288x12288 S405504x2 S405504 where
  updateWindowDims := []
  insertedWindowDims := [0, 1]
  scatterDimsToOperandDims := [0, 1]
  indexVectorDim := 1
  wf := scatter_S12288x12288_S405504x2_S405504_n_01_01_1_wf
def dot_S12288x128_S128x16_S12288x16_1_0_0_1_n_n : DotDims S12288x128 S128x16 S12288x16 where
  lhsContracting := [1]
  rhsContracting := [0]
  lhsNonContracting := [0]
  rhsNonContracting := [1]
  lhsBatch := []
  rhsBatch := []
  wf := dot_S12288x128_S128x16_S12288x16_1_0_0_1_n_n_wf
def dot_S2048x4096_S4096x16_S2048x16_1_0_0_1_n_n : DotDims S2048x4096 S4096x16 S2048x16 where
  lhsContracting := [1]
  rhsContracting := [0]
  lhsNonContracting := [0]
  rhsNonContracting := [1]
  lhsBatch := []
  rhsBatch := []
  wf := dot_S2048x4096_S4096x16_S2048x16_1_0_0_1_n_n_wf
def dot_S12288x16_S16x8_S12288x8_1_0_0_1_n_n : DotDims S12288x16 S16x8 S12288x8 where
  lhsContracting := [1]
  rhsContracting := [0]
  lhsNonContracting := [0]
  rhsNonContracting := [1]
  lhsBatch := []
  rhsBatch := []
  wf := dot_S12288x16_S16x8_S12288x8_1_0_0_1_n_n_wf
def dot_S2048x4096_S4096x8_S2048x8_1_0_0_1_n_n : DotDims S2048x4096 S4096x8 S2048x8 where
  lhsContracting := [1]
  rhsContracting := [0]
  lhsNonContracting := [0]
  rhsNonContracting := [1]
  lhsBatch := []
  rhsBatch := []
  wf := dot_S2048x4096_S4096x8_S2048x8_1_0_0_1_n_n_wf
def scatter_S8x256_S1_S8x128_01_n_1_0 : ScatterDims S8x256 S1 S8x128 where
  updateWindowDims := [0, 1]
  insertedWindowDims := []
  scatterDimsToOperandDims := [1]
  indexVectorDim := 0
  wf := scatter_S8x256_S1_S8x128_01_n_1_0_wf
def scatter_S8x256_S1_S8x8_01_n_1_0 : ScatterDims S8x256 S1 S8x8 where
  updateWindowDims := [0, 1]
  insertedWindowDims := []
  scatterDimsToOperandDims := [1]
  indexVectorDim := 0
  wf := scatter_S8x256_S1_S8x8_01_n_1_0_wf
def scatter_S256_S1_S128_0_n_0_0 : ScatterDims S256 S1 S128 where
  updateWindowDims := [0]
  insertedWindowDims := []
  scatterDimsToOperandDims := [0]
  indexVectorDim := 0
  wf := scatter_S256_S1_S128_0_n_0_0_wf
def scatter_S256_S1_S8_0_n_0_0 : ScatterDims S256 S1 S8 where
  updateWindowDims := [0]
  insertedWindowDims := []
  scatterDimsToOperandDims := [0]
  indexVectorDim := 0
  wf := scatter_S256_S1_S8_0_n_0_0_wf
def dot_S12288x8_S8x256_S12288x256_1_0_0_1_n_n : DotDims S12288x8 S8x256 S12288x256 where
  lhsContracting := [1]
  rhsContracting := [0]
  lhsNonContracting := [0]
  rhsNonContracting := [1]
  lhsBatch := []
  rhsBatch := []
  wf := dot_S12288x8_S8x256_S12288x256_1_0_0_1_n_n_wf
def dot_S2048x4096_S4096x256_S2048x256_1_0_0_1_n_n : DotDims S2048x4096 S4096x256 S2048x256 where
  lhsContracting := [1]
  rhsContracting := [0]
  lhsNonContracting := [0]
  rhsNonContracting := [1]
  lhsBatch := []
  rhsBatch := []
  wf := dot_S2048x4096_S4096x256_S2048x256_1_0_0_1_n_n_wf
def dot_S2048x8_S2048x8_S2048x2048_1_1_0_0_n_n : DotDims S2048x8 S2048x8 S2048x2048 where
  lhsContracting := [1]
  rhsContracting := [1]
  lhsNonContracting := [0]
  rhsNonContracting := [0]
  lhsBatch := []
  rhsBatch := []
  wf := dot_S2048x8_S2048x8_S2048x2048_1_1_0_0_n_n_wf

abbrev win0_0 : Pipeline.Window sig grid0 :=
  Pipeline.Window.ofSpec (Memref.whole main_v45) S2048x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S4096x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S2048x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v45) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S4096x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v54) S2048x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v45) S2048x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v67) S4096x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v64) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v72) S2048x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S2048x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S2048x2048.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S12288x128 : Shape := ⟨2, ![12288, 128]⟩
abbrev S2x393216 : Shape := ⟨2, ![2, 393216]⟩
abbrev S128x16 : Shape := ⟨2, ![128, 16]⟩
abbrev S16 : Shape := ⟨1, ![16]⟩
abbrev S16x8 : Shape := ⟨2, ![16, 8]⟩
abbrev S8 : Shape := ⟨1, ![8]⟩
abbrev S8x128 : Shape := ⟨2, ![8, 128]⟩
abbrev S128 : Shape := ⟨1, ![128]⟩
abbrev S8x8 : Shape := ⟨2, ![8, 8]⟩
abbrev S12288 : Shape := ⟨1, ![12288]⟩
abbrev S1x393216 : Shape := ⟨2, ![1, 393216]⟩
abbrev S393216 : Shape := ⟨1, ![393216]⟩
abbrev S405504 : Shape := ⟨1, ![405504]⟩
abbrev S_ : Shape := ⟨0, ![]⟩
abbrev S405504x1 : Shape := ⟨2, ![405504, 1]⟩
abbrev S12288x16 : Shape := ⟨2, ![12288, 16]⟩
abbrev S405504x16 : Shape := ⟨2, ![405504, 16]⟩
abbrev S1x16 : Shape := ⟨2, ![1, 16]⟩
abbrev S12288x8 : Shape := ⟨2, ![12288, 8]⟩
abbrev S405504x8 : Shape := ⟨2, ![405504, 8]⟩
abbrev S1x8 : Shape := ⟨2, ![1, 8]⟩
abbrev S405504x128 : Shape := ⟨2, ![405504, 128]⟩
abbrev S1x128 : Shape := ⟨2, ![1, 128]⟩
abbrev S8x12288 : Shape := ⟨2, ![8, 12288]⟩
abbrev S12288x12288 : Shape := ⟨2, ![12288, 12288]⟩

abbrev nBuf : Space → Nat
  | .hbm => 141
  | .vmem => 0
  | .smem => 0
  | _ => 0

abbrev hbmTy0_0 (i : Nat) : BufTy := match i % 128 with
  | 0 => ⟨S12288x128, .f32⟩
  | 1 => ⟨S2x393216, .i32⟩
  | 2 => ⟨S128x16, .f32⟩
  | 3 => ⟨S16, .f32⟩
  | 4 => ⟨S16x8, .f32⟩
  | 5 => ⟨S8, .f32⟩
  | 6 => ⟨S8x128, .f32⟩
  | 7 => ⟨S128, .f32⟩
  | 8 => ⟨S8x8, .f32⟩
  | 9 => ⟨S8, .f32⟩
  | 10 => ⟨S12288, .i32⟩
  | 11 => ⟨S1x393216, .i32⟩
  | 12 => ⟨S393216, .i32⟩
  | 13 => ⟨S405504, .i32⟩
  | 14 => ⟨S1x393216, .i32⟩
  | 15 => ⟨S393216, .i32⟩
  | 16 => ⟨S405504, .i32⟩
  | 17 => ⟨S_, .f32⟩
  | 18 => ⟨S405504, .f32⟩
  | 19 => ⟨S_, .f32⟩
  | 20 => ⟨S12288, .f32⟩
  | 21 => ⟨S405504x1, .i32⟩
  | 22 => ⟨S12288, .f32⟩
  | 23 => ⟨S_, .f32⟩
  | 24 => ⟨S12288, .f32⟩
  | 25 => ⟨S12288, .i1⟩
  | 26 => ⟨S12288, .f32⟩
  | 27 => ⟨S_, .f32⟩
  | 28 => ⟨S_, .f32⟩
  | 29 => ⟨S12288, .f32⟩
  | 30 => ⟨S12288, .f32⟩
  | 31 => ⟨S_, .i32⟩
  | 32 => ⟨S405504, .i32⟩
  | 33 => ⟨S405504, .i1⟩
  | 34 => ⟨S_, .i32⟩
  | 35 => ⟨S405504, .i32⟩
  | 36 => ⟨S405504, .i32⟩
  | 37 => ⟨S405504, .i32⟩
  | 38 => ⟨S405504x1, .i32⟩
  | 39 => ⟨S405504, .f32⟩
  | 40 => ⟨S_, .i32⟩
  | 41 => ⟨S405504, .i32⟩
  | 42 => ⟨S405504, .i1⟩
  | 43 => ⟨S_, .i32⟩
  | 44 => ⟨S405504, .i32⟩
  | 45 => ⟨S405504, .i32⟩
  | 46 => ⟨S405504, .i32⟩
  | 47 => ⟨S405504x1, .i32⟩
  | 48 => ⟨S405504, .f32⟩
  | 49 => ⟨S405504, .f32⟩
  | 50 => ⟨S12288x16, .f32⟩
  | 51 => ⟨S_, .i32⟩
  | 52 => ⟨S405504, .i32⟩
  | 53 => ⟨S405504, .i1⟩
  | 54 => ⟨S_, .i32⟩
  | 55 => ⟨S405504, .i32⟩
  | 56 => ⟨S405504, .i32⟩
  | 57 => ⟨S405504, .i32⟩
  | 58 => ⟨S405504x1, .i32⟩
  | 59 => ⟨S405504x16, .f32⟩
  | 60 => ⟨S405504x1, .f32⟩
  | 61 => ⟨S405504x16, .f32⟩
  | 62 => ⟨S405504x16, .f32⟩
  | 63 => ⟨S_, .f32⟩
  | 64 => ⟨S12288x16, .f32⟩
  | 65 => ⟨S405504x1, .i32⟩
  | 66 => ⟨S12288x16, .f32⟩
  | 67 => ⟨S1x16, .f32⟩
  | 68 => ⟨S12288x16, .f32⟩
  | 69 => ⟨S12288x16, .f32⟩
  | 70 => ⟨S_, .f32⟩
  | 71 => ⟨S12288x16, .f32⟩
  | 72 => ⟨S12288x16, .f32⟩
  | 73 => ⟨S12288x8, .f32⟩
  | 74 => ⟨S_, .i32⟩
  | 75 => ⟨S405504, .i32⟩
  | 76 => ⟨S405504, .i1⟩
  | 77 => ⟨S_, .i32⟩
  | 78 => ⟨S405504, .i32⟩
  | 79 => ⟨S405504, .i32⟩
  | 80 => ⟨S405504, .i32⟩
  | 81 => ⟨S405504x1, .i32⟩
  | 82 => ⟨S405504x8, .f32⟩
  | 83 => ⟨S405504x1, .f32⟩
  | 84 => ⟨S405504x8, .f32⟩
  | 85 => ⟨S405504x8, .f32⟩
  | 86 => ⟨S_, .f32⟩
  | 87 => ⟨S12288x8, .f32⟩
  | 88 => ⟨S405504x1, .i32⟩
  | 89 => ⟨S12288x8, .f32⟩
  | 90 => ⟨S1x8, .f32⟩
  | 91 => ⟨S12288x8, .f32⟩
  | 92 => ⟨S12288x8, .f32⟩
  | 93 => ⟨S_, .f32⟩
  | 94 => ⟨S12288x8, .f32⟩
  | 95 => ⟨S12288x8, .f32⟩
  | 96 => ⟨S12288x128, .f32⟩
  | 97 => ⟨S_, .i32⟩
  | 98 => ⟨S405504, .i32⟩
  | 99 => ⟨S405504, .i1⟩
  | 100 => ⟨S_, .i32⟩
  | 101 => ⟨S405504, .i32⟩
  | 102 => ⟨S405504, .i32⟩
  | 103 => ⟨S405504, .i32⟩
  | 104 => ⟨S405504x1, .i32⟩
  | 105 => ⟨S405504x128, .f32⟩
  | 106 => ⟨S405504x1, .f32⟩
  | 107 => ⟨S405504x128, .f32⟩
  | 108 => ⟨S405504x128, .f32⟩
  | 109 => ⟨S_, .f32⟩
  | 110 => ⟨S12288x128, .f32⟩
  | 111 => ⟨S405504x1, .i32⟩
  | 112 => ⟨S12288x128, .f32⟩
  | 113 => ⟨S1x128, .f32⟩
  | 114 => ⟨S12288x128, .f32⟩
  | 115 => ⟨S12288x128, .f32⟩
  | 116 => ⟨S12288x8, .f32⟩
  | 117 => ⟨S_, .i32⟩
  | 118 => ⟨S405504, .i32⟩
  | 119 => ⟨S405504, .i1⟩
  | 120 => ⟨S_, .i32⟩
  | 121 => ⟨S405504, .i32⟩
  | 122 => ⟨S405504, .i32⟩
  | 123 => ⟨S405504, .i32⟩
  | 124 => ⟨S405504x1, .i32⟩
  | 125 => ⟨S405504x8, .f32⟩
  | 126 => ⟨S405504x1, .f32⟩
  | 127 => ⟨S405504x8, .f32⟩
  | _ => ⟨S12288x128, .f32⟩

abbrev hbmTy0_1 (i : Nat) : BufTy := match i % 128 with
  | 0 => ⟨S405504x8, .f32⟩
  | 1 => ⟨S_, .f32⟩
  | 2 => ⟨S12288x8, .f32⟩
  | 3 => ⟨S405504x1, .i32⟩
  | 4 => ⟨S12288x8, .f32⟩
  | 5 => ⟨S1x8, .f32⟩
  | 6 => ⟨S12288x8, .f32⟩
  | 7 => ⟨S12288x8, .f32⟩
  | 8 => ⟨S_, .f32⟩
  | 9 => ⟨S12288x8, .f32⟩
  | 10 => ⟨S12288x8, .f32⟩
  | 11 => ⟨S8x12288, .f32⟩
  | 12 => ⟨S12288x12288, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_c_15 : Ref sig .tc := ⟨.hbm, 117, rfl⟩
abbrev main_v84 : Ref sig .tc := ⟨.hbm, 118, rfl⟩
abbrev main_v85 : Ref sig .tc := ⟨.hbm, 119, rfl⟩
abbrev main_c_16 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_17 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call3_cst : Ref sig .tc := ⟨.hbm, 136, rfl⟩
abbrev main_call3_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩

abbrev nD : Nat := 1
abbrev τ : Topo := Topo.v7x

variable {F : FTy → Type} [FloatOps F]

class Facts₀ : Prop where
  slices_S2x393216_S1x393216_0_0 : S2x393216.Slices ![0, 0] S1x393216
  shapeCasts_S1x393216_S393216 : S1x393216.ShapeCasts S393216
  concatenates_S393216_S12288_S405504_d0 : Shape.Concatenates [S393216, S12288] S405504 0
  slices_S2x393216_S1x393216_1_0 : S2x393216.Slices ![1, 0] S1x393216
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x16_0_1 : S405504x1.BroadcastsInDim S405504x16 (![0, 1] : Fin 2 → Fin S405504x16.rank)
  bcast_S_S12288x16 : S_.BroadcastsInDim S12288x16 (![] : Fin 0 → Fin S12288x16.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  bcast_S405504x1_S405504x8_0_1 : S405504x1.BroadcastsInDim S405504x8 (![0, 1] : Fin 2 → Fin S405504x8.rank)
  bcast_S_S12288x8 : S_.BroadcastsInDim S12288x8 (![] : Fin 0 → Fin S12288x8.rank)
  bcast_S8_S1x8_1 : S8.BroadcastsInDim S1x8 (![1] : Fin 1 → Fin S1x8.rank)
  bcast_S1x8_S12288x8_0_1 : S1x8.BroadcastsInDim S12288x8 (![0, 1] : Fin 2 → Fin S12288x8.rank)
  bcast_S405504x1_S405504x128_0_1 : S405504x1.BroadcastsInDim S405504x128 (![0, 1] : Fin 2 → Fin S405504x128.rank)
  bcast_S_S12288x128 : S_.BroadcastsInDim S12288x128 (![] : Fin 0 → Fin S12288x128.rank)
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  transposes_S12288x8_S8x12288_1_0 : S12288x8.Transposes [1, 0] S8x12288
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  dot_S12288x128_S128x16_S12288x16_1_0_0_1_n_n_wf : DotDims.WF S12288x128 S128x16 S12288x16 [1] [0] [0] [1] [] []
  gather_S12288x16_S405504x1_S405504x16_1_0_n_n_0_1_116_wf : GatherDims.WF S12288x16 S405504x1 S405504x16 [1] [0] [] [0] [] 1 ![1, 16]
  scatter_S12288x16_S405504x1_S405504x16_1_0_0_1_wf : ScatterDims.WF S12288x16 S405504x1 S405504x16 [1] [0] [0] 1
  dot_S12288x16_S16x8_S12288x8_1_0_0_1_n_n_wf : DotDims.WF S12288x16 S16x8 S12288x8 [1] [0] [0] [1] [] []
  gather_S12288x8_S405504x1_S405504x8_1_0_n_n_0_1_18_wf : GatherDims.WF S12288x8 S405504x1 S405504x8 [1] [0] [] [0] [] 1 ![1, 8]
  scatter_S12288x8_S405504x1_S405504x8_1_0_0_1_wf : ScatterDims.WF S12288x8 S405504x1 S405504x8 [1] [0] [0] 1
  dot_S12288x8_S8x128_S12288x128_1_0_0_1_n_n_wf : DotDims.WF S12288x8 S8x128 S12288x128 [1] [0] [0] [1] [] []
  gather_S12288x128_S405504x1_S405504x128_1_0_n_n_0_1_1128_wf : GatherDims.WF S12288x128 S405504x1 S405504x128 [1] [0] [] [0] [] 1 ![1, 128]
  scatter_S12288x128_S405504x1_S405504x128_1_0_0_1_wf : ScatterDims.WF S12288x128 S405504x1 S405504x128 [1] [0] [0] 1
  dot_S12288x8_S8x8_S12288x8_1_0_0_1_n_n_wf : DotDims.WF S12288x8 S8x8 S12288x8 [1] [0] [0] [1] [] []
  dot_S12288x8_S8x12288_S12288x12288_1_0_0_1_n_n_wf : DotDims.WF S12288x8 S8x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def dot_S12288x128_S128x16_S12288x16_1_0_0_1_n_n : DotDims S12288x128 S128x16 S12288x16 where
  lhsContracting := [1]
  rhsContracting := [0]
  lhsNonContracting := [0]
  rhsNonContracting := [1]
  lhsBatch := []
  rhsBatch := []
  wf := dot_S12288x128_S128x16_S12288x16_1_0_0_1_n_n_wf
def gather_S12288x16_S405504x1_S405504x16_1_0_n_n_0_1_116 : GatherDims S12288x16 S405504x1 S405504x16 where
  offsetDims := [1]
  collapsedSliceDims := [0]
  operandBatchingDims := []
  startIndicesBatchingDims := []
  startIndexMap := [0]
  indexVectorDim := 1
  sliceSizes := ![1, 16]
  wf := gather_S12288x16_S405504x1_S405504x16_1_0_n_n_0_1_116_wf
def scatter_S12288x16_S405504x1_S405504x16_1_0_0_1 : ScatterDims S12288x16 S405504x1 S405504x16 where
  updateWindowDims := [1]
  insertedWindowDims := [0]
  scatterDimsToOperandDims := [0]
  indexVectorDim := 1
  wf := scatter_S12288x16_S405504x1_S405504x16_1_0_0_1_wf
def dot_S12288x16_S16x8_S12288x8_1_0_0_1_n_n : DotDims S12288x16 S16x8 S12288x8 where
  lhsContracting := [1]
  rhsContracting := [0]
  lhsNonContracting := [0]
  rhsNonContracting := [1]
  lhsBatch := []
  rhsBatch := []
  wf := dot_S12288x16_S16x8_S12288x8_1_0_0_1_n_n_wf
def gather_S12288x8_S405504x1_S405504x8_1_0_n_n_0_1_18 : GatherDims S12288x8 S405504x1 S405504x8 where
  offsetDims := [1]
  collapsedSliceDims := [0]
  operandBatchingDims := []
  startIndicesBatchingDims := []
  startIndexMap := [0]
  indexVectorDim := 1
  sliceSizes := ![1, 8]
  wf := gather_S12288x8_S405504x1_S405504x8_1_0_n_n_0_1_18_wf
def scatter_S12288x8_S405504x1_S405504x8_1_0_0_1 : ScatterDims S12288x8 S405504x1 S405504x8 where
  updateWindowDims := [1]
  insertedWindowDims := [0]
  scatterDimsToOperandDims := [0]
  indexVectorDim := 1
  wf := scatter_S12288x8_S405504x1_S405504x8_1_0_0_1_wf
def dot_S12288x8_S8x128_S12288x128_1_0_0_1_n_n : DotDims S12288x8 S8x128 S12288x128 where
  lhsContracting := [1]
  rhsContracting := [0]
  lhsNonContracting := [0]
  rhsNonContracting := [1]
  lhsBatch := []
  rhsBatch := []
  wf := dot_S12288x8_S8x128_S12288x128_1_0_0_1_n_n_wf
def gather_S12288x128_S405504x1_S405504x128_1_0_n_n_0_1_1128 : GatherDims S12288x128 S405504x1 S405504x128 where
  offsetDims := [1]
  collapsedSliceDims := [0]
  operandBatchingDims := []
  startIndicesBatchingDims := []
  startIndexMap := [0]
  indexVectorDim := 1
  sliceSizes := ![1, 128]
  wf := gather_S12288x128_S405504x1_S405504x128_1_0_n_n_0_1_1128_wf
def scatter_S12288x128_S405504x1_S405504x128_1_0_0_1 : ScatterDims S12288x128 S405504x1 S405504x128 where
  updateWindowDims := [1]
  insertedWindowDims := [0]
  scatterDimsToOperandDims := [0]
  indexVectorDim := 1
  wf := scatter_S12288x128_S405504x1_S405504x128_1_0_0_1_wf
def dot_S12288x8_S8x8_S12288x8_1_0_0_1_n_n : DotDims S12288x8 S8x8 S12288x8 where
  lhsContracting := [1]
  rhsContracting := [0]
  lhsNonContracting := [0]
  rhsNonContracting := [1]
  lhsBatch := []
  rhsBatch := []
  wf := dot_S12288x8_S8x8_S12288x8_1_0_0_1_n_n_wf
def dot_S12288x8_S8x12288_S12288x12288_1_0_0_1_n_n : DotDims S12288x8 S8x12288 S12288x12288 where
  lhsContracting := [1]
  rhsContracting := [0]
  lhsNonContracting := [0]
  rhsNonContracting := [1]
  lhsBatch := []
  rhsBatch := []
  wf := dot_S12288x8_S8x12288_S12288x12288_1_0_0_1_n_n_wf

class Facts : Prop extends Facts₀ where

variable [Facts]
-- ==== Proof.Gcn0.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gcn0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)
/-- The body's second conditional: the contraction block is the last. -/
abbrev cond1 (i : grid0.Coords) : Prop := k0_cond2 i = 1#1
theorem hcond1 : ∀ t : Fin cfg0.N, cond1 (grid0.coords t) ↔ t.val % 3 = 2 :=
  (by decide +kernel : ∀ t : Fin grid0.N, cond1 (grid0.coords t) ↔ t.val % 3 = 2)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output's block is stored at the last contraction block only: elsewhere the window is idle and not written back. -/
theorem idle3 : ∀ t : Fin cfg0.N, ¬ t.val % 3 = 2 → cfg0.idle 3 (grid0.coords t) = true := by decide +kernel
theorem noFlush3 : ∀ t : Fin cfg0.N, ¬ t.val % 3 = 2 → (cfg0.win 3).flush t = false := by decide +kernel
theorem live3 : ∀ t : Fin cfg0.N, t.val % 3 = 2 → cfg0.idle 3 (grid0.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x16 := Rect.unit (s := S2048x16) ![0, 0] S2048x16.size inb_S2048x16_S2048x16_0_0

/-- The whole-buffer rectangle holds every index. -/
theorem mem_rS (y : S2048x16.Idx) : y ∈ rS.set := by
  obtain ⟨pc, hpc, hy⟩ := View.cover_of_tiled ([⟨rS, fun _ => ()⟩] : List (View.Piece (fun _ => Unit) S2048x16 .f32)) S2048x16.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x16 .f32) (f : v.ty.Contents (Elt F)) (w : Vec F S2048x16 .f32)
    (L : List (View.Piece (Elt F) S2048x16 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x16 .bf16) (f : v.ty.Contents (Elt F)) (w : Vec F S2048x16 .bf16)
    (L : List (View.Piece (Elt F) S2048x16 .bf16)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x16 := Rect.unit (s := S4096x16) ![0, 0] S4096x16.size inb_S4096x16_S4096x16_0_0
abbrev rB : Rect S16 := Rect.unit (s := S16) ![0] S16.size inb_S16_S16_0

/-- A load through a whole-buffer rectangle reads the contents. -/
theorem ldS (X : Vec F S2048x16 .f32) : View.ld X rS = X := View.ld_unit_zero (S := S2048x16) off2 _ X
theorem ldA (X : Vec F S2048x4096 .bf16) : View.ld X rA = X := View.ld_unit_zero (S := S2048x4096) off2 _ X
theorem ldH (X : Vec F S4096x16 .bf16) : View.ld X rH = X := View.ld_unit_zero (S := S4096x16) off2 _ X
theorem ldB (X : Vec F S16 .f32) : View.ld X rB = X := View.ld_unit_zero (S := S16) off1 _ X
/-- A load of the whole buffer after one whole-buffer store reads the stored value. -/
theorem covS {κ : Kind} {sp : Space} (v : View sig κ sp S2048x16 .f32) (w : Vec F S2048x16 .f32) :
    v.readCov [⟨rS, w⟩] rS.toLoadRect = w := View.readCov_unit_zero (S := S2048x16) v off2 _ w

theorem pay2_congr {a a' : Vec F S2048x16 .f32} {b b' : Vec F S2048x4096 .bf16} {d d' : Vec F S4096x16 .bf16}
    (ha : a = a') (hb : b = b') (hd : d = d') : k0_pay2 a b d = k0_pay2 a' b' d' := by subst ha hb hd; rfl
theorem pay3_congr {a a' : Vec F S2048x16 .f32} {b b' : Vec F S16 .f32}
    (ha : a = a') (hb : b = b') : k0_pay3 a b = k0_pay3 a' b' := by subst ha hb; rfl

section Runs

variable (c : Dev nD) (i : grid0.Coords)
  (arg2 : Memref sig .tc .vmem S2048x4096 .bf16) (harg2 : arg2.IsWhole) (arg3 : Memref sig .tc .vmem S4096x16 .bf16) (harg3 : arg3.IsWhole)
  (arg4 : Memref sig .tc .vmem S16 .f32) (harg4 : arg4.IsWhole) (arg5 : Memref sig .tc .vmem S2048x16 .bf16) (harg5 : arg5.IsWhole)
  (arg6 : Memref sig .tc .vmem S2048x16 .f32) (harg6 : arg6.IsWhole)
  (x0 : Vec F S2048x4096 .bf16) (x1 : Vec F S4096x16 .bf16) (xb : Vec F S16 .f32) (xo : Vec F S2048x16 .bf16)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k0_pay2 k0_pay1 x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k0_pay3 (k0_pay2 xs x0 x1) xb) ∗ owns (c : Thread nD τ) arg6 fullShare (k0_pay2 xs x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The adjacency block, the projected-feature block and the bias at point `t`, at their literal types. -/
abbrev ablk (c : Dev nD) (t : Fin cfg0.N) : Vec F S2048x4096 .bf16 := iblk0 V c 0 t
abbrev hblk (c : Dev nD) (t : Fin cfg0.N) : Vec F S4096x16 .bf16 := iblk0 V c 1 t
abbrev bblk (c : Dev nD) (t : Fin cfg0.N) : Vec F S16 .f32 := iblk0 V c 2 t

/-- One point's step on the scratch: over zero at the first contraction block, over what it held otherwise. -/
def step0 (c : Dev nD) (t : Fin cfg0.N) (prev : Vec F S2048x16 .f32) : Vec F S2048x16 .f32 :=
  k0_pay2 (if t.val % 3 = 0 then k0_pay1 else prev) (ablk V c t) (hblk V c t)

/-- THE ACCUMULATION: what the scratch holds before point `n` (after point `n - 1`); before the first point nothing is
    known of it, and the value given there is never read. -/
def acc0 (c : Dev nD) : ℕ → Vec F S2048x16 .f32
  | 0 => k0_pay1
  | n + 1 => if h : n < cfg0.N then step0 V c ⟨n, h⟩ (acc0 c n) else acc0 c n

theorem acc0_succ (c : Dev nD) (t : Fin cfg0.N) : acc0 V c (t.val + 1) = step0 V c t (acc0 V c t.val) := by
  rw [acc0]; exact dif_pos t.isLt

/-- What the last contraction block stores into the output's buffer (the value named at every point; it is the
    buffer's only where the window is live). -/
def out0 (c : Dev nD) (t : Fin cfg0.N) : Vec F S2048x16 .bf16 := k0_pay3 (acc0 V c (t.val + 1)) (bblk V c t)

/-- The scratch as a memref, and every other scoped buffer that is no staging buffer of this call. -/
abbrev scM : Memref sig .tc .vmem S2048x16 .f32 := Memref.whole cc0_scratch0
abbrev restBut (c : Dev nD) : sProp 𝕄 :=
  Pipeline.scopedRestBut (Ix := Unit) (Name := ℕ) (U := UR sig nD τ) (Lvl := ℕ) (Val := Elt F) spec0 c [cc0_scratch0]

/-- The region invariant before position `n`: the scratch at the accumulation (at anything before the first point),
    the other scoped buffers at anything, the generator register at some state. -/
def Phi0 (c : Dev nD) (n : ℕ) : sProp 𝕄 :=
  iprop((∃ d, ⌜n ≠ 0 → d = acc0 V c n⌝ ∗ owns (c : Thread nD τ) scM fullShare d) ∗ restBut c ∗ ∃ r, prngReg c r)

/-- The class invariant with the scratch split off. -/
theorem PhiA0_eq (c : Dev nD) :
    (Pipeline.ΦA spec0 c : sProp 𝕄) = iprop(((∃ d, owns (c : Thread nD τ) scM fullShare d) ∗ restBut c) ∗ ∃ r, prngReg c r) := by
  unfold Pipeline.ΦA
  rw [Pipeline.scopedRest_split_of_list spec0 c [cc0_scratch0] (by decide) (by decide)]
  simp only [bigSepL_singleton, scM, owns_whole]; try rfl

/-- The proof data on core `c`: the arrays as the region finds them; after the body each input's buffer at its block,
    the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks; the point's contraction block says which case it is
    in; the invariant hands the body the scratch at the accumulation so far and takes it back one step on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    show (dat0 V c).leavesExact 0 t = owns (c : Thread nD τ) (st0_0 t) fullShare ((dat0 V c).after 0 t) from by
      unfold Dat.leavesExact; rw [live0 t],
    show (dat0 V c).leavesExact 1 t = owns (c : Thread nD τ) (st0_1 t) fullShare ((dat0 V c).after 1 t) from by
      unfold Dat.leavesExact; rw [live1 t],
    show (dat0 V c).leavesExact 2 t = owns (c : Thread nD τ) (st0_2 t) fullShare ((dat0 V c).after 2 t) from by
      unfold Dat.leavesExact; rw [live2 t],
    after0_0, after0_1, after0_2]
  unfold Phi0
  by_cases h0 : t.val % 3 = 0
  · have h1 : ¬ t.val % 3 = 2 := by omega
    have hacc : acc0 V c (t.val + 1) = k0_pay2 k0_pay1 (ablk V c t) (hblk V c t) := by
      rw [acc0_succ]; unfold step0; rw [if_pos h0]
    rw [Dat.leavesExact_idle (dat0 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid0.coords t) _ _ _ _ _ _ _ _ (Memref.whole cc0_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc0 V c (t.val + 1) = k0_pay2 (acc0 V c t.val) (ablk V c t) (hblk V c t) := by
      rw [acc0_succ]; unfold step0; rw [if_neg h0]
    by_cases h1 : t.val % 3 = 2
    · rw [show (dat0 V c).leavesExact 3 t = owns (c : Thread nD τ) (st0_3 t) fullShare ((dat0 V c).after 3 t) from by
        unfold Dat.leavesExact; rw [live3 t h1], after0_3]
      unfold out0
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid0.coords t) _ _ _ _ _ _ _ _ (Memref.whole cc0_scratch0) (Memref.isWhole_whole _)
        (ablk V c t) (hblk V c t) (bblk V c t) (fun h => h0 ((hcond0 t).mp h)) ((hcond1 t).mpr h1) (acc0 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat0 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid0.coords t) _ _ _ _ _ _ _ _ (Memref.whole cc0_scratch0) (Memref.isWhole_whole _)
        (ablk V c t) (hblk V c t) (bblk V c t) _ (fun h => h0 ((hcond0 t).mp h)) (fun h => h1 ((hcond1 t).mp h)) (acc0 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, PhiA0_eq]; unfold Phi0
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = Phi0 V c cfg0.N from rfl, PhiA0_eq]; unfold Phi0
  iintro ⟨⟨%d, -, HS⟩, HR, Hg⟩
  isplitr [Hg]
  · isplitl [HS]; · iexists d; iexact HS
    iexact HR
  iexact Hg

end Data

end Cert.KernelIdeal.Gcn0

end
-- ==== Proof.Gcn1.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gcn1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 3 = 0 :=
  (by decide +kernel : ∀ t : Fin grid1.N, cond0 (grid1.coords t) ↔ t.val % 3 = 0)
/-- The body's second conditional: the contraction block is the last. -/
abbrev cond1 (i : grid1.Coords) : Prop := k1_cond2 i = 1#1
theorem hcond1 : ∀ t : Fin cfg1.N, cond1 (grid1.coords t) ↔ t.val % 3 = 2 :=
  (by decide +kernel : ∀ t : Fin grid1.N, cond1 (grid1.coords t) ↔ t.val % 3 = 2)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- The output's block is stored at the last contraction block only: elsewhere the window is idle and not written back. -/
theorem idle3 : ∀ t : Fin cfg1.N, ¬ t.val % 3 = 2 → cfg1.idle 3 (grid1.coords t) = true := by decide +kernel
theorem noFlush3 : ∀ t : Fin cfg1.N, ¬ t.val % 3 = 2 → (cfg1.win 3).flush t = false := by decide +kernel
theorem live3 : ∀ t : Fin cfg1.N, t.val % 3 = 2 → cfg1.idle 3 (grid1.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x8 := Rect.unit (s := S2048x8) ![0, 0] S2048x8.size inb_S2048x8_S2048x8_0_0

/-- The whole-buffer rectangle holds every index. -/
theorem mem_rS (y : S2048x8.Idx) : y ∈ rS.set := by
  obtain ⟨pc, hpc, hy⟩ := View.cover_of_tiled ([⟨rS, fun _ => ()⟩] : List (View.Piece (fun _ => Unit) S2048x8 .f32)) S2048x8.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x8 .f32) (f : v.ty.Contents (Elt F)) (w : Vec F S2048x8 .f32)
    (L : List (View.Piece (Elt F) S2048x8 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x8 .bf16) (f : v.ty.Contents (Elt F)) (w : Vec F S2048x8 .bf16)
    (L : List (View.Piece (Elt F) S2048x8 .bf16)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x8 := Rect.unit (s := S4096x8) ![0, 0] S4096x8.size inb_S4096x8_S4096x8_0_0
abbrev rB : Rect S8 := Rect.unit (s := S8) ![0] S8.size inb_S8_S8_0

/-- A load through a whole-buffer rectangle reads the contents. -/
theorem ldS (X : Vec F S2048x8 .f32) : View.ld X rS = X := View.ld_unit_zero (S := S2048x8) off2 _ X
theorem ldA (X : Vec F S2048x4096 .bf16) : View.ld X rA = X := View.ld_unit_zero (S := S2048x4096) off2 _ X
theorem ldH (X : Vec F S4096x8 .bf16) : View.ld X rH = X := View.ld_unit_zero (S := S4096x8) off2 _ X
theorem ldB (X : Vec F S8 .f32) : View.ld X rB = X := View.ld_unit_zero (S := S8) off1 _ X
/-- A load of the whole buffer after one whole-buffer store reads the stored value. -/
theorem covS {κ : Kind} {sp : Space} (v : View sig κ sp S2048x8 .f32) (w : Vec F S2048x8 .f32) :
    v.readCov [⟨rS, w⟩] rS.toLoadRect = w := View.readCov_unit_zero (S := S2048x8) v off2 _ w

theorem pay2_congr {a a' : Vec F S2048x8 .f32} {b b' : Vec F S2048x4096 .bf16} {d d' : Vec F S4096x8 .bf16}
    (ha : a = a') (hb : b = b') (hd : d = d') : k1_pay2 a b d = k1_pay2 a' b' d' := by subst ha hb hd; rfl
theorem pay3_congr {a a' : Vec F S2048x8 .f32} {b b' : Vec F S8 .f32}
    (ha : a = a') (hb : b = b') : k1_pay3 a b = k1_pay3 a' b' := by subst ha hb; rfl

section Runs

variable (c : Dev nD) (i : grid1.Coords)
  (arg2 : Memref sig .tc .vmem S2048x4096 .bf16) (harg2 : arg2.IsWhole) (arg3 : Memref sig .tc .vmem S4096x8 .bf16) (harg3 : arg3.IsWhole)
  (arg4 : Memref sig .tc .vmem S8 .f32) (harg4 : arg4.IsWhole) (arg5 : Memref sig .tc .vmem S2048x8 .bf16) (harg5 : arg5.IsWhole)
  (arg6 : Memref sig .tc .vmem S2048x8 .f32) (harg6 : arg6.IsWhole)
  (x0 : Vec F S2048x4096 .bf16) (x1 : Vec F S4096x8 .bf16) (xb : Vec F S8 .f32) (xo : Vec F S2048x8 .bf16)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k1_pay2 k1_pay1 x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x8 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x8 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k1_pay3 (k1_pay2 xs x0 x1) xb) ∗ owns (c : Thread nD τ) arg6 fullShare (k1_pay2 xs x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The adjacency block, the projected-feature block and the bias at point `t`, at their literal types. -/
abbrev ablk (c : Dev nD) (t : Fin cfg1.N) : Vec F S2048x4096 .bf16 := iblk1 V c 0 t
abbrev hblk (c : Dev nD) (t : Fin cfg1.N) : Vec F S4096x8 .bf16 := iblk1 V c 1 t
abbrev bblk (c : Dev nD) (t : Fin cfg1.N) : Vec F S8 .f32 := iblk1 V c 2 t

/-- One point's step on the scratch: over zero at the first contraction block, over what it held otherwise. -/
def step1 (c : Dev nD) (t : Fin cfg1.N) (prev : Vec F S2048x8 .f32) : Vec F S2048x8 .f32 :=
  k1_pay2 (if t.val % 3 = 0 then k1_pay1 else prev) (ablk V c t) (hblk V c t)

/-- THE ACCUMULATION: what the scratch holds before point `n` (after point `n - 1`); before the first point nothing is
    known of it, and the value given there is never read. -/
def acc1 (c : Dev nD) : ℕ → Vec F S2048x8 .f32
  | 0 => k1_pay1
  | n + 1 => if h : n < cfg1.N then step1 V c ⟨n, h⟩ (acc1 c n) else acc1 c n

theorem acc1_succ (c : Dev nD) (t : Fin cfg1.N) : acc1 V c (t.val + 1) = step1 V c t (acc1 V c t.val) := by
  rw [acc1]; exact dif_pos t.isLt

/-- What the last contraction block stores into the output's buffer (the value named at every point; it is the
    buffer's only where the window is live). -/
def out1 (c : Dev nD) (t : Fin cfg1.N) : Vec F S2048x8 .bf16 := k1_pay3 (acc1 V c (t.val + 1)) (bblk V c t)

/-- The scratch as a memref, and every other scoped buffer that is no staging buffer of this call. -/
abbrev scM : Memref sig .tc .vmem S2048x8 .f32 := Memref.whole cc1_scratch0
abbrev restBut (c : Dev nD) : sProp 𝕄 :=
  Pipeline.scopedRestBut (Ix := Unit) (Name := ℕ) (U := UR sig nD τ) (Lvl := ℕ) (Val := Elt F) spec1 c [cc1_scratch0]

/-- The region invariant before position `n`: the scratch at the accumulation (at anything before the first point),
    the other scoped buffers at anything, the generator register at some state. -/
def Phi1 (c : Dev nD) (n : ℕ) : sProp 𝕄 :=
  iprop((∃ d, ⌜n ≠ 0 → d = acc1 V c n⌝ ∗ owns (c : Thread nD τ) scM fullShare d) ∗ restBut c ∗ ∃ r, prngReg c r)

/-- The class invariant with the scratch split off. -/
theorem PhiA1_eq (c : Dev nD) :
    (Pipeline.ΦA spec1 c : sProp 𝕄) = iprop(((∃ d, owns (c : Thread nD τ) scM fullShare d) ∗ restBut c) ∗ ∃ r, prngReg c r) := by
  unfold Pipeline.ΦA
  rw [Pipeline.scopedRest_split_of_list spec1 c [cc1_scratch0] (by decide) (by decide)]
  simp only [bigSepL_singleton, scM, owns_whole]; try rfl

/-- The proof data on core `c`: the arrays as the region finds them; after the body each input's buffer at its block,
    the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks; the point's contraction block says which case it is
    in; the invariant hands the body the scratch at the accumulation so far and takes it back one step on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from by
      unfold Dat.leavesExact; rw [live0 t],
    show (dat1 V c).leavesExact 1 t = owns (c : Thread nD τ) (st1_1 t) fullShare ((dat1 V c).after 1 t) from by
      unfold Dat.leavesExact; rw [live1 t],
    show (dat1 V c).leavesExact 2 t = owns (c : Thread nD τ) (st1_2 t) fullShare ((dat1 V c).after 2 t) from by
      unfold Dat.leavesExact; rw [live2 t],
    after1_0, after1_1, after1_2]
  unfold Phi1
  by_cases h0 : t.val % 3 = 0
  · have h1 : ¬ t.val % 3 = 2 := by omega
    have hacc : acc1 V c (t.val + 1) = k1_pay2 k1_pay1 (ablk V c t) (hblk V c t) := by
      rw [acc1_succ]; unfold step1; rw [if_pos h0]
    rw [Dat.leavesExact_idle (dat1 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid1.coords t) _ _ _ _ _ _ _ _ (Memref.whole cc1_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc1 V c (t.val + 1) = k1_pay2 (acc1 V c t.val) (ablk V c t) (hblk V c t) := by
      rw [acc1_succ]; unfold step1; rw [if_neg h0]
    by_cases h1 : t.val % 3 = 2
    · rw [show (dat1 V c).leavesExact 3 t = owns (c : Thread nD τ) (st1_3 t) fullShare ((dat1 V c).after 3 t) from by
        unfold Dat.leavesExact; rw [live3 t h1], after1_3]
      unfold out1
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid1.coords t) _ _ _ _ _ _ _ _ (Memref.whole cc1_scratch0) (Memref.isWhole_whole _)
        (ablk V c t) (hblk V c t) (bblk V c t) (fun h => h0 ((hcond0 t).mp h)) ((hcond1 t).mpr h1) (acc1 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid1.coords t) _ _ _ _ _ _ _ _ (Memref.whole cc1_scratch0) (Memref.isWhole_whole _)
        (ablk V c t) (hblk V c t) (bblk V c t) _ (fun h => h0 ((hcond0 t).mp h)) (fun h => h1 ((hcond1 t).mp h)) (acc1 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, PhiA1_eq]; unfold Phi1
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = Phi1 V c cfg1.N from rfl, PhiA1_eq]; unfold Phi1
  iintro ⟨⟨%d, -, HS⟩, HR, Hg⟩
  isplitr [Hg]
  · isplitl [HS]; · iexists d; iexact HS
    iexact HR
  iexact Hg

end Data

end Cert.KernelIdeal.Gcn1

end
-- ==== Proof.Gcn2.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Gcn2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 3 = 0 :=
  (by decide +kernel : ∀ t : Fin grid2.N, cond0 (grid2.coords t) ↔ t.val % 3 = 0)
/-- The body's second conditional: the contraction block is the last. -/
abbrev cond1 (i : grid2.Coords) : Prop := k2_cond2 i = 1#1
theorem hcond1 : ∀ t : Fin cfg2.N, cond1 (grid2.coords t) ↔ t.val % 3 = 2 :=
  (by decide +kernel : ∀ t : Fin grid2.N, cond1 (grid2.coords t) ↔ t.val % 3 = 2)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- The output's block is stored at the last contraction block only: elsewhere the window is idle and not written back. -/
theorem idle3 : ∀ t : Fin cfg2.N, ¬ t.val % 3 = 2 → cfg2.idle 3 (grid2.coords t) = true := by decide +kernel
theorem noFlush3 : ∀ t : Fin cfg2.N, ¬ t.val % 3 = 2 → (cfg2.win 3).flush t = false := by decide +kernel
theorem live3 : ∀ t : Fin cfg2.N, t.val % 3 = 2 → cfg2.idle 3 (grid2.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x256 := Rect.unit (s := S2048x256) ![0, 0] S2048x256.size inb_S2048x256_S2048x256_0_0

/-- The whole-buffer rectangle holds every index. -/
theorem mem_rS (y : S2048x256.Idx) : y ∈ rS.set := by
  obtain ⟨pc, hpc, hy⟩ := View.cover_of_tiled ([⟨rS, fun _ => ()⟩] : List (View.Piece (fun _ => Unit) S2048x256 .f32)) S2048x256.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x256 .f32) (f : v.ty.Contents (Elt F)) (w : Vec F S2048x256 .f32)
    (L : List (View.Piece (Elt F) S2048x256 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x256 .f32) (f : v.ty.Contents (Elt F)) (w : Vec F S2048x256 .f32)
    (L : List (View.Piece (Elt F) S2048x256 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x256 := Rect.unit (s := S4096x256) ![0, 0] S4096x256.size inb_S4096x256_S4096x256_0_0
abbrev rB : Rect S256 := Rect.unit (s := S256) ![0] S256.size inb_S256_S256_0

/-- A load through a whole-buffer rectangle reads the contents. -/
theorem ldS (X : Vec F S2048x256 .f32) : View.ld X rS = X := View.ld_unit_zero (S := S2048x256) off2 _ X
theorem ldA (X : Vec F S2048x4096 .bf16) : View.ld X rA = X := View.ld_unit_zero (S := S2048x4096) off2 _ X
theorem ldH (X : Vec F S4096x256 .bf16) : View.ld X rH = X := View.ld_unit_zero (S := S4096x256) off2 _ X
theorem ldB (X : Vec F S256 .f32) : View.ld X rB = X := View.ld_unit_zero (S := S256) off1 _ X
/-- A load of the whole buffer after one whole-buffer store reads the stored value. -/
theorem covS {κ : Kind} {sp : Space} (v : View sig κ sp S2048x256 .f32) (w : Vec F S2048x256 .f32) :
    v.readCov [⟨rS, w⟩] rS.toLoadRect = w := View.readCov_unit_zero (S := S2048x256) v off2 _ w

theorem pay2_congr {a a' : Vec F S2048x256 .f32} {b b' : Vec F S2048x4096 .bf16} {d d' : Vec F S4096x256 .bf16}
    (ha : a = a') (hb : b = b') (hd : d = d') : k2_pay2 a b d = k2_pay2 a' b' d' := by subst ha hb hd; rfl
theorem pay3_congr {a a' : Vec F S2048x256 .f32} {b b' : Vec F S256 .f32}
    (ha : a = a') (hb : b = b') : k2_pay3 a b = k2_pay3 a' b' := by subst ha hb; rfl

section Runs

variable (c : Dev nD) (i : grid2.Coords)
  (arg2 : Memref sig .tc .vmem S2048x4096 .bf16) (harg2 : arg2.IsWhole) (arg3 : Memref sig .tc .vmem S4096x256 .bf16) (harg3 : arg3.IsWhole)
  (arg4 : Memref sig .tc .vmem S256 .f32) (harg4 : arg4.IsWhole) (arg5 : Memref sig .tc .vmem S2048x256 .f32) (harg5 : arg5.IsWhole)
  (arg6 : Memref sig .tc .vmem S2048x256 .f32) (harg6 : arg6.IsWhole)
  (x0 : Vec F S2048x4096 .bf16) (x1 : Vec F S4096x256 .bf16) (xb : Vec F S256 .f32) (xo : Vec F S2048x256 .f32)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k2_pay2 k2_pay1 x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k2_pay2 xs x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k2_pay3 (k2_pay2 xs x0 x1) xb) ∗ owns (c : Thread nD τ) arg6 fullShare (k2_pay2 xs x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The adjacency block, the projected-feature block and the bias at point `t`, at their literal types. -/
abbrev ablk (c : Dev nD) (t : Fin cfg2.N) : Vec F S2048x4096 .bf16 := iblk2 V c 0 t
abbrev hblk (c : Dev nD) (t : Fin cfg2.N) : Vec F S4096x256 .bf16 := iblk2 V c 1 t
abbrev bblk (c : Dev nD) (t : Fin cfg2.N) : Vec F S256 .f32 := iblk2 V c 2 t

/-- One point's step on the scratch: over zero at the first contraction block, over what it held otherwise. -/
def step2 (c : Dev nD) (t : Fin cfg2.N) (prev : Vec F S2048x256 .f32) : Vec F S2048x256 .f32 :=
  k2_pay2 (if t.val % 3 = 0 then k2_pay1 else prev) (ablk V c t) (hblk V c t)

/-- THE ACCUMULATION: what the scratch holds before point `n` (after point `n - 1`); before the first point nothing is
    known of it, and the value given there is never read. -/
def acc2 (c : Dev nD) : ℕ → Vec F S2048x256 .f32
  | 0 => k2_pay1
  | n + 1 => if h : n < cfg2.N then step2 V c ⟨n, h⟩ (acc2 c n) else acc2 c n

theorem acc2_succ (c : Dev nD) (t : Fin cfg2.N) : acc2 V c (t.val + 1) = step2 V c t (acc2 V c t.val) := by
  rw [acc2]; exact dif_pos t.isLt

/-- What the last contraction block stores into the output's buffer (the value named at every point; it is the
    buffer's only where the window is live). -/
def out2 (c : Dev nD) (t : Fin cfg2.N) : Vec F S2048x256 .f32 := k2_pay3 (acc2 V c (t.val + 1)) (bblk V c t)

/-- The scratch as a memref, and every other scoped buffer that is no staging buffer of this call. -/
abbrev scM : Memref sig .tc .vmem S2048x256 .f32 := Memref.whole cc2_scratch0
abbrev restBut (c : Dev nD) : sProp 𝕄 :=
  Pipeline.scopedRestBut (Ix := Unit) (Name := ℕ) (U := UR sig nD τ) (Lvl := ℕ) (Val := Elt F) spec2 c [cc2_scratch0]

/-- The region invariant before position `n`: the scratch at the accumulation (at anything before the first point),
    the other scoped buffers at anything, the generator register at some state. -/
def Phi2 (c : Dev nD) (n : ℕ) : sProp 𝕄 :=
  iprop((∃ d, ⌜n ≠ 0 → d = acc2 V c n⌝ ∗ owns (c : Thread nD τ) scM fullShare d) ∗ restBut c ∗ ∃ r, prngReg c r)

/-- The class invariant with the scratch split off. -/
theorem PhiA2_eq (c : Dev nD) :
    (Pipeline.ΦA spec2 c : sProp 𝕄) = iprop(((∃ d, owns (c : Thread nD τ) scM fullShare d) ∗ restBut c) ∗ ∃ r, prngReg c r) := by
  unfold Pipeline.ΦA
  rw [Pipeline.scopedRest_split_of_list spec2 c [cc2_scratch0] (by decide) (by decide)]
  simp only [bigSepL_singleton, scM, owns_whole]; try rfl

/-- The proof data on core `c`: the arrays as the region finds them; after the body each input's buffer at its block,
    the output's at `out2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point: the inputs' buffers hold their blocks; the point's contraction block says which case it is
    in; the invariant hands the body the scratch at the accumulation so far and takes it back one step on. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    show (dat2 V c).leavesExact 0 t = owns (c : Thread nD τ) (st2_0 t) fullShare ((dat2 V c).after 0 t) from by
      unfold Dat.leavesExact; rw [live0 t],
    show (dat2 V c).leavesExact 1 t = owns (c : Thread nD τ) (st2_1 t) fullShare ((dat2 V c).after 1 t) from by
      unfold Dat.leavesExact; rw [live1 t],
    show (dat2 V c).leavesExact 2 t = owns (c : Thread nD τ) (st2_2 t) fullShare ((dat2 V c).after 2 t) from by
      unfold Dat.leavesExact; rw [live2 t],
    after2_0, after2_1, after2_2]
  unfold Phi2
  by_cases h0 : t.val % 3 = 0
  · have h1 : ¬ t.val % 3 = 2 := by omega
    have hacc : acc2 V c (t.val + 1) = k2_pay2 k2_pay1 (ablk V c t) (hblk V c t) := by
      rw [acc2_succ]; unfold step2; rw [if_pos h0]
    rw [Dat.leavesExact_idle (dat2 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid2.coords t) _ _ _ _ _ _ _ _ (Memref.whole cc2_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc2 V c (t.val + 1) = k2_pay2 (acc2 V c t.val) (ablk V c t) (hblk V c t) := by
      rw [acc2_succ]; unfold step2; rw [if_neg h0]
    by_cases h1 : t.val % 3 = 2
    · rw [show (dat2 V c).leavesExact 3 t = owns (c : Thread nD τ) (st2_3 t) fullShare ((dat2 V c).after 3 t) from by
        unfold Dat.leavesExact; rw [live3 t h1], after2_3]
      unfold out2
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid2.coords t) _ _ _ _ _ _ _ _ (Memref.whole cc2_scratch0) (Memref.isWhole_whole _)
        (ablk V c t) (hblk V c t) (bblk V c t) (fun h => h0 ((hcond0 t).mp h)) ((hcond1 t).mpr h1) (acc2 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat2 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid2.coords t) _ _ _ _ _ _ _ _ (Memref.whole cc2_scratch0) (Memref.isWhole_whole _)
        (ablk V c t) (hblk V c t) (bblk V c t) _ (fun h => h0 ((hcond0 t).mp h)) (fun h => h1 ((hcond1 t).mp h)) (acc2 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 from rfl, PhiA2_eq]; unfold Phi2
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout2 (c : Dev nD) : (dat2 V c).Φ (Fin.last cfg2.N) ⊢ Pipeline.ΦA spec2 c := by
  rw [show (dat2 V c).Φ (Fin.last cfg2.N) = Phi2 V c cfg2.N from rfl, PhiA2_eq]; unfold Phi2
  iintro ⟨⟨%d, -, HS⟩, HR, Hg⟩
  isplitr [Hg]
  · isplitl [HS]; · iexists d; iexact HS
    iexact HR
  iexact Hg

end Data

end Cert.KernelIdeal.Gcn2

end
-- ==== Proof.Dec3.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Dec3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The inner-product decoder call at the contents the region is entered from

Grid point `t` of the 6 × 6 grid is row block `t / 6` and column block `t % 6`. Both input windows read the SAME
array (the clipped structure embedding, 12288 × 8): window 0 its row block, window 1 its column block; the body
stores the product of the first with the transpose of the second into the output's 2048 × 2048 block. -/

/-! ## The body on any staging memrefs

The body reads the two input buffers whole, reads the output's buffer whole (a value it never uses) and stores the
product whole into the output's buffer: one store through the whole-buffer rectangle, so the buffer afterwards holds
exactly the payload, whatever it held. -/

/-- The whole-buffer rectangles' offsets are zero. -/
theorem off2 : (![0, 0] : Fin 2 → ℕ) = fun _ => 0 := funext fun a => by fin_cases a <;> rfl

/-- The whole-buffer rectangle of an input block and of the output block. -/
abbrev rI : Rect S2048x8 := Rect.unit (s := S2048x8) ![0, 0] S2048x8.size inb_S2048x8_S2048x8_0_0
abbrev rO : Rect S2048x2048 := Rect.unit (s := S2048x2048) ![0, 0] S2048x2048.size inb_S2048x2048_S2048x2048_0_0

/-- One store through the output's whole-buffer rectangle leaves its payload, whatever the buffer held and whatever
    was stored before: the rectangle holds every index. -/
theorem read_last_out {κ : Kind} {sp : Space} (v : View sig κ sp S2048x2048 .f32) (f : v.ty.Contents (Elt F)) (w : Vec F S2048x2048 .f32)
    (L : List (View.Piece (Elt F) S2048x2048 .f32)) : v.read (Elt F) (v.writes (Elt F) f (⟨rO, w⟩ :: L)) = w := by
  rw [View.read_writes_eq_canon _ _ _ (fun y => ⟨⟨rO, w⟩, List.mem_cons_self, View.mem_set_unit_zero off2 inb_S2048x2048_S2048x2048_0_0 y⟩),
    View.canon_cons_unit_zero off2]

/-- A load through an input's whole-buffer rectangle reads the contents. -/
theorem ldI (X : Vec F S2048x8 .bf16) : View.ld X rI = X := View.ld_unit_zero (S := S2048x8) off2 _ X

theorem pay1_congr {a a' b b' : Vec F S2048x8 .bf16} (ha : a = a') (hb : b = b') : k3_pay1 a b = k3_pay1 a' b' := by
  subst ha hb; rfl

set_option maxHeartbeats 1000000 in
/-- The body on whole staging memrefs: the inputs' at `x0` and `x1`, the output's at anything, run to the continuation
    with the inputs' as they were and the output's at the product of `x0` with the transpose of `x1`. -/
theorem run3 (c : Dev nD) (i : grid3.Coords)
    (arg2 : Memref sig .tc .vmem S2048x8 .bf16) (harg2 : arg2.IsWhole) (arg3 : Memref sig .tc .vmem S2048x8 .bf16) (harg3 : arg3.IsWhole)
    (arg4 : Memref sig .tc .vmem S2048x2048 .f32) (harg4 : arg4.IsWhole)
    (x0 x1 : Vec F S2048x8 .bf16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x0 x1)) -∗ K ⟨⟩))
      ⊢ wp frame (wpE (defs₀ (F := F)) Variants.none c none) E (cc3__decoder_kernel i arg2 harg2 arg3 harg3 arg4 harg4) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  sl_unfold_words
  exact (read_last_out _ _ _ _).trans (pay1_congr (ldI _) (ldI _))

section Data

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block and the column block of the embedding at point `t`, at their literal types. -/
abbrev rblk (c : Dev nD) (t : Fin cfg3.N) : Vec F S2048x8 .bf16 := iblk3 V c 0 t
abbrev cblk (c : Dev nD) (t : Fin cfg3.N) : Vec F S2048x8 .bf16 := iblk3 V c 1 t

/-- What the body stores into the output's buffer at point `t`. -/
def out3 (c : Dev nD) (t : Fin cfg3.N) : Vec F S2048x2048 .f32 := k3_pay1 (rblk V c t) (cblk V c t)

/-- The proof data on core `c`: the arrays as the region finds them; after the body each input's buffer at its block,
    the output's at `out3`; the class invariant; nothing owed; the embedding's array read by two windows, each holding
    half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

/-- The row-block window's current staging buffer holds its block at every point. It is fetched only where the
    column block is the first; at the other points its block index has not moved since the last fetch, and the body
    leaves the buffer as it found it, so the block fetched then is still this point's block. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
/-- The column-block window's current staging buffer holds its block at every point. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`: the invariant, what is owed, and each window's current staging buffer
    at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: every window is live at every point, so each buffer is at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two input buffers hold the row block and the column block, the output's buffer holds
    anything; the body leaves the inputs' as they were and the output's at their product. The invariant and what is
    owed are neither read nor changed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  unfold out3
  iintro ⟨HΦ, Ho, ⟨%d0, H0⟩, ⟨%d1, H1⟩, ⟨%d2, H2⟩⟩
  iapply (run3 c (grid3.coords t) _ _ _ _ _ _ (rblk V c t) (cblk V c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays at entry and at exit

The three windows read two distinct buffers: the embedding's (windows 0 and 1) and the output's (window 2). The launch
hands the region each of the two whole at the full share; the proof data holds the embedding's twice, once per reading
window, at the left and the right half of the full share, and the output's at the full share. A points-to at a share
is the two points-tos at its halves, at the same contents; so entry splits the embedding's buffer and exit joins it. -/

/-- The buffers behind the windows' arrays are the embedding's and the output's: two, not three. -/
theorem arrBufs3_eq (c : Dev nD) (V' : (b : Ref sig .tc) → Buf (Elt F) ((c : Thread nD τ).loc b)) :
    (Pipeline.arrBufs (Ix := Unit) (Name := ℕ) (U := UR sig nD τ) (Lvl := ℕ) spec3 c V' : sProp 𝕄)
      = iprop((((c : Thread nD τ).loc main_v72) ↦{fullShare} V' main_v72) ∗ (((c : Thread nD τ).loc main_v73) ↦{fullShare} V' main_v73)) := by
  unfold Pipeline.arrBufs
  exact bigSep_eq_bigSepL_of_eq [main_v72, main_v73] (by decide) (by decide) _

/-- The proof data's arrays, window by window: every array is a whole buffer; the row-block window holds the embedding
    at the left half of the full share, the column-block window at the right half, the output window its array at
    the full share. -/
theorem arrays3_eq (c : Dev nD) (G : (w : Fin cfg3.W) → Buf (Elt F) ((cfg3.win w).arr.view.loc (c : Thread nD τ))) :
    (dat3 V c).arrays G
      = iprop((((c : Thread nD τ).loc main_v72) ↦{fullShare.left} G 0) ∗ (((c : Thread nD τ).loc main_v72) ↦{fullShare.right} G 1)
          ∗ (((c : Thread nD τ).loc main_v73) ↦{fullShare} G 2)) := by
  unfold Dat.arrays
  rw [bigSep_W3]
  -- windows 0 and 1 have one and the same array, hence one and the same index set
  have h01 : (cfg3.win 0).arr.view.set = Finset.univ := (arr_whole3 0).set_eq_univ
  have h2 : (cfg3.win 2).arr.view.set = Finset.univ := (arr_whole3 2).set_eq_univ
  rw [h01, h2]
  rfl

/-- An input window's array is never written: after any number of points it is what the region found. -/
theorem arrAt3_0 (c : Dev nD) (n : ℕ) : (dat3 V c).arrAt 0 n = V c main_v72 := (dat3 V c).arrAt_in 0 rfl n
theorem arrAt3_1 (c : Dev nD) (n : ℕ) : (dat3 V c).arrAt 1 n = V c main_v72 := (dat3 V c).arrAt_in 1 rfl n
/-- Before the first point the output's array is what the region found. -/
theorem arrAt3_2_zero (c : Dev nD) : (dat3 V c).arrAt 2 0 = V c main_v73 := rfl

/-- ENTRY: the two distinct buffers behind the three windows' arrays, each whole at the full share at the entry
    contents, are the proof data's arrays at entry: the embedding's buffer split between its two reading windows. -/
theorem entry3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  rw [arrBufs3_eq, arrays3_eq, arrAt3_0, arrAt3_1, arrAt3_2_zero]
  iintro ⟨H72, H73⟩
  ihave H := (pointsTo_share (PosShare.mem_left_op_right fullShare)).1 $$ H72
  icases H with ⟨HL, HR⟩
  isplitl [HL]; · iexact HL
  isplitl [HR]; · iexact HR
  iexact H73

/-- EXIT: the proof data's arrays after the last point are those two buffers whole again, at any contents `V'` that
    has the output's array at what the pipeline leaves and the embedding's as entered. -/
theorem exit3 (c : Dev nD) (V' : (b : Ref sig .tc) → Buf (Elt F) ((c : Thread nD τ).loc b))
    (hout : V' main_v73 = (dat3 V c).arrAt 2 cfg3.N) (hin : V' main_v72 = V c main_v72) :
    (dat3 V c).arrays ((dat3 V c).arrAt · cfg3.N)
      ⊢ (Pipeline.arrBufs (Ix := Unit) (Name := ℕ) (U := UR sig nD τ) (Lvl := ℕ) spec3 c V' : sProp 𝕄) := by
  rw [arrBufs3_eq, arrays3_eq, arrAt3_0, arrAt3_1, hout, hin]
  iintro ⟨HL, HR, H73⟩
  isplitl [HL HR]
  · iapply (pointsTo_share (PosShare.mem_left_op_right fullShare)).2
    isplitl [HL]; · iexact HL
    iexact HR
  iexact H73

end Data

end Cert.KernelIdeal.Dec3

end
-- ==== Proof.Fold.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Gcn0
import proofs.«404591_j69982197121234_3_alg».proof.Proof.Gcn1
import proofs.«404591_j69982197121234_3_alg».proof.Proof.Gcn2
import proofs.«404591_j69982197121234_3_alg».proof.Proof.Dec3
import proofs.«404591_j69982197121234_3_alg».proof.Proof.Gen.KernelIdeal.Regions
set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between @main's items: a fold from the launch memory

@main is three host stretches, aggregation call 0, a stretch, call 1, a stretch, call 2, three stretches, the decoder
call. A host stretch leaves what `StableHlo.after` computes; a call leaves its arrays at what its write-backs fold to
(`Dat.arrAt … N`) and every other buffer as entered. Each call's proof data are taken at the contents its region is
entered from. -/

variable (m : (ℓ : Loc nD τ sig) → Buf (Elt F) ℓ)

/-- Core `c`'s buffers at launch; -/
abbrev W0 : Dev nD → Valuation τ sig (Elt F) := fun c b => m (c, b)
/-- after the three stretches before call 0 (edge lists, degrees, weights, the dense adjacency, the first projection); -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- the same read at the TensorCore's references: what call 0's proof data take. -/
abbrev V3 : (c : Dev nD) → (b : Ref sig .tc) → Buf (Elt F) ((c : Thread nD τ).loc b) := fun c b => W3 m c b
/-- At call 0's exit. -/
def W4 (c : Dev nD) : Valuation τ sig (Elt F) :=
  Pipeline.withArrays spec0 c (W3 m c) fun w => (Gcn0.dat0 (V3 m) c).arrAt w cfg0.N
/-- After the second projection; what call 1's proof data take. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At call 1's exit. -/
def W6 (c : Dev nD) : Valuation τ sig (Elt F) :=
  Pipeline.withArrays spec1 c (W5 m c) fun w => (Gcn1.dat1 (V5 m) c).arrAt w cfg1.N
/-- After the fused weights, biases and projection; what call 2's proof data take. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At call 2's exit. -/
def W8 (c : Dev nD) : Valuation τ sig (Elt F) :=
  Pipeline.withArrays spec2 c (W7 m c) fun w => (Gcn2.dat2 (V7 m) c).arrAt w cfg2.N
/-- After the two slices, the clipping and the change of format; what the decoder call's proof data take. -/
abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)
abbrev V11 : (c : Dev nD) → (b : Ref sig .tc) → Buf (Elt F) ((c : Thread nD τ).loc b) := fun c b => W11 m c b
/-- At the decoder call's exit, the end of @main: its output's array at what its write-backs leave, every other buffer
    as entered (its two input windows read one array, which no write-back touches). -/
def W12 (c : Dev nD) : Valuation τ sig (Elt F) :=
  Function.update (W11 m c) main_v73 ((Dec3.dat3 (V11 m) c).arrAt 2 cfg3.N)

/-- Every call's proof data, each at its region's entry contents: a literal `match`, so that the library's pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => Gcn0.dat0 (V3 m) c
  | ⟨1, _⟩ => fun c => Gcn1.dat1 (V5 m) c
  | ⟨2, _⟩ => fun c => Gcn2.dat2 (V7 m) c
  | ⟨3, _⟩ => fun c => Dec3.dat3 (V11 m) c

end Cert.KernelIdeal.Fold

end
-- ==== Proof.Run.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Gcn0
import proofs.«404591_j69982197121234_3_alg».proof.Proof.Gcn1
import proofs.«404591_j69982197121234_3_alg».proof.Proof.Gcn2
import proofs.«404591_j69982197121234_3_alg».proof.Proof.Dec3
import proofs.«404591_j69982197121234_3_alg».proof.Proof.Gen.KernelIdeal.Regions
import proofs.«404591_j69982197121234_3_alg».proof.Proof.Fold
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch: @main's twelve items run from the launch memory to the return

Between two items a core holds every unscoped buffer whole at the fold's contents (`Fold.W0` … `Fold.W12`), its
generator register at some state, and owes nothing. A host stretch moves the contents by what its operations compute;
a call takes its arrays out of the unscoped buffers, runs its pipeline over them, and puts them back at what the
write-backs leave, every other buffer bypassing it. -/

/-! ## What a call changes: its arrays, and nothing else -/

theorem W4_arr (c : Dev nD) (w : Fin cfg0.W) :
    Fold.W4 m c (Proc.devRef .tc (Pipeline.arrRef spec0 w)) = (Gcn0.dat0 (Fold.V3 m) c).arrAt w cfg0.N := by
  unfold Fold.W4; exact Pipeline.withArrays_arr spec0 launch0.win.arr_inj c _ _ w
theorem W4_of_ne (c : Dev nD) (b : Ref sig .tc) (hb : ∀ w, Pipeline.arrRef spec0 w ≠ b) :
    Fold.W4 m c (Proc.devRef .tc b) = Fold.W3 m c (Proc.devRef .tc b) := by
  unfold Fold.W4; exact Pipeline.withArrays_of_ne spec0 c _ _ b hb
/-- Call 0's exit contents read at the TensorCore's references. -/
abbrev V4 : (c : Dev nD) → (b : Ref sig .tc) → Buf (Elt F) ((c : Thread nD τ).loc b) := fun c b => Fold.W4 m c b
theorem hF0 (c : Dev nD) (w : Fin cfg0.W) :
    (Gcn0.dat0 (Fold.V3 m) c).arrAt w cfg0.N = V4 m c (Pipeline.arrRef spec0 w) :=
  (W4_arr m c w).symm
theorem hrest0 (c : Dev nD) : ∀ b, b ∉ Finset.univ.image (Pipeline.arrRef spec0) → V4 m c b = Fold.V3 m c b :=
  fun b hb => W4_of_ne m c b fun w e => hb (Finset.mem_image.mpr ⟨w, Finset.mem_univ _, e⟩)

theorem W6_arr (c : Dev nD) (w : Fin cfg1.W) :
    Fold.W6 m c (Proc.devRef .tc (Pipeline.arrRef spec1 w)) = (Gcn1.dat1 (Fold.V5 m) c).arrAt w cfg1.N := by
  unfold Fold.W6; exact Pipeline.withArrays_arr spec1 launch1.win.arr_inj c _ _ w
theorem W6_of_ne (c : Dev nD) (b : Ref sig .tc) (hb : ∀ w, Pipeline.arrRef spec1 w ≠ b) :
    Fold.W6 m c (Proc.devRef .tc b) = Fold.W5 m c (Proc.devRef .tc b) := by
  unfold Fold.W6; exact Pipeline.withArrays_of_ne spec1 c _ _ b hb
/-- Call 1's exit contents read at the TensorCore's references. -/
abbrev V6 : (c : Dev nD) → (b : Ref sig .tc) → Buf (Elt F) ((c : Thread nD τ).loc b) := fun c b => Fold.W6 m c b
theorem hF1 (c : Dev nD) (w : Fin cfg1.W) :
    (Gcn1.dat1 (Fold.V5 m) c).arrAt w cfg1.N = V6 m c (Pipeline.arrRef spec1 w) :=
  (W6_arr m c w).symm
theorem hrest1 (c : Dev nD) : ∀ b, b ∉ Finset.univ.image (Pipeline.arrRef spec1) → V6 m c b = Fold.V5 m c b :=
  fun b hb => W6_of_ne m c b fun w e => hb (Finset.mem_image.mpr ⟨w, Finset.mem_univ _, e⟩)

theorem W8_arr (c : Dev nD) (w : Fin cfg2.W) :
    Fold.W8 m c (Proc.devRef .tc (Pipeline.arrRef spec2 w)) = (Gcn2.dat2 (Fold.V7 m) c).arrAt w cfg2.N := by
  unfold Fold.W8; exact Pipeline.withArrays_arr spec2 launch2.win.arr_inj c _ _ w
theorem W8_of_ne (c : Dev nD) (b : Ref sig .tc) (hb : ∀ w, Pipeline.arrRef spec2 w ≠ b) :
    Fold.W8 m c (Proc.devRef .tc b) = Fold.W7 m c (Proc.devRef .tc b) := by
  unfold Fold.W8; exact Pipeline.withArrays_of_ne spec2 c _ _ b hb
/-- Call 2's exit contents read at the TensorCore's references. -/
abbrev V8 : (c : Dev nD) → (b : Ref sig .tc) → Buf (Elt F) ((c : Thread nD τ).loc b) := fun c b => Fold.W8 m c b
theorem hF2 (c : Dev nD) (w : Fin cfg2.W) :
    (Gcn2.dat2 (Fold.V7 m) c).arrAt w cfg2.N = V8 m c (Pipeline.arrRef spec2 w) :=
  (W8_arr m c w).symm
theorem hrest2 (c : Dev nD) : ∀ b, b ∉ Finset.univ.image (Pipeline.arrRef spec2) → V8 m c b = Fold.V7 m c b :=
  fun b hb => W8_of_ne m c b fun w e => hb (Finset.mem_image.mpr ⟨w, Finset.mem_univ _, e⟩)

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves those
    references at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents the decoder call leaves, the
    generator register at some state. -/
abbrev Tₙ (c : Dev nD) : sProp 𝕄 := iprop(StableHlo.held (c : Thread nD τ) (Pipeline.ucRefs τ sig) (Fold.W12 m c) ∗ ∃ r, prngReg c r)

/-! ## The decoder call: two windows read one array, so its arrays are two buffers behind three windows -/

/-- The decoder call's exit contents read at the TensorCore's references. -/
abbrev V12 : (c : Dev nD) → (b : Ref sig .tc) → Buf (Elt F) ((c : Thread nD τ).loc b) := fun c b => Fold.W12 m c b

/-- At the exit the output's array holds what the write-backs leave, -/
theorem V12_out (c : Dev nD) : V12 m c main_v73 = (Dec3.dat3 (Fold.V11 m) c).arrAt 2 cfg3.N := by
  show Function.update (Fold.W11 m c) (Proc.devRef .tc main_v73) _ (Proc.devRef .tc main_v73) = _
  exact Function.update_self ..
/-- and every other buffer what it held at entry. -/
theorem V12_of_ne (c : Dev nD) (b : Ref sig .tc) (hb : b ≠ main_v73) : V12 m c b = Fold.V11 m c b := by
  show Function.update (Fold.W11 m c) (Proc.devRef .tc main_v73) _ (Proc.devRef .tc b) = _
  exact Function.update_of_ne (StableHlo.devRef_ne_of_ne hb) ..
/-- The buffers that bypass the decoder call are the same at entry and at exit: the exit contents differ from the entry
    contents at the output's array alone, which is no bypassing buffer. -/
theorem rest3_eq (c : Dev nD) :
    (Pipeline.unscopedRest (Ix := Unit) (Name := ℕ) (U := UR sig nD τ) (Lvl := ℕ) spec3 c (Fold.V11 m c) : sProp 𝕄)
      = Pipeline.unscopedRest (Ix := Unit) (Name := ℕ) (U := UR sig nD τ) (Lvl := ℕ) spec3 c (V12 m c) := by
  unfold Pipeline.unscopedRest
  refine bigSep_congr fun b hb => ?_
  rw [V12_of_ne m c b fun e => (Finset.mem_sdiff.mp hb).2 (Finset.mem_image.mpr ⟨2, Finset.mem_univ _, e ▸ rfl⟩)]

/-! ## The arguments end as launched

No host stretch writes an argument; an aggregation call changes its output's array alone (an argument it reads through an
input window is put back as entered, any other buffer bypasses it), and the decoder call its output's. -/

theorem W1_of (c : Dev nD) (r : Ref sig .tc) (h : r ∉ hostOps0_W) : Fold.W1 m c r = Fold.W0 m c r :=
  StableHlo.after_of_writes_sub hostOps0 _ hostOps0_writes h
theorem W2_of (c : Dev nD) (r : Ref sig .tc) (h : r ∉ hostOps0_1_W) : Fold.W2 m c r = Fold.W1 m c r :=
  StableHlo.after_of_writes_sub hostOps0_1 _ hostOps0_1_writes h
theorem W3_of (c : Dev nD) (r : Ref sig .tc) (h : r ∉ hostOps0_2_W) : Fold.W3 m c r = Fold.W2 m c r :=
  StableHlo.after_of_writes_sub hostOps0_2 _ hostOps0_2_writes h
theorem W5_of (c : Dev nD) (r : Ref sig .tc) (h : r ∉ hostOps1_W) : Fold.W5 m c r = Fold.W4 m c r :=
  StableHlo.after_of_writes_sub hostOps1 _ hostOps1_writes h
theorem W7_of (c : Dev nD) (r : Ref sig .tc) (h : r ∉ hostOps2_W) : Fold.W7 m c r = Fold.W6 m c r :=
  StableHlo.after_of_writes_sub hostOps2 _ hostOps2_writes h
theorem W9_of (c : Dev nD) (r : Ref sig .tc) (h : r ∉ hostOps3_W) : Fold.W9 m c r = Fold.W8 m c r :=
  StableHlo.after_of_writes_sub hostOps3 _ hostOps3_writes h
theorem W10_of (c : Dev nD) (r : Ref sig .tc) (h : r ∉ hostOps3_1_W) : Fold.W10 m c r = Fold.W9 m c r :=
  StableHlo.after_of_writes_sub hostOps3_1 _ hostOps3_1_writes h
theorem W11_of (c : Dev nD) (r : Ref sig .tc) (h : r ∉ hostOps3_2_W) : Fold.W11 m c r = Fold.W10 m c r :=
  StableHlo.after_of_writes_sub hostOps3_2 _ hostOps3_2_writes h
/-- An input window's array leaves an aggregation call as it entered it. -/
theorem W4_in (c : Dev nD) (w : Fin cfg0.W) (hw : (cfg0.win w).isOut = false) :
    Fold.W4 m c (Proc.devRef .tc (Pipeline.arrRef spec0 w)) = Fold.W3 m c (Proc.devRef .tc (Pipeline.arrRef spec0 w)) :=
  (W4_arr m c w).trans (((Gcn0.dat0 (Fold.V3 m) c).arrAt_in w hw _).trans (Gcn0.A_eq0 (Fold.V3 m) c w))
theorem W6_in (c : Dev nD) (w : Fin cfg1.W) (hw : (cfg1.win w).isOut = false) :
    Fold.W6 m c (Proc.devRef .tc (Pipeline.arrRef spec1 w)) = Fold.W5 m c (Proc.devRef .tc (Pipeline.arrRef spec1 w)) :=
  (W6_arr m c w).trans (((Gcn1.dat1 (Fold.V5 m) c).arrAt_in w hw _).trans (Gcn1.A_eq1 (Fold.V5 m) c w))

theorem W12_main_arg0 (c : Dev nD) : Fold.W12 m c main_arg0 = m ((c : Thread nD τ).loc main_arg0) :=
  (V12_of_ne m c main_arg0 (by decide)).trans <| (W11_of m c main_arg0 (by decide)).trans <| (W10_of m c main_arg0 (by decide)).trans <|
  (W9_of m c main_arg0 (by decide)).trans <| (W8_of_ne m c main_arg0 (by decide)).trans <| (W7_of m c main_arg0 (by decide)).trans <|
  (W6_of_ne m c main_arg0 (by decide)).trans <| (W5_of m c main_arg0 (by decide)).trans <| (W4_of_ne m c main_arg0 (by decide)).trans <|
  (W3_of m c main_arg0 (by decide)).trans <| (W2_of m c main_arg0 (by decide)).trans <| (W1_of m c main_arg0 (by decide)).trans rfl

theorem W12_main_arg1 (c : Dev nD) : Fold.W12 m c main_arg1 = m ((c : Thread nD τ).loc main_arg1) :=
  (V12_of_ne m c main_arg1 (by decide)).trans <| (W11_of m c main_arg1 (by decide)).trans <| (W10_of m c main_arg1 (by decide)).trans <|
  (W9_of m c main_arg1 (by decide)).trans <| (W8_of_ne m c main_arg1 (by decide)).trans <| (W7_of m c main_arg1 (by decide)).trans <|
  (W6_of_ne m c main_arg1 (by decide)).trans <| (W5_of m c main_arg1 (by decide)).trans <| (W4_of_ne m c main_arg1 (by decide)).trans <|
  (W3_of m c main_arg1 (by decide)).trans <| (W2_of m c main_arg1 (by decide)).trans <| (W1_of m c main_arg1 (by decide)).trans rfl

theorem W12_main_arg2 (c : Dev nD) : Fold.W12 m c main_arg2 = m ((c : Thread nD τ).loc main_arg2) :=
  (V12_of_ne m c main_arg2 (by decide)).trans <| (W11_of m c main_arg2 (by decide)).trans <| (W10_of m c main_arg2 (by decide)).trans <|
  (W9_of m c main_arg2 (by decide)).trans <| (W8_of_ne m c main_arg2 (by decide)).trans <| (W7_of m c main_arg2 (by decide)).trans <|
  (W6_of_ne m c main_arg2 (by decide)).trans <| (W5_of m c main_arg2 (by decide)).trans <| (W4_of_ne m c main_arg2 (by decide)).trans <|
  (W3_of m c main_arg2 (by decide)).trans <| (W2_of m c main_arg2 (by decide)).trans <| (W1_of m c main_arg2 (by decide)).trans rfl

theorem W12_main_arg3 (c : Dev nD) : Fold.W12 m c main_arg3 = m ((c : Thread nD τ).loc main_arg3) :=
  (V12_of_ne m c main_arg3 (by decide)).trans <| (W11_of m c main_arg3 (by decide)).trans <| (W10_of m c main_arg3 (by decide)).trans <|
  (W9_of m c main_arg3 (by decide)).trans <| (W8_of_ne m c main_arg3 (by decide)).trans <| (W7_of m c main_arg3 (by decide)).trans <|
  (W6_of_ne m c main_arg3 (by decide)).trans <| (W5_of m c main_arg3 (by decide)).trans <| (W4_in m c 2 rfl).trans <|
  (W3_of m c main_arg3 (by decide)).trans <| (W2_of m c main_arg3 (by decide)).trans <| (W1_of m c main_arg3 (by decide)).trans rfl

theorem W12_main_arg4 (c : Dev nD) : Fold.W12 m c main_arg4 = m ((c : Thread nD τ).loc main_arg4) :=
  (V12_of_ne m c main_arg4 (by decide)).trans <| (W11_of m c main_arg4 (by decide)).trans <| (W10_of m c main_arg4 (by decide)).trans <|
  (W9_of m c main_arg4 (by decide)).trans <| (W8_of_ne m c main_arg4 (by decide)).trans <| (W7_of m c main_arg4 (by decide)).trans <|
  (W6_of_ne m c main_arg4 (by decide)).trans <| (W5_of m c main_arg4 (by decide)).trans <| (W4_of_ne m c main_arg4 (by decide)).trans <|
  (W3_of m c main_arg4 (by decide)).trans <| (W2_of m c main_arg4 (by decide)).trans <| (W1_of m c main_arg4 (by decide)).trans rfl

theorem W12_main_arg5 (c : Dev nD) : Fold.W12 m c main_arg5 = m ((c : Thread nD τ).loc main_arg5) :=
  (V12_of_ne m c main_arg5 (by decide)).trans <| (W11_of m c main_arg5 (by decide)).trans <| (W10_of m c main_arg5 (by decide)).trans <|
  (W9_of m c main_arg5 (by decide)).trans <| (W8_of_ne m c main_arg5 (by decide)).trans <| (W7_of m c main_arg5 (by decide)).trans <|
  (W6_in m c 2 rfl).trans <| (W5_of m c main_arg5 (by decide)).trans <| (W4_of_ne m c main_arg5 (by decide)).trans <|
  (W3_of m c main_arg5 (by decide)).trans <| (W2_of m c main_arg5 (by decide)).trans <| (W1_of m c main_arg5 (by decide)).trans rfl

theorem W12_main_arg6 (c : Dev nD) : Fold.W12 m c main_arg6 = m ((c : Thread nD τ).loc main_arg6) :=
  (V12_of_ne m c main_arg6 (by decide)).trans <| (W11_of m c main_arg6 (by decide)).trans <| (W10_of m c main_arg6 (by decide)).trans <|
  (W9_of m c main_arg6 (by decide)).trans <| (W8_of_ne m c main_arg6 (by decide)).trans <| (W7_of m c main_arg6 (by decide)).trans <|
  (W6_of_ne m c main_arg6 (by decide)).trans <| (W5_of m c main_arg6 (by decide)).trans <| (W4_of_ne m c main_arg6 (by decide)).trans <|
  (W3_of m c main_arg6 (by decide)).trans <| (W2_of m c main_arg6 (by decide)).trans <| (W1_of m c main_arg6 (by decide)).trans rfl

theorem W12_main_arg7 (c : Dev nD) : Fold.W12 m c main_arg7 = m ((c : Thread nD τ).loc main_arg7) :=
  (V12_of_ne m c main_arg7 (by decide)).trans <| (W11_of m c main_arg7 (by decide)).trans <| (W10_of m c main_arg7 (by decide)).trans <|
  (W9_of m c main_arg7 (by decide)).trans <| (W8_of_ne m c main_arg7 (by decide)).trans <| (W7_of m c main_arg7 (by decide)).trans <|
  (W6_of_ne m c main_arg7 (by decide)).trans <| (W5_of m c main_arg7 (by decide)).trans <| (W4_of_ne m c main_arg7 (by decide)).trans <|
  (W3_of m c main_arg7 (by decide)).trans <| (W2_of m c main_arg7 (by decide)).trans <| (W1_of m c main_arg7 (by decide)).trans rfl

theorem W12_main_arg8 (c : Dev nD) : Fold.W12 m c main_arg8 = m ((c : Thread nD τ).loc main_arg8) :=
  (V12_of_ne m c main_arg8 (by decide)).trans <| (W11_of m c main_arg8 (by decide)).trans <| (W10_of m c main_arg8 (by decide)).trans <|
  (W9_of m c main_arg8 (by decide)).trans <| (W8_of_ne m c main_arg8 (by decide)).trans <| (W7_of m c main_arg8 (by decide)).trans <|
  (W6_of_ne m c main_arg8 (by decide)).trans <| (W5_of m c main_arg8 (by decide)).trans <| (W4_of_ne m c main_arg8 (by decide)).trans <|
  (W3_of m c main_arg8 (by decide)).trans <| (W2_of m c main_arg8 (by decide)).trans <| (W1_of m c main_arg8 (by decide)).trans rfl

theorem W12_main_arg9 (c : Dev nD) : Fold.W12 m c main_arg9 = m ((c : Thread nD τ).loc main_arg9) :=
  (V12_of_ne m c main_arg9 (by decide)).trans <| (W11_of m c main_arg9 (by decide)).trans <| (W10_of m c main_arg9 (by decide)).trans <|
  (W9_of m c main_arg9 (by decide)).trans <| (W8_of_ne m c main_arg9 (by decide)).trans <| (W7_of m c main_arg9 (by decide)).trans <|
  (W6_of_ne m c main_arg9 (by decide)).trans <| (W5_of m c main_arg9 (by decide)).trans <| (W4_of_ne m c main_arg9 (by decide)).trans <|
  (W3_of m c main_arg9 (by decide)).trans <| (W2_of m c main_arg9 (by decide)).trans <| (W1_of m c main_arg9 (by decide)).trans rfl

/-! ## The calls as segments -/

set_option backward.isDefEq.respectTransparency.types false in
/-- Aggregation call 0 over the thread state: entered from every unscoped buffer at `Fold.W3`, left at `Fold.W4`.
    Its four arrays are split out of the unscoped buffers and put back at the exit contents; the generator register goes
    into the region invariant with the scoped buffers and comes back; nothing is owed; the kernel has no semaphore of its
    own. -/
def reg0 : Pipeline.RegionSeg (pcfgs (F := F)) adm (Fold.pdats m) () defs₀ 𝒱₀ L lv 0 where
  win := launch0.win.to₀
  block_pos := launch0.block_pos
  stage_whole := launch0.stage_whole
  K := PEmpty
  osem k := k.elim
  ho := Pipeline.OwnSemFacts.none _
  hbody c := (Gcn0.body_obligation0 (Fold.V3 m) c).loose
  hwaits := Pipeline.hwaits_of_owed_zero _ _ _ _ L lv 0 fun _ _ => rfl
  pre c := iprop(StableHlo.held (c : Thread nD τ) (Pipeline.ucRefs τ sig) (Fold.W3 m c) ∗ R c)
  post c := iprop(StableHlo.held (c : Thread nD τ) (Pipeline.ucRefs τ sig) (Fold.W4 m c) ∗ R c)
  X c := iprop(∃ r, prngReg c r)
  Y c := iprop(∃ r, prngReg c r)
  Z c := Pipeline.unscopedRest (Ix := Unit) (Name := ℕ) (U := UR sig nD τ) (Lvl := ℕ) spec0 c (Fold.V3 m c)
  hentry c := by
    rw [Pipeline.ownSems0_none]
    have hsplit := Pipeline.arrays_of_unscopedBufs (p := 0) (pcfgs (F := F)) adm (Fold.pdats m) launch0.win launch0.arr_whole c
      ((Fold.pdats m 0 c).share_full fun _ => rfl) (Fold.V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn0.hin0 (Fold.V3 m) c)
    unfold Pipeline.ΦA
    iintro ⟨Hp, -, Hr⟩
    isplitl [Hr]; · iexact Hr
    iexact Hp
  hout c := by
    rw [Pipeline.ownSems0_none]
    refine (Gcn0.hout0 (Fold.V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (Fold.pdats m) ((Fold.pdats m 0 c).share_full fun _ => rfl)
      (Fold.V3 m c) (V4 m c) ((Fold.pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Aggregation call 1 over the thread state: entered from every unscoped buffer at `Fold.W5`, left at `Fold.W6`.
    Its four arrays are split out of the unscoped buffers and put back at the exit contents; the generator register goes
    into the region invariant with the scoped buffers and comes back; nothing is owed; the kernel has no semaphore of its
    own. -/
def reg1 : Pipeline.RegionSeg (pcfgs (F := F)) adm (Fold.pdats m) () defs₀ 𝒱₀ L lv 1 where
  win := launch1.win.to₀
  block_pos := launch1.block_pos
  stage_whole := launch1.stage_whole
  K := PEmpty
  osem k := k.elim
  ho := Pipeline.OwnSemFacts.none _
  hbody c := (Gcn1.body_obligation1 (Fold.V5 m) c).loose
  hwaits := Pipeline.hwaits_of_owed_zero _ _ _ _ L lv 1 fun _ _ => rfl
  pre c := iprop(StableHlo.held (c : Thread nD τ) (Pipeline.ucRefs τ sig) (Fold.W5 m c) ∗ R c)
  post c := iprop(StableHlo.held (c : Thread nD τ) (Pipeline.ucRefs τ sig) (Fold.W6 m c) ∗ R c)
  X c := iprop(∃ r, prngReg c r)
  Y c := iprop(∃ r, prngReg c r)
  Z c := Pipeline.unscopedRest (Ix := Unit) (Name := ℕ) (U := UR sig nD τ) (Lvl := ℕ) spec1 c (Fold.V5 m c)
  hentry c := by
    rw [Pipeline.ownSems0_none]
    have hsplit := Pipeline.arrays_of_unscopedBufs (p := 1) (pcfgs (F := F)) adm (Fold.pdats m) launch1.win launch1.arr_whole c
      ((Fold.pdats m 1 c).share_full fun _ => rfl) (Fold.V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn1.hin1 (Fold.V5 m) c)
    unfold Pipeline.ΦA
    iintro ⟨Hp, -, Hr⟩
    isplitl [Hr]; · iexact Hr
    iexact Hp
  hout c := by
    rw [Pipeline.ownSems0_none]
    refine (Gcn1.hout1 (Fold.V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (Fold.pdats m) ((Fold.pdats m 1 c).share_full fun _ => rfl)
      (Fold.V5 m c) (V6 m c) ((Fold.pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Aggregation call 2 over the thread state: entered from every unscoped buffer at `Fold.W7`, left at `Fold.W8`.
    Its four arrays are split out of the unscoped buffers and put back at the exit contents; the generator register goes
    into the region invariant with the scoped buffers and comes back; nothing is owed; the kernel has no semaphore of its
    own. -/
def reg2 : Pipeline.RegionSeg (pcfgs (F := F)) adm (Fold.pdats m) () defs₀ 𝒱₀ L lv 2 where
  win := launch2.win.to₀
  block_pos := launch2.block_pos
  stage_whole := launch2.stage_whole
  K := PEmpty
  osem k := k.elim
  ho := Pipeline.OwnSemFacts.none _
  hbody c := (Gcn2.body_obligation2 (Fold.V7 m) c).loose
  hwaits := Pipeline.hwaits_of_owed_zero _ _ _ _ L lv 2 fun _ _ => rfl
  pre c := iprop(StableHlo.held (c : Thread nD τ) (Pipeline.ucRefs τ sig) (Fold.W7 m c) ∗ R c)
  post c := iprop(StableHlo.held (c : Thread nD τ) (Pipeline.ucRefs τ sig) (Fold.W8 m c) ∗ R c)
  X c := iprop(∃ r, prngReg c r)
  Y c := iprop(∃ r, prngReg c r)
  Z c := Pipeline.unscopedRest (Ix := Unit) (Name := ℕ) (U := UR sig nD τ) (Lvl := ℕ) spec2 c (Fold.V7 m c)
  hentry c := by
    rw [Pipeline.ownSems0_none]
    have hsplit := Pipeline.arrays_of_unscopedBufs (p := 2) (pcfgs (F := F)) adm (Fold.pdats m) launch2.win launch2.arr_whole c
      ((Fold.pdats m 2 c).share_full fun _ => rfl) (Fold.V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn2.hin2 (Fold.V7 m) c)
    unfold Pipeline.ΦA
    iintro ⟨Hp, -, Hr⟩
    isplitl [Hr]; · iexact Hr
    iexact Hp
  hout c := by
    rw [Pipeline.ownSems0_none]
    refine (Gcn2.hout2 (Fold.V7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (Fold.pdats m) ((Fold.pdats m 2 c).share_full fun _ => rfl)
      (Fold.V7 m c) (V8 m c) ((Fold.pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call over the thread state: entered from every unscoped buffer at `Fold.W11`, left at `Fold.W12`, the
    end of @main. The two buffers behind its three windows are split out of the unscoped buffers, the embedding's shared
    between its two reading windows, and put back whole at the exit contents; the generator register goes into the region
    invariant with the scoped buffers and comes back; nothing is owed; the kernel has no semaphore of its own. -/
def reg3 : Pipeline.RegionSeg (pcfgs (F := F)) adm (Fold.pdats m) () defs₀ 𝒱₀ L lv 3 where
  win := winFacts₀3
  block_pos := block_pos3
  stage_whole := stage_whole3
  K := PEmpty
  osem k := k.elim
  ho := Pipeline.OwnSemFacts.none _
  hbody c := (Dec3.body_obligation3 (Fold.V11 m) c).loose
  hwaits := Pipeline.hwaits_of_owed_zero _ _ _ _ L lv 3 fun _ _ => rfl
  pre c := iprop(StableHlo.held (c : Thread nD τ) (Pipeline.ucRefs τ sig) (Fold.W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Fold.V11 m c)
  hentry c := by
    rw [Pipeline.ownSems0_none]
    have hsplit := Pipeline.unscopedBufs_split₀ (Ix := Unit) (Name := ℕ) (U := UR sig nD τ) (Lvl := ℕ) (Val := Elt F)
      cfgs 3 winFacts₀3.arr_unscoped c (Fold.V11 m c)
    rw [Pipeline.unscopedBufs_held] at hsplit
    rw [hsplit]
    iintro ⟨⟨⟨Ha, Hrest⟩, Hp, HO⟩, -, -⟩
    ihave Ha' := (Dec3.entry3 (Fold.V11 m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Fold.pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (Fold.pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_split₀ (Ix := Unit) (Name := ℕ) (U := UR sig nD τ) (Lvl := ℕ) (Val := Elt F)
      cfgs 3 winFacts₀3.arr_unscoped c (V12 m c)
    rw [Pipeline.unscopedBufs_held] at hjoin
    have hjoin' := Entails.of_eq hjoin.symm
    rw [rest3_eq m c]
    iintro ⟨Ha, HO, HY, Hrest⟩
    have hex : ((Fold.pdats m 3 c).arrays fun w => (Fold.pdats m 3 c).arrAt w (Pipeline.pin (pcfgs (F := F)) adm 3).N)
        ⊢ (Pipeline.arrBufs (Ix := Unit) (Name := ℕ) (U := UR sig nD τ) (Lvl := ℕ) spec3 c (V12 m c) : sProp 𝕄) :=
      Dec3.exit3 (Fold.V11 m) c (V12 m c) (V12_out m c) (V12_of_ne m c main_v72 (by decide))
    ihave Ha' := hex $$ Ha
    imodintro
    isplitl [Ha' Hrest HY]
    · isplitl [Ha' Hrest]
      · iapply hjoin'
        isplitl [Ha']; · iexact Ha'
        iexact Hrest
      iexact HY
    unfold Pipeline.Dat.owesAt Pipeline.owesWithin
    icases HO with ⟨%W, -, HO⟩; iexists W; iexact HO

/-! ## @main as segments, and the launch -/

/-- @main's twelve segments in order: a host segment per stretch from its boundary's contents, a region per call. -/
abbrev segs : List (Pipeline.Seg (pcfgs (F := F)) adm (Fold.pdats m) () defs₀ 𝒱₀ L lv) :=
  [ .host (hseg hostOps0 hostOps0_sub hostOps0_fresh (Fold.W0 m)),
    .host (hseg hostOps0_1 hostOps0_1_sub hostOps0_1_fresh (Fold.W1 m)),
    .host (hseg hostOps0_2 hostOps0_2_sub hostOps0_2_fresh (Fold.W2 m)),
    .region (reg0 m),
    .host (hseg hostOps1 hostOps1_sub hostOps1_fresh (Fold.W4 m)),
    .region (reg1 m),
    .host (hseg hostOps2 hostOps2_sub hostOps2_fresh (Fold.W6 m)),
    .region (reg2 m),
    .host (hseg hostOps3 hostOps3_sub hostOps3_fresh (Fold.W8 m)),
    .host (hseg hostOps3_1 hostOps3_1_sub hostOps3_1_fresh (Fold.W9 m)),
    .host (hseg hostOps3_2 hostOps3_2_sub hostOps3_2_fresh (Fold.W10 m)),
    .region (reg3 m) ]

set_option backward.isDefEq.respectTransparency.types false in
/-- THE RUN. From any memory with zero counters and any generator registers, every weakly fair execution of @main on
    the TensorCores terminates, nothing faulting, and every final memory holds, on every core, each unscoped buffer at
    the fold's last contents `Fold.W12`: the launch over the twelve segments, whose thread states chain by name, the
    last one read against the final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Fold.W12 m c b) :=
  Pipeline.θ_run_regions_kit (pcfgs (F := F)) adm (Fold.pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Fold.W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Fold.W0 m c)
        from Pipeline.unscopedBufs_held c (Fold.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Fold.W12 m c b)
    (hfin := fun c s' => by
      iintro ⟨⟨Hh, -⟩, HSI⟩
      unfold StableHlo.held
      imodintro
      iapply (pointsTo_read_all (Pipeline.ucRefs τ sig) (fun b => (((c : Thread nD τ)).1, b)) (Fold.W12 m c) s')
      isplitl [Hh] <;> iassumption)
    (hQ := fun _ h => h)

/-- THE FRAME, at any float model: every weakly fair execution of @main terminates, nothing faulting, and every final
    memory holds each of the ten argument arrays as launched: the run's last contents read at each argument, which no
    item changes. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (Q := fun r => ∀ c : Dev nD, ∀ b ∈ Pipeline.ucRefs τ sig, r.2.mem (((c : Thread nD τ)).1, b) = Fold.W12 m c b) (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c)⟩) (run_all m ρ)

end Cert.KernelIdeal.Run

end
-- ==== Proof.Kernel_Gcn0.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gcn0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 3 = 0 :=
  (by decide +kernel : ∀ t : Fin grid0.N, cond0 (grid0.coords t) ↔ t.val % 3 = 0)
/-- The body's second conditional: the contraction block is the last. -/
abbrev cond1 (i : grid0.Coords) : Prop := k0_cond2 i = 1#1
theorem hcond1 : ∀ t : Fin cfg0.N, cond1 (grid0.coords t) ↔ t.val % 3 = 2 :=
  (by decide +kernel : ∀ t : Fin grid0.N, cond1 (grid0.coords t) ↔ t.val % 3 = 2)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output's block is stored at the last contraction block only: elsewhere the window is idle and not written back. -/
theorem idle3 : ∀ t : Fin cfg0.N, ¬ t.val % 3 = 2 → cfg0.idle 3 (grid0.coords t) = true := by decide +kernel
theorem noFlush3 : ∀ t : Fin cfg0.N, ¬ t.val % 3 = 2 → (cfg0.win 3).flush t = false := by decide +kernel
theorem live3 : ∀ t : Fin cfg0.N, t.val % 3 = 2 → cfg0.idle 3 (grid0.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x16 := Rect.unit (s := S2048x16) ![0, 0] S2048x16.size inb_S2048x16_S2048x16_0_0

/-- The whole-buffer rectangle holds every index. -/
theorem mem_rS (y : S2048x16.Idx) : y ∈ rS.set := by
  obtain ⟨pc, hpc, hy⟩ := View.cover_of_tiled ([⟨rS, fun _ => ()⟩] : List (View.Piece (fun _ => Unit) S2048x16 .f32)) S2048x16.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x16 .f32) (f : v.ty.Contents (Elt F)) (w : Vec F S2048x16 .f32)
    (L : List (View.Piece (Elt F) S2048x16 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x16 .bf16) (f : v.ty.Contents (Elt F)) (w : Vec F S2048x16 .bf16)
    (L : List (View.Piece (Elt F) S2048x16 .bf16)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x16 := Rect.unit (s := S4096x16) ![0, 0] S4096x16.size inb_S4096x16_S4096x16_0_0
abbrev rB : Rect S16 := Rect.unit (s := S16) ![0] S16.size inb_S16_S16_0

/-- A load through a whole-buffer rectangle reads the contents. -/
theorem ldS (X : Vec F S2048x16 .f32) : View.ld X rS = X := View.ld_unit_zero (S := S2048x16) off2 _ X
theorem ldA (X : Vec F S2048x4096 .bf16) : View.ld X rA = X := View.ld_unit_zero (S := S2048x4096) off2 _ X
theorem ldH (X : Vec F S4096x16 .bf16) : View.ld X rH = X := View.ld_unit_zero (S := S4096x16) off2 _ X
theorem ldB (X : Vec F S16 .f32) : View.ld X rB = X := View.ld_unit_zero (S := S16) off1 _ X
/-- A load of the whole buffer after one whole-buffer store reads the stored value. -/
theorem covS {κ : Kind} {sp : Space} (v : View sig κ sp S2048x16 .f32) (w : Vec F S2048x16 .f32) :
    v.readCov [⟨rS, w⟩] rS.toLoadRect = w := View.readCov_unit_zero (S := S2048x16) v off2 _ w

theorem pay2_congr {a a' : Vec F S2048x16 .f32} {b b' : Vec F S2048x4096 .bf16} {d d' : Vec F S4096x16 .bf16}
    (ha : a = a') (hb : b = b') (hd : d = d') : k0_pay2 a b d = k0_pay2 a' b' d' := by subst ha hb hd; rfl
theorem pay3_congr {a a' : Vec F S2048x16 .f32} {b b' : Vec F S16 .f32}
    (ha : a = a') (hb : b = b') : k0_pay3 a b = k0_pay3 a' b' := by subst ha hb; rfl

section Runs

variable (c : Dev nD) (i : grid0.Coords)
  (arg2 : Memref sig .tc .vmem S2048x4096 .bf16) (harg2 : arg2.IsWhole) (arg3 : Memref sig .tc .vmem S4096x16 .bf16) (harg3 : arg3.IsWhole)
  (arg4 : Memref sig .tc .vmem S16 .f32) (harg4 : arg4.IsWhole) (arg5 : Memref sig .tc .vmem S2048x16 .bf16) (harg5 : arg5.IsWhole)
  (arg6 : Memref sig .tc .vmem S2048x16 .f32) (harg6 : arg6.IsWhole)
  (x0 : Vec F S2048x4096 .bf16) (x1 : Vec F S4096x16 .bf16) (xb : Vec F S16 .f32) (xo : Vec F S2048x16 .bf16)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k0_pay2 k0_pay1 x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k0_pay2 xs x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x16 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k0_pay3 (k0_pay2 xs x0 x1) xb) ∗ owns (c : Thread nD τ) arg6 fullShare (k0_pay2 xs x0 x1)) -∗ K ⟨⟩))
      ⊢ wp frame (wpE (defs₀ (F := F)) Variants.none c none) E (cc0__gcn_kernel i arg2 harg2 arg3 harg3 arg4 harg4 arg5 harg5 arg6 harg6) K := by
  simp only [cc0__gcn_kernel_eq_skeleton]; unfold cc0__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The adjacency block, the projected-feature block and the bias at point `t`, at their literal types. -/
abbrev ablk (c : Dev nD) (t : Fin cfg0.N) : Vec F S2048x4096 .bf16 := iblk0 V c 0 t
abbrev hblk (c : Dev nD) (t : Fin cfg0.N) : Vec F S4096x16 .bf16 := iblk0 V c 1 t
abbrev bblk (c : Dev nD) (t : Fin cfg0.N) : Vec F S16 .f32 := iblk0 V c 2 t

/-- One point's step on the scratch: over zero at the first contraction block, over what it held otherwise. -/
def step0 (c : Dev nD) (t : Fin cfg0.N) (prev : Vec F S2048x16 .f32) : Vec F S2048x16 .f32 :=
  k0_pay2 (if t.val % 3 = 0 then k0_pay1 else prev) (ablk V c t) (hblk V c t)

/-- THE ACCUMULATION: what the scratch holds before point `n` (after point `n - 1`); before the first point nothing is
    known of it, and the value given there is never read. -/
def acc0 (c : Dev nD) : ℕ → Vec F S2048x16 .f32
  | 0 => k0_pay1
  | n + 1 => if h : n < cfg0.N then step0 V c ⟨n, h⟩ (acc0 c n) else acc0 c n

theorem acc0_succ (c : Dev nD) (t : Fin cfg0.N) : acc0 V c (t.val + 1) = step0 V c t (acc0 V c t.val) := by
  rw [acc0]; exact dif_pos t.isLt

/-- What the last contraction block stores into the output's buffer (the value named at every point; it is the
    buffer's only where the window is live). -/
def out0 (c : Dev nD) (t : Fin cfg0.N) : Vec F S2048x16 .bf16 := k0_pay3 (acc0 V c (t.val + 1)) (bblk V c t)

/-- The scratch as a memref, and every other scoped buffer that is no staging buffer of this call. -/
abbrev scM : Memref sig .tc .vmem S2048x16 .f32 := Memref.whole cc0_scratch0
abbrev restBut (c : Dev nD) : sProp 𝕄 :=
  Pipeline.scopedRestBut (Ix := Unit) (Name := ℕ) (U := UR sig nD τ) (Lvl := ℕ) (Val := Elt F) spec0 c [cc0_scratch0]

/-- The region invariant before position `n`: the scratch at the accumulation (at anything before the first point),
    the other scoped buffers at anything, the generator register at some state. -/
def Phi0 (c : Dev nD) (n : ℕ) : sProp 𝕄 :=
  iprop((∃ d, ⌜n ≠ 0 → d = acc0 V c n⌝ ∗ owns (c : Thread nD τ) scM fullShare d) ∗ restBut c ∗ ∃ r, prngReg c r)

/-- The class invariant with the scratch split off. -/
theorem PhiA0_eq (c : Dev nD) :
    (Pipeline.ΦA spec0 c : sProp 𝕄) = iprop(((∃ d, owns (c : Thread nD τ) scM fullShare d) ∗ restBut c) ∗ ∃ r, prngReg c r) := by
  unfold Pipeline.ΦA
  rw [Pipeline.scopedRest_split_of_list spec0 c [cc0_scratch0] (by decide) (by decide)]
  simp only [bigSepL_singleton, scM, owns_whole]; try rfl

/-- The proof data on core `c`: the arrays as the region finds them; after the body each input's buffer at its block,
    the output's at `out0`; the invariant `Phi0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 V c t
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the inputs' buffers hold their blocks; the point's contraction block says which case it is
    in; the invariant hands the body the scratch at the accumulation so far and takes it back one step on. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) from rfl,
    show (dat0 V c).Φ t.castSucc = Phi0 V c t.val from rfl,
    show (dat0 V c).leavesExact 0 t = owns (c : Thread nD τ) (st0_0 t) fullShare ((dat0 V c).after 0 t) from by
      unfold Dat.leavesExact; rw [live0 t],
    show (dat0 V c).leavesExact 1 t = owns (c : Thread nD τ) (st0_1 t) fullShare ((dat0 V c).after 1 t) from by
      unfold Dat.leavesExact; rw [live1 t],
    show (dat0 V c).leavesExact 2 t = owns (c : Thread nD τ) (st0_2 t) fullShare ((dat0 V c).after 2 t) from by
      unfold Dat.leavesExact; rw [live2 t],
    after0_0, after0_1, after0_2]
  unfold Phi0
  by_cases h0 : t.val % 3 = 0
  · have h1 : ¬ t.val % 3 = 2 := by omega
    have hacc : acc0 V c (t.val + 1) = k0_pay2 k0_pay1 (ablk V c t) (hblk V c t) := by
      rw [acc0_succ]; unfold step0; rw [if_pos h0]
    rw [Dat.leavesExact_idle (dat0 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid0.coords t) _ _ _ _ _ _ _ _ (Memref.whole cc0_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc0 V c (t.val + 1) = k0_pay2 (acc0 V c t.val) (ablk V c t) (hblk V c t) := by
      rw [acc0_succ]; unfold step0; rw [if_neg h0]
    by_cases h1 : t.val % 3 = 2
    · rw [show (dat0 V c).leavesExact 3 t = owns (c : Thread nD τ) (st0_3 t) fullShare ((dat0 V c).after 3 t) from by
        unfold Dat.leavesExact; rw [live3 t h1], after0_3]
      unfold out0
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid0.coords t) _ _ _ _ _ _ _ _ (Memref.whole cc0_scratch0) (Memref.isWhole_whole _)
        (ablk V c t) (hblk V c t) (bblk V c t) (fun h => h0 ((hcond0 t).mp h)) ((hcond1 t).mpr h1) (acc0 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat0 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid0.coords t) _ _ _ _ _ _ _ _ (Memref.whole cc0_scratch0) (Memref.isWhole_whole _)
        (ablk V c t) (hblk V c t) (bblk V c t) _ (fun h => h0 ((hcond0 t).mp h)) (fun h => h1 ((hcond1 t).mp h)) (acc0 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = Phi0 V c 0 from rfl, PhiA0_eq]; unfold Phi0
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout0 (c : Dev nD) : (dat0 V c).Φ (Fin.last cfg0.N) ⊢ Pipeline.ΦA spec0 c := by
  rw [show (dat0 V c).Φ (Fin.last cfg0.N) = Phi0 V c cfg0.N from rfl, PhiA0_eq]; unfold Phi0
  iintro ⟨⟨%d, -, HS⟩, HR, Hg⟩
  isplitr [Hg]
  · isplitl [HS]; · iexists d; iexact HS
    iexact HR
  iexact Hg

end Data

end Cert.Kernel.Gcn0

end
-- ==== Proof.Kernel_Gcn1.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gcn1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 3 = 0 :=
  (by decide +kernel : ∀ t : Fin grid1.N, cond0 (grid1.coords t) ↔ t.val % 3 = 0)
/-- The body's second conditional: the contraction block is the last. -/
abbrev cond1 (i : grid1.Coords) : Prop := k1_cond2 i = 1#1
theorem hcond1 : ∀ t : Fin cfg1.N, cond1 (grid1.coords t) ↔ t.val % 3 = 2 :=
  (by decide +kernel : ∀ t : Fin grid1.N, cond1 (grid1.coords t) ↔ t.val % 3 = 2)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- The output's block is stored at the last contraction block only: elsewhere the window is idle and not written back. -/
theorem idle3 : ∀ t : Fin cfg1.N, ¬ t.val % 3 = 2 → cfg1.idle 3 (grid1.coords t) = true := by decide +kernel
theorem noFlush3 : ∀ t : Fin cfg1.N, ¬ t.val % 3 = 2 → (cfg1.win 3).flush t = false := by decide +kernel
theorem live3 : ∀ t : Fin cfg1.N, t.val % 3 = 2 → cfg1.idle 3 (grid1.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x8 := Rect.unit (s := S2048x8) ![0, 0] S2048x8.size inb_S2048x8_S2048x8_0_0

/-- The whole-buffer rectangle holds every index. -/
theorem mem_rS (y : S2048x8.Idx) : y ∈ rS.set := by
  obtain ⟨pc, hpc, hy⟩ := View.cover_of_tiled ([⟨rS, fun _ => ()⟩] : List (View.Piece (fun _ => Unit) S2048x8 .f32)) S2048x8.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x8 .f32) (f : v.ty.Contents (Elt F)) (w : Vec F S2048x8 .f32)
    (L : List (View.Piece (Elt F) S2048x8 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x8 .bf16) (f : v.ty.Contents (Elt F)) (w : Vec F S2048x8 .bf16)
    (L : List (View.Piece (Elt F) S2048x8 .bf16)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x8 := Rect.unit (s := S4096x8) ![0, 0] S4096x8.size inb_S4096x8_S4096x8_0_0
abbrev rB : Rect S8 := Rect.unit (s := S8) ![0] S8.size inb_S8_S8_0

/-- A load through a whole-buffer rectangle reads the contents. -/
theorem ldS (X : Vec F S2048x8 .f32) : View.ld X rS = X := View.ld_unit_zero (S := S2048x8) off2 _ X
theorem ldA (X : Vec F S2048x4096 .bf16) : View.ld X rA = X := View.ld_unit_zero (S := S2048x4096) off2 _ X
theorem ldH (X : Vec F S4096x8 .bf16) : View.ld X rH = X := View.ld_unit_zero (S := S4096x8) off2 _ X
theorem ldB (X : Vec F S8 .f32) : View.ld X rB = X := View.ld_unit_zero (S := S8) off1 _ X
/-- A load of the whole buffer after one whole-buffer store reads the stored value. -/
theorem covS {κ : Kind} {sp : Space} (v : View sig κ sp S2048x8 .f32) (w : Vec F S2048x8 .f32) :
    v.readCov [⟨rS, w⟩] rS.toLoadRect = w := View.readCov_unit_zero (S := S2048x8) v off2 _ w

theorem pay2_congr {a a' : Vec F S2048x8 .f32} {b b' : Vec F S2048x4096 .bf16} {d d' : Vec F S4096x8 .bf16}
    (ha : a = a') (hb : b = b') (hd : d = d') : k1_pay2 a b d = k1_pay2 a' b' d' := by subst ha hb hd; rfl
theorem pay3_congr {a a' : Vec F S2048x8 .f32} {b b' : Vec F S8 .f32}
    (ha : a = a') (hb : b = b') : k1_pay3 a b = k1_pay3 a' b' := by subst ha hb; rfl

section Runs

variable (c : Dev nD) (i : grid1.Coords)
  (arg2 : Memref sig .tc .vmem S2048x4096 .bf16) (harg2 : arg2.IsWhole) (arg3 : Memref sig .tc .vmem S4096x8 .bf16) (harg3 : arg3.IsWhole)
  (arg4 : Memref sig .tc .vmem S8 .f32) (harg4 : arg4.IsWhole) (arg5 : Memref sig .tc .vmem S2048x8 .bf16) (harg5 : arg5.IsWhole)
  (arg6 : Memref sig .tc .vmem S2048x8 .f32) (harg6 : arg6.IsWhole)
  (x0 : Vec F S2048x4096 .bf16) (x1 : Vec F S4096x8 .bf16) (xb : Vec F S8 .f32) (xo : Vec F S2048x8 .bf16)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k1_pay2 k1_pay1 x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x8 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k1_pay2 xs x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x8 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k1_pay3 (k1_pay2 xs x0 x1) xb) ∗ owns (c : Thread nD τ) arg6 fullShare (k1_pay2 xs x0 x1)) -∗ K ⟨⟩))
      ⊢ wp frame (wpE (defs₀ (F := F)) Variants.none c none) E (cc1__gcn_kernel i arg2 harg2 arg3 harg3 arg4 harg4 arg5 harg5 arg6 harg6) K := by
  simp only [cc1__gcn_kernel_eq_skeleton]; unfold cc1__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The adjacency block, the projected-feature block and the bias at point `t`, at their literal types. -/
abbrev ablk (c : Dev nD) (t : Fin cfg1.N) : Vec F S2048x4096 .bf16 := iblk1 V c 0 t
abbrev hblk (c : Dev nD) (t : Fin cfg1.N) : Vec F S4096x8 .bf16 := iblk1 V c 1 t
abbrev bblk (c : Dev nD) (t : Fin cfg1.N) : Vec F S8 .f32 := iblk1 V c 2 t

/-- One point's step on the scratch: over zero at the first contraction block, over what it held otherwise. -/
def step1 (c : Dev nD) (t : Fin cfg1.N) (prev : Vec F S2048x8 .f32) : Vec F S2048x8 .f32 :=
  k1_pay2 (if t.val % 3 = 0 then k1_pay1 else prev) (ablk V c t) (hblk V c t)

/-- THE ACCUMULATION: what the scratch holds before point `n` (after point `n - 1`); before the first point nothing is
    known of it, and the value given there is never read. -/
def acc1 (c : Dev nD) : ℕ → Vec F S2048x8 .f32
  | 0 => k1_pay1
  | n + 1 => if h : n < cfg1.N then step1 V c ⟨n, h⟩ (acc1 c n) else acc1 c n

theorem acc1_succ (c : Dev nD) (t : Fin cfg1.N) : acc1 V c (t.val + 1) = step1 V c t (acc1 V c t.val) := by
  rw [acc1]; exact dif_pos t.isLt

/-- What the last contraction block stores into the output's buffer (the value named at every point; it is the
    buffer's only where the window is live). -/
def out1 (c : Dev nD) (t : Fin cfg1.N) : Vec F S2048x8 .bf16 := k1_pay3 (acc1 V c (t.val + 1)) (bblk V c t)

/-- The scratch as a memref, and every other scoped buffer that is no staging buffer of this call. -/
abbrev scM : Memref sig .tc .vmem S2048x8 .f32 := Memref.whole cc1_scratch0
abbrev restBut (c : Dev nD) : sProp 𝕄 :=
  Pipeline.scopedRestBut (Ix := Unit) (Name := ℕ) (U := UR sig nD τ) (Lvl := ℕ) (Val := Elt F) spec1 c [cc1_scratch0]

/-- The region invariant before position `n`: the scratch at the accumulation (at anything before the first point),
    the other scoped buffers at anything, the generator register at some state. -/
def Phi1 (c : Dev nD) (n : ℕ) : sProp 𝕄 :=
  iprop((∃ d, ⌜n ≠ 0 → d = acc1 V c n⌝ ∗ owns (c : Thread nD τ) scM fullShare d) ∗ restBut c ∗ ∃ r, prngReg c r)

/-- The class invariant with the scratch split off. -/
theorem PhiA1_eq (c : Dev nD) :
    (Pipeline.ΦA spec1 c : sProp 𝕄) = iprop(((∃ d, owns (c : Thread nD τ) scM fullShare d) ∗ restBut c) ∗ ∃ r, prngReg c r) := by
  unfold Pipeline.ΦA
  rw [Pipeline.scopedRest_split_of_list spec1 c [cc1_scratch0] (by decide) (by decide)]
  simp only [bigSepL_singleton, scM, owns_whole]; try rfl

/-- The proof data on core `c`: the arrays as the region finds them; after the body each input's buffer at its block,
    the output's at `out1`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4000000 in
/-- The body at any point: the inputs' buffers hold their blocks; the point's contraction block says which case it is
    in; the invariant hands the body the scratch at the accumulation so far and takes it back one step on. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from by
      unfold Dat.leavesExact; rw [live0 t],
    show (dat1 V c).leavesExact 1 t = owns (c : Thread nD τ) (st1_1 t) fullShare ((dat1 V c).after 1 t) from by
      unfold Dat.leavesExact; rw [live1 t],
    show (dat1 V c).leavesExact 2 t = owns (c : Thread nD τ) (st1_2 t) fullShare ((dat1 V c).after 2 t) from by
      unfold Dat.leavesExact; rw [live2 t],
    after1_0, after1_1, after1_2]
  unfold Phi1
  by_cases h0 : t.val % 3 = 0
  · have h1 : ¬ t.val % 3 = 2 := by omega
    have hacc : acc1 V c (t.val + 1) = k1_pay2 k1_pay1 (ablk V c t) (hblk V c t) := by
      rw [acc1_succ]; unfold step1; rw [if_pos h0]
    rw [Dat.leavesExact_idle (dat1 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid1.coords t) _ _ _ _ _ _ _ _ (Memref.whole cc1_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc1 V c (t.val + 1) = k1_pay2 (acc1 V c t.val) (ablk V c t) (hblk V c t) := by
      rw [acc1_succ]; unfold step1; rw [if_neg h0]
    by_cases h1 : t.val % 3 = 2
    · rw [show (dat1 V c).leavesExact 3 t = owns (c : Thread nD τ) (st1_3 t) fullShare ((dat1 V c).after 3 t) from by
        unfold Dat.leavesExact; rw [live3 t h1], after1_3]
      unfold out1
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid1.coords t) _ _ _ _ _ _ _ _ (Memref.whole cc1_scratch0) (Memref.isWhole_whole _)
        (ablk V c t) (hblk V c t) (bblk V c t) (fun h => h0 ((hcond0 t).mp h)) ((hcond1 t).mpr h1) (acc1 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat1 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid1.coords t) _ _ _ _ _ _ _ _ (Memref.whole cc1_scratch0) (Memref.isWhole_whole _)
        (ablk V c t) (hblk V c t) (bblk V c t) _ (fun h => h0 ((hcond0 t).mp h)) (fun h => h1 ((hcond1 t).mp h)) (acc1 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 from rfl, PhiA1_eq]; unfold Phi1
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout1 (c : Dev nD) : (dat1 V c).Φ (Fin.last cfg1.N) ⊢ Pipeline.ΦA spec1 c := by
  rw [show (dat1 V c).Φ (Fin.last cfg1.N) = Phi1 V c cfg1.N from rfl, PhiA1_eq]; unfold Phi1
  iintro ⟨⟨%d, -, HS⟩, HR, Hg⟩
  isplitr [Hg]
  · isplitl [HS]; · iexists d; iexact HS
    iexact HR
  iexact Hg

end Data

end Cert.Kernel.Gcn1

end
-- ==== Proof.Kernel_Gcn2.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Gcn2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The first aggregation call at the contents the region is entered from

Grid point `t` of the 6 × 3 grid is row block `t / 3` and contraction block `t % 3`. The scratch carries the
row block's partial sum: zero before contraction block 0, plus the block product at every point; after contraction
block 2 the bias is added, the result clipped at zero from below and stored into the output's block. -/

/-! ## The two conditionals, decided over the grid -/

/-- The body's first conditional: the contraction block is the first. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 3 = 0 :=
  (by decide +kernel : ∀ t : Fin grid2.N, cond0 (grid2.coords t) ↔ t.val % 3 = 0)
/-- The body's second conditional: the contraction block is the last. -/
abbrev cond1 (i : grid2.Coords) : Prop := k2_cond2 i = 1#1
theorem hcond1 : ∀ t : Fin cfg2.N, cond1 (grid2.coords t) ↔ t.val % 3 = 2 :=
  (by decide +kernel : ∀ t : Fin grid2.N, cond1 (grid2.coords t) ↔ t.val % 3 = 2)

/-! ## Where the windows are idle -/

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
/-- The output's block is stored at the last contraction block only: elsewhere the window is idle and not written back. -/
theorem idle3 : ∀ t : Fin cfg2.N, ¬ t.val % 3 = 2 → cfg2.idle 3 (grid2.coords t) = true := by decide +kernel
theorem noFlush3 : ∀ t : Fin cfg2.N, ¬ t.val % 3 = 2 → (cfg2.win 3).flush t = false := by decide +kernel
theorem live3 : ∀ t : Fin cfg2.N, t.val % 3 = 2 → cfg2.idle 3 (grid2.coords t) = false := by decide +kernel

/-! ## The body on any staging memrefs, case by case -/

/-- The whole-buffer rectangles' offsets are zero. -/
theorem off2 : (![0, 0] : Fin 2 → ℕ) = fun _ => 0 := funext fun a => by fin_cases a <;> rfl
theorem off1 : (![0] : Fin 1 → ℕ) = fun _ => 0 := funext fun a => by fin_cases a <;> rfl

abbrev rS : Rect S2048x256 := Rect.unit (s := S2048x256) ![0, 0] S2048x256.size inb_S2048x256_S2048x256_0_0

/-- The whole-buffer rectangle holds every index. -/
theorem mem_rS (y : S2048x256.Idx) : y ∈ rS.set := by
  obtain ⟨pc, hpc, hy⟩ := View.cover_of_tiled ([⟨rS, fun _ => ()⟩] : List (View.Piece (fun _ => Unit) S2048x256 .f32)) S2048x256.size (by rfl) y
  rw [List.mem_singleton] at hpc; subst hpc; exact hy

/-- A store through the whole-buffer rectangle, LAST, leaves its payload: whatever the buffer held and whatever
    was stored before. -/
theorem read_last_f32 {κ : Kind} {sp : Space} (v : View sig κ sp S2048x256 .f32) (f : v.ty.Contents (Elt F)) (w : Vec F S2048x256 .f32)
    (L : List (View.Piece (Elt F) S2048x256 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]
theorem read_last_bf16 {κ : Kind} {sp : Space} (v : View sig κ sp S2048x256 .f32) (f : v.ty.Contents (Elt F)) (w : Vec F S2048x256 .f32)
    (L : List (View.Piece (Elt F) S2048x256 .f32)) : v.read (Elt F) (v.writes (Elt F) f (⟨rS, w⟩ :: L)) = w := by
  rw [View.read_writes_eq_canon _ _ _ (fun y => ⟨⟨rS, w⟩, List.mem_cons_self, mem_rS y⟩), View.canon_cons_unit_zero off2]

abbrev rA : Rect S2048x4096 := Rect.unit (s := S2048x4096) ![0, 0] S2048x4096.size inb_S2048x4096_S2048x4096_0_0
abbrev rH : Rect S4096x256 := Rect.unit (s := S4096x256) ![0, 0] S4096x256.size inb_S4096x256_S4096x256_0_0
abbrev rB : Rect S256 := Rect.unit (s := S256) ![0] S256.size inb_S256_S256_0

/-- A load through a whole-buffer rectangle reads the contents. -/
theorem ldS (X : Vec F S2048x256 .f32) : View.ld X rS = X := View.ld_unit_zero (S := S2048x256) off2 _ X
theorem ldA (X : Vec F S2048x4096 .bf16) : View.ld X rA = X := View.ld_unit_zero (S := S2048x4096) off2 _ X
theorem ldH (X : Vec F S4096x256 .bf16) : View.ld X rH = X := View.ld_unit_zero (S := S4096x256) off2 _ X
theorem ldB (X : Vec F S256 .f32) : View.ld X rB = X := View.ld_unit_zero (S := S256) off1 _ X
/-- A load of the whole buffer after one whole-buffer store reads the stored value. -/
theorem covS {κ : Kind} {sp : Space} (v : View sig κ sp S2048x256 .f32) (w : Vec F S2048x256 .f32) :
    v.readCov [⟨rS, w⟩] rS.toLoadRect = w := View.readCov_unit_zero (S := S2048x256) v off2 _ w

theorem pay2_congr {a a' : Vec F S2048x256 .f32} {b b' : Vec F S2048x4096 .bf16} {d d' : Vec F S4096x256 .bf16}
    (ha : a = a') (hb : b = b') (hd : d = d') : k2_pay2 a b d = k2_pay2 a' b' d' := by subst ha hb hd; rfl
theorem pay3_congr {a a' : Vec F S2048x256 .f32} {b b' : Vec F S256 .f32}
    (ha : a = a') (hb : b = b') : k2_pay3 a b = k2_pay3 a' b' := by subst ha hb; rfl

section Runs

variable (c : Dev nD) (i : grid2.Coords)
  (arg2 : Memref sig .tc .vmem S2048x4096 .bf16) (harg2 : arg2.IsWhole) (arg3 : Memref sig .tc .vmem S4096x256 .bf16) (harg3 : arg3.IsWhole)
  (arg4 : Memref sig .tc .vmem S256 .f32) (harg4 : arg4.IsWhole) (arg5 : Memref sig .tc .vmem S2048x256 .f32) (harg5 : arg5.IsWhole)
  (arg6 : Memref sig .tc .vmem S2048x256 .f32) (harg6 : arg6.IsWhole)
  (x0 : Vec F S2048x4096 .bf16) (x1 : Vec F S4096x256 .bf16) (xb : Vec F S256 .f32) (xo : Vec F S2048x256 .f32)

set_option maxHeartbeats 1000000 in
/-- FIRST contraction block: the scratch, whatever it held, is zeroed and then holds the block product over zero;
    the output's buffer is handed back untouched. -/
theorem run_first (hc0 : cond0 i) (hc1 : ¬cond1 i) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k2_pay2 k2_pay1 x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%fo, %hfo, HO⟩, ⟨%ds, %fs, -, HS⟩, Hk⟩
  subst hf0 hf1 hfb hfo
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (covS _ _) (ldA _) (ldH _))

set_option maxHeartbeats 1000000 in
/-- A MIDDLE contraction block: the scratch takes the block product over what it held. -/
theorem run_mid (hc0 : ¬cond0 i) (hc1 : ¬cond1 i) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare xb
        ∗ owns (c : Thread nD τ) arg5 fullShare xo ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare xo ∗ owns (c : Thread nD τ) arg6 fullShare (k2_pay2 xs x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%fo, %hfo, HO⟩, ⟨%fs, %hfs, HS⟩, Hk⟩
  subst hf0 hf1 hfb hfo hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]; · iexists fo; isplitr; · ipureintro; rfl
                  iexact HO
  iexists _; isplitr
  swap; · iexact HS
  ipureintro
  sl_unfold_words
  exact (read_last_f32 _ _ _ _).trans (pay2_congr (ldS _) (ldA _) (ldH _))

set_option maxHeartbeats 1000000 in
/-- The LAST contraction block: the scratch takes the block product over what it held, and the output's buffer the
    finished block: bias added, clipped at zero from below. -/
theorem run_last (hc0 : ¬cond0 i) (hc1 : cond1 i) (xs : Vec F S2048x256 .f32) (E : Set ℕ) (K : PUnit → sProp 𝕄) :
    iprop(owns (c : Thread nD τ) arg2 fullShare x0 ∗ owns (c : Thread nD τ) arg3 fullShare x1 ∗ owns (c : Thread nD τ) arg4 fullShare xb
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare xb
            ∗ owns (c : Thread nD τ) arg5 fullShare (k2_pay3 (k2_pay2 xs x0 x1) xb) ∗ owns (c : Thread nD τ) arg6 fullShare (k2_pay2 xs x0 x1)) -∗ K ⟨⟩))
      ⊢ wp frame (wpE (defs₀ (F := F)) Variants.none c none) E (cc2__gcn_kernel i arg2 harg2 arg3 harg3 arg4 harg4 arg5 harg5 arg6 harg6) K := by
  simp only [cc2__gcn_kernel_eq_skeleton]; unfold cc2__gcn_kernel_skel
  unfold owns
  iintro ⟨⟨%f0, %hf0, H0⟩, ⟨%f1, %hf1, H1⟩, ⟨%fb, %hfb, HB⟩, ⟨%do_, %fo, -, HO⟩, ⟨%fs, %hfs, HS⟩, Hk⟩
  subst hf0 hf1 hfb hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [HB]; · iexists fb; isplitr; · ipureintro; rfl
                  iexact HB
  isplitl [HO]
  · iexists _; isplitr
    swap; · iexact HO
    ipureintro
    sl_unfold_words
    exact (read_last_bf16 _ _ _ _).trans (pay3_congr ((covS _ _).trans (pay2_congr (ldS _) (ldA _) (ldH _))) (ldB _))
  iexists _; isplitr
  swap; · iexact HS
  ipureintro
  sl_unfold_words
  exact (read_last_f32 _ _ _ _).trans (pay2_congr (ldS _) (ldA _) (ldH _))

end Runs

/-! ## The proof data at the contents the region is entered from -/

section Data

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The adjacency block, the projected-feature block and the bias at point `t`, at their literal types. -/
abbrev ablk (c : Dev nD) (t : Fin cfg2.N) : Vec F S2048x4096 .bf16 := iblk2 V c 0 t
abbrev hblk (c : Dev nD) (t : Fin cfg2.N) : Vec F S4096x256 .bf16 := iblk2 V c 1 t
abbrev bblk (c : Dev nD) (t : Fin cfg2.N) : Vec F S256 .f32 := iblk2 V c 2 t

/-- One point's step on the scratch: over zero at the first contraction block, over what it held otherwise. -/
def step2 (c : Dev nD) (t : Fin cfg2.N) (prev : Vec F S2048x256 .f32) : Vec F S2048x256 .f32 :=
  k2_pay2 (if t.val % 3 = 0 then k2_pay1 else prev) (ablk V c t) (hblk V c t)

/-- THE ACCUMULATION: what the scratch holds before point `n` (after point `n - 1`); before the first point nothing is
    known of it, and the value given there is never read. -/
def acc2 (c : Dev nD) : ℕ → Vec F S2048x256 .f32
  | 0 => k2_pay1
  | n + 1 => if h : n < cfg2.N then step2 V c ⟨n, h⟩ (acc2 c n) else acc2 c n

theorem acc2_succ (c : Dev nD) (t : Fin cfg2.N) : acc2 V c (t.val + 1) = step2 V c t (acc2 V c t.val) := by
  rw [acc2]; exact dif_pos t.isLt

/-- What the last contraction block stores into the output's buffer (the value named at every point; it is the
    buffer's only where the window is live). -/
def out2 (c : Dev nD) (t : Fin cfg2.N) : Vec F S2048x256 .f32 := k2_pay3 (acc2 V c (t.val + 1)) (bblk V c t)

/-- The scratch as a memref, and every other scoped buffer that is no staging buffer of this call. -/
abbrev scM : Memref sig .tc .vmem S2048x256 .f32 := Memref.whole cc2_scratch0
abbrev restBut (c : Dev nD) : sProp 𝕄 :=
  Pipeline.scopedRestBut (Ix := Unit) (Name := ℕ) (U := UR sig nD τ) (Lvl := ℕ) (Val := Elt F) spec2 c [cc2_scratch0]

/-- The region invariant before position `n`: the scratch at the accumulation (at anything before the first point),
    the other scoped buffers at anything, the generator register at some state. -/
def Phi2 (c : Dev nD) (n : ℕ) : sProp 𝕄 :=
  iprop((∃ d, ⌜n ≠ 0 → d = acc2 V c n⌝ ∗ owns (c : Thread nD τ) scM fullShare d) ∗ restBut c ∗ ∃ r, prngReg c r)

/-- The class invariant with the scratch split off. -/
theorem PhiA2_eq (c : Dev nD) :
    (Pipeline.ΦA spec2 c : sProp 𝕄) = iprop(((∃ d, owns (c : Thread nD τ) scM fullShare d) ∗ restBut c) ∗ ∃ r, prngReg c r) := by
  unfold Pipeline.ΦA
  rw [Pipeline.scopedRest_split_of_list spec2 c [cc2_scratch0] (by decide) (by decide)]
  simp only [bigSepL_singleton, scM, owns_whole]; try rfl

/-- The proof data on core `c`: the arrays as the region finds them; after the body each input's buffer at its block,
    the output's at `out2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 V c t
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4000000 in
/-- The body at any point: the inputs' buffers hold their blocks; the point's contraction block says which case it is
    in; the invariant hands the body the scratch at the accumulation so far and takes it back one step on. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = Phi2 V c (t.val + 1) from rfl,
    show (dat2 V c).Φ t.castSucc = Phi2 V c t.val from rfl,
    show (dat2 V c).leavesExact 0 t = owns (c : Thread nD τ) (st2_0 t) fullShare ((dat2 V c).after 0 t) from by
      unfold Dat.leavesExact; rw [live0 t],
    show (dat2 V c).leavesExact 1 t = owns (c : Thread nD τ) (st2_1 t) fullShare ((dat2 V c).after 1 t) from by
      unfold Dat.leavesExact; rw [live1 t],
    show (dat2 V c).leavesExact 2 t = owns (c : Thread nD τ) (st2_2 t) fullShare ((dat2 V c).after 2 t) from by
      unfold Dat.leavesExact; rw [live2 t],
    after2_0, after2_1, after2_2]
  unfold Phi2
  by_cases h0 : t.val % 3 = 0
  · have h1 : ¬ t.val % 3 = 2 := by omega
    have hacc : acc2 V c (t.val + 1) = k2_pay2 k2_pay1 (ablk V c t) (hblk V c t) := by
      rw [acc2_succ]; unfold step2; rw [if_pos h0]
    rw [Dat.leavesExact_idle (dat2 V c) 3 t (idle3 t h1) (noFlush3 t h1), hacc]
    iintro ⟨⟨⟨%d, -, HS⟩, HR, Hg⟩, Ho, ⟨%d0, H0⟩, ⟨%d1, H1⟩, ⟨%d2, H2⟩, ⟨%d3, H3⟩⟩
    iapply (run_first c (grid2.coords t) _ _ _ _ _ _ _ _ (Memref.whole cc2_scratch0) (Memref.isWhole_whole _)
      (ablk V c t) (hblk V c t) (bblk V c t) _ ((hcond0 t).mpr h0) (fun h => h1 ((hcond1 t).mp h)) Set.univ _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [HS HR Hg]
    · isplitl [HS]
      · iexists _; isplitr
        swap; · iexact HS
        ipureintro; exact fun _ => rfl
      isplitl [HR]; · iexact HR
      iexact Hg
    isplitl [Ho]; · iexact Ho
    isplitl [H0]; · iexact H0
    isplitl [H1]; · iexact H1
    isplitl [H2]; · iexact H2
    iexists _; iexact H3
  · have hz : t.val ≠ 0 := by omega
    have hacc : acc2 V c (t.val + 1) = k2_pay2 (acc2 V c t.val) (ablk V c t) (hblk V c t) := by
      rw [acc2_succ]; unfold step2; rw [if_neg h0]
    by_cases h1 : t.val % 3 = 2
    · rw [show (dat2 V c).leavesExact 3 t = owns (c : Thread nD τ) (st2_3 t) fullShare ((dat2 V c).after 3 t) from by
        unfold Dat.leavesExact; rw [live3 t h1], after2_3]
      unfold out2
      rw [hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_last c (grid2.coords t) _ _ _ _ _ _ _ _ (Memref.whole cc2_scratch0) (Memref.isWhole_whole _)
        (ablk V c t) (hblk V c t) (bblk V c t) (fun h => h0 ((hcond0 t).mp h)) ((hcond1 t).mpr h1) (acc2 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexact H3
    · rw [Dat.leavesExact_idle (dat2 V c) 3 t (idle3 t h1) (noFlush3 t h1), hacc]
      iintro ⟨⟨⟨%d, %hd, HS⟩, HR, Hg⟩, Ho, ⟨%d0, H0⟩, ⟨%d1, H1⟩, ⟨%d2, H2⟩, ⟨%d3, H3⟩⟩
      have hd' := hd hz; subst hd'
      iapply (run_mid c (grid2.coords t) _ _ _ _ _ _ _ _ (Memref.whole cc2_scratch0) (Memref.isWhole_whole _)
        (ablk V c t) (hblk V c t) (bblk V c t) _ (fun h => h0 ((hcond0 t).mp h)) (fun h => h1 ((hcond1 t).mp h)) (acc2 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS]
        · iexists _; isplitr
          swap; · iexact HS
          ipureintro; exact fun _ => rfl
        isplitl [HR]; · iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 from rfl, PhiA2_eq]; unfold Phi2
  iintro ⟨⟨⟨%d, HS⟩, HR⟩, Hg⟩
  isplitl [HS]
  · iexists d; isplitr
    · ipureintro; exact fun h => absurd rfl h
    iexact HS
  isplitl [HR]; · iexact HR
  iexact Hg

/-- After the last point the invariant gives the class invariant back: the scratch's contents are forgotten. -/
theorem hout2 (c : Dev nD) : (dat2 V c).Φ (Fin.last cfg2.N) ⊢ Pipeline.ΦA spec2 c := by
  rw [show (dat2 V c).Φ (Fin.last cfg2.N) = Phi2 V c cfg2.N from rfl, PhiA2_eq]; unfold Phi2
  iintro ⟨⟨%d, -, HS⟩, HR, Hg⟩
  isplitr [Hg]
  · isplitl [HS]; · iexists d; iexact HS
    iexact HR
  iexact Hg

end Data

end Cert.Kernel.Gcn2

end
-- ==== Proof.Kernel_Dec3.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Dec3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The inner-product decoder call at the contents the region is entered from

Grid point `t` of the 6 × 6 grid is row block `t / 6` and column block `t % 6`. Both input windows read the SAME
array (the clipped structure embedding, 12288 × 8): window 0 its row block, window 1 its column block; the body
stores the product of the first with the transpose of the second into the output's 2048 × 2048 block. -/

/-! ## The body on any staging memrefs

The body reads the two input buffers whole, reads the output's buffer whole (a value it never uses) and stores the
product whole into the output's buffer: one store through the whole-buffer rectangle, so the buffer afterwards holds
exactly the payload, whatever it held. -/

/-- The whole-buffer rectangles' offsets are zero. -/
theorem off2 : (![0, 0] : Fin 2 → ℕ) = fun _ => 0 := funext fun a => by fin_cases a <;> rfl

/-- The whole-buffer rectangle of an input block and of the output block. -/
abbrev rI : Rect S2048x8 := Rect.unit (s := S2048x8) ![0, 0] S2048x8.size inb_S2048x8_S2048x8_0_0
abbrev rO : Rect S2048x2048 := Rect.unit (s := S2048x2048) ![0, 0] S2048x2048.size inb_S2048x2048_S2048x2048_0_0

/-- One store through the output's whole-buffer rectangle leaves its payload, whatever the buffer held and whatever
    was stored before: the rectangle holds every index. -/
theorem read_last_out {κ : Kind} {sp : Space} (v : View sig κ sp S2048x2048 .f32) (f : v.ty.Contents (Elt F)) (w : Vec F S2048x2048 .f32)
    (L : List (View.Piece (Elt F) S2048x2048 .f32)) : v.read (Elt F) (v.writes (Elt F) f (⟨rO, w⟩ :: L)) = w := by
  rw [View.read_writes_eq_canon _ _ _ (fun y => ⟨⟨rO, w⟩, List.mem_cons_self, View.mem_set_unit_zero off2 inb_S2048x2048_S2048x2048_0_0 y⟩),
    View.canon_cons_unit_zero off2]

/-- A load through an input's whole-buffer rectangle reads the contents. -/
theorem ldI (X : Vec F S2048x8 .bf16) : View.ld X rI = X := View.ld_unit_zero (S := S2048x8) off2 _ X

theorem pay1_congr {a a' b b' : Vec F S2048x8 .bf16} (ha : a = a') (hb : b = b') : k3_pay1 a b = k3_pay1 a' b' := by
  subst ha hb; rfl

set_option maxHeartbeats 1000000 in
/-- The body on whole staging memrefs: the inputs' at `x0` and `x1`, the output's at anything, run to the continuation
    with the inputs' as they were and the output's at the product of `x0` with the transpose of `x1`. -/
theorem run3 (c : Dev nD) (i : grid3.Coords)
    (arg2 : Memref sig .tc .vmem S2048x8 .bf16) (harg2 : arg2.IsWhole) (arg3 : Memref sig .tc .vmem S2048x8 .bf16) (harg3 : arg3.IsWhole)
    (arg4 : Memref sig .tc .vmem S2048x2048 .f32) (harg4 : arg4.IsWhole)
    (x0 x1 : Vec F S2048x8 .bf16) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k3_pay1 x0 x1)) -∗ K ⟨⟩))
      ⊢ wp frame (wpE (defs₀ (F := F)) Variants.none c none) E (cc3__decoder_kernel i arg2 harg2 arg3 harg3 arg4 harg4) K := by
  simp only [cc3__decoder_kernel_eq_skeleton]; unfold cc3__decoder_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]; · iexists f0; isplitr; · ipureintro; rfl
                  iexact H0
  isplitl [H1]; · iexists f1; isplitr; · ipureintro; rfl
                  iexact H1
  iexists _; isplitr
  swap; · iexact H2
  ipureintro
  sl_unfold_words
  exact (read_last_out _ _ _ _).trans (pay1_congr (ldI _) (ldI _))

section Data

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block and the column block of the embedding at point `t`, at their literal types. -/
abbrev rblk (c : Dev nD) (t : Fin cfg3.N) : Vec F S2048x8 .bf16 := iblk3 V c 0 t
abbrev cblk (c : Dev nD) (t : Fin cfg3.N) : Vec F S2048x8 .bf16 := iblk3 V c 1 t

/-- What the body stores into the output's buffer at point `t`. -/
def out3 (c : Dev nD) (t : Fin cfg3.N) : Vec F S2048x2048 .f32 := k3_pay1 (rblk V c t) (cblk V c t)

/-- The proof data on core `c`: the arrays as the region finds them; after the body each input's buffer at its block,
    the output's at `out3`; the class invariant; nothing owed; the embedding's array read by two windows, each holding
    half of it. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

/-- The row-block window's current staging buffer holds its block at every point. It is fetched only where the
    column block is the first; at the other points its block index has not moved since the last fetch, and the body
    leaves the buffer as it found it, so the block fetched then is still this point's block. -/
theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
/-- The column-block window's current staging buffer holds its block at every point. -/
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The body obligation, at a generic point -/

/-- What the body is called with at point `t`: the invariant, what is owed, and each window's current staging buffer
    at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns: every window is live at every point, so each buffer is at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the two input buffers hold the row block and the column block, the output's buffer holds
    anything; the body leaves the inputs' as they were and the output's at their product. The invariant and what is
    owed are neither read nor changed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  unfold out3
  iintro ⟨HΦ, Ho, ⟨%d0, H0⟩, ⟨%d1, H1⟩, ⟨%d2, H2⟩⟩
  iapply (run3 c (grid3.coords t) _ _ _ _ _ _ (rblk V c t) (cblk V c t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The arrays at entry and at exit

The three windows read two distinct buffers: the embedding's (windows 0 and 1) and the output's (window 2). The launch
hands the region each of the two whole at the full share; the proof data holds the embedding's twice, once per reading
window, at the left and the right half of the full share, and the output's at the full share. A points-to at a share
is the two points-tos at its halves, at the same contents; so entry splits the embedding's buffer and exit joins it. -/

/-- The buffers behind the windows' arrays are the embedding's and the output's: two, not three. -/
theorem arrBufs3_eq (c : Dev nD) (V' : (b : Ref sig .tc) → Buf (Elt F) ((c : Thread nD τ).loc b)) :
    (Pipeline.arrBufs (Ix := Unit) (Name := ℕ) (U := UR sig nD τ) (Lvl := ℕ) spec3 c V' : sProp 𝕄)
      = iprop((((c : Thread nD τ).loc main_v72) ↦{fullShare} V' main_v72) ∗ (((c : Thread nD τ).loc main_v73) ↦{fullShare} V' main_v73)) := by
  unfold Pipeline.arrBufs
  exact bigSep_eq_bigSepL_of_eq [main_v72, main_v73] (by decide) (by decide) _

/-- The proof data's arrays, window by window: every array is a whole buffer; the row-block window holds the embedding
    at the left half of the full share, the column-block window at the right half, the output window its array at
    the full share. -/
theorem arrays3_eq (c : Dev nD) (G : (w : Fin cfg3.W) → Buf (Elt F) ((cfg3.win w).arr.view.loc (c : Thread nD τ))) :
    (dat3 V c).arrays G
      = iprop((((c : Thread nD τ).loc main_v72) ↦{fullShare.left} G 0) ∗ (((c : Thread nD τ).loc main_v72) ↦{fullShare.right} G 1)
          ∗ (((c : Thread nD τ).loc main_v73) ↦{fullShare} G 2)) := by
  unfold Dat.arrays
  rw [bigSep_W3]
  -- windows 0 and 1 have one and the same array, hence one and the same index set
  have h01 : (cfg3.win 0).arr.view.set = Finset.univ := (arr_whole3 0).set_eq_univ
  have h2 : (cfg3.win 2).arr.view.set = Finset.univ := (arr_whole3 2).set_eq_univ
  rw [h01, h2]
  rfl

/-- An input window's array is never written: after any number of points it is what the region found. -/
theorem arrAt3_0 (c : Dev nD) (n : ℕ) : (dat3 V c).arrAt 0 n = V c main_v72 := (dat3 V c).arrAt_in 0 rfl n
theorem arrAt3_1 (c : Dev nD) (n : ℕ) : (dat3 V c).arrAt 1 n = V c main_v72 := (dat3 V c).arrAt_in 1 rfl n
/-- Before the first point the output's array is what the region found. -/
theorem arrAt3_2_zero (c : Dev nD) : (dat3 V c).arrAt 2 0 = V c main_v73 := rfl

/-- ENTRY: the two distinct buffers behind the three windows' arrays, each whole at the full share at the entry
    contents, are the proof data's arrays at entry: the embedding's buffer split between its two reading windows. -/
theorem entry3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  rw [arrBufs3_eq, arrays3_eq, arrAt3_0, arrAt3_1, arrAt3_2_zero]
  iintro ⟨H72, H73⟩
  ihave H := (pointsTo_share (PosShare.mem_left_op_right fullShare)).1 $$ H72
  icases H with ⟨HL, HR⟩
  isplitl [HL]; · iexact HL
  isplitl [HR]; · iexact HR
  iexact H73

/-- EXIT: the proof data's arrays after the last point are those two buffers whole again, at any contents `V'` that
    has the output's array at what the pipeline leaves and the embedding's as entered. -/
theorem exit3 (c : Dev nD) (V' : (b : Ref sig .tc) → Buf (Elt F) ((c : Thread nD τ).loc b))
    (hout : V' main_v73 = (dat3 V c).arrAt 2 cfg3.N) (hin : V' main_v72 = V c main_v72) :
    (dat3 V c).arrays ((dat3 V c).arrAt · cfg3.N)
      ⊢ (Pipeline.arrBufs (Ix := Unit) (Name := ℕ) (U := UR sig nD τ) (Lvl := ℕ) spec3 c V' : sProp 𝕄) := by
  rw [arrBufs3_eq, arrays3_eq, arrAt3_0, arrAt3_1, hout, hin]
  iintro ⟨HL, HR, H73⟩
  isplitl [HL HR]
  · iapply (pointsTo_share (PosShare.mem_left_op_right fullShare)).2
    isplitl [HL]; · iexact HL
    iexact HR
  iexact H73

end Data

end Cert.Kernel.Dec3

end
-- ==== Proof.Kernel_Fold.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Kernel_Gcn0
import proofs.«404591_j69982197121234_3_alg».proof.Proof.Kernel_Gcn1
import proofs.«404591_j69982197121234_3_alg».proof.Proof.Kernel_Gcn2
import proofs.«404591_j69982197121234_3_alg».proof.Proof.Kernel_Dec3
import proofs.«404591_j69982197121234_3_alg».proof.Proof.Gen.Kernel.Regions
set_option maxRecDepth 16384

noncomputable section

namespace Cert.Kernel.Fold

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents between @main's items: a fold from the launch memory

@main is three host stretches, aggregation call 0, a stretch, call 1, a stretch, call 2, three stretches, the decoder
call. A host stretch leaves what `StableHlo.after` computes; a call leaves its arrays at what its write-backs fold to
(`Dat.arrAt … N`) and every other buffer as entered. Each call's proof data are taken at the contents its region is
entered from. -/

variable (m : (ℓ : Loc nD τ sig) → Buf (Elt F) ℓ)

/-- Core `c`'s buffers at launch; -/
abbrev W0 : Dev nD → Valuation τ sig (Elt F) := fun c b => m (c, b)
/-- after the three stretches before call 0 (edge lists, degrees, weights, the dense adjacency, the first projection); -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- the same read at the TensorCore's references: what call 0's proof data take. -/
abbrev V3 : (c : Dev nD) → (b : Ref sig .tc) → Buf (Elt F) ((c : Thread nD τ).loc b) := fun c b => W3 m c b
/-- At call 0's exit. -/
def W4 (c : Dev nD) : Valuation τ sig (Elt F) :=
  Pipeline.withArrays spec0 c (W3 m c) fun w => (Gcn0.dat0 (V3 m) c).arrAt w cfg0.N
/-- After the second projection; what call 1's proof data take. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At call 1's exit. -/
def W6 (c : Dev nD) : Valuation τ sig (Elt F) :=
  Pipeline.withArrays spec1 c (W5 m c) fun w => (Gcn1.dat1 (V5 m) c).arrAt w cfg1.N
/-- After the fused weights, biases and projection; what call 2's proof data take. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- At call 2's exit. -/
def W8 (c : Dev nD) : Valuation τ sig (Elt F) :=
  Pipeline.withArrays spec2 c (W7 m c) fun w => (Gcn2.dat2 (V7 m) c).arrAt w cfg2.N
/-- After the two slices, the clipping and the change of format; what the decoder call's proof data take. -/
abbrev W9 : Dev nD → Valuation τ sig (Elt F) := fun c => StableHlo.after hostOps3 (W8 m c)
abbrev W10 : Dev nD → Valuation τ sig (Elt F) := fun c => StableHlo.after hostOps3_1 (W9 m c)
abbrev W11 : Dev nD → Valuation τ sig (Elt F) := fun c => StableHlo.after hostOps3_2 (W10 m c)
abbrev V11 : (c : Dev nD) → (b : Ref sig .tc) → Buf (Elt F) ((c : Thread nD τ).loc b) := fun c b => W11 m c b
/-- At the decoder call's exit, the end of @main: its output's array at what its write-backs leave, every other buffer
    as entered (its two input windows read one array, which no write-back touches). -/
def W12 (c : Dev nD) : Valuation τ sig (Elt F) :=
  Function.update (W11 m c) main_v73 ((Dec3.dat3 (V11 m) c).arrAt 2 cfg3.N)

/-- Every call's proof data, each at its region's entry contents: a literal `match`, so that the library's pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => Gcn0.dat0 (V3 m) c
  | ⟨1, _⟩ => fun c => Gcn1.dat1 (V5 m) c
  | ⟨2, _⟩ => fun c => Gcn2.dat2 (V7 m) c
  | ⟨3, _⟩ => fun c => Dec3.dat3 (V11 m) c

end Cert.Kernel.Fold

end
-- ==== Proof.Kernel_Run.lean ====
import proofs.«404591_j69982197121234_3_alg».proof.Proof.Gen.Kernel.Launch
import proofs.«404591_j69982197121234_3_alg».proof.Proof.Gen.Kernel.Skeleton
import proofs.«404591_j69982197121234_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Kernel_Gcn0
import proofs.«404591_j69982197121234_3_alg».proof.Proof.Kernel_Gcn1
import proofs.«404591_j69982197121234_3_alg».proof.Proof.Kernel_Gcn2
import proofs.«404591_j69982197121234_3_alg».proof.Proof.Kernel_Dec3
import proofs.«404591_j69982197121234_3_alg».proof.Proof.Gen.Kernel.Regions
import proofs.«404591_j69982197121234_3_alg».proof.Proof.Kernel_Fold
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The launch: @main's twelve items run from the launch memory to the return

Between two items a core holds every unscoped buffer whole at the fold's contents (`Fold.W0` … `Fold.W12`), its
generator register at some state, and owes nothing. A host stretch moves the contents by what its operations compute;
a call takes its arrays out of the unscoped buffers, runs its pipeline over them, and puts them back at what the
write-backs leave, every other buffer bypassing it. -/

/-! ## What a call changes: its arrays, and nothing else -/

theorem W4_arr (c : Dev nD) (w : Fin cfg0.W) :
    Fold.W4 m c (Proc.devRef .tc (Pipeline.arrRef spec0 w)) = (Gcn0.dat0 (Fold.V3 m) c).arrAt w cfg0.N := by
  unfold Fold.W4; exact Pipeline.withArrays_arr spec0 launch0.win.arr_inj c _ _ w
theorem W4_of_ne (c : Dev nD) (b : Ref sig .tc) (hb : ∀ w, Pipeline.arrRef spec0 w ≠ b) :
    Fold.W4 m c (Proc.devRef .tc b) = Fold.W3 m c (Proc.devRef .tc b) := by
  unfold Fold.W4; exact Pipeline.withArrays_of_ne spec0 c _ _ b hb
/-- Call 0's exit contents read at the TensorCore's references. -/
abbrev V4 : (c : Dev nD) → (b : Ref sig .tc) → Buf (Elt F) ((c : Thread nD τ).loc b) := fun c b => Fold.W4 m c b
theorem hF0 (c : Dev nD) (w : Fin cfg0.W) :
    (Gcn0.dat0 (Fold.V3 m) c).arrAt w cfg0.N = V4 m c (Pipeline.arrRef spec0 w) :=
  (W4_arr m c w).symm
theorem hrest0 (c : Dev nD) : ∀ b, b ∉ Finset.univ.image (Pipeline.arrRef spec0) → V4 m c b = Fold.V3 m c b :=
  fun b hb => W4_of_ne m c b fun w e => hb (Finset.mem_image.mpr ⟨w, Finset.mem_univ _, e⟩)

theorem W6_arr (c : Dev nD) (w : Fin cfg1.W) :
    Fold.W6 m c (Proc.devRef .tc (Pipeline.arrRef spec1 w)) = (Gcn1.dat1 (Fold.V5 m) c).arrAt w cfg1.N := by
  unfold Fold.W6; exact Pipeline.withArrays_arr spec1 launch1.win.arr_inj c _ _ w
theorem W6_of_ne (c : Dev nD) (b : Ref sig .tc) (hb : ∀ w, Pipeline.arrRef spec1 w ≠ b) :
    Fold.W6 m c (Proc.devRef .tc b) = Fold.W5 m c (Proc.devRef .tc b) := by
  unfold Fold.W6; exact Pipeline.withArrays_of_ne spec1 c _ _ b hb
/-- Call 1's exit contents read at the TensorCore's references. -/
abbrev V6 : (c : Dev nD) → (b : Ref sig .tc) → Buf (Elt F) ((c : Thread nD τ).loc b) := fun c b => Fold.W6 m c b
theorem hF1 (c : Dev nD) (w : Fin cfg1.W) :
    (Gcn1.dat1 (Fold.V5 m) c).arrAt w cfg1.N = V6 m c (Pipeline.arrRef spec1 w) :=
  (W6_arr m c w).symm
theorem hrest1 (c : Dev nD) : ∀ b, b ∉ Finset.univ.image (Pipeline.arrRef spec1) → V6 m c b = Fold.V5 m c b :=
  fun b hb => W6_of_ne m c b fun w e => hb (Finset.mem_image.mpr ⟨w, Finset.mem_univ _, e⟩)

theorem W8_arr (c : Dev nD) (w : Fin cfg2.W) :
    Fold.W8 m c (Proc.devRef .tc (Pipeline.arrRef spec2 w)) = (Gcn2.dat2 (Fold.V7 m) c).arrAt w cfg2.N := by
  unfold Fold.W8; exact Pipeline.withArrays_arr spec2 launch2.win.arr_inj c _ _ w
theorem W8_of_ne (c : Dev nD) (b : Ref sig .tc) (hb : ∀ w, Pipeline.arrRef spec2 w ≠ b) :
    Fold.W8 m c (Proc.devRef .tc b) = Fold.W7 m c (Proc.devRef .tc b) := by
  unfold Fold.W8; exact Pipeline.withArrays_of_ne spec2 c _ _ b hb
/-- Call 2's exit contents read at the TensorCore's references. -/
abbrev V8 : (c : Dev nD) → (b : Ref sig .tc) → Buf (Elt F) ((c : Thread nD τ).loc b) := fun c b => Fold.W8 m c b
theorem hF2 (c : Dev nD) (w : Fin cfg2.W) :
    (Gcn2.dat2 (Fold.V7 m) c).arrAt w cfg2.N = V8 m c (Pipeline.arrRef spec2 w) :=
  (W8_arr m c w).symm
theorem hrest2 (c : Dev nD) : ∀ b, b ∉ Finset.univ.image (Pipeline.arrRef spec2) → V8 m c b = Fold.V7 m c b :=
  fun b hb => W8_of_ne m c b fun w e => hb (Finset.mem_image.mpr ⟨w, Finset.mem_univ _, e⟩)

/-! ## The thread state between items -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and that it owes
    nothing. -/
abbrev R (c : Dev nD) : sProp 𝕄 := iprop((∃ r, prngReg c r) ∗ ∃ W, owes (c : Thread nD τ) (0 : CellTallies nD τ sig Unit) W)
/-- A host stretch as a segment: over the unscoped references from the contents `W`, `R` riding along; it leaves those
    references at what the stretch computes from `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the contents the decoder call leaves, the
    generator register at some state. -/
abbrev Tₙ (c : Dev nD) : sProp 𝕄 := iprop(StableHlo.held (c : Thread nD τ) (Pipeline.ucRefs τ sig) (Fold.W12 m c) ∗ ∃ r, prngReg c r)

/-! ## The decoder call: two windows read one array, so its arrays are two buffers behind three windows -/

/-- The decoder call's exit contents read at the TensorCore's references. -/
abbrev V12 : (c : Dev nD) → (b : Ref sig .tc) → Buf (Elt F) ((c : Thread nD τ).loc b) := fun c b => Fold.W12 m c b

/-- At the exit the output's array holds what the write-backs leave, -/
theorem V12_out (c : Dev nD) : V12 m c main_v73 = (Dec3.dat3 (Fold.V11 m) c).arrAt 2 cfg3.N := by
  show Function.update (Fold.W11 m c) (Proc.devRef .tc main_v73) _ (Proc.devRef .tc main_v73) = _
  exact Function.update_self ..
/-- and every other buffer what it held at entry. -/
theorem V12_of_ne (c : Dev nD) (b : Ref sig .tc) (hb : b ≠ main_v73) : V12 m c b = Fold.V11 m c b := by
  show Function.update (Fold.W11 m c) (Proc.devRef .tc main_v73) _ (Proc.devRef .tc b) = _
  exact Function.update_of_ne (StableHlo.devRef_ne_of_ne hb) ..
/-- The buffers that bypass the decoder call are the same at entry and at exit: the exit contents differ from the entry
    contents at the output's array alone, which is no bypassing buffer. -/
theorem rest3_eq (c : Dev nD) :
    (Pipeline.unscopedRest (Ix := Unit) (Name := ℕ) (U := UR sig nD τ) (Lvl := ℕ) spec3 c (Fold.V11 m c) : sProp 𝕄)
      = Pipeline.unscopedRest (Ix := Unit) (Name := ℕ) (U := UR sig nD τ) (Lvl := ℕ) spec3 c (V12 m c) := by
  unfold Pipeline.unscopedRest
  refine bigSep_congr fun b hb => ?_
  rw [V12_of_ne m c b fun e => (Finset.mem_sdiff.mp hb).2 (Finset.mem_image.mpr ⟨2, Finset.mem_univ _, e ▸ rfl⟩)]

/-! ## The arguments end as launched

No host stretch writes an argument; an aggregation call changes its output's array alone (an argument it reads through an
input window is put back as entered, any other buffer bypasses it), and the decoder call its output's. -/

theorem W1_of (c : Dev nD) (r : Ref sig .tc) (h : r ∉ hostOps0_W) : Fold.W1 m c r = Fold.W0 m c r :=
  StableHlo.after_of_writes_sub hostOps0 _ hostOps0_writes h
theorem W2_of (c : Dev nD) (r : Ref sig .tc) (h : r ∉ hostOps0_1_W) : Fold.W2 m c r = Fold.W1 m c r :=
  StableHlo.after_of_writes_sub hostOps0_1 _ hostOps0_1_writes h
theorem W3_of (c : Dev nD) (r : Ref sig .tc) (h : r ∉ hostOps0_2_W) : Fold.W3 m c r = Fold.W2 m c r :=
  StableHlo.after_of_writes_sub hostOps0_2 _ hostOps0_2_writes h
theorem W5_of (c : Dev nD) (r : Ref sig .tc) (h : r ∉ hostOps1_W) : Fold.W5 m c r = Fold.W4 m c r :=
  StableHlo.after_of_writes_sub hostOps1 _ hostOps1_writes h
theorem W7_of (c : Dev nD) (r : Ref sig .tc) (h : r ∉ hostOps2_W) : Fold.W7 m c r = Fold.W6 m c r :=
  StableHlo.after_of_writes_sub hostOps2 _ hostOps2_writes h
theorem W9_of (c : Dev nD) (r : Ref sig .tc) (h : r ∉ hostOps3_W) : Fold.W9 m c r = Fold.W8 m c r :=
  StableHlo.after_of_writes_sub hostOps3 _ hostOps3_writes h
theorem W10_of (c : Dev nD) (r : Ref sig .tc) (h : r ∉ hostOps3_1_W) : Fold.W10 m c r = Fold.W9 m c r :=
  StableHlo.after_of_writes_sub hostOps3_1 _ hostOps3_1_writes h
theorem W11_of (c : Dev nD) (r : Ref sig .tc) (h : r ∉ hostOps3_2_W) : Fold.W11 m c r = Fold.W10 m c r :=
  StableHlo.after_of_writes_sub hostOps3_2 _ hostOps3_2_writes h
/-- An input window's array leaves an aggregation call as it entered it. -/
theorem W4_in (c : Dev nD) (w : Fin cfg0.W) (hw : (cfg0.win w).isOut = false) :
    Fold.W4 m c (Proc.devRef .tc (Pipeline.arrRef spec0 w)) = Fold.W3 m c (Proc.devRef .tc (Pipeline.arrRef spec0 w)) :=
  (W4_arr m c w).trans (((Gcn0.dat0 (Fold.V3 m) c).arrAt_in w hw _).trans (Gcn0.A_eq0 (Fold.V3 m) c w))
theorem W6_in (c : Dev nD) (w : Fin cfg1.W) (hw : (cfg1.win w).isOut = false) :
    Fold.W6 m c (Proc.devRef .tc (Pipeline.arrRef spec1 w)) = Fold.W5 m c (Proc.devRef .tc (Pipeline.arrRef spec1 w)) :=
  (W6_arr m c w).trans (((Gcn1.dat1 (Fold.V5 m) c).arrAt_in w hw _).trans (Gcn1.A_eq1 (Fold.V5 m) c w))

theorem W12_main_arg0 (c : Dev nD) : Fold.W12 m c main_arg0 = m ((c : Thread nD τ).loc main_arg0) :=
  (V12_of_ne m c main_arg0 (by decide)).trans <| (W11_of m c main_arg0 (by decide)).trans <| (W10_of m c main_arg0 (by decide)).trans <|
  (W9_of m c main_arg0 (by decide)).trans <| (W8_of_ne m c main_arg0 (by decide)).trans <| (W7_of m c main_arg0 (by decide)).trans <|
  (W6_of_ne m c main_arg0 (by decide)).trans <| (W5_of m c main_arg0 (by decide)).trans <| (W4_of_ne m c main_arg0 (by decide)).trans <|
  (W3_of m c main_arg0 (by decide)).trans <| (W2_of m c main_arg0 (by decide)).trans <| (W1_of m c main_arg0 (by decide)).trans rfl

theorem W12_main_arg1 (c : Dev nD) : Fold.W12 m c main_arg1 = m ((c : Thread nD τ).loc main_arg1) :=
  (V12_of_ne m c main_arg1 (by decide)).trans <| (W11_of m c main_arg1 (by decide)).trans <| (W10_of m c main_arg1 (by decide)).trans <|
  (W9_of m c main_arg1 (by decide)).trans <| (W8_of_ne m c main_arg1 (by decide)).trans <| (W7_of m c main_arg1 (by decide)).trans <|
  (W6_of_ne m c main_arg1 (by decide)).trans <| (W5_of m c main_arg1 (by decide)).trans <| (W4_of_ne m c main_arg1 (by decide)).trans <|
  (W3_of m c main_arg1 (by decide)).trans <| (W2_of m c main_arg1 (by decide)).trans <| (W1_of m c main_arg1 (by decide)).trans rfl

theorem W12_main_arg2 (c : Dev nD) : Fold.W12 m c main_arg2 = m ((c : Thread nD τ).loc main_arg2) :=
  (V12_of_ne m c main_arg2 (by decide)).trans <| (W11_of m c main_arg2 (by decide)).trans <| (W10_of m c main_arg2 (by decide)).trans <|
  (W9_of m c main_arg2 (by decide)).trans <| (W8_of_ne m c main_arg2 (by decide)).trans <| (W7_of m c main_arg2 (by decide)).trans <|
  (W6_of_ne m c main_arg2 (by decide)).trans <| (W5_of m c main_arg2 (by decide)).trans <| (W4_of_ne m c main_arg2 (by decide)).trans <|
  (W3_of m c main_arg2 (by decide)).trans <| (W2_of m c main_arg2 (by decide)).trans <| (W1_of m c main_arg2 (by decide)).trans rfl

theorem W12_main_arg3 (c : Dev nD) : Fold.W12 m c main_arg3 = m ((c : Thread nD τ).loc main_arg3) :=
  (V12_of_ne m c main_arg3 (by decide)).trans <| (W11_of m c main_arg3 (by decide)).trans <| (W10_of m c main_arg3 (by decide)).trans <|
  (W9_of m c main_arg3 (by decide)).trans <| (W8_of_ne m c main_arg3 (by decide)).trans <| (W7_of m c main_arg3 (by decide)).trans <|
  (W6_of_ne m c main_arg3 (by decide)).trans <| (W5_of m c main_arg3 (by decide)).trans <| (W4_in m c 2 rfl).trans <|
  (W3_of m c main_arg3 (by decide)).trans <| (W2_of m c main_arg3 (by decide)).trans <| (W1_of m c main_arg3 (by decide)).trans rfl

theorem W12_main_arg4 (c : Dev nD) : Fold.W12 m c main_arg4 = m ((c : Thread nD τ).loc main_arg4) :=
  (V12_of_ne m c main_arg4 (by decide)).trans <| (W11_of m c main_arg4 (by decide)).trans <| (W10_of m c main_arg4 (by decide)).trans <|
  (W9_of m c main_arg4 (by decide)).trans <| (W8_of_ne m c main_arg4 (by decide)).trans <| (W7_of m c main_arg4 (by decide)).trans <|
  (W6_of_ne m c main_arg4 (by decide)).trans <| (W5_of m c main_arg4 (by decide)).trans <| (W4_of_ne m c main_arg4 (by decide)).trans <|
  (W3_of m c main_arg4 (by decide)).trans <| (W2_of m c main_arg4 (by decide)).trans <| (W1_of m c main_arg4 (by decide)).trans rfl

theorem W12_main_arg5 (c : Dev nD) : Fold.W12 m c main_arg5 = m ((c : Thread nD τ).loc main_arg5) :=
  (V12_of_ne m c main_arg5 (by decide)).trans <| (W11_of m c main_arg5 (by decide)).trans <| (W10_of m c main_arg5 (by decide)).trans <|
  (W9_of m c main_arg5 (by decide)).trans <| (W8_of_ne m c main_arg5 (by decide)).trans <| (W7_of m c main_arg5 (by decide)).trans <|
  (W6_in m c 2 rfl).trans <| (W5_of m c main_arg5 (by decide)).trans <| (W4_of_ne m c main_arg5 (by decide)).trans <|
  (W3_of m c main_arg5 (by decide)).trans <| (W2_of m c main_arg5 (by decide)).trans <| (W1_of m c main_arg5 (by decide)).trans rfl

theorem W12_main_arg6 (c : Dev nD) : Fold.W12 m c main_arg6 = m ((c : Thread nD τ).loc main_arg6) :=
  (V12_of_ne m c main_arg6 (by decide)).trans <| (W11_of m c main_arg6 (by decide)).trans <| (W10_of m c main_arg6 (by decide)).trans <|
  (W9_of m c main_arg6 (by decide)).trans <| (W8_of_ne m c main_arg6 (by decide)).trans <| (W7_of m c main_arg6 (by decide)).trans <|
  (W6_of_ne m c main_arg6 (by decide)).trans <| (W5_of m c main_arg6 (by decide)).trans <| (W4_of_ne m c main_arg6 (by decide)).trans <|
  (W3_of m c main_arg6 (by decide)).trans <| (W2_of m c main_arg6 (by decide)).trans <| (W1_of m c main_arg6 (by decide)).trans rfl

theorem W12_main_arg7 (c : Dev nD) : Fold.W12 m c main_arg7 = m ((c : Thread nD τ).loc main_arg7) :=
  (V12_of_ne m c main_arg7 (by decide)).trans <| (W11_of m c main_arg7 (by decide)).trans <| (W10_of m c main_arg7 (by decide)).trans <|
  (W9_of m c main_arg7 (by decide)).trans <| (W8_of_ne m c main_arg7 (by decide)).trans <| (W7_of m c main_arg7 (by decide)).trans <|
  (W6_of_ne m c main_arg7 (by decide)).trans <| (W5_of m c main_arg7 (by decide)).trans <| (W4_of_ne m c main_arg7 (by decide)).trans <|
  (W3_of m c main_arg7 (by decide)).trans <| (W2_of m c main_arg7 (by decide)).trans <| (W1_of m c main_arg7 (by decide)).trans rfl

theorem W12_main_arg8 (c : Dev nD) : Fold.W12 m c main_arg8 = m ((c : Thread nD τ).loc main_arg8) :=
  (V12_of_ne m c main_arg8 (by decide)).trans <| (W11_of m c main_arg8 (by decide)).trans <| (W10_of m c main_arg8 (by decide)).trans <|
  (W9_of m c main_arg8 (by decide)).trans <| (W8_of_ne m c main_arg8 (by decide)).trans <| (W7_of m c main_arg8 (by decide)).trans <|
  (W6_of_ne m c main_arg8 (by decide)).trans <| (W5_of m c main_arg8 (by decide)).trans <| (W4_of_ne m c main_arg8 (by decide)).trans <|
  (W3_of m c main_arg8 (by decide)).trans <| (W2_of m c main_arg8 (by decide)).trans <| (W1_of m c main_arg8 (by decide)).trans rfl

theorem W12_main_arg9 (c : Dev nD) : Fold.W12 m c main_arg9 = m ((c : Thread nD τ).loc main_arg9) :=
  (V12_of_ne m c main_arg9 (by decide)).trans <| (W11_of m c main_arg9 (by decide)).trans <| (W10_of m c main_arg9 (by decide)).trans <|
  (W9_of m c main_arg9 (by decide)).trans <| (W8_of_ne m c main_arg9 (by decide)).trans <| (W7_of m c main_arg9 (by decide)).trans <|
  (W6_of_ne m c main_arg9 (by decide)).trans <| (W5_of m c main_arg9 (by decide)).trans <| (W4_of_ne m c main_arg9 (by decide)).trans <|
  (W3_of m c main_arg9 (by decide)).trans <| (W2_of m c main_arg9 (by decide)).trans <| (W1_of m c main_arg9 (by decide)).trans rfl

/-! ## The calls as segments -/

set_option backward.isDefEq.respectTransparency.types false in
/-- Aggregation call 0 over the thread state: entered from every unscoped buffer at `Fold.W3`, left at `Fold.W4`.
    Its four arrays are split out of the unscoped buffers and put back at the exit contents; the generator register goes
    into the region invariant with the scoped buffers and comes back; nothing is owed; the kernel has no semaphore of its
    own. -/
def reg0 : Pipeline.RegionSeg (pcfgs (F := F)) adm (Fold.pdats m) () defs₀ 𝒱₀ L lv 0 where
  win := launch0.win.to₀
  block_pos := launch0.block_pos
  stage_whole := launch0.stage_whole
  K := PEmpty
  osem k := k.elim
  ho := Pipeline.OwnSemFacts.none _
  hbody c := (Gcn0.body_obligation0 (Fold.V3 m) c).loose
  hwaits := Pipeline.hwaits_of_owed_zero _ _ _ _ L lv 0 fun _ _ => rfl
  pre c := iprop(StableHlo.held (c : Thread nD τ) (Pipeline.ucRefs τ sig) (Fold.W3 m c) ∗ R c)
  post c := iprop(StableHlo.held (c : Thread nD τ) (Pipeline.ucRefs τ sig) (Fold.W4 m c) ∗ R c)
  X c := iprop(∃ r, prngReg c r)
  Y c := iprop(∃ r, prngReg c r)
  Z c := Pipeline.unscopedRest (Ix := Unit) (Name := ℕ) (U := UR sig nD τ) (Lvl := ℕ) spec0 c (Fold.V3 m c)
  hentry c := by
    rw [Pipeline.ownSems0_none]
    have hsplit := Pipeline.arrays_of_unscopedBufs (p := 0) (pcfgs (F := F)) adm (Fold.pdats m) launch0.win launch0.arr_whole c
      ((Fold.pdats m 0 c).share_full fun _ => rfl) (Fold.V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn0.hin0 (Fold.V3 m) c)
    unfold Pipeline.ΦA
    iintro ⟨Hp, -, Hr⟩
    isplitl [Hr]; · iexact Hr
    iexact Hp
  hout c := by
    rw [Pipeline.ownSems0_none]
    refine (Gcn0.hout0 (Fold.V3 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (Fold.pdats m) ((Fold.pdats m 0 c).share_full fun _ => rfl)
      (Fold.V3 m c) (V4 m c) ((Fold.pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Aggregation call 1 over the thread state: entered from every unscoped buffer at `Fold.W5`, left at `Fold.W6`.
    Its four arrays are split out of the unscoped buffers and put back at the exit contents; the generator register goes
    into the region invariant with the scoped buffers and comes back; nothing is owed; the kernel has no semaphore of its
    own. -/
def reg1 : Pipeline.RegionSeg (pcfgs (F := F)) adm (Fold.pdats m) () defs₀ 𝒱₀ L lv 1 where
  win := launch1.win.to₀
  block_pos := launch1.block_pos
  stage_whole := launch1.stage_whole
  K := PEmpty
  osem k := k.elim
  ho := Pipeline.OwnSemFacts.none _
  hbody c := (Gcn1.body_obligation1 (Fold.V5 m) c).loose
  hwaits := Pipeline.hwaits_of_owed_zero _ _ _ _ L lv 1 fun _ _ => rfl
  pre c := iprop(StableHlo.held (c : Thread nD τ) (Pipeline.ucRefs τ sig) (Fold.W5 m c) ∗ R c)
  post c := iprop(StableHlo.held (c : Thread nD τ) (Pipeline.ucRefs τ sig) (Fold.W6 m c) ∗ R c)
  X c := iprop(∃ r, prngReg c r)
  Y c := iprop(∃ r, prngReg c r)
  Z c := Pipeline.unscopedRest (Ix := Unit) (Name := ℕ) (U := UR sig nD τ) (Lvl := ℕ) spec1 c (Fold.V5 m c)
  hentry c := by
    rw [Pipeline.ownSems0_none]
    have hsplit := Pipeline.arrays_of_unscopedBufs (p := 1) (pcfgs (F := F)) adm (Fold.pdats m) launch1.win launch1.arr_whole c
      ((Fold.pdats m 1 c).share_full fun _ => rfl) (Fold.V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn1.hin1 (Fold.V5 m) c)
    unfold Pipeline.ΦA
    iintro ⟨Hp, -, Hr⟩
    isplitl [Hr]; · iexact Hr
    iexact Hp
  hout c := by
    rw [Pipeline.ownSems0_none]
    refine (Gcn1.hout1 (Fold.V5 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (Fold.pdats m) ((Fold.pdats m 1 c).share_full fun _ => rfl)
      (Fold.V5 m c) (V6 m c) ((Fold.pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Aggregation call 2 over the thread state: entered from every unscoped buffer at `Fold.W7`, left at `Fold.W8`.
    Its four arrays are split out of the unscoped buffers and put back at the exit contents; the generator register goes
    into the region invariant with the scoped buffers and comes back; nothing is owed; the kernel has no semaphore of its
    own. -/
def reg2 : Pipeline.RegionSeg (pcfgs (F := F)) adm (Fold.pdats m) () defs₀ 𝒱₀ L lv 2 where
  win := launch2.win.to₀
  block_pos := launch2.block_pos
  stage_whole := launch2.stage_whole
  K := PEmpty
  osem k := k.elim
  ho := Pipeline.OwnSemFacts.none _
  hbody c := (Gcn2.body_obligation2 (Fold.V7 m) c).loose
  hwaits := Pipeline.hwaits_of_owed_zero _ _ _ _ L lv 2 fun _ _ => rfl
  pre c := iprop(StableHlo.held (c : Thread nD τ) (Pipeline.ucRefs τ sig) (Fold.W7 m c) ∗ R c)
  post c := iprop(StableHlo.held (c : Thread nD τ) (Pipeline.ucRefs τ sig) (Fold.W8 m c) ∗ R c)
  X c := iprop(∃ r, prngReg c r)
  Y c := iprop(∃ r, prngReg c r)
  Z c := Pipeline.unscopedRest (Ix := Unit) (Name := ℕ) (U := UR sig nD τ) (Lvl := ℕ) spec2 c (Fold.V7 m c)
  hentry c := by
    rw [Pipeline.ownSems0_none]
    have hsplit := Pipeline.arrays_of_unscopedBufs (p := 2) (pcfgs (F := F)) adm (Fold.pdats m) launch2.win launch2.arr_whole c
      ((Fold.pdats m 2 c).share_full fun _ => rfl) (Fold.V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Gcn2.hin2 (Fold.V7 m) c)
    unfold Pipeline.ΦA
    iintro ⟨Hp, -, Hr⟩
    isplitl [Hr]; · iexact Hr
    iexact Hp
  hout c := by
    rw [Pipeline.ownSems0_none]
    refine (Gcn2.hout2 (Fold.V7 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (Fold.pdats m) ((Fold.pdats m 2 c).share_full fun _ => rfl)
      (Fold.V7 m c) (V8 m c) ((Fold.pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The decoder call over the thread state: entered from every unscoped buffer at `Fold.W11`, left at `Fold.W12`, the
    end of @main. The two buffers behind its three windows are split out of the unscoped buffers, the embedding's shared
    between its two reading windows, and put back whole at the exit contents; the generator register goes into the region
    invariant with the scoped buffers and comes back; nothing is owed; the kernel has no semaphore of its own. -/
def reg3 : Pipeline.RegionSeg (pcfgs (F := F)) adm (Fold.pdats m) () defs₀ 𝒱₀ L lv 3 where
  win := winFacts₀3
  block_pos := block_pos3
  stage_whole := stage_whole3
  K := PEmpty
  osem k := k.elim
  ho := Pipeline.OwnSemFacts.none _
  hbody c := (Dec3.body_obligation3 (Fold.V11 m) c).loose
  hwaits := Pipeline.hwaits_of_owed_zero _ _ _ _ L lv 3 fun _ _ => rfl
  pre c := iprop(StableHlo.held (c : Thread nD τ) (Pipeline.ucRefs τ sig) (Fold.W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (Fold.V11 m c)
  hentry c := by
    rw [Pipeline.ownSems0_none]
    have hsplit := Pipeline.unscopedBufs_split₀ (Ix := Unit) (Name := ℕ) (U := UR sig nD τ) (Lvl := ℕ) (Val := Elt F)
      cfgs 3 winFacts₀3.arr_unscoped c (Fold.V11 m c)
    rw [Pipeline.unscopedBufs_held] at hsplit
    rw [hsplit]
    iintro ⟨⟨⟨Ha, Hrest⟩, Hp, HO⟩, -, -⟩
    ihave Ha' := (Dec3.entry3 (Fold.V11 m) c) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (Fold.pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (Fold.pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_split₀ (Ix := Unit) (Name := ℕ) (U := UR sig nD τ) (Lvl := ℕ) (Val := Elt F)
      cfgs 3 winFacts₀3.arr_unscoped c (V12 m c)
    rw [Pipeline.unscopedBufs_held] at hjoin
    have hjoin' := Entails.of_eq hjoin.symm
    rw [rest3_eq m c]
    iintro ⟨Ha, HO, HY, Hrest⟩
    have hex : ((Fold.pdats m 3 c).arrays fun w => (Fold.pdats m 3 c).arrAt w (Pipeline.pin (pcfgs (F := F)) adm 3).N)
        ⊢ (Pipeline.arrBufs (Ix := Unit) (Name := ℕ) (U := UR sig nD τ) (Lvl := ℕ) spec3 c (V12 m c) : sProp 𝕄) :=
      Dec3.exit3 (Fold.V11 m) c (V12 m c) (V12_out m c) (V12_of_ne m c main_v72 (by decide))
    ihave Ha' := hex $$ Ha
    imodintro
    isplitl [Ha' Hrest HY]
    · isplitl [Ha' Hrest]
      · iapply hjoin'
        isplitl [Ha']; · iexact Ha'
        iexact Hrest
      iexact HY
    unfold Pipeline.Dat.owesAt Pipeline.owesWithin
    icases HO with ⟨%W, -, HO⟩; iexists W; iexact HO

/-! ## @main as segments, and the launch -/

/-- @main's twelve segments in order: a host segment per stretch from its boundary's contents, a region per call. -/
abbrev segs : List (Pipeline.Seg (pcfgs (F := F)) adm (Fold.pdats m) () defs₀ 𝒱₀ L lv) :=
  [ .host (hseg hostOps0 hostOps0_sub hostOps0_fresh (Fold.W0 m)),
    .host (hseg hostOps0_1 hostOps0_1_sub hostOps0_1_fresh (Fold.W1 m)),
    .host (hseg hostOps0_2 hostOps0_2_sub hostOps0_2_fresh (Fold.W2 m)),
    .region (reg0 m),
    .host (hseg hostOps1 hostOps1_sub hostOps1_fresh (Fold.W4 m)),
    .region (reg1 m),
    .host (hseg hostOps2 hostOps2_sub hostOps2_fresh (Fold.W6 m)),
    .region (reg2 m),
    .host (hseg hostOps3 hostOps3_sub hostOps3_fresh (Fold.W8 m)),
    .host (hseg hostOps3_1 hostOps3_1_sub hostOps3_1_fresh (Fold.W9 m)),
    .host (hseg hostOps3_2 hostOps3_2_sub hostOps3_2_fresh (Fold.W10 m)),
    .region (reg3 m) ]

set_option backward.isDefEq.respectTransparency.types false in
/-- THE RUN. From any memory with zero counters and any generator registers, every weakly fair execution of @main on
    the TensorCores terminates, nothing faulting, and every final memory holds, on every core, each unscoped buffer at
    the fold's last contents `Fold.W12`: the launch over the twelve segments, whose thread states chain by name, the
    last one read against the final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Fold.W12 m c b) :=
  Pipeline.θ_run_regions_kit (pcfgs (F := F)) adm (Fold.pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Fold.W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Fold.W0 m c)
        from Pipeline.unscopedBufs_held c (Fold.W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Fold.W12 m c b)
    (hfin := fun c s' => by
      iintro ⟨⟨Hh, -⟩, HSI⟩
      unfold StableHlo.held
      imodintro
      iapply (pointsTo_read_all (Pipeline.ucRefs τ sig) (fun b => (((c : Thread nD τ)).1, b)) (Fold.W12 m c) s')
      isplitl [Hh] <;> iassumption)
    (hQ := fun _ h => h)

/-- THE FRAME, at any float model: every weakly fair execution of @main terminates, nothing faulting, and every final
    memory holds each of the ten argument arrays as launched: the run's last contents read at each argument, which no
    item changes. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (Q := fun r => ∀ c : Dev nD, ∀ b ∈ Pipeline.ucRefs τ sig, r.2.mem (((c : Thread nD τ)).1, b) = Fold.W12 m c b) (fun r h c =>
    ⟨(h c _ (mem_uc main_arg0 (by decide))).trans (W12_main_arg0 m c),
     (h c _ (mem_uc main_arg1 (by decide))).trans (W12_main_arg1 m c),
     (h c _ (mem_uc main_arg2 (by decide))).trans (W12_main_arg2 m c),
     (h c _ (mem_uc main_arg3 (by decide))).trans (W12_main_arg3 m c),
     (h c _ (mem_uc main_arg4 (by decide))).trans (W12_main_arg4 m c),
     (h c _ (mem_uc main_arg5 (by decide))).trans (W12_main_arg5 m c),
     (h c _ (mem_uc main_arg6 (by decide))).trans (W12_main_arg6 m c),
     (h c _ (mem_uc main_arg7 (by decide))).trans (W12_main_arg7 m c),
     (h c _ (mem_uc main_arg8 (by decide))).trans (W12_main_arg8 m c),
     (h c _ (mem_uc main_arg9 (by decide))).trans (W12_main_arg9 m c)⟩) (run_all m ρ)

end Cert.Kernel.Run

end
-- ==== Proof.RefModules.lean ====
/- The reference program's run and its operations read at an index: this module only brings the two in,
   so that every module about the reference's value imports one name. -/
import proofs.«404591_j69982197121234_3_alg».proof.Proof.RefRun
import proofs.«404591_j69982197121234_3_alg».proof.Proof.RefRead
-- ==== Proof.Spec.lean ====
/-
  The mathematics of the graph autoencoder, free of any program: both programs' results as functions of the inputs
  read as extended reals, and the law that joins them.

  Nodes are `Fin 12288`; the edge list with one self-loop per node appended is `Fin 405504`, each edge with a source
  `s e` and a target `d e`. A node's degree counts the edges INTO it; `dinv` is its inverse square root (zero where the
  degree is not positive); an edge's weight `nrm` is the product of the two ends' `dinv`.

  One graph convolution of features `h` with bias `b`:
  * the REFERENCE gathers `h` at each edge's source, scales it by the edge's weight and sums the edges into their
    targets: `aggR`;
  * the KERNEL first sums the weights of the edges from `k` to `i` into a dense matrix `adj i k`, then multiplies that
    matrix with `h`, three blocks of 4096 columns accumulated in order from zero: `aggK`.
  They agree because every weight is nonnegative, so a factor `h k j` distributes over the sum of the weights of the
  parallel edges from `k` to `i` (on the extended reals multiplication distributes over a sum of NONNEGATIVE terms,
  whatever the other factor), and the edges into `i` split by their source.
  The two last convolutions share one input: the kernel runs them as ONE convolution of width 256 whose weight and
  bias are the two heads side by side, zero elsewhere (`fuseW`, `fuseB`), and slices the result.
-/
import Mathlib.Data.EReal.Operations
import Mathlib.Algebra.BigOperators.Group.Finset.Basic
import Mathlib.Data.Fintype.BigOperators
import Idealize.ShloMosaic.PureOps.Ideal

noncomputable section

namespace Cert.Spec

open Idealize.ShloMosaic

/-- Nodes, and edges with the self-loops appended. -/
abbrev Nn : ℕ := 12288
abbrev Mm : ℕ := 405504

variable (s d : Fin Mm → Fin Nn)

/-- The degree of node `i`: over zero, one for every edge into it. -/
def deg (i : Fin Nn) : EReal := 0 + ∑ e : Fin Mm, if d e = i then (1 : EReal) else 0
/-- Its inverse square root, zero where the degree is not positive. -/
def dinv (i : Fin Nn) : EReal := if 0 < deg d i then Ideal.rsqrt (deg d i) else 0
/-- An edge's weight. -/
def nrm (e : Fin Mm) : EReal := dinv d (s e) * dinv d (d e)

/-- A matrix product. -/
def mm {a b c : ℕ} (H : Fin a → Fin b → EReal) (W : Fin b → Fin c → EReal) (i : Fin a) (j : Fin c) : EReal :=
  ∑ k : Fin b, H i k * W k j

/-- Clipping at zero from below. -/
def relu {a c : ℕ} (H : Fin a → Fin c → EReal) (i : Fin a) (j : Fin c) : EReal := max (H i j) 0

/-- THE REFERENCE'S CONVOLUTION: over zero, each edge into `i` brings its source's features times its weight; then the bias. -/
def aggR {c : ℕ} (h : Fin Nn → Fin c → EReal) (b : Fin c → EReal) (i : Fin Nn) (j : Fin c) : EReal :=
  (0 + ∑ e : Fin Mm, if d e = i then h (s e) j * nrm s d e else 0) + b j

/-- The dense adjacency: over zero, the weights of the edges from `k` to `i`. -/
def adj (i k : Fin Nn) : EReal := 0 + ∑ e : Fin Mm, if d e = i ∧ s e = k then nrm s d e else 0

/-- Column `kk` of contraction block `q`. -/
def col (q : Fin 3) (kk : Fin 4096) : Fin Nn := ⟨q.val * 4096 + kk.val, by have := q.isLt; have := kk.isLt; show _ < 12288; omega⟩

/-- One contraction block's product with a matrix `A`. -/
def blkM {c : ℕ} (A : Fin Nn → Fin Nn → EReal) (h : Fin Nn → Fin c → EReal) (q : Fin 3) (i : Fin Nn) (j : Fin c) : EReal :=
  ∑ kk : Fin 4096, A i (col q kk) * h (col q kk) j

/-- The product of a matrix `A` with features `h` as the kernel runs it: the three blocks' products accumulated in order
    from zero; then the bias. -/
def aggM {c : ℕ} (A : Fin Nn → Fin Nn → EReal) (h : Fin Nn → Fin c → EReal) (b : Fin c → EReal) (i : Fin Nn) (j : Fin c) : EReal :=
  (((0 + blkM A h 0 i j) + blkM A h 1 i j) + blkM A h 2 i j) + b j

/-- THE KERNEL'S CONVOLUTION: that product with the dense adjacency. -/
def aggK {c : ℕ} (h : Fin Nn → Fin c → EReal) (b : Fin c → EReal) (i : Fin Nn) (j : Fin c) : EReal :=
  aggM (adj s d) h b i j

/-- The two heads' weights side by side in 256 columns, zero elsewhere; the biases likewise. -/
def fuseW (Wa : Fin 8 → Fin 128 → EReal) (Ws : Fin 8 → Fin 8 → EReal) (l : Fin 8) (j : Fin 256) : EReal :=
  if h : j.val < 128 then Wa l ⟨j.val, h⟩ else if h2 : j.val < 136 then Ws l ⟨j.val - 128, by omega⟩ else 0
def fuseB (ba : Fin 128 → EReal) (bs : Fin 8 → EReal) (j : Fin 256) : EReal :=
  if h : j.val < 128 then ba ⟨j.val, h⟩ else if h2 : j.val < 136 then bs ⟨j.val - 128, by omega⟩ else 0

section Nets

variable (X : Fin Nn → Fin 128 → EReal) (W1 : Fin 128 → Fin 16 → EReal) (b1 : Fin 16 → EReal)
  (W2 : Fin 16 → Fin 8 → EReal) (b2 : Fin 8 → EReal) (Wa : Fin 8 → Fin 128 → EReal) (ba : Fin 128 → EReal)
  (Ws : Fin 8 → Fin 8 → EReal) (bs : Fin 8 → EReal)

/-! ### The reference -/
def z1R : Fin Nn → Fin 16 → EReal := relu (aggR s d (mm X W1) b1)
def z2R : Fin Nn → Fin 8 → EReal := relu (aggR s d (mm (z1R s d X W1 b1) W2) b2)
def xhatR : Fin Nn → Fin 128 → EReal := aggR s d (mm (z2R s d X W1 b1 W2 b2) Wa) ba
def zsR : Fin Nn → Fin 8 → EReal := relu (aggR s d (mm (z2R s d X W1 b1 W2 b2) Ws) bs)
def ahatR (i j : Fin Nn) : EReal := ∑ k : Fin 8, zsR s d X W1 b1 W2 b2 Ws bs i k * zsR s d X W1 b1 W2 b2 Ws bs j k

/-! ### The kernel -/
def z1K : Fin Nn → Fin 16 → EReal := relu (aggK s d (mm X W1) b1)
def z2K : Fin Nn → Fin 8 → EReal := relu (aggK s d (mm (z1K s d X W1 b1) W2) b2)
/-- The fused third call, 256 columns wide. -/
def fusedK : Fin Nn → Fin 256 → EReal := aggK s d (mm (z2K s d X W1 b1 W2 b2) (fuseW Wa Ws)) (fuseB ba bs)
def xhatK (i : Fin Nn) (j : Fin 128) : EReal := fusedK s d X W1 b1 W2 b2 Wa ba Ws bs i ⟨j.val, by have := j.isLt; omega⟩
def zsK (i : Fin Nn) (j : Fin 8) : EReal := max (fusedK s d X W1 b1 W2 b2 Wa ba Ws bs i ⟨128 + j.val, by have := j.isLt; omega⟩) 0
def ahatK (i j : Fin Nn) : EReal := ∑ k : Fin 8, zsK s d X W1 b1 W2 b2 Wa ba Ws bs i k * zsK s d X W1 b1 W2 b2 Wa ba Ws bs j k

end Nets

end Cert.Spec

end
-- ==== Proof.Data.lean ====
/-
  How memory contents become the arguments of the program-free specification (`Spec.lean`): a rank-2 array read as a
  matrix, a rank-1 array as a vector, and the edge list with self-loops appended read off the 2 × 393216 index input.
  The precondition's evident-domain conjunct is `InRange`: every entry of the index input is a node.
-/
import proofs.«404591_j69982197121234_3_alg».proof.Proof.Spec
import Idealize.ShloMosaic.Lib.ValueIdx

noncomputable section

namespace Cert.Data

open Idealize.ShloMosaic Idealize.ShloMosaic.ValueIdx Cert.Spec

/-- A rank-2 array as a matrix, a rank-1 array as a vector. -/
def mat {α : Type} {a b : ℕ} (x : (⟨2, ![a, b]⟩ : Shape).Idx → α) (i : Fin a) (j : Fin b) : α := x (ix2 i j)
def vec {α : Type} {a : ℕ} (x : (⟨1, ![a]⟩ : Shape).Idx → α) (i : Fin a) : α := x (ix1 i)

/-- The index input's shape. -/
abbrev SE : Shape := ⟨2, ![2, 393216]⟩

/-- Every entry of the index input is a node. -/
def InRange (ei : IVec SE 32) : Prop :=
  ∀ (r : Fin 2) (e : Fin 393216), 0 ≤ (ei (ix2 r e)).toInt ∧ (ei (ix2 r e)).toInt < 12288

/-- Row `r` of the index input with the self-loops appended, as integers: edge `e < 393216` reads the input, edge
    `393216 + i` is node `i`'s self-loop. -/
def endI (ei : IVec SE 32) (r : Fin 2) (e : Fin Mm) : ℤ :=
  if h : e.val < 393216 then (ei (ix2 r ⟨e.val, h⟩)).toInt else ((e.val - 393216 : ℕ) : ℤ)

/-- The same as a node (total: read modulo the node count; the integer itself where the input is in range). -/
def endF (ei : IVec SE 32) (r : Fin 2) (e : Fin Mm) : Fin Nn := ⟨(endI ei r e).toNat % 12288, Nat.mod_lt _ (by decide)⟩

/-- Sources are row 0, targets row 1. -/
abbrev srcF (ei : IVec SE 32) : Fin Mm → Fin Nn := endF ei 0
abbrev dstF (ei : IVec SE 32) : Fin Mm → Fin Nn := endF ei 1

theorem endI_range {ei : IVec SE 32} (h : InRange ei) (r : Fin 2) (e : Fin Mm) : 0 ≤ endI ei r e ∧ endI ei r e < 12288 := by
  unfold endI
  split
  · exact h r _
  · have := e.isLt
    constructor
    · exact Int.natCast_nonneg _
    · have h2 : e.val - 393216 < 12288 := by show e.val - 393216 < 12288; have : e.val < 405504 := e.isLt; omega
      exact_mod_cast h2

/-- Where the input is in range the node IS the integer. -/
theorem endF_val {ei : IVec SE 32} (h : InRange ei) (r : Fin 2) (e : Fin Mm) : ((endF ei r e).val : ℤ) = endI ei r e := by
  obtain ⟨h0, h1⟩ := endI_range h r e
  unfold endF
  show (((endI ei r e).toNat % 12288 : ℕ) : ℤ) = endI ei r e
  have h3 : (endI ei r e).toNat < 12288 := by omega
  rw [Nat.mod_eq_of_lt h3]; omega

end Cert.Data

end
-- ==== Proof.LibScatterRows.lean ====
import Idealize.ShloMosaic.PureOps.Ideal
import Idealize.ShloMosaic.Lib.ValueIdx

/-!
# A host scatter-add of rows, read at an index

`out = operand.at[idx].add(updates)` with `operand : [R, C]`, one start row per update row (`idx : [N, 1]`, read
signed) and `updates : [N, C]`: update row `n` is added into operand row `idx n` when that row exists and is dropped
otherwise. At the ideal instance the result at `(r, c)` is the operand's entry plus the sum, over the update rows
`n` whose start row is `r`, of `updates (n, c)`. The same for vectors (`operand : [R]`, `updates : [N]`).
-/

noncomputable section

namespace Idealize.ShloMosaic.ScatterRows

open Idealize.ShloMosaic Idealize.ShloMosaic.ValueIdx

variable {R C N : Nat}

/-- The dimension numbers of a row scatter: window axis 1 of the updates onto axis 1 of the operand, axis 0 inserted
    and addressed by the one index component. -/
abbrev dims2 (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ where
  updateWindowDims := [1]
  insertedWindowDims := [0]
  scatterDimsToOperandDims := [0]
  indexVectorDim := 1
  wf := wf

variable (wf : ScatterDims.WF (⟨2, ![R, C]⟩ : Shape) ⟨2, ![N, 1]⟩ ⟨2, ![N, C]⟩ [1] [0] [0] 1)

theorem start0 {w : Nat} (n : Fin N) (q : Fin C) (idx : IVec ⟨2, ![N, 1]⟩ w) :
    (dims2 wf).start (ix2 n q) idx 0 = (idx (ix2 n 0)).toInt := by
  unfold ScatterDims.start
  rw [dif_pos (show (0 : Fin 2) ∈ [(0 : Fin 2)] by decide)]
  refine congrArg (fun k => (idx k).toInt) (funext fun b => Fin.ext ?_)
  match b with
  | ⟨0, _⟩ => rfl
  | ⟨1, _⟩ => rfl

theorem start1 {w : Nat} (n : Fin N) (q : Fin C) (idx : IVec ⟨2, ![N, 1]⟩ w) :
    (dims2 wf).start (ix2 n q) idx 1 = 0 := by
  unfold ScatterDims.start
  rw [dif_neg (show ¬ (1 : Fin 2) ∈ [(0 : Fin 2)] by decide)]

theorem window0 (n : Fin N) (q : Fin C) : (dims2 wf).window (ix2 n q) 0 = 0 := by
  have h : ¬ (0 : Fin (⟨2, ![R, C]⟩ : Shape).rank) ∈ (dims2 wf).sKept :=
    (show ¬ (0 : Fin 2) ∈ (List.finRange 2).filter (· ∉ [(0 : Fin 2)]) by decide)
  unfold ScatterDims.window
  exact dif_neg h

theorem window1 (n : Fin N) (q : Fin C) : (dims2 wf).window (ix2 n q) 1 = q.val := by
  have h : (1 : Fin (⟨2, ![R, C]⟩ : Shape).rank) ∈ (dims2 wf).sKept :=
    (show (1 : Fin 2) ∈ (List.finRange 2).filter (· ∉ [(0 : Fin 2)]) by decide)
  unfold ScatterDims.window
  exact (dif_pos h).trans rfl

/-- Update `(n, q)` lands on operand entry `(r, c)` exactly when its start row, read signed, is `r` and its column is
    `c`; a start row outside the operand lands nowhere. -/
theorem resultIdx_iff {w : Nat} (n : Fin N) (q : Fin C) (idx : IVec ⟨2, ![N, 1]⟩ w) (r : Fin R) (c : Fin C) :
    (dims2 wf).resultIdx? (ix2 n q) idx = some (ix2 r c) ↔ (idx (ix2 n 0)).toInt = (r.val : Int) ∧ q = c := by
  have hs0 := start0 wf n q idx
  have hs1 := start1 wf n q idx
  have hw0 := window0 wf n q
  have hw1 := window1 wf n q
  have hr := r.isLt
  have hq := q.isLt
  unfold ScatterDims.resultIdx?
  split
  · rename_i h
    rw [Option.some.injEq]
    constructor
    · intro e
      have e0 : ((dims2 wf).start (ix2 n q) idx 0 + ((dims2 wf).window (ix2 n q) 0 : Nat)).toNat = r.val :=
        congrArg (fun f : (⟨2, ![R, C]⟩ : Shape).Idx => (f 0).val) e
      have e1 : ((dims2 wf).start (ix2 n q) idx 1 + ((dims2 wf).window (ix2 n q) 1 : Nat)).toNat = c.val :=
        congrArg (fun f : (⟨2, ![R, C]⟩ : Shape).Idx => (f 1).val) e
      have h0 := (h 0).1
      rw [hs0, hw0] at e0 h0
      rw [hs1, hw1] at e1
      exact ⟨by omega, Fin.ext (by omega)⟩
    · rintro ⟨e0, rfl⟩
      funext a
      apply Fin.ext
      match a with
      | ⟨0, _⟩ =>
        show ((dims2 wf).start (ix2 n q) idx 0 + ((dims2 wf).window (ix2 n q) 0 : Nat)).toNat = r.val
        rw [hs0, hw0, e0]; omega
      | ⟨1, _⟩ =>
        show ((dims2 wf).start (ix2 n q) idx 1 + ((dims2 wf).window (ix2 n q) 1 : Nat)).toNat = q.val
        rw [hs1, hw1]; omega
  · rename_i h
    constructor
    · intro e; cases e
    · rintro ⟨e0, rfl⟩
      refine absurd (fun a => ?_) h
      match a with
      | ⟨0, _⟩ =>
        show (0 : Int) ≤ (dims2 wf).start (ix2 n q) idx 0 + ((dims2 wf).window (ix2 n q) 0 : Nat)
          ∧ (dims2 wf).start (ix2 n q) idx 0 + ((dims2 wf).window (ix2 n q) 0 : Nat) < (R : Nat)
        rw [hs0, hw0, e0]; omega
      | ⟨1, _⟩ =>
        show (0 : Int) ≤ (dims2 wf).start (ix2 n q) idx 1 + ((dims2 wf).window (ix2 n q) 1 : Nat)
          ∧ (dims2 wf).start (ix2 n q) idx 1 + ((dims2 wf).window (ix2 n q) 1 : Nat) < (C : Nat)
        rw [hs1, hw1]; omega

/-- THE ROW SCATTER-ADD AT AN INDEX: the operand's entry plus the sum over the update rows whose start row is `r`
    of their entry in column `c`. -/
theorem scatterAdd_apply {w : Nat} (x : (⟨2, ![R, C]⟩ : Shape).Idx → EReal) (idx : IVec ⟨2, ![N, 1]⟩ w)
    (upd : (⟨2, ![N, C]⟩ : Shape).Idx → EReal) (r : Fin R) (c : Fin C) :
    Ideal.hostScatterAdd (dims2 wf) x idx upd (ix2 r c)
      = x (ix2 r c) + ∑ n : Fin N, if (idx (ix2 n 0)).toInt = (r.val : Int) then upd (ix2 n c) else 0 := by
  unfold Ideal.hostScatterAdd
  refine congrArg (x (ix2 r c) + ·) ?_
  rw [Finset.sum_filter, sum_idx2]
  refine Finset.sum_congr rfl fun n _ => ?_
  simp only [resultIdx_iff wf]
  by_cases hn : (idx (ix2 n 0)).toInt = (r.val : Int)
  · simp only [hn, true_and, if_true]
    rw [Finset.sum_ite_eq' Finset.univ c (fun q => upd (ix2 n q)), if_pos (Finset.mem_univ c)]
  · simp only [hn, false_and, if_false, Finset.sum_const_zero]

/-! ## The same for vectors -/

/-- The dimension numbers of an entry scatter into a vector: no window axis, the operand's one axis inserted and
    addressed by the one index component. -/
abbrev dims1 (wf : ScatterDims.WF (⟨1, ![R]⟩ : Shape) ⟨2, ![N, 1]⟩ ⟨1, ![N]⟩ [] [0] [0] 1) :
    ScatterDims (⟨1, ![R]⟩ : Shape) ⟨2, ![N, 1]⟩ ⟨1, ![N]⟩ where
  updateWindowDims := []
  insertedWindowDims := [0]
  scatterDimsToOperandDims := [0]
  indexVectorDim := 1
  wf := wf

variable (wf1 : ScatterDims.WF (⟨1, ![R]⟩ : Shape) ⟨2, ![N, 1]⟩ ⟨1, ![N]⟩ [] [0] [0] 1)

theorem vstart {w : Nat} (n : Fin N) (idx : IVec ⟨2, ![N, 1]⟩ w) :
    (dims1 wf1).start (ix1 n) idx 0 = (idx (ix2 n 0)).toInt := by
  unfold ScatterDims.start
  rw [dif_pos (show (0 : Fin 1) ∈ [(0 : Fin 1)] by decide)]
  refine congrArg (fun k => (idx k).toInt) (funext fun b => Fin.ext ?_)
  match b with
  | ⟨0, _⟩ => rfl
  | ⟨1, _⟩ => rfl

theorem vwindow (n : Fin N) : (dims1 wf1).window (ix1 n) 0 = 0 := by
  have h : ¬ (0 : Fin (⟨1, ![R]⟩ : Shape).rank) ∈ (dims1 wf1).sKept :=
    (show ¬ (0 : Fin 1) ∈ (List.finRange 1).filter (· ∉ [(0 : Fin 1)]) by decide)
  unfold ScatterDims.window
  exact dif_neg h

/-- Update `n` lands on operand entry `r` exactly when its start, read signed, is `r`. -/
theorem vresultIdx_iff {w : Nat} (n : Fin N) (idx : IVec ⟨2, ![N, 1]⟩ w) (r : Fin R) :
    (dims1 wf1).resultIdx? (ix1 n) idx = some (ix1 r) ↔ (idx (ix2 n 0)).toInt = (r.val : Int) := by
  have hs0 := vstart wf1 n idx
  have hw0 := vwindow wf1 n
  have hr := r.isLt
  unfold ScatterDims.resultIdx?
  split
  · rename_i h
    rw [Option.some.injEq]
    constructor
    · intro e
      have e0 : ((dims1 wf1).start (ix1 n) idx 0 + ((dims1 wf1).window (ix1 n) 0 : Nat)).toNat = r.val :=
        congrArg (fun f : (⟨1, ![R]⟩ : Shape).Idx => (f 0).val) e
      have h0 := (h 0).1
      rw [hs0, hw0] at e0 h0
      omega
    · intro e0
      funext a
      apply Fin.ext
      match a with
      | ⟨0, _⟩ =>
        show ((dims1 wf1).start (ix1 n) idx 0 + ((dims1 wf1).window (ix1 n) 0 : Nat)).toNat = r.val
        rw [hs0, hw0, e0]; omega
  · rename_i h
    constructor
    · intro e; cases e
    · intro e0
      refine absurd (fun a => ?_) h
      match a with
      | ⟨0, _⟩ =>
        show (0 : Int) ≤ (dims1 wf1).start (ix1 n) idx 0 + ((dims1 wf1).window (ix1 n) 0 : Nat)
          ∧ (dims1 wf1).start (ix1 n) idx 0 + ((dims1 wf1).window (ix1 n) 0 : Nat) < (R : Nat)
        rw [hs0, hw0, e0]; omega

/-- A rank-1 index set is its one coordinate range. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- THE ENTRY SCATTER-ADD AT AN INDEX: the operand's entry plus the sum of the updates whose start is `r`. -/
theorem vscatterAdd_apply {w : Nat} (x : (⟨1, ![R]⟩ : Shape).Idx → EReal) (idx : IVec ⟨2, ![N, 1]⟩ w)
    (upd : (⟨1, ![N]⟩ : Shape).Idx → EReal) (r : Fin R) :
    Ideal.hostScatterAdd (dims1 wf1) x idx upd (ix1 r)
      = x (ix1 r) + ∑ n : Fin N, if (idx (ix2 n 0)).toInt = (r.val : Int) then upd (ix1 n) else 0 := by
  unfold Ideal.hostScatterAdd
  refine congrArg (x (ix1 r) + ·) ?_
  rw [Finset.sum_filter, sum_idx1]
  refine Finset.sum_congr rfl fun n _ => ?_
  simp only [vresultIdx_iff wf1]

end Idealize.ShloMosaic.ScatterRows

end
-- ==== Proof.RefNorm.lean ====
/-
  The reference's first thirty operations read at an index: the two edge lists, the degrees, their inverse square
  roots and the edge weights, each shown to be the program-free definition of Spec.lean over the nodes of Data.lean.

  * The sources (targets) are row 0 (row 1) of the 2 x 393216 index input with the node numbers 0 .. 12287 appended,
    405504 words in all: at an index below 393216 the word is the input's, from there on it is the index less 393216,
    node i's self-loop. Read signed, the word is endI; where every entry of the input is a node, that integer is the
    node srcF (dstF) itself.
  * The reference then normalises the words as indices: where a word is negative the node count is added, else the
    word is kept. A node's word is nonnegative, so the normalisation is the identity on it (norm_scalar on one word,
    norm_word_of over vectors, norm_word in the printed spelling). Every later layer prints the same normalisation of
    the sources again under new names; the same lemma reads them all.
  * The degree is a scatter-add of ones onto zeros at the targets: at node i, zero plus one for every edge whose
    target word, read signed, is i, which is Spec.deg.
  * The normalising factor is a select on "the degree is greater than zero" between the degree's inverse square root
    and zero: Spec.dinv.
  * The weight of an edge is the factor gathered at its source times the factor gathered at its target. A gather of
    single entries reads the vector at the index word, read signed and clamped into the vector; the word of a node is
    in range, so the clamp does nothing and the product is Spec.nrm.
-/
import proofs.«404591_j69982197121234_3_alg».proof.Proof.RefRead
import proofs.«404591_j69982197121234_3_alg».proof.Proof.Spec
import proofs.«404591_j69982197121234_3_alg».proof.Proof.Data
import proofs.«404591_j69982197121234_3_alg».proof.Proof.LibScatterRows
import Idealize.ShloMosaic.Lib.StableHlo.Predicate
import Idealize.ShloMosaic.Lib.Pipeline.Value
import Idealize.ShloMosaic.Lib.ValueIdx
import Idealize.ShloMosaic.PureOps.Ideal.Laws

noncomputable section

namespace Cert.ReferenceIdeal.RefNorm

open Cert.ReferenceIdeal Cert.ReferenceIdeal.Gen Idealize.ShloMosaic Idealize.ShloMosaic.TcCoe Idealize.SL.Sem Idealize.ShloMosaic.StableHlo
open Idealize.ShloMosaic.ValueIdx Cert.Spec Cert.Data

/-! ## Words -/

/-- On a nonnegative word the signed test "below zero" fails, so the select keeps the word itself: adding the node
    count to wrap a negative index around never happens. -/
theorem norm_scalar (w z c : BitVec 32) (hz : z = 0#32) (h0 : 0 ≤ w.toInt) :
    Scalar.select (IntOp.cmpi .slt w z) (IntOp.addi w c) w = w := by
  subst hz
  have hs : w.slt 0#32 = false := by
    simp only [BitVec.slt, BitVec.toInt_zero, decide_eq_false_iff_not, not_lt]
    exact h0
  show Scalar.select (BitVec.ofBool (w.slt 0#32)) (IntOp.addi w c) w = w
  rw [hs]
  exact select_zero _ _

/-- The same over whole vectors, read at an index: whatever vectors stand for the two constants, as long as the
    one compared against is zero at the index. -/
theorem norm_word_of {s : Shape} (v z c : IVec s 32) (i : s.Idx) (hz : z i = 0#32) (h0 : 0 ≤ (v i).toInt) :
    select (cmpi .slt v z) (addi v c) v i = v i :=
  norm_scalar (v i) (z i) (c i) hz h0

/-- A broadcast scalar constant read at an index is the constant. -/
theorem bcast_const_apply (k : BitVec 32) (i : S405504.Idx) :
    broadcastInDim S405504 ![] bcast_S_S405504 (constantI S_ 32 k) i = k := by
  generalize hy : constantI S_ 32 k = y
  rw [broadcastInDim_apply _ bcast_S_S405504 y i (fun a => a.elim0) (fun a => a.elim0), ← hy]
  rfl

/-- THE INDEX NORMALISATION, in the spelling every layer of the reference prints it in (a signed comparison with a
    broadcast 0, an addition of a broadcast 12288, a select): the identity at an index whose word is a node. -/
theorem norm_word (v : IVec S405504 32) (e : Fin 405504) (h0 : 0 ≤ (v (ix1 e)).toInt) (h1 : (v (ix1 e)).toInt < 12288) :
    select (cmpi .slt v (broadcastInDim S405504 ![] bcast_S_S405504 (constantI S_ 32 0#32)))
        (addi v (broadcastInDim S405504 ![] bcast_S_S405504 (constantI S_ 32 12288#32))) v (ix1 e)
      = v (ix1 e) :=
  norm_word_of v _ _ (ix1 e) (bcast_const_apply 0#32 (ix1 e)) h0

/-! ## The edge lists: a row of the index input with the node numbers appended -/

/-- A vector of 393216 words with the node numbers 0 … 12287 appended, read at an index: below 393216 the vector,
    from there on the node number itself. -/
theorem concat_iota_apply (a : IVec S393216 32) (e : Fin 405504) :
    concatenate S405504 0 [⟨S393216, a⟩, ⟨S12288, ReadP.val_main_v0 (F := Ideal)⟩] concatenates_S393216_S12288_S405504_d0 (ix1 e)
      = if h : e.val < 393216 then a (ix1 ⟨e.val, h⟩) else BitVec.ofNat 32 (e.val - 393216) := by
  have he := e.isLt
  split
  · rename_i h
    exact concatenate_pair_apply_left (0 : Fin 1) a (ReadP.val_main_v0 (F := Ideal)) concatenates_S393216_S12288_S405504_d0 (ix1 e) rfl
      (ix1 ⟨e.val, h⟩) (fun b => by match b with | ⟨0, _⟩ => rfl)
  · rename_i h
    have h2 : e.val - 393216 < 12288 := by omega
    rw [concatenate_pair_apply_right (0 : Fin 1) a (ReadP.val_main_v0 (F := Ideal)) concatenates_S393216_S12288_S405504_d0 (ix1 e) rfl rfl
      (ix1 ⟨e.val - 393216, h2⟩) (fun b hb => absurd (Subsingleton.elim _ _) hb)
      (by show e.val - 393216 + 393216 = e.val; omega)]
    rfl

/-- Row 0 of the index input, flattened, at an index. -/
theorem v2_at (x1 : IVec S2x393216 32) (k : Fin 393216) :
    ReadP.val_main_v2 (F := Ideal) x1 (ix1 k) = x1 (ix2 0 k) := by
  rw [ReadP.val_main_v2_apply, ReadP.val_main_v1_apply]
  refine congrArg x1 (funext fun a => Fin.ext ?_)
  have hk := k.isLt
  match a with
  | ⟨0, _⟩ => rfl
  | ⟨1, _⟩ => show k.val % 393216 = k.val; omega

/-- Row 1 likewise. -/
theorem v5_at (x1 : IVec S2x393216 32) (k : Fin 393216) :
    ReadP.val_main_v5 (F := Ideal) x1 (ix1 k) = x1 (ix2 1 k) := by
  rw [ReadP.val_main_v5_apply, ReadP.val_main_v4_apply]
  refine congrArg x1 (funext fun a => Fin.ext ?_)
  have hk := k.isLt
  match a with
  | ⟨0, _⟩ => rfl
  | ⟨1, _⟩ => show k.val % 393216 = k.val; omega

/-- A small number as a 32-bit word reads back as itself. -/
theorem toInt_selfloop (e : Fin 405504) : (BitVec.ofNat 32 (e.val - 393216)).toInt = ((e.val - 393216 : ℕ) : ℤ) :=
  Predicate.toInt_ofNat_small _ (by have := e.isLt; omega)

/-- The sources with the self-loops appended, as integers. -/
theorem v3_toInt (x1 : IVec S2x393216 32) (e : Fin 405504) :
    (ReadP.val_main_v3 (F := Ideal) x1 (ix1 e)).toInt = endI x1 0 e := by
  unfold ReadP.val_main_v3 endI
  rw [concat_iota_apply]
  split
  · rw [v2_at]
  · exact toInt_selfloop e

/-- The targets with the self-loops appended, as integers. -/
theorem v6_toInt (x1 : IVec S2x393216 32) (e : Fin 405504) :
    (ReadP.val_main_v6 (F := Ideal) x1 (ix1 e)).toInt = endI x1 1 e := by
  unfold ReadP.val_main_v6 endI
  rw [concat_iota_apply]
  split
  · rw [v5_at]
  · exact toInt_selfloop e

section
variable (x1 : IVec S2x393216 32) (h : InRange x1) (e : Fin Mm)
include h

/-- The raw source of an edge is its node. -/
theorem src_raw : (ReadP.val_main_v3 (F := Ideal) x1 (ix1 e)).toInt = ((srcF x1 e).val : ℤ) := by
  rw [v3_toInt, endF_val h]

/-- The raw target of an edge is its node. -/
theorem dst_raw : (ReadP.val_main_v6 (F := Ideal) x1 (ix1 e)).toInt = ((dstF x1 e).val : ℤ) := by
  rw [v6_toInt, endF_val h]

/-- Every source word is a node: nonnegative, below the node count. -/
theorem v3_nonneg : 0 ≤ (ReadP.val_main_v3 (F := Ideal) x1 (ix1 e)).toInt := by
  rw [v3_toInt]; exact (endI_range h 0 e).1
theorem v3_lt : (ReadP.val_main_v3 (F := Ideal) x1 (ix1 e)).toInt < 12288 := by
  rw [v3_toInt]; exact (endI_range h 0 e).2

/-- Every target word is a node. -/
theorem v6_nonneg : 0 ≤ (ReadP.val_main_v6 (F := Ideal) x1 (ix1 e)).toInt := by
  rw [v6_toInt]; exact (endI_range h 1 e).1
theorem v6_lt : (ReadP.val_main_v6 (F := Ideal) x1 (ix1 e)).toInt < 12288 := by
  rw [v6_toInt]; exact (endI_range h 1 e).2

/-- Normalising the sources changes nothing: every source is a node, so nonnegative. -/
theorem v19_eq : ReadP.val_main_v19 (F := Ideal) x1 (ix1 e) = ReadP.val_main_v3 (F := Ideal) x1 (ix1 e) :=
  norm_word (ReadP.val_main_v3 (F := Ideal) x1) e (v3_nonneg x1 h e) (v3_lt x1 h e)

/-- Normalising the targets changes nothing. -/
theorem v26_eq : ReadP.val_main_v26 (F := Ideal) x1 (ix1 e) = ReadP.val_main_v6 (F := Ideal) x1 (ix1 e) :=
  norm_word (ReadP.val_main_v6 (F := Ideal) x1) e (v6_nonneg x1 h e) (v6_lt x1 h e)

/-- The normalised source of an edge is its node. -/
theorem src_nrm : (ReadP.val_main_v19 (F := Ideal) x1 (ix1 e)).toInt = ((srcF x1 e).val : ℤ) := by
  rw [v19_eq x1 h, src_raw x1 h]

/-- The normalised target of an edge is its node. -/
theorem dst_nrm : (ReadP.val_main_v26 (F := Ideal) x1 (ix1 e)).toInt = ((dstF x1 e).val : ℤ) := by
  rw [v26_eq x1 h, dst_raw x1 h]

/-! Each later layer normalises the sources once more, under new names and with the same text: the same words. -/

theorem v35_eq : ReadP.val_main_v35 (F := Ideal) x1 (ix1 e) = ReadP.val_main_v3 (F := Ideal) x1 (ix1 e) :=
  norm_word (ReadP.val_main_v3 (F := Ideal) x1) e (v3_nonneg x1 h e) (v3_lt x1 h e)
theorem v53_eq : ReadP.val_main_v53 (F := Ideal) x1 (ix1 e) = ReadP.val_main_v3 (F := Ideal) x1 (ix1 e) :=
  norm_word (ReadP.val_main_v3 (F := Ideal) x1) e (v3_nonneg x1 h e) (v3_lt x1 h e)
theorem v71_eq : ReadP.val_main_v71 (F := Ideal) x1 (ix1 e) = ReadP.val_main_v3 (F := Ideal) x1 (ix1 e) :=
  norm_word (ReadP.val_main_v3 (F := Ideal) x1) e (v3_nonneg x1 h e) (v3_lt x1 h e)
theorem v88_eq : ReadP.val_main_v88 (F := Ideal) x1 (ix1 e) = ReadP.val_main_v3 (F := Ideal) x1 (ix1 e) :=
  norm_word (ReadP.val_main_v3 (F := Ideal) x1) e (v3_nonneg x1 h e) (v3_lt x1 h e)

theorem src_nrm_v35 : (ReadP.val_main_v35 (F := Ideal) x1 (ix1 e)).toInt = ((srcF x1 e).val : ℤ) := by
  rw [v35_eq x1 h, src_raw x1 h]
theorem src_nrm_v53 : (ReadP.val_main_v53 (F := Ideal) x1 (ix1 e)).toInt = ((srcF x1 e).val : ℤ) := by
  rw [v53_eq x1 h, src_raw x1 h]
theorem src_nrm_v71 : (ReadP.val_main_v71 (F := Ideal) x1 (ix1 e)).toInt = ((srcF x1 e).val : ℤ) := by
  rw [v71_eq x1 h, src_raw x1 h]
theorem src_nrm_v88 : (ReadP.val_main_v88 (F := Ideal) x1 (ix1 e)).toInt = ((srcF x1 e).val : ℤ) := by
  rw [v88_eq x1 h, src_raw x1 h]

end

/-! ## The degree: ones scattered onto zeros at the targets -/

/-- The column of targets at row n is edge n's target. -/
theorem v9_at (x1 : IVec S2x393216 32) (n : Fin 405504) :
    ReadP.val_main_v9 (F := Ideal) x1 (ix2 n 0) = ReadP.val_main_v6 (F := Ideal) x1 (ix1 n) := by
  rw [ReadP.val_main_v9_apply]
  refine congrArg (ReadP.val_main_v6 (F := Ideal) x1) (funext fun a => Fin.ext ?_)
  match a with
  | ⟨0, _⟩ => rfl

/-- The binary32 word 0x3F800000 is the number one. -/
theorem ofBits_one_f32 : Ideal.ofBits .f32 0x3F800000#32 = 1 := by
  simp [Ideal.ofBits, Ideal.ieee, -EReal.coe_mul]; norm_num

/-- The updates are all one. -/
theorem v7_at (n : Fin 405504) : ReadP.val_main_v7 (F := Ideal) (ix1 n) = 1 := by
  rw [ReadP.val_main_v7_apply, ReadP.val_main_cst_apply]
  exact ofBits_one_f32

/-- The operand is all zero. -/
theorem v8_at (i : Fin 12288) : ReadP.val_main_v8 (F := Ideal) (ix1 i) = 0 := by
  rw [ReadP.val_main_v8_apply, ReadP.val_main_cst_0_apply]
  exact Ideal.ofBits_zero_f32

/-- The printed dimension numbers of the degree's scatter are the entry scatter's into a vector. -/
theorem scatter_dims_eq :
    scatter_S12288_S405504x1_S405504_n_0_0_1 = ScatterRows.dims1 scatter_S12288_S405504x1_S405504_n_0_0_1_wf := rfl

/-- The scatter-add at node i: the operand there plus the updates of the rows whose index word, read signed, is i. -/
theorem v10_sum (x1 : IVec S2x393216 32) (i : Fin 12288) :
    ReadP.val_main_v10 (F := Ideal) x1 (ix1 i)
      = ReadP.val_main_v8 (F := Ideal) (ix1 i)
        + ∑ n : Fin 405504, if (ReadP.val_main_v9 (F := Ideal) x1 (ix2 n 0)).toInt = (i.val : ℤ)
            then ReadP.val_main_v7 (F := Ideal) (ix1 n) else 0 := by
  unfold ReadP.val_main_v10 Host.scatterAdd
  rw [Ideal.hostScatterAdd_def, scatter_dims_eq]
  exact ScatterRows.vscatterAdd_apply scatter_S12288_S405504x1_S405504_n_0_0_1_wf _ _ _ i

section
variable (x1 : IVec S2x393216 32) (h : InRange x1)
include h

/-- THE DEGREE: the scatter-add at node i is zero plus one for every edge whose target is i. -/
theorem deg_at (i : Fin 12288) : ReadP.val_main_v10 (F := Ideal) x1 (ix1 i) = deg (dstF x1) i := by
  rw [v10_sum, v8_at]
  unfold deg
  refine congrArg (fun t : EReal => 0 + t) (Finset.sum_congr rfl fun n _ => ?_)
  rw [v9_at, dst_raw x1 h, v7_at]
  by_cases hd : dstF x1 n = i
  · rw [if_pos (by rw [hd]), if_pos hd]
  · have hne : ¬ ((dstF x1 n).val : ℤ) = (i.val : ℤ) := fun hc => hd (Fin.ext (Int.ofNat_inj.mp hc))
    rw [if_neg hne, if_neg hd]

end

/-! ## The inverse square root of the degree, zero where the degree is not positive -/

/-- The select's third operand is all zero. -/
theorem call0_v1_at (i : Fin 12288) : ReadP.val_main_call0_v1 (F := Ideal) (ix1 i) = 0 := by
  rw [ReadP.val_main_call0_v1_apply, ReadP.val_main_call0_v0_apply, ReadP.val_main_cst_2_apply]
  exact Ideal.ofBits_zero_f32

/-- The degree is compared against zero. -/
theorem v11_at (i : Fin 12288) : ReadP.val_main_v11 (F := Ideal) (ix1 i) = 0 := by
  rw [ReadP.val_main_v11_apply, ReadP.val_main_cst_1_apply]
  exact Ideal.ofBits_zero_f32

/-- A select on a decided comparison is the if-then-else. -/
theorem select_decide (p : Prop) [Decidable p] (a b : EReal) :
    Scalar.select (BitVec.ofBool (decide p)) a b = if p then a else b := by
  by_cases hp : p
  · rw [if_pos hp, decide_eq_true hp]; exact select_one _ _
  · rw [if_neg hp, decide_eq_false hp]; exact select_zero _ _

section
variable (x1 : IVec S2x393216 32) (h : InRange x1)
include h

/-- THE NORMALISING FACTOR of node i: the inverse square root of its degree where that is positive, else zero. -/
theorem dinv_at (i : Fin 12288) : ReadP.val_main_v14 (F := Ideal) x1 (ix1 i) = dinv (dstF x1) i := by
  rw [ReadP.val_main_v14_apply, ReadP.val_main_v12_apply, ReadP.val_main_v13_apply, call0_v1_at, v11_at, deg_at x1 h,
    Ideal.cmpf_def, Ideal.hostUnary_rsqrt_def]
  unfold dinv
  exact select_decide _ _ _

end

/-! ## The edge weights: the factor gathered at both ends, multiplied -/

/-- A gather of single entries of a vector of 12288 at a column of 405504 index words, read at row e: where the word,
    read signed, is a node k, the entry at k (the clamp into the vector does nothing). -/
theorem gather_at {α : Type} (x : S12288.Idx → α) (idx : IVec S405504x1 32) (e : Fin 405504) (k : Fin 12288)
    (hk : (idx (Predicate.ixP e)).toInt = (k.val : ℤ)) :
    Host.gather gather_S12288_S405504x1_S405504_n_0_n_n_0_1_1 x idx (ix1 e) = x (ix1 k) := by
  have hg := Predicate.gather_take gather_S12288_S405504x1_S405504_n_0_n_n_0_1_1 rfl rfl rfl rfl x idx e (by omega)
  have e1 : (Shape.Idx.ofFin e : S405504.Idx) = ix1 e := by
    funext a
    match a with
    | ⟨0, _⟩ => rfl
  rw [← e1, hg]
  refine congrArg x (funext fun a => Fin.ext ?_)
  have hkl := k.isLt
  match a with
  | ⟨0, _⟩ =>
    show min (idx (Predicate.ixP e)).toInt.toNat (12288 - 1) = k.val
    rw [hk]; omega

/-- The column of normalised sources at row n is edge n's normalised source. -/
theorem v20_at (x1 : IVec S2x393216 32) (n : Fin 405504) :
    ReadP.val_main_v20 (F := Ideal) x1 (Predicate.ixP n) = ReadP.val_main_v19 (F := Ideal) x1 (ix1 n) := by
  rw [ReadP.val_main_v20_apply]
  refine congrArg (ReadP.val_main_v19 (F := Ideal) x1) (funext fun a => Fin.ext ?_)
  match a with
  | ⟨0, _⟩ => rfl

/-- The column of normalised targets likewise. -/
theorem v27_at (x1 : IVec S2x393216 32) (n : Fin 405504) :
    ReadP.val_main_v27 (F := Ideal) x1 (Predicate.ixP n) = ReadP.val_main_v26 (F := Ideal) x1 (ix1 n) := by
  rw [ReadP.val_main_v27_apply]
  refine congrArg (ReadP.val_main_v26 (F := Ideal) x1) (funext fun a => Fin.ext ?_)
  match a with
  | ⟨0, _⟩ => rfl

section
variable (x1 : IVec S2x393216 32) (h : InRange x1) (e : Fin Mm)
include h

/-- The factor gathered at the edge's source. -/
theorem v21_at : ReadP.val_main_v21 (F := Ideal) x1 (ix1 e) = dinv (dstF x1) (srcF x1 e) := by
  unfold ReadP.val_main_v21
  rw [gather_at _ _ e (srcF x1 e) (by rw [v20_at, src_nrm x1 h]), dinv_at x1 h]

/-- The factor gathered at the edge's target. -/
theorem v28_at : ReadP.val_main_v28 (F := Ideal) x1 (ix1 e) = dinv (dstF x1) (dstF x1 e) := by
  unfold ReadP.val_main_v28
  rw [gather_at _ _ e (dstF x1 e) (by rw [v27_at, dst_nrm x1 h]), dinv_at x1 h]

/-- THE EDGE WEIGHT: the product of the two ends' factors. -/
theorem nrm_at : ReadP.val_main_v29 (F := Ideal) x1 (ix1 e) = nrm (srcF x1) (dstF x1) e := by
  rw [ReadP.val_main_v29_apply, v21_at x1 h, v28_at x1 h]
  rfl

end

end Cert.ReferenceIdeal.RefNorm
end
-- ==== Proof.RefVal.lean ====
/-
  The reference program's two results are the specification's.

  The reference runs four graph convolutions over ONE edge list. Each convolution multiplies the incoming features
  by a weight matrix, gathers the product's rows at the edges' sources, scales every gathered row by its edge's weight,
  sums the scaled rows into the edges' targets over an array of zeros, and adds a bias row; three of the four are then
  clipped at zero from below. Read at an entry `(i, j)`, the sum over the scattered rows is the sum over the edges
  whose target is `i` of the source's feature `j` times the edge's weight, which is the specification's `aggR`; the
  matrix products are `mm`, the clips `relu`. Folding the layers gives `z1R`, `z2R`, then the reconstruction `xhatR`
  (result 0) and the structure embedding `zsR`, whose product with its own transpose is `ahatR` (result 1).

  What the first thirty operations compute is taken here as hypotheses: the target of edge `e` read as an integer is
  the node `d e`, its normalised source (recomputed before each gather) is the node `s e`, and its weight is
  `nrm s d e`.
-/
import proofs.«404591_j69982197121234_3_alg».proof.Proof.RefRead
import proofs.«404591_j69982197121234_3_alg».proof.Proof.Spec
import proofs.«404591_j69982197121234_3_alg».proof.Proof.Data
import proofs.«404591_j69982197121234_3_alg».proof.Proof.LibScatterRows
import Idealize.ShloMosaic.Lib.Pipeline.Value
import Idealize.ShloMosaic.Lib.ValueIdx
import Idealize.ShloMosaic.PureOps.Ideal.Laws

noncomputable section

namespace Cert.ReferenceIdeal.RefVal

open Cert.ReferenceIdeal Cert.ReferenceIdeal.Gen Idealize.ShloMosaic Idealize.ShloMosaic.TcCoe Idealize.SL.Sem Idealize.ShloMosaic.StableHlo
open Idealize.ShloMosaic.ValueIdx Cert.Spec Cert.Data

/-! ## A gather of rows, read at an index -/

section GatherRows
variable {R C N : Nat} {α : Type}

/-- The dimension numbers of a gather of whole rows: the operand's axis 0 collapsed and addressed by the one index
    component, its axis 1 the result's offset axis, the slice one row. -/
abbrev gdims2 (wf : GatherDims.WF (⟨2, ![R, C]⟩ : Shape) ⟨2, ![N, 1]⟩ ⟨2, ![N, C]⟩ [1] [0] [] [0] [] 1 ![1, C]) :
    GatherDims (⟨2, ![R, C]⟩ : Shape) ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- Result entry `(n, c)` of a gather of rows is the operand's entry `(r, c)` when the start index of row `n`, read
    signed, is the row `r` of the operand (an in-range start index is not moved by the clamp). -/
theorem gatherRows_apply {w : Nat}
    (wf : GatherDims.WF (⟨2, ![R, C]⟩ : Shape) ⟨2, ![N, 1]⟩ ⟨2, ![N, C]⟩ [1] [0] [] [0] [] 1 ![1, C])
    (x : (⟨2, ![R, C]⟩ : Shape).Idx → α) (idx : IVec ⟨2, ![N, 1]⟩ w) (n : Fin N) (c : Fin C) (r : Fin R)
    (h : (idx (ix2 n 0)).toInt = (r.val : ℤ)) :
    Host.gather (gdims2 wf) x idx (ix2 n c) = x (ix2 r c) := by
  unfold Host.gather
  congr 1
  funext a
  refine Fin.ext ?_
  match a with
  | ⟨0, _⟩ =>
    show (gdims2 wf).start (ix2 n c) idx 0 + (gdims2 wf).batchCoord (ix2 n c) 0 + (gdims2 wf).offCoord (ix2 n c) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gdims2 wf).startIndexMap from List.mem_singleton.mpr rfl)]
    have hsi : (gdims2 wf).siIdx (ix2 n c) ⟨List.idxOf (0 : Fin 2) (gdims2 wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, h]
    have hr := r.isLt
    show min ((r.val : ℤ)).toNat (R - 1) = r.val
    rw [Int.toNat_natCast]
    omega
  | ⟨1, _⟩ =>
    show (gdims2 wf).start (ix2 n c) idx 1 + (gdims2 wf).batchCoord (ix2 n c) 1 + (gdims2 wf).offCoord (ix2 n c) 1 = c.val
    rw [GatherDims.batchCoord_eq_zero _ _ _ List.not_mem_nil]
    unfold GatherDims.start
    rw [dif_neg (show ¬ (1 : Fin 2) ∈ [(0 : Fin 2)] by decide)]
    have h1 : (1 : Fin (⟨2, ![R, C]⟩ : Shape).rank) ∈ (gdims2 wf).sKept :=
      (show (1 : Fin 2) ∈ (List.finRange 2).filter (· ∉ [(0 : Fin 2)] ++ []) by decide)
    have hk : (gdims2 wf).sKept = [1] :=
      (show (List.finRange 2).filter (· ∉ [(0 : Fin 2)] ++ []) = [1] by decide)
    have e : ∀ (l : List (Fin 2)) (hl : l = [1]) (hp : List.idxOf (1 : Fin 2) l < [(1 : Fin 2)].length),
        (ix2 n c ([(1 : Fin 2)][List.idxOf (1 : Fin 2) l]'hp)).val = c.val := by
      intro l hl hp; subst hl; rfl
    unfold GatherDims.offCoord
    rw [dif_pos h1, Nat.zero_add]
    exact e _ hk _

end GatherRows

/-! ## One graph convolution as the program runs it, read at an index -/

section Conv
variable {C : Nat} (s d : Fin Mm → Fin Nn)

/-- The rows of `h` gathered at the edges' sources, scaled by the edges' weights, summed into the edges' targets over
    zeros, plus the bias: at `(i, j)` this is the specification's convolution of `h`. An edge lands on row `i` exactly
    when its target IS `i` (two nodes with the same integer are the same node), and its source, being a node, is an
    in-range row of `h`. -/
theorem conv_apply
    (wfg : GatherDims.WF (⟨2, ![Nn, C]⟩ : Shape) ⟨2, ![Mm, 1]⟩ ⟨2, ![Mm, C]⟩ [1] [0] [] [0] [] 1 ![1, C])
    (wfs : ScatterDims.WF (⟨2, ![Nn, C]⟩ : Shape) ⟨2, ![Mm, 1]⟩ ⟨2, ![Mm, C]⟩ [1] [0] [0] 1)
    (h zero bias : FVec Ideal ⟨2, ![Nn, C]⟩ .f32) (wgt : FVec Ideal ⟨2, ![Mm, C]⟩ .f32)
    (sidx didx : IVec ⟨2, ![Mm, 1]⟩ 32) (b : Fin C → EReal)
    (hs : ∀ e : Fin Mm, (sidx (ix2 e 0)).toInt = ((s e).val : ℤ))
    (hd : ∀ e : Fin Mm, (didx (ix2 e 0)).toInt = ((d e).val : ℤ))
    (hw : ∀ (e : Fin Mm) (c : Fin C), wgt (ix2 e c) = nrm s d e)
    (hz : ∀ (i : Fin Nn) (c : Fin C), zero (ix2 i c) = 0)
    (hb : ∀ (i : Fin Nn) (c : Fin C), bias (ix2 i c) = b c) (i : Fin Nn) (j : Fin C) :
    addf (Host.scatterAdd (ScatterRows.dims2 wfs) zero didx (mulf (Host.gather (gdims2 wfg) h sidx) wgt)) bias (ix2 i j)
      = aggR s d (fun k c => h (ix2 k c)) b i j := by
  show Ideal.hostScatterAdd (ScatterRows.dims2 wfs) zero didx (mulf (Host.gather (gdims2 wfg) h sidx) wgt) (ix2 i j)
    + bias (ix2 i j) = _
  rw [ScatterRows.scatterAdd_apply, hz, hb]
  unfold aggR
  refine congrArg (fun t => (0 + t) + b j) (Finset.sum_congr rfl fun e _ => ?_)
  have hc : ((didx (ix2 e 0)).toInt = (i.val : ℤ)) ↔ d e = i := by
    rw [hd]
    constructor
    · intro h; exact Fin.ext (by exact_mod_cast h)
    · rintro rfl; rfl
  rw [if_congr hc rfl rfl]
  split
  · show Host.gather (gdims2 wfg) h sidx (ix2 e j) * wgt (ix2 e j) = _
    rw [gatherRows_apply wfg h sidx e j (s e) (hs e), hw]
  · rfl

end Conv

/-! ## The four convolutions of the reference program -/

section Layers
variable (x1 : (⟨S2x393216, .i32⟩ : BufTy).Contents (Elt Ideal)) (s d : Fin Mm → Fin Nn)
  (hd : ∀ e : Fin Mm, (ReadP.val_main_v6 (F := Ideal) x1 (ix1 e)).toInt = ((d e).val : ℤ))
  (hs35 : ∀ e : Fin Mm, (ReadP.val_main_v35 (F := Ideal) x1 (ix1 e)).toInt = ((s e).val : ℤ))
  (hs53 : ∀ e : Fin Mm, (ReadP.val_main_v53 (F := Ideal) x1 (ix1 e)).toInt = ((s e).val : ℤ))
  (hs71 : ∀ e : Fin Mm, (ReadP.val_main_v71 (F := Ideal) x1 (ix1 e)).toInt = ((s e).val : ℤ))
  (hs88 : ∀ e : Fin Mm, (ReadP.val_main_v88 (F := Ideal) x1 (ix1 e)).toInt = ((s e).val : ℤ))
  (hn : ∀ e : Fin Mm, ReadP.val_main_v29 (F := Ideal) x1 (ix1 e) = nrm s d e)
  (x0 : (⟨S12288x128, .f32⟩ : BufTy).Contents (Elt Ideal)) (x2 : (⟨S128x16, .f32⟩ : BufTy).Contents (Elt Ideal))
  (x3 : (⟨S16, .f32⟩ : BufTy).Contents (Elt Ideal)) (x4 : (⟨S16x8, .f32⟩ : BufTy).Contents (Elt Ideal))
  (x5 : (⟨S8, .f32⟩ : BufTy).Contents (Elt Ideal)) (x6 : (⟨S8x128, .f32⟩ : BufTy).Contents (Elt Ideal))
  (x7 : (⟨S128, .f32⟩ : BufTy).Contents (Elt Ideal)) (x8 : (⟨S8x8, .f32⟩ : BufTy).Contents (Elt Ideal))
  (x9 : (⟨S8, .f32⟩ : BufTy).Contents (Elt Ideal))

include hd hs35 hn in
/-- Layer 1 before its clip: the convolution of the product %30 with the bias `x3`. -/
theorem layer1 (i : Fin 12288) (j : Fin 16) :
    ReadP.val_main_v46 (F := Ideal) x0 x1 x2 x3 (ix2 i j)
      = aggR s d (fun k c => ReadP.val_main_v30 (F := Ideal) x0 x2 (ix2 k c)) (vec x3) i j := by
  unfold ReadP.val_main_v46 ReadP.val_main_v43 ReadP.val_main_v40 ReadP.val_main_v37
  refine conv_apply (C := 16) s d Facts₀.gather_S12288x16_S405504x1_S405504x16_1_0_n_n_0_1_116_wf
    Facts₀.scatter_S12288x16_S405504x1_S405504x16_1_0_0_1_wf (ReadP.val_main_v30 (F := Ideal) x0 x2)
    (ReadP.val_main_v41 (F := Ideal)) (ReadP.val_main_v45 (F := Ideal) x3) (ReadP.val_main_v39 (F := Ideal) x1)
    (ReadP.val_main_v36 (F := Ideal) x1) (ReadP.val_main_v42 (F := Ideal) x1) (vec x3) ?_ ?_ ?_ ?_ ?_ i j
  · intro e
    rw [ReadP.val_main_v36_apply, show ReadP.idx_main_v36 (ix2 e (0 : Fin 1)) = ix1 e from
      funext fun a => by match a with | ⟨0, _⟩ => rfl]
    exact hs35 e
  · intro e
    rw [ReadP.val_main_v42_apply, show ReadP.idx_main_v42 (ix2 e (0 : Fin 1)) = ix1 e from
      funext fun a => by match a with | ⟨0, _⟩ => rfl]
    exact hd e
  · intro e c
    rw [ReadP.val_main_v39_apply, ReadP.val_main_v38_apply,
      show ReadP.idx_main_v38 (ReadP.idx_main_v39 (ix2 e c)) = ix1 e from
        funext fun a => by match a with | ⟨0, _⟩ => rfl]
    exact hn e
  · intro i c
    rw [ReadP.val_main_v41_apply, ReadP.val_main_cst_8_apply, Ideal.ofBits_def, Ideal.ofBits_zero_f32]
  · intro i c
    rw [ReadP.val_main_v45_apply, ReadP.val_main_v44_apply,
      show ReadP.idx_main_v44 (ReadP.idx_main_v45 (ix2 i c)) = ix1 c from
        funext fun a => by match a with | ⟨0, _⟩ => rfl]
    rfl

/-- The product %30 is the matrix product of the inputs read as matrices. -/
theorem mm30 (k : Fin 12288) (c : Fin 16) :
    ReadP.val_main_v30 (F := Ideal) x0 x2 (ix2 k c)
      = mm (mat (α := EReal) (a := 12288) (b := 128) x0) (mat (α := EReal) (a := 128) (b := 16) x2) k c := by
  rw [ReadP.val_main_v30_apply]
  unfold mm mat
  refine Finset.sum_congr rfl fun q _ => ?_
  rw [show ReadP.lidx_main_v30 (ix2 k c) q = ix2 k q from
      funext fun a => Fin.ext (by match a with | ⟨0, _⟩ => rfl | ⟨1, _⟩ => rfl),
    show ReadP.ridx_main_v30 (ix2 k c) q = ix2 q c from
      funext fun a => Fin.ext (by match a with | ⟨0, _⟩ => rfl | ⟨1, _⟩ => rfl)]

include hd hs35 hn in
/-- Layer 1 after its clip is the specification's first hidden layer. -/
theorem z1_eq (i : Fin 12288) (j : Fin 16) :
    ReadP.val_main_v47 (F := Ideal) x0 x1 x2 x3 (ix2 i j)
      = z1R s d (mat (α := EReal) (a := 12288) (b := 128) x0) (mat (α := EReal) (a := 128) (b := 16) x2)
          (vec (α := EReal) (a := 16) x3) i j := by
  rw [ReadP.val_main_v47_apply, Ideal.maximumf_def, ReadP.val_main_call1_v0_apply, ReadP.val_main_call1_cst_apply,
    Ideal.ofBits_def, Ideal.ofBits_zero_f32, layer1 x1 s d hd hs35 hn x0 x2 x3 i j]
  unfold z1R relu
  rw [show (fun k c => ReadP.val_main_v30 (F := Ideal) x0 x2 (ix2 k c))
      = mm (mat (α := EReal) (a := 12288) (b := 128) x0) (mat (α := EReal) (a := 128) (b := 16) x2) from
    funext fun k => funext fun c => mm30 x0 x2 k c]

include hd hs53 hn in
/-- Layer 2 before its clip: the convolution of the product %48 with the bias `x5`. -/
theorem layer2 (i : Fin 12288) (j : Fin 8) :
    ReadP.val_main_v64 (F := Ideal) x0 x1 x2 x3 x4 x5 (ix2 i j)
      = aggR s d (fun k c => ReadP.val_main_v48 (F := Ideal) x0 x1 x2 x3 x4 (ix2 k c)) (vec x5) i j := by
  unfold ReadP.val_main_v64 ReadP.val_main_v61 ReadP.val_main_v58 ReadP.val_main_v55
  refine conv_apply (C := 8) s d Facts₀.gather_S12288x8_S405504x1_S405504x8_1_0_n_n_0_1_18_wf
    Facts₀.scatter_S12288x8_S405504x1_S405504x8_1_0_0_1_wf (ReadP.val_main_v48 (F := Ideal) x0 x1 x2 x3 x4)
    (ReadP.val_main_v59 (F := Ideal)) (ReadP.val_main_v63 (F := Ideal) x5) (ReadP.val_main_v57 (F := Ideal) x1)
    (ReadP.val_main_v54 (F := Ideal) x1) (ReadP.val_main_v60 (F := Ideal) x1) (vec x5) ?_ ?_ ?_ ?_ ?_ i j
  · intro e
    rw [ReadP.val_main_v54_apply, show ReadP.idx_main_v54 (ix2 e (0 : Fin 1)) = ix1 e from
      funext fun a => by match a with | ⟨0, _⟩ => rfl]
    exact hs53 e
  · intro e
    rw [ReadP.val_main_v60_apply, show ReadP.idx_main_v60 (ix2 e (0 : Fin 1)) = ix1 e from
      funext fun a => by match a with | ⟨0, _⟩ => rfl]
    exact hd e
  · intro e c
    rw [ReadP.val_main_v57_apply, ReadP.val_main_v56_apply,
      show ReadP.idx_main_v56 (ReadP.idx_main_v57 (ix2 e c)) = ix1 e from
        funext fun a => by match a with | ⟨0, _⟩ => rfl]
    exact hn e
  · intro i c
    rw [ReadP.val_main_v59_apply, ReadP.val_main_cst_11_apply, Ideal.ofBits_def, Ideal.ofBits_zero_f32]
  · intro i c
    rw [ReadP.val_main_v63_apply, ReadP.val_main_v62_apply,
      show ReadP.idx_main_v62 (ReadP.idx_main_v63 (ix2 i c)) = ix1 c from
        funext fun a => by match a with | ⟨0, _⟩ => rfl]
    rfl

/-- The product %48 is the matrix product of layer 1's result with the second weight. -/
theorem mm48 (k : Fin 12288) (c : Fin 8) :
    ReadP.val_main_v48 (F := Ideal) x0 x1 x2 x3 x4 (ix2 k c)
      = mm (fun a b => ReadP.val_main_v47 (F := Ideal) x0 x1 x2 x3 (ix2 a b)) (mat (α := EReal) (a := 16) (b := 8) x4) k c := by
  rw [ReadP.val_main_v48_apply]
  unfold mm mat
  refine Finset.sum_congr rfl fun q _ => ?_
  rw [show ReadP.lidx_main_v48 (ix2 k c) q = ix2 k q from
      funext fun a => Fin.ext (by match a with | ⟨0, _⟩ => rfl | ⟨1, _⟩ => rfl),
    show ReadP.ridx_main_v48 (ix2 k c) q = ix2 q c from
      funext fun a => Fin.ext (by match a with | ⟨0, _⟩ => rfl | ⟨1, _⟩ => rfl)]

include hd hs35 hs53 hn in
/-- Layer 2 after its clip is the specification's second hidden layer. -/
theorem z2_eq (i : Fin 12288) (j : Fin 8) :
    ReadP.val_main_v65 (F := Ideal) x0 x1 x2 x3 x4 x5 (ix2 i j)
      = z2R s d (mat (α := EReal) (a := 12288) (b := 128) x0) (mat (α := EReal) (a := 128) (b := 16) x2)
          (vec (α := EReal) (a := 16) x3) (mat (α := EReal) (a := 16) (b := 8) x4) (vec (α := EReal) (a := 8) x5) i j := by
  rw [ReadP.val_main_v65_apply, Ideal.maximumf_def, ReadP.val_main_call2_v0_apply, ReadP.val_main_call2_cst_apply,
    Ideal.ofBits_def, Ideal.ofBits_zero_f32, layer2 x1 s d hd hs53 hn x0 x2 x3 x4 x5 i j]
  unfold z2R relu
  rw [show (fun k c => ReadP.val_main_v48 (F := Ideal) x0 x1 x2 x3 x4 (ix2 k c))
      = mm (z1R s d (mat (α := EReal) (a := 12288) (b := 128) x0) (mat (α := EReal) (a := 128) (b := 16) x2)
          (vec (α := EReal) (a := 16) x3)) (mat (α := EReal) (a := 16) (b := 8) x4) from
    funext fun k => funext fun c => by
      rw [mm48 x1 x0 x2 x3 x4 k c]
      exact congrArg (fun H => mm H (mat (α := EReal) (a := 16) (b := 8) x4) k c)
        (funext fun a => funext fun b => z1_eq x1 s d hd hs35 hn x0 x2 x3 a b)]

include hd hs71 hn in
/-- Layer 3 (no clip): the convolution of the product %66 with the bias `x7`. -/
theorem layer3 (i : Fin 12288) (j : Fin 128) :
    ReadP.val_main_v82 (F := Ideal) x0 x1 x2 x3 x4 x5 x6 x7 (ix2 i j)
      = aggR s d (fun k c => ReadP.val_main_v66 (F := Ideal) x0 x1 x2 x3 x4 x5 x6 (ix2 k c)) (vec x7) i j := by
  unfold ReadP.val_main_v82 ReadP.val_main_v79 ReadP.val_main_v76 ReadP.val_main_v73
  refine conv_apply (C := 128) s d Facts₀.gather_S12288x128_S405504x1_S405504x128_1_0_n_n_0_1_1128_wf
    Facts₀.scatter_S12288x128_S405504x1_S405504x128_1_0_0_1_wf (ReadP.val_main_v66 (F := Ideal) x0 x1 x2 x3 x4 x5 x6)
    (ReadP.val_main_v77 (F := Ideal)) (ReadP.val_main_v81 (F := Ideal) x7) (ReadP.val_main_v75 (F := Ideal) x1)
    (ReadP.val_main_v72 (F := Ideal) x1) (ReadP.val_main_v78 (F := Ideal) x1) (vec x7) ?_ ?_ ?_ ?_ ?_ i j
  · intro e
    rw [ReadP.val_main_v72_apply, show ReadP.idx_main_v72 (ix2 e (0 : Fin 1)) = ix1 e from
      funext fun a => by match a with | ⟨0, _⟩ => rfl]
    exact hs71 e
  · intro e
    rw [ReadP.val_main_v78_apply, show ReadP.idx_main_v78 (ix2 e (0 : Fin 1)) = ix1 e from
      funext fun a => by match a with | ⟨0, _⟩ => rfl]
    exact hd e
  · intro e c
    rw [ReadP.val_main_v75_apply, ReadP.val_main_v74_apply,
      show ReadP.idx_main_v74 (ReadP.idx_main_v75 (ix2 e c)) = ix1 e from
        funext fun a => by match a with | ⟨0, _⟩ => rfl]
    exact hn e
  · intro i c
    rw [ReadP.val_main_v77_apply, ReadP.val_main_cst_14_apply, Ideal.ofBits_def, Ideal.ofBits_zero_f32]
  · intro i c
    rw [ReadP.val_main_v81_apply, ReadP.val_main_v80_apply,
      show ReadP.idx_main_v80 (ReadP.idx_main_v81 (ix2 i c)) = ix1 c from
        funext fun a => by match a with | ⟨0, _⟩ => rfl]
    rfl

/-- The product %66 is the matrix product of layer 2's result with the reconstruction head's weight. -/
theorem mm66 (k : Fin 12288) (c : Fin 128) :
    ReadP.val_main_v66 (F := Ideal) x0 x1 x2 x3 x4 x5 x6 (ix2 k c)
      = mm (fun a b => ReadP.val_main_v65 (F := Ideal) x0 x1 x2 x3 x4 x5 (ix2 a b)) (mat (α := EReal) (a := 8) (b := 128) x6) k c := by
  rw [ReadP.val_main_v66_apply]
  unfold mm mat
  refine Finset.sum_congr rfl fun q _ => ?_
  rw [show ReadP.lidx_main_v66 (ix2 k c) q = ix2 k q from
      funext fun a => Fin.ext (by match a with | ⟨0, _⟩ => rfl | ⟨1, _⟩ => rfl),
    show ReadP.ridx_main_v66 (ix2 k c) q = ix2 q c from
      funext fun a => Fin.ext (by match a with | ⟨0, _⟩ => rfl | ⟨1, _⟩ => rfl)]

include hd hs35 hs53 hs71 hn in
/-- RESULT 0 of the reference program is the specification's reconstruction. -/
theorem out0_eq (i : Fin 12288) (j : Fin 128) :
    ReadP.val_main_v82 (F := Ideal) x0 x1 x2 x3 x4 x5 x6 x7 (ix2 i j)
      = xhatR s d (mat (α := EReal) (a := 12288) (b := 128) x0) (mat (α := EReal) (a := 128) (b := 16) x2)
          (vec (α := EReal) (a := 16) x3) (mat (α := EReal) (a := 16) (b := 8) x4) (vec (α := EReal) (a := 8) x5)
          (mat (α := EReal) (a := 8) (b := 128) x6) (vec (α := EReal) (a := 128) x7) i j := by
  rw [layer3 x1 s d hd hs71 hn x0 x2 x3 x4 x5 x6 x7 i j]
  unfold xhatR
  rw [show (fun k c => ReadP.val_main_v66 (F := Ideal) x0 x1 x2 x3 x4 x5 x6 (ix2 k c))
      = mm (z2R s d (mat (α := EReal) (a := 12288) (b := 128) x0) (mat (α := EReal) (a := 128) (b := 16) x2)
          (vec (α := EReal) (a := 16) x3) (mat (α := EReal) (a := 16) (b := 8) x4) (vec (α := EReal) (a := 8) x5))
          (mat (α := EReal) (a := 8) (b := 128) x6) from
    funext fun k => funext fun c => by
      rw [mm66 x1 x0 x2 x3 x4 x5 x6 k c]
      exact congrArg (fun H => mm H (mat (α := EReal) (a := 8) (b := 128) x6) k c)
        (funext fun a => funext fun b => z2_eq x1 s d hd hs35 hs53 hn x0 x2 x3 x4 x5 a b)]

include hd hs88 hn in
/-- Layer 4 before its clip: the convolution of the product %83 with the bias `x9`. -/
theorem layer4 (i : Fin 12288) (j : Fin 8) :
    ReadP.val_main_v99 (F := Ideal) x0 x1 x2 x3 x4 x5 x8 x9 (ix2 i j)
      = aggR s d (fun k c => ReadP.val_main_v83 (F := Ideal) x0 x1 x2 x3 x4 x5 x8 (ix2 k c)) (vec x9) i j := by
  unfold ReadP.val_main_v99 ReadP.val_main_v96 ReadP.val_main_v93 ReadP.val_main_v90
  refine conv_apply (C := 8) s d Facts₀.gather_S12288x8_S405504x1_S405504x8_1_0_n_n_0_1_18_wf
    Facts₀.scatter_S12288x8_S405504x1_S405504x8_1_0_0_1_wf (ReadP.val_main_v83 (F := Ideal) x0 x1 x2 x3 x4 x5 x8)
    (ReadP.val_main_v94 (F := Ideal)) (ReadP.val_main_v98 (F := Ideal) x9) (ReadP.val_main_v92 (F := Ideal) x1)
    (ReadP.val_main_v89 (F := Ideal) x1) (ReadP.val_main_v95 (F := Ideal) x1) (vec x9) ?_ ?_ ?_ ?_ ?_ i j
  · intro e
    rw [ReadP.val_main_v89_apply, show ReadP.idx_main_v89 (ix2 e (0 : Fin 1)) = ix1 e from
      funext fun a => by match a with | ⟨0, _⟩ => rfl]
    exact hs88 e
  · intro e
    rw [ReadP.val_main_v95_apply, show ReadP.idx_main_v95 (ix2 e (0 : Fin 1)) = ix1 e from
      funext fun a => by match a with | ⟨0, _⟩ => rfl]
    exact hd e
  · intro e c
    rw [ReadP.val_main_v92_apply, ReadP.val_main_v91_apply,
      show ReadP.idx_main_v91 (ReadP.idx_main_v92 (ix2 e c)) = ix1 e from
        funext fun a => by match a with | ⟨0, _⟩ => rfl]
    exact hn e
  · intro i c
    rw [ReadP.val_main_v94_apply, ReadP.val_main_cst_17_apply, Ideal.ofBits_def, Ideal.ofBits_zero_f32]
  · intro i c
    rw [ReadP.val_main_v98_apply, ReadP.val_main_v97_apply,
      show ReadP.idx_main_v97 (ReadP.idx_main_v98 (ix2 i c)) = ix1 c from
        funext fun a => by match a with | ⟨0, _⟩ => rfl]
    rfl

/-- The product %83 is the matrix product of layer 2's result with the structure head's weight. -/
theorem mm83 (k : Fin 12288) (c : Fin 8) :
    ReadP.val_main_v83 (F := Ideal) x0 x1 x2 x3 x4 x5 x8 (ix2 k c)
      = mm (fun a b => ReadP.val_main_v65 (F := Ideal) x0 x1 x2 x3 x4 x5 (ix2 a b)) (mat (α := EReal) (a := 8) (b := 8) x8) k c := by
  rw [ReadP.val_main_v83_apply]
  unfold mm mat
  refine Finset.sum_congr rfl fun q _ => ?_
  rw [show ReadP.lidx_main_v83 (ix2 k c) q = ix2 k q from
      funext fun a => Fin.ext (by match a with | ⟨0, _⟩ => rfl | ⟨1, _⟩ => rfl),
    show ReadP.ridx_main_v83 (ix2 k c) q = ix2 q c from
      funext fun a => Fin.ext (by match a with | ⟨0, _⟩ => rfl | ⟨1, _⟩ => rfl)]

include hd hs35 hs53 hs88 hn in
/-- Layer 4 after its clip is the specification's structure embedding. -/
theorem zs_eq (i : Fin 12288) (j : Fin 8) :
    ReadP.val_main_v100 (F := Ideal) x0 x1 x2 x3 x4 x5 x8 x9 (ix2 i j)
      = zsR s d (mat (α := EReal) (a := 12288) (b := 128) x0) (mat (α := EReal) (a := 128) (b := 16) x2)
          (vec (α := EReal) (a := 16) x3) (mat (α := EReal) (a := 16) (b := 8) x4) (vec (α := EReal) (a := 8) x5)
          (mat (α := EReal) (a := 8) (b := 8) x8) (vec (α := EReal) (a := 8) x9) i j := by
  rw [ReadP.val_main_v100_apply, Ideal.maximumf_def, ReadP.val_main_call3_v0_apply, ReadP.val_main_call3_cst_apply,
    Ideal.ofBits_def, Ideal.ofBits_zero_f32, layer4 x1 s d hd hs88 hn x0 x2 x3 x4 x5 x8 x9 i j]
  unfold zsR relu
  rw [show (fun k c => ReadP.val_main_v83 (F := Ideal) x0 x1 x2 x3 x4 x5 x8 (ix2 k c))
      = mm (z2R s d (mat (α := EReal) (a := 12288) (b := 128) x0) (mat (α := EReal) (a := 128) (b := 16) x2)
          (vec (α := EReal) (a := 16) x3) (mat (α := EReal) (a := 16) (b := 8) x4) (vec (α := EReal) (a := 8) x5))
          (mat (α := EReal) (a := 8) (b := 8) x8) from
    funext fun k => funext fun c => by
      rw [mm83 x1 x0 x2 x3 x4 x5 x8 k c]
      exact congrArg (fun H => mm H (mat (α := EReal) (a := 8) (b := 8) x8) k c)
        (funext fun a => funext fun b => z2_eq x1 s d hd hs35 hs53 hn x0 x2 x3 x4 x5 a b)]

include hd hs35 hs53 hs88 hn in
/-- RESULT 1 of the reference program is the specification's adjacency: the structure embedding times its own
    transpose. -/
theorem out1_eq (i j : Fin 12288) :
    ReadP.val_main_v102 (F := Ideal) x0 x1 x2 x3 x4 x5 x8 x9 (ix2 i j)
      = ahatR s d (mat (α := EReal) (a := 12288) (b := 128) x0) (mat (α := EReal) (a := 128) (b := 16) x2)
          (vec (α := EReal) (a := 16) x3) (mat (α := EReal) (a := 16) (b := 8) x4) (vec (α := EReal) (a := 8) x5)
          (mat (α := EReal) (a := 8) (b := 8) x8) (vec (α := EReal) (a := 8) x9) i j := by
  rw [ReadP.val_main_v102_apply]
  unfold ahatR
  refine Finset.sum_congr rfl fun q _ => ?_
  rw [ReadP.val_main_v101_apply,
    show ReadP.lidx_main_v102 (ix2 i j) q = ix2 i q from
      funext fun a => Fin.ext (by match a with | ⟨0, _⟩ => rfl | ⟨1, _⟩ => rfl),
    show ReadP.idx_main_v101 (ReadP.ridx_main_v102 (ix2 i j) q) = ix2 j q from
      funext fun a => Fin.ext (by match a with | ⟨0, _⟩ => rfl | ⟨1, _⟩ => rfl),
    zs_eq x1 s d hd hs35 hs53 hs88 hn x0 x2 x3 x4 x5 x8 x9 i q,
    zs_eq x1 s d hd hs35 hs53 hs88 hn x0 x2 x3 x4 x5 x8 x9 j q]

end Layers

end Cert.ReferenceIdeal.RefVal

end
-- ==== Proof.RefAsm.lean ====
/-
  The reference program's two results, index by index, are the specification's: the run's result terms are the last
  stages (`val_main_v82`, `val_main_v102`), the layers read them as the reference's four graph convolutions over the
  edge list, and the edge list, the degrees and the edge weights are the specification's where every entry of the
  index input is a node.
-/
import proofs.«404591_j69982197121234_3_alg».proof.Proof.RefModules
import proofs.«404591_j69982197121234_3_alg».proof.Proof.RefNorm
import proofs.«404591_j69982197121234_3_alg».proof.Proof.RefVal

noncomputable section

namespace Cert.ReferenceIdeal.RefAsm

open Cert.ReferenceIdeal Cert.ReferenceIdeal.Gen Idealize.ShloMosaic Idealize.ShloMosaic.TcCoe Idealize.SL.Sem
open Idealize.ShloMosaic.ValueIdx Cert.Spec Cert.Data

variable (m : (ℓ : Loc nD τ sig) → Buf (Elt Ideal) ℓ) (c : Dev nD)

/-- The reconstruction: row `i`, feature `j`. -/
theorem out0 (h : InRange (m ((c.tc : Thread nD τ).loc main_arg1))) (i : Fin 12288) (j : Fin 128) :
    (ValueP.res_main_v82 (F := Ideal) m c : S12288x128.Idx → EReal) (ix2 i j)
      = xhatR (srcF (m ((c.tc : Thread nD τ).loc main_arg1))) (dstF (m ((c.tc : Thread nD τ).loc main_arg1)))
          (mat (α := EReal) (a := 12288) (b := 128) (m ((c.tc : Thread nD τ).loc main_arg0)))
          (mat (α := EReal) (a := 128) (b := 16) (m ((c.tc : Thread nD τ).loc main_arg2)))
          (vec (α := EReal) (a := 16) (m ((c.tc : Thread nD τ).loc main_arg3)))
          (mat (α := EReal) (a := 16) (b := 8) (m ((c.tc : Thread nD τ).loc main_arg4)))
          (vec (α := EReal) (a := 8) (m ((c.tc : Thread nD τ).loc main_arg5)))
          (mat (α := EReal) (a := 8) (b := 128) (m ((c.tc : Thread nD τ).loc main_arg6)))
          (vec (α := EReal) (a := 128) (m ((c.tc : Thread nD τ).loc main_arg7))) i j := by
  rw [ReadP.val_main_v82_eq]
  exact RefVal.out0_eq _ _ _ (RefNorm.dst_raw _ h) (RefNorm.src_nrm_v35 _ h) (RefNorm.src_nrm_v53 _ h)
    (RefNorm.src_nrm_v71 _ h) (RefNorm.nrm_at _ h) _ _ _ _ _ _ _ i j

/-- The decoded adjacency: nodes `i`, `j`. -/
theorem out1 (h : InRange (m ((c.tc : Thread nD τ).loc main_arg1))) (i j : Fin 12288) :
    (ValueP.res_main_v102 (F := Ideal) m c : S12288x12288.Idx → EReal) (ix2 i j)
      = ahatR (srcF (m ((c.tc : Thread nD τ).loc main_arg1))) (dstF (m ((c.tc : Thread nD τ).loc main_arg1)))
          (mat (α := EReal) (a := 12288) (b := 128) (m ((c.tc : Thread nD τ).loc main_arg0)))
          (mat (α := EReal) (a := 128) (b := 16) (m ((c.tc : Thread nD τ).loc main_arg2)))
          (vec (α := EReal) (a := 16) (m ((c.tc : Thread nD τ).loc main_arg3)))
          (mat (α := EReal) (a := 16) (b := 8) (m ((c.tc : Thread nD τ).loc main_arg4)))
          (vec (α := EReal) (a := 8) (m ((c.tc : Thread nD τ).loc main_arg5)))
          (mat (α := EReal) (a := 8) (b := 8) (m ((c.tc : Thread nD τ).loc main_arg8)))
          (vec (α := EReal) (a := 8) (m ((c.tc : Thread nD τ).loc main_arg9))) i j := by
  rw [ReadP.val_main_v102_eq]
  exact RefVal.out1_eq _ _ _ (RefNorm.dst_raw _ h) (RefNorm.src_nrm_v35 _ h) (RefNorm.src_nrm_v53 _ h)
    (RefNorm.src_nrm_v88 _ h) (RefNorm.nrm_at _ h) _ _ _ _ _ _ _ i j

end Cert.ReferenceIdeal.RefAsm

end
-- ==== Proof.PreRange.lean ====
/-
  From the printed precondition to the edge range. The precondition is a conjunction, printed as a chain of `and`s
  over one-bit scalars; its last conjunct is `all ((ei ≥ 0) ∧ (ei < 12288))` over the 2 × 393216 index input. Read at
  the scalar's one index, "the chain is 1" gives "the last conjunct is 1"; an and-reduction over all axes that is 1 met a 1
  at every element; and at an element the bit is `(0 ≤ₛ ei) ∧ (ei <ₛ 12288)`, both comparisons signed, the constants
  read through their scalar broadcasts. So every entry of the index input, read as a signed integer, lies in [0, 12288).
  None of the earlier conjuncts (finiteness of the float inputs) is used.
-/
import proofs.«404591_j69982197121234_3_alg».proof.Defs
import proofs.«404591_j69982197121234_3_alg».proof.Proof.Data
import Idealize.ShloMosaic.Lib.ReduceAll
import Idealize.ShloMosaic.Lib.ValueIdx

noncomputable section

namespace Cert.PreRange

open Idealize.ShloMosaic Idealize.ShloMosaic.ValueIdx Cert.Pre_finite_inputs Cert.Pre_finite_inputs.Facts

/-- The scalar shape has one index. -/
theorem subsingleton_scalarIdx : Subsingleton S_.Idx := ⟨fun _ _ => funext fun d => d.elim0⟩

/-- The last stretch of the predicate ends in `… ∧ all ((ei ≥ 0) ∧ (ei < 12288))`: if it is 1, every entry is in range.
    The outer `and` gives the reduction's value 1; the reduction gives the mask bit 1 at (r, e); the mask bit is the `and`
    of two signed comparisons of the entry with the constants 0 and 12288. -/
theorem range_of_part2 {F : FTy → Type} [FloatOps F] [Facts] (x1 : IVec S2x393216 32) (x8 : FVec F S8x8 .f32)
    (x9 : FVec F S8 .f32) (v33 : IVec S_ 1) (h : fn_part2 (F := F) x1 x8 x9 v33 ix0 = 1#1) : Cert.Data.InRange x1 := by
  haveI := subsingleton_scalarIdx
  dsimp only [fn_part2] at h
  have hall := (IntOp.andi_eq_one.1 h).2
  intro r e
  have hre := Host.reduce_andi_all _ _ _ _ ix0 hall (ix2 r e)
  obtain ⟨hge, hlt⟩ := IntOp.andi_eq_one.1 hre
  -- a scalar constant broadcast to the rectangle reads the constant at every element
  have hge' : IntOp.cmpi .sge (x1 (ix2 r e)) 0#32 = 1#1 := hge
  have hlt' : IntOp.cmpi .slt (x1 (ix2 r e)) 12288#32 = 1#1 := hlt
  have h0 : (0#32 : BitVec 32).toInt = 0 := by decide
  have hN : (12288#32 : BitVec 32).toInt = 12288 := by decide
  have a := IntOp.cmpi_sge.1 hge'
  have b := IntOp.cmpi_slt.1 hlt'
  rw [h0] at a
  rw [hN] at b
  exact ⟨a, b⟩

/-- The middle stretch only conjoins finiteness facts and hands the index input on. -/
theorem range_of_part1 {F : FTy → Type} [FloatOps F] [Facts] (x1 : IVec S2x393216 32) (x5 : FVec F S8 .f32)
    (x6 : FVec F S8x128 .f32) (x7 : FVec F S128 .f32) (x8 : FVec F S8x8 .f32) (x9 : FVec F S8 .f32)
    (v13 : IVec S_ 1) (v16 : IVec S16x8 1)
    (h : fn_part1 (F := F) x1 x5 x6 x7 x8 x9 v13 v16 ix0 = 1#1) : Cert.Data.InRange x1 := by
  dsimp only [fn_part1] at h
  exact range_of_part2 x1 x8 x9 _ h

/-- The whole predicate, at any float instance: all ones implies every entry of the index input is a node. -/
theorem range_of_fn {F : FTy → Type} [FloatOps F] [Facts] (x0 : FVec F S12288x128 .f32) (x1 : IVec S2x393216 32)
    (x2 : FVec F S128x16 .f32) (x3 : FVec F S16 .f32) (x4 : FVec F S16x8 .f32) (x5 : FVec F S8 .f32)
    (x6 : FVec F S8x128 .f32) (x7 : FVec F S128 .f32) (x8 : FVec F S8x8 .f32) (x9 : FVec F S8 .f32)
    (h : fn (F := F) x0 x1 x2 x3 x4 x5 x6 x7 x8 x9 = fun _ => 1#1) : Cert.Data.InRange x1 := by
  have h0 := congrFun h ix0
  dsimp only [fn] at h0
  exact range_of_part1 x1 x5 x6 x7 x8 x9 _ _ h0

/-- On every device, the idealized kernel's precondition puts every entry of its index input in [0, 12288). -/
theorem inRange_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Data.InRange (m ((c.tc : Thread Cert.KernelIdeal.nD Cert.KernelIdeal.τ).loc Cert.KernelIdeal.main_arg1)) :=
  range_of_fn (F := Ideal) _ _ _ _ _ _ _ _ _ _ (h c)

end Cert.PreRange

end
-- ==== Proof.SpecLaw.lean ====
/-
  The law that joins the two graph convolutions, and with it the two networks.

  Every edge weight is a product of two inverse square roots of positive degrees (or zeros), hence nonnegative. On the
  extended reals a factor distributes over a finite sum of NONNEGATIVE terms whatever the factor is, so the dense
  adjacency's entry times a feature is the sum, over the parallel edges between the two nodes, of weight times feature.
  The three column blocks are the whole column range cut in three; exchanging the sum over columns with the sum over
  edges and collapsing the column that is the edge's source gives the reference's edge-by-edge sum.
  A convolution acts on each feature column by itself, so the fused convolution's columns below 128 are the first
  head's and its columns 128 to 135 the second head's.
-/
import proofs.«404591_j69982197121234_3_alg».proof.Proof.Spec
import Mathlib.Data.EReal.Operations
import Mathlib.Algebra.BigOperators.Group.Finset.Basic
import Mathlib.Algebra.BigOperators.Fin
import Mathlib.Algebra.Order.BigOperators.Group.Finset
import Mathlib.Data.Fintype.BigOperators

noncomputable section

namespace Cert.Spec

open Idealize.ShloMosaic

/-! ### Every weight is nonnegative -/

/-- The inverse square root of a positive extended real is nonnegative: it is `0` at `⊤` and the inverse of a real
    square root at a positive real. -/
theorem rsqrt_nonneg_of_pos {x : EReal} (hx : 0 < x) : 0 ≤ Ideal.rsqrt x := by
  induction x using EReal.rec with
  | bot => exact absurd hx (not_lt.mpr bot_le)
  | top => exact le_of_eq Ideal.rsqrt_top.symm
  | coe r =>
    have hr : 0 < r := by exact_mod_cast hx
    rw [Ideal.rsqrt_coe, if_neg (not_lt.mpr hr.le), if_neg hr.ne']
    exact_mod_cast inv_nonneg.mpr (Real.sqrt_nonneg r)

variable (s d : Fin Mm → Fin Nn)

theorem dinv_nonneg (i : Fin Nn) : 0 ≤ dinv d i := by
  unfold dinv
  split_ifs with h
  · exact rsqrt_nonneg_of_pos h
  · exact le_refl _

theorem nrm_nonneg (e : Fin Mm) : 0 ≤ nrm s d e :=
  EReal.mul_nonneg (dinv_nonneg d (s e)) (dinv_nonneg d (d e))

/-! ### A factor and a sum of nonnegative terms -/

/-- On the extended reals any factor `x` distributes over a finite sum of nonnegative terms: by induction on the index
    set, each step by the distributive law for two nonnegative summands (one term and the sum of the others). -/
theorem sum_mul_of_nonneg {ι : Type} (t : Finset ι) (w : ι → EReal) (hw : ∀ e, 0 ≤ w e) (x : EReal) :
    (∑ e ∈ t, w e) * x = ∑ e ∈ t, w e * x := by
  classical
  induction t using Finset.induction_on with
  | empty => simp only [Finset.sum_empty, zero_mul]
  | insert a t ha ih =>
    rw [Finset.sum_insert ha, Finset.sum_insert ha,
      EReal.right_distrib_of_nonneg (hw a) (Finset.sum_nonneg fun e _ => hw e), ih]

/-- The dense adjacency's entry times any `x`: the sum over the edges from `k` to `i` of weight times `x`. -/
theorem adj_mul (i k : Fin Nn) (x : EReal) :
    adj s d i k * x = ∑ e : Fin Mm, if d e = i ∧ s e = k then nrm s d e * x else 0 := by
  unfold adj
  rw [zero_add, sum_mul_of_nonneg Finset.univ _ (fun e => ?_) x]
  · refine Finset.sum_congr rfl fun e _ => ?_
    split_ifs
    · rfl
    · exact zero_mul x
  · split_ifs
    · exact nrm_nonneg s d e
    · exact le_refl _

/-! ### The three blocks are the whole column range -/

/-- Block and place inside the block against the column: a bijection. -/
def colEquiv : Fin 3 × Fin 4096 ≃ Fin Nn where
  toFun p := col p.1 p.2
  invFun k := (⟨k.val / 4096, by have hk : k.val < 12288 := k.isLt; omega⟩, ⟨k.val % 4096, Nat.mod_lt _ (by norm_num)⟩)
  left_inv p := by
    obtain ⟨q, kk⟩ := p
    have hq := q.isLt
    have hk := kk.isLt
    refine Prod.ext (Fin.ext ?_) (Fin.ext ?_)
    · show (q.val * 4096 + kk.val) / 4096 = q.val
      omega
    · show (q.val * 4096 + kk.val) % 4096 = kk.val
      omega
  right_inv k := by
    refine Fin.ext ?_
    show k.val / 4096 * 4096 + k.val % 4096 = k.val
    omega

/-- The three blocks' sums accumulated in order from zero are the sum over all columns: the sum of an additive
    commutative monoid regrouped along the bijection above. -/
theorem sum_blocks (f : Fin Nn → EReal) :
    ((0 + ∑ kk : Fin 4096, f (col 0 kk)) + ∑ kk : Fin 4096, f (col 1 kk)) + ∑ kk : Fin 4096, f (col 2 kk)
      = ∑ k : Fin Nn, f k := by
  have h : ∑ k : Fin Nn, f k = ∑ q : Fin 3, ∑ kk : Fin 4096, f (col q kk) := by
    rw [← Fintype.sum_prod_type' (fun q kk => f (col q kk))]
    exact (Fintype.sum_equiv colEquiv (fun p => f (col p.1 p.2)) f (fun _ => rfl)).symm
  rw [h, Fin.sum_univ_three, zero_add]

/-! ### The two convolutions agree -/

/-- For one edge: among all columns `k` only the edge's source contributes. -/
theorem sum_col_edge {c : ℕ} (h : Fin Nn → Fin c → EReal) (i : Fin Nn) (j : Fin c) (e : Fin Mm) :
    (∑ k : Fin Nn, if d e = i ∧ s e = k then nrm s d e * h k j else 0)
      = if d e = i then h (s e) j * nrm s d e else 0 := by
  by_cases hd : d e = i
  · simp only [hd, true_and, if_true]
    rw [Finset.sum_ite_eq Finset.univ (s e) (fun k => nrm s d e * h k j), if_pos (Finset.mem_univ _)]
    exact mul_comm _ _
  · simp only [hd, false_and, if_false]
    exact Finset.sum_const_zero

/-- The dense adjacency times the features, summed over all columns, is the reference's sum over the edges. -/
theorem sum_adj_mul {c : ℕ} (h : Fin Nn → Fin c → EReal) (i : Fin Nn) (j : Fin c) :
    (∑ k : Fin Nn, adj s d i k * h k j) = ∑ e : Fin Mm, if d e = i then h (s e) j * nrm s d e else 0 := by
  rw [Finset.sum_congr rfl fun k _ => adj_mul s d i k (h k j), Finset.sum_comm]
  exact Finset.sum_congr rfl fun e _ => sum_col_edge s d h i j e

theorem aggK_eq_aggR {c : ℕ} (h : Fin Nn → Fin c → EReal) (b : Fin c → EReal) :
    aggK s d h b = aggR s d h b := by
  funext i j
  unfold aggK aggM aggR blkM
  rw [sum_blocks (fun k => adj s d i k * h k j), sum_adj_mul, zero_add]

/-! ### A convolution acts column by column -/

/-- The product with a matrix, column `j`, sees the features only through one column and the bias only at one
    place. -/
theorem aggM_congr_col {c c' : ℕ} (A : Fin Nn → Fin Nn → EReal) (h : Fin Nn → Fin c → EReal)
    (h' : Fin Nn → Fin c' → EReal) (b : Fin c → EReal) (b' : Fin c' → EReal) (j : Fin c) (j' : Fin c')
    (hh : ∀ k, h k j = h' k j') (hb : b j = b' j') (i : Fin Nn) :
    aggM A h b i j = aggM A h' b' i j' := by
  unfold aggM blkM
  simp only [hh, hb]

variable (X : Fin Nn → Fin 128 → EReal) (W1 : Fin 128 → Fin 16 → EReal) (b1 : Fin 16 → EReal)
  (W2 : Fin 16 → Fin 8 → EReal) (b2 : Fin 8 → EReal) (Wa : Fin 8 → Fin 128 → EReal) (ba : Fin 128 → EReal)
  (Ws : Fin 8 → Fin 8 → EReal) (bs : Fin 8 → EReal)

/-- The fused weight's columns below 128 are the first head's. -/
theorem mm_fuseW_lo {a : ℕ} (Z : Fin a → Fin 8 → EReal) (k : Fin a) (j : Fin 128) (hj : j.val < 256) :
    mm Z (fuseW Wa Ws) k ⟨j.val, hj⟩ = mm Z Wa k j := by
  unfold mm fuseW
  refine Finset.sum_congr rfl fun l _ => ?_
  rw [dif_pos (show (⟨j.val, hj⟩ : Fin 256).val < 128 from j.isLt)]

/-- The fused weight's columns 128 to 135 are the second head's. -/
theorem mm_fuseW_hi {a : ℕ} (Z : Fin a → Fin 8 → EReal) (k : Fin a) (j : Fin 8) (hj : 128 + j.val < 256) :
    mm Z (fuseW Wa Ws) k ⟨128 + j.val, hj⟩ = mm Z Ws k j := by
  unfold mm fuseW
  refine Finset.sum_congr rfl fun l _ => ?_
  have hj8 := j.isLt
  rw [dif_neg (show ¬ (⟨128 + j.val, hj⟩ : Fin 256).val < 128 from by show ¬ 128 + j.val < 128; omega),
    dif_pos (show (⟨128 + j.val, hj⟩ : Fin 256).val < 136 from by show 128 + j.val < 136; omega)]
  congr 2
  exact Fin.ext (by show 128 + j.val - 128 = j.val; omega)

theorem fuseB_lo (j : Fin 128) (hj : j.val < 256) : fuseB ba bs ⟨j.val, hj⟩ = ba j := by
  unfold fuseB
  rw [dif_pos (show (⟨j.val, hj⟩ : Fin 256).val < 128 from j.isLt)]

theorem fuseB_hi (j : Fin 8) (hj : 128 + j.val < 256) : fuseB ba bs ⟨128 + j.val, hj⟩ = bs j := by
  unfold fuseB
  have hj8 := j.isLt
  rw [dif_neg (show ¬ (⟨128 + j.val, hj⟩ : Fin 256).val < 128 from by show ¬ 128 + j.val < 128; omega),
    dif_pos (show (⟨128 + j.val, hj⟩ : Fin 256).val < 136 from by show 128 + j.val < 136; omega)]
  congr 1
  exact Fin.ext (by show 128 + j.val - 128 = j.val; omega)

/-! ### The networks -/

theorem z1K_eq : z1K s d X W1 b1 = z1R s d X W1 b1 := by
  unfold z1K z1R
  rw [aggK_eq_aggR]

theorem z2K_eq : z2K s d X W1 b1 W2 b2 = z2R s d X W1 b1 W2 b2 := by
  unfold z2K z2R
  rw [aggK_eq_aggR, z1K_eq]

/-- The fused convolution's columns below 128: the first head's convolution. -/
theorem fusedK_lo (i : Fin Nn) (j : Fin 128) (hj : j.val < 256) :
    fusedK s d X W1 b1 W2 b2 Wa ba Ws bs i ⟨j.val, hj⟩
      = aggR s d (mm (z2R s d X W1 b1 W2 b2) Wa) ba i j := by
  rw [← aggK_eq_aggR, ← z2K_eq]
  unfold fusedK aggK
  exact aggM_congr_col _ _ _ _ _ _ _ (fun k => mm_fuseW_lo Wa Ws _ k j hj) (fuseB_lo ba bs j hj) i

/-- The fused convolution's columns 128 to 135: the second head's convolution. -/
theorem fusedK_hi (i : Fin Nn) (j : Fin 8) (hj : 128 + j.val < 256) :
    fusedK s d X W1 b1 W2 b2 Wa ba Ws bs i ⟨128 + j.val, hj⟩
      = aggR s d (mm (z2R s d X W1 b1 W2 b2) Ws) bs i j := by
  rw [← aggK_eq_aggR, ← z2K_eq]
  unfold fusedK aggK
  exact aggM_congr_col _ _ _ _ _ _ _ (fun k => mm_fuseW_hi Wa Ws _ k j hj) (fuseB_hi ba bs j hj) i

theorem xhatK_eq : xhatK s d X W1 b1 W2 b2 Wa ba Ws bs = xhatR s d X W1 b1 W2 b2 Wa ba := by
  funext i j
  unfold xhatK xhatR
  exact fusedK_lo s d X W1 b1 W2 b2 Wa ba Ws bs i j _

theorem zsK_eq : zsK s d X W1 b1 W2 b2 Wa ba Ws bs = zsR s d X W1 b1 W2 b2 Ws bs := by
  funext i j
  unfold zsK zsR relu
  rw [fusedK_hi s d X W1 b1 W2 b2 Wa ba Ws bs i j _]

theorem ahatK_eq : ahatK s d X W1 b1 W2 b2 Wa ba Ws bs = ahatR s d X W1 b1 W2 b2 Ws bs := by
  funext i j
  unfold ahatK ahatR
  rw [zsK_eq]

end Cert.Spec

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.GcnVal0.lean ====
/-
  What the first aggregation call leaves in its output array, index by index, at the ideal values (floats read as
  extended reals).

  The call runs a 6 × 3 grid in row-major order: point `t` is row block `t / 3` and contraction block `t % 3`. At every
  point the scratch takes the product of the point's adjacency block (2048 rows of the row block, 4096 columns of the
  contraction block) with the point's feature block (the same 4096 rows), over zero at contraction block 0 and over what
  it held otherwise; at contraction block 2 the bias is added, the sum is clipped at zero from below, and the result is
  written back to the row block's 2048 rows of the output. So row `2048 (t / 3) + p` of the output ends holding, in
  column `q`, `max ((((0 + B 0) + B 1) + B 2) + b q) 0` with `B s` the sum over the 4096 columns `k` of contraction block
  `s` of `A (row, 4096 s + k) * h (4096 s + k, q)`: the specification's `aggM`, clipped.

  In order: each of the body's three values read at an index (the zero fill, the accumulating product, the biased and
  clipped result); each input block read at an index as the array at the shifted index; the accumulation after a row
  block's three points; what the last point stores; the output's blocks cover the array, so the array after the call is
  that function of the inputs.
-/
import proofs.«404591_j69982197121234_3_alg».proof.Proof.Gcn0
import proofs.«404591_j69982197121234_3_alg».proof.Proof.Spec
import proofs.«404591_j69982197121234_3_alg».proof.Proof.Data
import proofs.«404591_j69982197121234_3_alg».proof.Proof.LibPlainMatmul
import proofs.«404591_j69982197121234_3_alg».proof.Proof.LibKeepdims
import Idealize.ShloMosaic.Lib.Pipeline.Value
import Idealize.ShloMosaic.Lib.ValueIdx
import Idealize.ShloMosaic.PureOps.Ideal.Laws

noncomputable section

namespace Cert.KernelIdeal.GcnVal0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The matmul's dimension numbers are the plain ones. -/
theorem dot_plain : dot_S2048x4096_S4096x16_S2048x16_1_0_0_1_n_n = DotDims.plain 2048 4096 16 := rfl

/-- A vector cast to a one-row matrix reads, at `(u, q)`, the vector at `q`. -/
theorem shapeCast_a_1a_apply {α : Type} {a : ℕ} (x : (⟨1, ![a]⟩ : Shape).Idx → α) (h : (⟨1, ![a]⟩ : Shape).ShapeCasts ⟨2, ![1, a]⟩)
    (u : Fin 1) (q : Fin a) : shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-- A one-row matrix broadcast along the rows reads, at `(p, q)`, the row's entry at `q`. -/
theorem broadcastTo_1a_ba_apply {α : Type} {a b : ℕ} (v : (⟨2, ![1, a]⟩ : Shape).Idx → α) (h : (⟨2, ![1, a]⟩ : Shape).Broadcasts ⟨2, ![b, a]⟩)
    (p : Fin b) (q : Fin a) : broadcastTo ⟨2, ![b, a]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if a = 1 then 0 else q.val
    split
    · have := q.isLt; omega
    · rfl

theorem pay1_apply (p : Fin 2048) (q : Fin 16) : (k0_pay1 (F := Ideal)) (ix2 p q) = 0 := by
  unfold k0_pay1
  rw [shapeCast_self]
  exact Ideal.ofBits_zero_f32

theorem pay2_apply (a : Vec Ideal S2048x16 .f32) (x : Vec Ideal S2048x4096 .bf16) (h : Vec Ideal S4096x16 .bf16) (p : Fin 2048) (q : Fin 16) :
    k0_pay2 a x h (ix2 p q) = a (ix2 p q) + ∑ k : Fin 4096, x (ix2 p k) * h (ix2 k q) := by
  unfold k0_pay2
  simp only [shapeCast_self, matmul]
  rw [addf_apply, dot_plain, Cert.Lib.matmul_plain_zero_apply]

theorem pay3_apply (a : Vec Ideal S2048x16 .f32) (b : Vec Ideal S16 .f32) (p : Fin 2048) (q : Fin 16) :
    k0_pay3 a b (ix2 p q) = max (a (ix2 p q) + b (ix1 q)) 0 := by
  unfold k0_pay3
  rw [truncf_apply, maximumf_apply, addf_apply, broadcast_apply, broadcastTo_1a_ba_apply, shapeCast_a_1a_apply]
  exact congrArg (max _) Ideal.ofBits_zero_f32

section Blocks

variable (V : (c : Dev nD) → (b : Ref sig .tc) → Buf (Elt Ideal) ((c : Thread nD τ).loc b)) (c : Dev nD)

/-- The index maps over the grid: point `t` is row block `t / 3` and contraction block `t % 3`. -/
theorem idx_facts : ∀ t : Fin cfg0.N,
    win0_0.index t (0 : Fin 2) = t.val / 3 ∧ win0_0.index t (1 : Fin 2) = t.val % 3
    ∧ win0_1.index t (0 : Fin 2) = t.val % 3 ∧ win0_1.index t (1 : Fin 2) = 0
    ∧ win0_2.index t (0 : Fin 1) = 0
    ∧ win0_3.index t (0 : Fin 2) = t.val / 3 ∧ win0_3.index t (1 : Fin 2) = 0 :=
  (by decide +kernel : ∀ t : Fin grid0.N, _)

/-- The adjacency block at point `t` is rows `2048 (t / 3) …`, columns `4096 (t % 3) …` of the adjacency. -/
theorem ablk_apply (t : Fin cfg0.N) (p : Fin 2048) (k : Fin 4096) (i kk : Fin 12288)
    (hi : i.val = 2048 * (t.val / 3) + p.val) (hk : kk.val = 4096 * (t.val % 3) + k.val) :
    Gcn0.ablk (F := Ideal) V c t (ix2 p k) = V c main_v45 (ix2 i kk) := by
  obtain ⟨e0, e1, -⟩ := idx_facts t
  show V c main_v45 (((cfg0.win 0).blk t).view.emb (ix2 p k)) = V c main_v45 (ix2 i kk)
  congr 1
  funext a; apply Fin.ext
  match a with
  | ⟨0, _⟩ => show win0_0.index t (0 : Fin 2) * 2048 + 1 * p.val = i.val; rw [e0, hi]; omega
  | ⟨1, _⟩ => show win0_0.index t (1 : Fin 2) * 4096 + 1 * k.val = kk.val; rw [e1, hk]; omega

/-- The feature block at point `t` is rows `4096 (t % 3) …` of the features. -/
theorem hblk_apply (t : Fin cfg0.N) (k : Fin 4096) (q : Fin 16) (kk : Fin 12288)
    (hk : kk.val = 4096 * (t.val % 3) + k.val) :
    Gcn0.hblk (F := Ideal) V c t (ix2 k q) = V c main_v49 (ix2 kk q) := by
  obtain ⟨-, -, e2, e3, -⟩ := idx_facts t
  show V c main_v49 (((cfg0.win 1).blk t).view.emb (ix2 k q)) = V c main_v49 (ix2 kk q)
  congr 1
  funext a; apply Fin.ext
  match a with
  | ⟨0, _⟩ => show win0_1.index t (0 : Fin 2) * 4096 + 1 * k.val = kk.val; rw [e2, hk]; omega
  | ⟨1, _⟩ => show win0_1.index t (1 : Fin 2) * 16 + 1 * q.val = q.val; rw [e3]; omega

/-- The bias block at every point is the bias. -/
theorem bblk_apply (t : Fin cfg0.N) (q : Fin 16) :
    Gcn0.bblk (F := Ideal) V c t (ix1 q) = V c main_arg3 (ix1 q) := by
  obtain ⟨-, -, -, -, e4, -⟩ := idx_facts t
  show V c main_arg3 (((cfg0.win 2).blk t).view.emb (ix1 q)) = V c main_arg3 (ix1 q)
  congr 1
  funext a; apply Fin.ext
  match a with
  | ⟨0, _⟩ => show win0_2.index t (0 : Fin 1) * 16 + 1 * q.val = q.val; rw [e4]; omega

/-- One point's block product at `(p, q)`. -/
def prodAt (t : Fin cfg0.N) (p : Fin 2048) (q : Fin 16) : EReal :=
  ∑ k : Fin 4096, Gcn0.ablk (F := Ideal) V c t (ix2 p k) * Gcn0.hblk (F := Ideal) V c t (ix2 k q)

/-- THE ACCUMULATION after a row block's last point: from zero, the three points' block products added in order. -/
theorem acc_last (t0 t1 t : Fin cfg0.N) (h0 : t0.val % 3 = 0) (h1 : t1.val = t0.val + 1) (h2 : t.val = t1.val + 1)
    (p : Fin 2048) (q : Fin 16) :
    Gcn0.acc0 (F := Ideal) V c (t.val + 1) (ix2 p q) = ((0 + prodAt V c t0 p q) + prodAt V c t1 p q) + prodAt V c t p q := by
  have e2 : Gcn0.acc0 (F := Ideal) V c (t.val + 1)
      = k0_pay2 (Gcn0.acc0 (F := Ideal) V c (t1.val + 1)) (Gcn0.ablk V c t) (Gcn0.hblk V c t) := by
    rw [Gcn0.acc0_succ, h2]; unfold Gcn0.step0; rw [if_neg (by omega)]
  have e1 : Gcn0.acc0 (F := Ideal) V c (t1.val + 1)
      = k0_pay2 (Gcn0.acc0 (F := Ideal) V c (t0.val + 1)) (Gcn0.ablk V c t1) (Gcn0.hblk V c t1) := by
    rw [Gcn0.acc0_succ, h1]; unfold Gcn0.step0; rw [if_neg (by omega)]
  have e0 : Gcn0.acc0 (F := Ideal) V c (t0.val + 1)
      = k0_pay2 k0_pay1 (Gcn0.ablk V c t0) (Gcn0.hblk V c t0) := by
    rw [Gcn0.acc0_succ]; unfold Gcn0.step0; rw [if_pos h0]
  rw [e2, pay2_apply, e1, pay2_apply, e0, pay2_apply, pay1_apply]
  rfl

end Blocks

section Final

variable (V : (c : Dev nD) → (b : Ref sig .tc) → Buf (Elt Ideal) ((c : Thread nD τ).loc b)) (c : Dev nD)

/-- One point's block product is the specification's block product, at the point's contraction block and the row of
    the array under row `p` of the point's row block. -/
theorem prodAt_eq (t : Fin cfg0.N) (qq : Fin 3) (hq : qq.val = t.val % 3) (p : Fin 2048) (q : Fin 16) (i : Fin 12288)
    (hi : i.val = 2048 * (t.val / 3) + p.val) :
    prodAt V c t p q
      = Cert.Spec.blkM (Cert.Data.mat (α := EReal) (V c main_v45)) (Cert.Data.mat (α := EReal) (V c main_v49)) qq i q := by
  unfold prodAt Cert.Spec.blkM
  refine Finset.sum_congr rfl fun k _ => ?_
  have hk : (Cert.Spec.col qq k).val = 4096 * (t.val % 3) + k.val := by
    show qq.val * 4096 + k.val = _; omega
  rw [ablk_apply V c t p k i (Cert.Spec.col qq k) hi hk, hblk_apply V c t k q (Cert.Spec.col qq k) hk]
  rfl

/-- WHAT A ROW BLOCK'S LAST POINT STORES, at `(p, q)`: the specification's convolution at the row of the array under
    row `p` of the block, clipped at zero from below. -/
theorem out0_apply (t : Fin cfg0.N) (ht : t.val % 3 = 2) (p : Fin 2048) (q : Fin 16) (i : Fin 12288)
    (hi : i.val = 2048 * (t.val / 3) + p.val) :
    Gcn0.out0 (F := Ideal) V c t (ix2 p q)
      = max (Cert.Spec.aggM (Cert.Data.mat (α := EReal) (V c main_v45)) (Cert.Data.mat (α := EReal) (V c main_v49))
          (Cert.Data.vec (α := EReal) (V c main_arg3)) i q) 0 := by
  obtain ⟨t0, h0⟩ : ∃ t0 : Fin cfg0.N, t0.val = t.val - 2 := ⟨⟨t.val - 2, Nat.lt_of_le_of_lt (Nat.sub_le _ _) t.isLt⟩, rfl⟩
  obtain ⟨t1, h1⟩ : ∃ t1 : Fin cfg0.N, t1.val = t.val - 1 := ⟨⟨t.val - 1, Nat.lt_of_le_of_lt (Nat.sub_le _ _) t.isLt⟩, rfl⟩
  unfold Gcn0.out0
  rw [pay3_apply, acc_last V c t0 t1 t (by omega) (by omega) (by omega) p q, bblk_apply,
    prodAt_eq V c t0 0 (by show 0 = _; omega) p q i (by omega),
    prodAt_eq V c t1 1 (by show 1 = _; omega) p q i (by omega),
    prodAt_eq V c t 2 (by show 2 = _; omega) p q i hi]
  rfl

/-- What the output array ends holding: the specification's convolution clipped at zero from below. -/
def G0 : S12288x16.Idx → EReal := fun i =>
  max (Cert.Spec.aggM (Cert.Data.mat (α := EReal) (V c main_v45)) (Cert.Data.mat (α := EReal) (V c main_v49))
    (Cert.Data.vec (α := EReal) (V c main_arg3)) (i 0) (i 1)) 0

/-- WHAT A ROW BLOCK'S LAST POINT WRITES BACK is its block of `G0`. -/
theorem flushed_eq (t : Fin cfg0.N) (hf : (cfg0.win 3).flush t = true) :
    (Gcn0.dat0 (F := Ideal) V c).flushed 3 t = ((cfg0.win 3).blk t).view.read (Elt Ideal) (G0 V c) := by
  have ht : t.val % 3 = 2 := (flush0_3 t).mp hf
  have hN : t.val < 18 := t.isLt
  obtain ⟨-, -, -, -, -, e5, e6⟩ := idx_facts t
  show (cfg0.win 3).cut (grid0.coords t) ((Gcn0.dat0 (F := Ideal) V c).after 3 t) = _
  rw [Gcn0.after0_3]
  have key : ∀ y : S2048x16.Idx, Gcn0.out0 (F := Ideal) V c t y = G0 V c (((cfg0.win 3).blk t).view.emb y) := fun y => by
    obtain ⟨p, q, rfl⟩ : ∃ (p : Fin 2048) (q : Fin 16), y = ix2 p q := ⟨y 0, y 1, eq_ix2 y⟩
    have r0 : (((cfg0.win 3).blk t).view.emb (ix2 p q)) 0 = (⟨2048 * (t.val / 3) + p.val, by omega⟩ : Fin 12288) :=
      Fin.ext (by show win0_3.index t (0 : Fin 2) * 2048 + 1 * p.val = 2048 * (t.val / 3) + p.val; rw [e5]; omega)
    have r1 : (((cfg0.win 3).blk t).view.emb (ix2 p q)) 1 = q :=
      Fin.ext (by show win0_3.index t (1 : Fin 2) * 16 + 1 * q.val = q.val; rw [e6]; omega)
    unfold G0
    rw [r0, r1]
    exact out0_apply V c t ht p q _ rfl
  exact funext key

/-- An index of the array is in point `t`'s block iff each coordinate is in the block's range on its axis. -/
theorem mem_blk (t : Fin cfg0.N) (i : S12288x16.Idx) :
    i ∈ ((cfg0.win 3).blk t).view.set ↔ ∀ a : Fin 2, win0_3.index t a * S2048x16.size a ≤ (i a).val
      ∧ (i a).val < win0_3.index t a * S2048x16.size a + S2048x16.size a := by
  show i ∈ ((View.whole main_v50).slice (win0_3.rect t)).set ↔ _
  rw [View.set_slice_whole, Rect.mem_set_unit]
  exact Iff.rfl

/-- Row `r` of the array is in the block of row block `r / 2048`'s last point. -/
theorem covered (i : S12288x16.Idx) : ∃ t : Fin cfg0.N, (cfg0.win 3).flush t = true ∧ i ∈ ((cfg0.win 3).blk t).view.set := by
  have hi0 : (i 0).val < 12288 := (i 0).isLt
  have hi1 : (i 1).val < 16 := (i 1).isLt
  obtain ⟨t, ht⟩ : ∃ t : Fin cfg0.N, t.val = 3 * ((i 0).val / 2048) + 2 :=
    ⟨⟨3 * ((i 0).val / 2048) + 2, by show _ < 18; omega⟩, rfl⟩
  obtain ⟨-, -, -, -, -, e5, e6⟩ := idx_facts t
  refine ⟨t, (flush0_3 t).mpr (by omega), ?_⟩
  rw [mem_blk]
  intro a
  match a with
  | ⟨0, _⟩ =>
    show win0_3.index t (0 : Fin 2) * 2048 ≤ (i 0).val ∧ (i 0).val < win0_3.index t (0 : Fin 2) * 2048 + 2048
    rw [e5]; omega
  | ⟨1, _⟩ =>
    show win0_3.index t (1 : Fin 2) * 16 ≤ (i 1).val ∧ (i 1).val < win0_3.index t (1 : Fin 2) * 16 + 16
    rw [e6]; omega

/-- THE OUTPUT ARRAY AFTER THE CALL, index by index: the specification's convolution of the adjacency, the features and
    the bias as the call finds them, clipped at zero from below. -/
theorem final0 (i : Fin 12288) (j : Fin 16) :
    (Gcn0.dat0 (F := Ideal) V c).arrAt 3 cfg0.N (ix2 i j)
      = max (Cert.Spec.aggM (Cert.Data.mat (α := EReal) (V c main_v45)) (Cert.Data.mat (α := EReal) (V c main_v49))
          (Cert.Data.vec (α := EReal) (V c main_arg3)) i j) 0 :=
  congrFun ((Gcn0.dat0 (F := Ideal) V c).arrAt_eq_of_cover 3 (G0 V c) (flushed_eq V c) covered) (ix2 i j)

end Final

end Cert.KernelIdeal.GcnVal0

end
-- ==== Proof.GcnVal1.lean ====
/-
  What the first aggregation call leaves in its output array, index by index, at the ideal values (floats read as
  extended reals).

  The call runs a 6 × 3 grid in row-major order: point `t` is row block `t / 3` and contraction block `t % 3`. At every
  point the scratch takes the product of the point's adjacency block (2048 rows of the row block, 4096 columns of the
  contraction block) with the point's feature block (the same 4096 rows), over zero at contraction block 0 and over what
  it held otherwise; at contraction block 2 the bias is added, the sum is clipped at zero from below, and the result is
  written back to the row block's 2048 rows of the output. So row `2048 (t / 3) + p` of the output ends holding, in
  column `q`, `max ((((0 + B 0) + B 1) + B 2) + b q) 0` with `B s` the sum over the 4096 columns `k` of contraction block
  `s` of `A (row, 4096 s + k) * h (4096 s + k, q)`: the specification's `aggM`, clipped.

  In order: each of the body's three values read at an index (the zero fill, the accumulating product, the biased and
  clipped result); each input block read at an index as the array at the shifted index; the accumulation after a row
  block's three points; what the last point stores; the output's blocks cover the array, so the array after the call is
  that function of the inputs.
-/
import proofs.«404591_j69982197121234_3_alg».proof.Proof.Gcn1
import proofs.«404591_j69982197121234_3_alg».proof.Proof.Spec
import proofs.«404591_j69982197121234_3_alg».proof.Proof.Data
import proofs.«404591_j69982197121234_3_alg».proof.Proof.LibPlainMatmul
import proofs.«404591_j69982197121234_3_alg».proof.Proof.LibKeepdims
import Idealize.ShloMosaic.Lib.Pipeline.Value
import Idealize.ShloMosaic.Lib.ValueIdx
import Idealize.ShloMosaic.PureOps.Ideal.Laws

noncomputable section

namespace Cert.KernelIdeal.GcnVal1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The matmul's dimension numbers are the plain ones. -/
theorem dot_plain : dot_S2048x4096_S4096x8_S2048x8_1_0_0_1_n_n = DotDims.plain 2048 4096 8 := rfl

/-- A vector cast to a one-row matrix reads, at `(u, q)`, the vector at `q`. -/
theorem shapeCast_a_1a_apply {α : Type} {a : ℕ} (x : (⟨1, ![a]⟩ : Shape).Idx → α) (h : (⟨1, ![a]⟩ : Shape).ShapeCasts ⟨2, ![1, a]⟩)
    (u : Fin 1) (q : Fin a) : shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-- A one-row matrix broadcast along the rows reads, at `(p, q)`, the row's entry at `q`. -/
theorem broadcastTo_1a_ba_apply {α : Type} {a b : ℕ} (v : (⟨2, ![1, a]⟩ : Shape).Idx → α) (h : (⟨2, ![1, a]⟩ : Shape).Broadcasts ⟨2, ![b, a]⟩)
    (p : Fin b) (q : Fin a) : broadcastTo ⟨2, ![b, a]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if a = 1 then 0 else q.val
    split
    · have := q.isLt; omega
    · rfl

theorem pay1_apply (p : Fin 2048) (q : Fin 8) : (k1_pay1 (F := Ideal)) (ix2 p q) = 0 := by
  unfold k1_pay1
  rw [shapeCast_self]
  exact Ideal.ofBits_zero_f32

theorem pay2_apply (a : Vec Ideal S2048x8 .f32) (x : Vec Ideal S2048x4096 .bf16) (h : Vec Ideal S4096x8 .bf16) (p : Fin 2048) (q : Fin 8) :
    k1_pay2 a x h (ix2 p q) = a (ix2 p q) + ∑ k : Fin 4096, x (ix2 p k) * h (ix2 k q) := by
  unfold k1_pay2
  simp only [shapeCast_self, matmul]
  rw [addf_apply, dot_plain, Cert.Lib.matmul_plain_zero_apply]

theorem pay3_apply (a : Vec Ideal S2048x8 .f32) (b : Vec Ideal S8 .f32) (p : Fin 2048) (q : Fin 8) :
    k1_pay3 a b (ix2 p q) = max (a (ix2 p q) + b (ix1 q)) 0 := by
  unfold k1_pay3
  rw [truncf_apply, maximumf_apply, addf_apply, broadcast_apply, broadcastTo_1a_ba_apply, shapeCast_a_1a_apply]
  exact congrArg (max _) Ideal.ofBits_zero_f32

section Blocks

variable (V : (c : Dev nD) → (b : Ref sig .tc) → Buf (Elt Ideal) ((c : Thread nD τ).loc b)) (c : Dev nD)

/-- The index maps over the grid: point `t` is row block `t / 3` and contraction block `t % 3`. -/
theorem idx_facts : ∀ t : Fin cfg1.N,
    win1_0.index t (0 : Fin 2) = t.val / 3 ∧ win1_0.index t (1 : Fin 2) = t.val % 3
    ∧ win1_1.index t (0 : Fin 2) = t.val % 3 ∧ win1_1.index t (1 : Fin 2) = 0
    ∧ win1_2.index t (0 : Fin 1) = 0
    ∧ win1_3.index t (0 : Fin 2) = t.val / 3 ∧ win1_3.index t (1 : Fin 2) = 0 :=
  (by decide +kernel : ∀ t : Fin grid1.N, _)

/-- The adjacency block at point `t` is rows `2048 (t / 3) …`, columns `4096 (t % 3) …` of the adjacency. -/
theorem ablk_apply (t : Fin cfg1.N) (p : Fin 2048) (k : Fin 4096) (i kk : Fin 12288)
    (hi : i.val = 2048 * (t.val / 3) + p.val) (hk : kk.val = 4096 * (t.val % 3) + k.val) :
    Gcn1.ablk (F := Ideal) V c t (ix2 p k) = V c main_v45 (ix2 i kk) := by
  obtain ⟨e0, e1, -⟩ := idx_facts t
  show V c main_v45 (((cfg1.win 0).blk t).view.emb (ix2 p k)) = V c main_v45 (ix2 i kk)
  congr 1
  funext a; apply Fin.ext
  match a with
  | ⟨0, _⟩ => show win1_0.index t (0 : Fin 2) * 2048 + 1 * p.val = i.val; rw [e0, hi]; omega
  | ⟨1, _⟩ => show win1_0.index t (1 : Fin 2) * 4096 + 1 * k.val = kk.val; rw [e1, hk]; omega

/-- The feature block at point `t` is rows `4096 (t % 3) …` of the features. -/
theorem hblk_apply (t : Fin cfg1.N) (k : Fin 4096) (q : Fin 8) (kk : Fin 12288)
    (hk : kk.val = 4096 * (t.val % 3) + k.val) :
    Gcn1.hblk (F := Ideal) V c t (ix2 k q) = V c main_v53 (ix2 kk q) := by
  obtain ⟨-, -, e2, e3, -⟩ := idx_facts t
  show V c main_v53 (((cfg1.win 1).blk t).view.emb (ix2 k q)) = V c main_v53 (ix2 kk q)
  congr 1
  funext a; apply Fin.ext
  match a with
  | ⟨0, _⟩ => show win1_1.index t (0 : Fin 2) * 4096 + 1 * k.val = kk.val; rw [e2, hk]; omega
  | ⟨1, _⟩ => show win1_1.index t (1 : Fin 2) * 8 + 1 * q.val = q.val; rw [e3]; omega

/-- The bias block at every point is the bias. -/
theorem bblk_apply (t : Fin cfg1.N) (q : Fin 8) :
    Gcn1.bblk (F := Ideal) V c t (ix1 q) = V c main_arg5 (ix1 q) := by
  obtain ⟨-, -, -, -, e4, -⟩ := idx_facts t
  show V c main_arg5 (((cfg1.win 2).blk t).view.emb (ix1 q)) = V c main_arg5 (ix1 q)
  congr 1
  funext a; apply Fin.ext
  match a with
  | ⟨0, _⟩ => show win1_2.index t (0 : Fin 1) * 8 + 1 * q.val = q.val; rw [e4]; omega

/-- One point's block product at `(p, q)`. -/
def prodAt (t : Fin cfg1.N) (p : Fin 2048) (q : Fin 8) : EReal :=
  ∑ k : Fin 4096, Gcn1.ablk (F := Ideal) V c t (ix2 p k) * Gcn1.hblk (F := Ideal) V c t (ix2 k q)

/-- THE ACCUMULATION after a row block's last point: from zero, the three points' block products added in order. -/
theorem acc_last (t0 t1 t : Fin cfg1.N) (h0 : t0.val % 3 = 0) (h1 : t1.val = t0.val + 1) (h2 : t.val = t1.val + 1)
    (p : Fin 2048) (q : Fin 8) :
    Gcn1.acc1 (F := Ideal) V c (t.val + 1) (ix2 p q) = ((0 + prodAt V c t0 p q) + prodAt V c t1 p q) + prodAt V c t p q := by
  have e2 : Gcn1.acc1 (F := Ideal) V c (t.val + 1)
      = k1_pay2 (Gcn1.acc1 (F := Ideal) V c (t1.val + 1)) (Gcn1.ablk V c t) (Gcn1.hblk V c t) := by
    rw [Gcn1.acc1_succ, h2]; unfold Gcn1.step1; rw [if_neg (by omega)]
  have e1 : Gcn1.acc1 (F := Ideal) V c (t1.val + 1)
      = k1_pay2 (Gcn1.acc1 (F := Ideal) V c (t0.val + 1)) (Gcn1.ablk V c t1) (Gcn1.hblk V c t1) := by
    rw [Gcn1.acc1_succ, h1]; unfold Gcn1.step1; rw [if_neg (by omega)]
  have e0 : Gcn1.acc1 (F := Ideal) V c (t0.val + 1)
      = k1_pay2 k1_pay1 (Gcn1.ablk V c t0) (Gcn1.hblk V c t0) := by
    rw [Gcn1.acc1_succ]; unfold Gcn1.step1; rw [if_pos h0]
  rw [e2, pay2_apply, e1, pay2_apply, e0, pay2_apply, pay1_apply]
  rfl

end Blocks

section Final

variable (V : (c : Dev nD) → (b : Ref sig .tc) → Buf (Elt Ideal) ((c : Thread nD τ).loc b)) (c : Dev nD)

/-- One point's block product is the specification's block product, at the point's contraction block and the row of
    the array under row `p` of the point's row block. -/
theorem prodAt_eq (t : Fin cfg1.N) (qq : Fin 3) (hq : qq.val = t.val % 3) (p : Fin 2048) (q : Fin 8) (i : Fin 12288)
    (hi : i.val = 2048 * (t.val / 3) + p.val) :
    prodAt V c t p q
      = Cert.Spec.blkM (Cert.Data.mat (α := EReal) (V c main_v45)) (Cert.Data.mat (α := EReal) (V c main_v53)) qq i q := by
  unfold prodAt Cert.Spec.blkM
  refine Finset.sum_congr rfl fun k _ => ?_
  have hk : (Cert.Spec.col qq k).val = 4096 * (t.val % 3) + k.val := by
    show qq.val * 4096 + k.val = _; omega
  rw [ablk_apply V c t p k i (Cert.Spec.col qq k) hi hk, hblk_apply V c t k q (Cert.Spec.col qq k) hk]
  rfl

/-- WHAT A ROW BLOCK'S LAST POINT STORES, at `(p, q)`: the specification's convolution at the row of the array under
    row `p` of the block, clipped at zero from below. -/
theorem out1_apply (t : Fin cfg1.N) (ht : t.val % 3 = 2) (p : Fin 2048) (q : Fin 8) (i : Fin 12288)
    (hi : i.val = 2048 * (t.val / 3) + p.val) :
    Gcn1.out1 (F := Ideal) V c t (ix2 p q)
      = max (Cert.Spec.aggM (Cert.Data.mat (α := EReal) (V c main_v45)) (Cert.Data.mat (α := EReal) (V c main_v53))
          (Cert.Data.vec (α := EReal) (V c main_arg5)) i q) 0 := by
  obtain ⟨t0, h0⟩ : ∃ t0 : Fin cfg1.N, t0.val = t.val - 2 := ⟨⟨t.val - 2, Nat.lt_of_le_of_lt (Nat.sub_le _ _) t.isLt⟩, rfl⟩
  obtain ⟨t1, h1⟩ : ∃ t1 : Fin cfg1.N, t1.val = t.val - 1 := ⟨⟨t.val - 1, Nat.lt_of_le_of_lt (Nat.sub_le _ _) t.isLt⟩, rfl⟩
  unfold Gcn1.out1
  rw [pay3_apply, acc_last V c t0 t1 t (by omega) (by omega) (by omega) p q, bblk_apply,
    prodAt_eq V c t0 0 (by show 0 = _; omega) p q i (by omega),
    prodAt_eq V c t1 1 (by show 1 = _; omega) p q i (by omega),
    prodAt_eq V c t 2 (by show 2 = _; omega) p q i hi]
  rfl

/-- What the output array ends holding: the specification's convolution clipped at zero from below. -/
def G0 : S12288x8.Idx → EReal := fun i =>
  max (Cert.Spec.aggM (Cert.Data.mat (α := EReal) (V c main_v45)) (Cert.Data.mat (α := EReal) (V c main_v53))
    (Cert.Data.vec (α := EReal) (V c main_arg5)) (i 0) (i 1)) 0

/-- WHAT A ROW BLOCK'S LAST POINT WRITES BACK is its block of `G0`. -/
theorem flushed_eq (t : Fin cfg1.N) (hf : (cfg1.win 3).flush t = true) :
    (Gcn1.dat1 (F := Ideal) V c).flushed 3 t = ((cfg1.win 3).blk t).view.read (Elt Ideal) (G0 V c) := by
  have ht : t.val % 3 = 2 := (flush0_3 t).mp hf
  have hN : t.val < 18 := t.isLt
  obtain ⟨-, -, -, -, -, e5, e6⟩ := idx_facts t
  show (cfg1.win 3).cut (grid1.coords t) ((Gcn1.dat1 (F := Ideal) V c).after 3 t) = _
  rw [Gcn1.after1_3]
  have key : ∀ y : S2048x8.Idx, Gcn1.out1 (F := Ideal) V c t y = G0 V c (((cfg1.win 3).blk t).view.emb y) := fun y => by
    obtain ⟨p, q, rfl⟩ : ∃ (p : Fin 2048) (q : Fin 8), y = ix2 p q := ⟨y 0, y 1, eq_ix2 y⟩
    have r0 : (((cfg1.win 3).blk t).view.emb (ix2 p q)) 0 = (⟨2048 * (t.val / 3) + p.val, by omega⟩ : Fin 12288) :=
      Fin.ext (by show win1_3.index t (0 : Fin 2) * 2048 + 1 * p.val = 2048 * (t.val / 3) + p.val; rw [e5]; omega)
    have r1 : (((cfg1.win 3).blk t).view.emb (ix2 p q)) 1 = q :=
      Fin.ext (by show win1_3.index t (1 : Fin 2) * 8 + 1 * q.val = q.val; rw [e6]; omega)
    unfold G0
    rw [r0, r1]
    exact out1_apply V c t ht p q _ rfl
  exact funext key

/-- An index of the array is in point `t`'s block iff each coordinate is in the block's range on its axis. -/
theorem mem_blk (t : Fin cfg1.N) (i : S12288x8.Idx) :
    i ∈ ((cfg1.win 3).blk t).view.set ↔ ∀ a : Fin 2, win1_3.index t a * S2048x8.size a ≤ (i a).val
      ∧ (i a).val < win1_3.index t a * S2048x8.size a + S2048x8.size a := by
  show i ∈ ((View.whole main_v54).slice (win1_3.rect t)).set ↔ _
  rw [View.set_slice_whole, Rect.mem_set_unit]
  exact Iff.rfl

/-- Row `r` of the array is in the block of row block `r / 2048`'s last point. -/
theorem covered (i : S12288x8.Idx) : ∃ t : Fin cfg1.N, (cfg1.win 3).flush t = true ∧ i ∈ ((cfg1.win 3).blk t).view.set := by
  have hi0 : (i 0).val < 12288 := (i 0).isLt
  have hi1 : (i 1).val < 8 := (i 1).isLt
  obtain ⟨t, ht⟩ : ∃ t : Fin cfg1.N, t.val = 3 * ((i 0).val / 2048) + 2 :=
    ⟨⟨3 * ((i 0).val / 2048) + 2, by show _ < 18; omega⟩, rfl⟩
  obtain ⟨-, -, -, -, -, e5, e6⟩ := idx_facts t
  refine ⟨t, (flush0_3 t).mpr (by omega), ?_⟩
  rw [mem_blk]
  intro a
  match a with
  | ⟨0, _⟩ =>
    show win1_3.index t (0 : Fin 2) * 2048 ≤ (i 0).val ∧ (i 0).val < win1_3.index t (0 : Fin 2) * 2048 + 2048
    rw [e5]; omega
  | ⟨1, _⟩ =>
    show win1_3.index t (1 : Fin 2) * 8 ≤ (i 1).val ∧ (i 1).val < win1_3.index t (1 : Fin 2) * 8 + 8
    rw [e6]; omega

/-- THE OUTPUT ARRAY AFTER THE CALL, index by index: the specification's convolution of the adjacency, the features and
    the bias as the call finds them, clipped at zero from below. -/
theorem final1 (i : Fin 12288) (j : Fin 8) :
    (Gcn1.dat1 (F := Ideal) V c).arrAt 3 cfg1.N (ix2 i j)
      = max (Cert.Spec.aggM (Cert.Data.mat (α := EReal) (V c main_v45)) (Cert.Data.mat (α := EReal) (V c main_v53))
          (Cert.Data.vec (α := EReal) (V c main_arg5)) i j) 0 :=
  congrFun ((Gcn1.dat1 (F := Ideal) V c).arrAt_eq_of_cover 3 (G0 V c) (flushed_eq V c) covered) (ix2 i j)

end Final

end Cert.KernelIdeal.GcnVal1

end
-- ==== Proof.GcnVal2.lean ====
/-
  What the third aggregation call (the two last convolutions run as one of width 256) leaves in its output array, index
  by index, at the ideal values (floats read as extended reals).

  The call runs a 6 × 3 grid in row-major order: point `t` is row block `t / 3` and contraction block `t % 3`. At every
  point the scratch takes the product of the point's adjacency block (2048 rows of the row block, 4096 columns of the
  contraction block) with the point's feature block (the same 4096 rows), over zero at contraction block 0 and over what
  it held otherwise; at contraction block 2 the bias is added and the result is written back, unclipped and in the
  scratch's own format, to the row block's 2048 rows of the output. So row `2048 (t / 3) + p` of the output ends
  holding, in column `q`, `(((0 + B 0) + B 1) + B 2) + b q` with `B s` the sum over the 4096 columns `k` of contraction
  block `s` of `A (row, 4096 s + k) * h (4096 s + k, q)`: the specification's `aggM`.

  In order: each of the body's three values read at an index (the zero fill, the accumulating product, the biased
  result); each input block read at an index as the array at the shifted index; the accumulation after a row block's
  three points; what the last point stores; the output's blocks cover the array, so the array after the call is that
  function of the inputs.
-/
import proofs.«404591_j69982197121234_3_alg».proof.Proof.Gcn2
import proofs.«404591_j69982197121234_3_alg».proof.Proof.Spec
import proofs.«404591_j69982197121234_3_alg».proof.Proof.Data
import proofs.«404591_j69982197121234_3_alg».proof.Proof.LibPlainMatmul
import proofs.«404591_j69982197121234_3_alg».proof.Proof.LibKeepdims
import Idealize.ShloMosaic.Lib.Pipeline.Value
import Idealize.ShloMosaic.Lib.ValueIdx
import Idealize.ShloMosaic.PureOps.Ideal.Laws

noncomputable section

namespace Cert.KernelIdeal.GcnVal2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- The matmul's dimension numbers are the plain ones. -/
theorem dot_plain : dot_S2048x4096_S4096x256_S2048x256_1_0_0_1_n_n = DotDims.plain 2048 4096 256 := rfl

/-- A vector cast to a one-row matrix reads, at `(u, q)`, the vector at `q`. -/
theorem shapeCast_a_1a_apply {α : Type} {a : ℕ} (x : (⟨1, ![a]⟩ : Shape).Idx → α) (h : (⟨1, ![a]⟩ : Shape).ShapeCasts ⟨2, ![1, a]⟩)
    (u : Fin 1) (q : Fin a) : shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-- A one-row matrix broadcast along the rows reads, at `(p, q)`, the row's entry at `q`. -/
theorem broadcastTo_1a_ba_apply {α : Type} {a b : ℕ} (v : (⟨2, ![1, a]⟩ : Shape).Idx → α) (h : (⟨2, ![1, a]⟩ : Shape).Broadcasts ⟨2, ![b, a]⟩)
    (p : Fin b) (q : Fin a) : broadcastTo ⟨2, ![b, a]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if a = 1 then 0 else q.val
    split
    · have := q.isLt; omega
    · rfl

theorem pay1_apply (p : Fin 2048) (q : Fin 256) : (k2_pay1 (F := Ideal)) (ix2 p q) = 0 := by
  unfold k2_pay1
  rw [shapeCast_self]
  exact Ideal.ofBits_zero_f32

theorem pay2_apply (a : Vec Ideal S2048x256 .f32) (x : Vec Ideal S2048x4096 .bf16) (h : Vec Ideal S4096x256 .bf16) (p : Fin 2048) (q : Fin 256) :
    k2_pay2 a x h (ix2 p q) = a (ix2 p q) + ∑ k : Fin 4096, x (ix2 p k) * h (ix2 k q) := by
  unfold k2_pay2
  simp only [shapeCast_self, matmul]
  rw [addf_apply, dot_plain, Cert.Lib.matmul_plain_zero_apply]

theorem pay3_apply (a : Vec Ideal S2048x256 .f32) (b : Vec Ideal S256 .f32) (p : Fin 2048) (q : Fin 256) :
    k2_pay3 a b (ix2 p q) = a (ix2 p q) + b (ix1 q) := by
  unfold k2_pay3
  rw [addf_apply, broadcastTo_1a_ba_apply, shapeCast_a_1a_apply, shapeCast_self]

section Blocks

variable (V : (c : Dev nD) → (b : Ref sig .tc) → Buf (Elt Ideal) ((c : Thread nD τ).loc b)) (c : Dev nD)

/-- The index maps over the grid: point `t` is row block `t / 3` and contraction block `t % 3`. -/
theorem idx_facts : ∀ t : Fin cfg2.N,
    win2_0.index t (0 : Fin 2) = t.val / 3 ∧ win2_0.index t (1 : Fin 2) = t.val % 3
    ∧ win2_1.index t (0 : Fin 2) = t.val % 3 ∧ win2_1.index t (1 : Fin 2) = 0
    ∧ win2_2.index t (0 : Fin 1) = 0
    ∧ win2_3.index t (0 : Fin 2) = t.val / 3 ∧ win2_3.index t (1 : Fin 2) = 0 :=
  (by decide +kernel : ∀ t : Fin grid2.N, _)

/-- The adjacency block at point `t` is rows `2048 (t / 3) …`, columns `4096 (t % 3) …` of the adjacency. -/
theorem ablk_apply (t : Fin cfg2.N) (p : Fin 2048) (k : Fin 4096) (i kk : Fin 12288)
    (hi : i.val = 2048 * (t.val / 3) + p.val) (hk : kk.val = 4096 * (t.val % 3) + k.val) :
    Gcn2.ablk (F := Ideal) V c t (ix2 p k) = V c main_v45 (ix2 i kk) := by
  obtain ⟨e0, e1, -⟩ := idx_facts t
  show V c main_v45 (((cfg2.win 0).blk t).view.emb (ix2 p k)) = V c main_v45 (ix2 i kk)
  congr 1
  funext a; apply Fin.ext
  match a with
  | ⟨0, _⟩ => show win2_0.index t (0 : Fin 2) * 2048 + 1 * p.val = i.val; rw [e0, hi]; omega
  | ⟨1, _⟩ => show win2_0.index t (1 : Fin 2) * 4096 + 1 * k.val = kk.val; rw [e1, hk]; omega

/-- The feature block at point `t` is rows `4096 (t % 3) …` of the features. -/
theorem hblk_apply (t : Fin cfg2.N) (k : Fin 4096) (q : Fin 256) (kk : Fin 12288)
    (hk : kk.val = 4096 * (t.val % 3) + k.val) :
    Gcn2.hblk (F := Ideal) V c t (ix2 k q) = V c main_v67 (ix2 kk q) := by
  obtain ⟨-, -, e2, e3, -⟩ := idx_facts t
  show V c main_v67 (((cfg2.win 1).blk t).view.emb (ix2 k q)) = V c main_v67 (ix2 kk q)
  congr 1
  funext a; apply Fin.ext
  match a with
  | ⟨0, _⟩ => show win2_1.index t (0 : Fin 2) * 4096 + 1 * k.val = kk.val; rw [e2, hk]; omega
  | ⟨1, _⟩ => show win2_1.index t (1 : Fin 2) * 256 + 1 * q.val = q.val; rw [e3]; omega

/-- The bias block at every point is the bias. -/
theorem bblk_apply (t : Fin cfg2.N) (q : Fin 256) :
    Gcn2.bblk (F := Ideal) V c t (ix1 q) = V c main_v64 (ix1 q) := by
  obtain ⟨-, -, -, -, e4, -⟩ := idx_facts t
  show V c main_v64 (((cfg2.win 2).blk t).view.emb (ix1 q)) = V c main_v64 (ix1 q)
  congr 1
  funext a; apply Fin.ext
  match a with
  | ⟨0, _⟩ => show win2_2.index t (0 : Fin 1) * 256 + 1 * q.val = q.val; rw [e4]; omega

/-- One point's block product at `(p, q)`. -/
def prodAt (t : Fin cfg2.N) (p : Fin 2048) (q : Fin 256) : EReal :=
  ∑ k : Fin 4096, Gcn2.ablk (F := Ideal) V c t (ix2 p k) * Gcn2.hblk (F := Ideal) V c t (ix2 k q)

/-- THE ACCUMULATION after a row block's last point: from zero, the three points' block products added in order. -/
theorem acc_last (t0 t1 t : Fin cfg2.N) (h0 : t0.val % 3 = 0) (h1 : t1.val = t0.val + 1) (h2 : t.val = t1.val + 1)
    (p : Fin 2048) (q : Fin 256) :
    Gcn2.acc2 (F := Ideal) V c (t.val + 1) (ix2 p q) = ((0 + prodAt V c t0 p q) + prodAt V c t1 p q) + prodAt V c t p q := by
  have e2 : Gcn2.acc2 (F := Ideal) V c (t.val + 1)
      = k2_pay2 (Gcn2.acc2 (F := Ideal) V c (t1.val + 1)) (Gcn2.ablk V c t) (Gcn2.hblk V c t) := by
    rw [Gcn2.acc2_succ, h2]; unfold Gcn2.step2; rw [if_neg (by omega)]
  have e1 : Gcn2.acc2 (F := Ideal) V c (t1.val + 1)
      = k2_pay2 (Gcn2.acc2 (F := Ideal) V c (t0.val + 1)) (Gcn2.ablk V c t1) (Gcn2.hblk V c t1) := by
    rw [Gcn2.acc2_succ, h1]; unfold Gcn2.step2; rw [if_neg (by omega)]
  have e0 : Gcn2.acc2 (F := Ideal) V c (t0.val + 1)
      = k2_pay2 k2_pay1 (Gcn2.ablk V c t0) (Gcn2.hblk V c t0) := by
    rw [Gcn2.acc2_succ]; unfold Gcn2.step2; rw [if_pos h0]
  rw [e2, pay2_apply, e1, pay2_apply, e0, pay2_apply, pay1_apply]
  rfl

end Blocks

section Final

variable (V : (c : Dev nD) → (b : Ref sig .tc) → Buf (Elt Ideal) ((c : Thread nD τ).loc b)) (c : Dev nD)

/-- One point's block product is the specification's block product, at the point's contraction block and the row of
    the array under row `p` of the point's row block. -/
theorem prodAt_eq (t : Fin cfg2.N) (qq : Fin 3) (hq : qq.val = t.val % 3) (p : Fin 2048) (q : Fin 256) (i : Fin 12288)
    (hi : i.val = 2048 * (t.val / 3) + p.val) :
    prodAt V c t p q
      = Cert.Spec.blkM (Cert.Data.mat (α := EReal) (V c main_v45)) (Cert.Data.mat (α := EReal) (V c main_v67)) qq i q := by
  unfold prodAt Cert.Spec.blkM
  refine Finset.sum_congr rfl fun k _ => ?_
  have hk : (Cert.Spec.col qq k).val = 4096 * (t.val % 3) + k.val := by
    show qq.val * 4096 + k.val = _; omega
  rw [ablk_apply V c t p k i (Cert.Spec.col qq k) hi hk, hblk_apply V c t k q (Cert.Spec.col qq k) hk]
  rfl

/-- WHAT A ROW BLOCK'S LAST POINT STORES, at `(p, q)`: the specification's convolution at the row of the array under
    row `p` of the block. -/
theorem out2_apply (t : Fin cfg2.N) (ht : t.val % 3 = 2) (p : Fin 2048) (q : Fin 256) (i : Fin 12288)
    (hi : i.val = 2048 * (t.val / 3) + p.val) :
    Gcn2.out2 (F := Ideal) V c t (ix2 p q)
      = Cert.Spec.aggM (Cert.Data.mat (α := EReal) (V c main_v45)) (Cert.Data.mat (α := EReal) (V c main_v67))
          (Cert.Data.vec (α := EReal) (V c main_v64)) i q := by
  obtain ⟨t0, h0⟩ : ∃ t0 : Fin cfg2.N, t0.val = t.val - 2 := ⟨⟨t.val - 2, Nat.lt_of_le_of_lt (Nat.sub_le _ _) t.isLt⟩, rfl⟩
  obtain ⟨t1, h1⟩ : ∃ t1 : Fin cfg2.N, t1.val = t.val - 1 := ⟨⟨t.val - 1, Nat.lt_of_le_of_lt (Nat.sub_le _ _) t.isLt⟩, rfl⟩
  unfold Gcn2.out2
  rw [pay3_apply, acc_last V c t0 t1 t (by omega) (by omega) (by omega) p q, bblk_apply,
    prodAt_eq V c t0 0 (by show 0 = _; omega) p q i (by omega),
    prodAt_eq V c t1 1 (by show 1 = _; omega) p q i (by omega),
    prodAt_eq V c t 2 (by show 2 = _; omega) p q i hi]
  rfl

/-- What the output array ends holding: the specification's convolution. -/
def G2 : S12288x256.Idx → EReal := fun i =>
  Cert.Spec.aggM (Cert.Data.mat (α := EReal) (V c main_v45)) (Cert.Data.mat (α := EReal) (V c main_v67))
    (Cert.Data.vec (α := EReal) (V c main_v64)) (i 0) (i 1)

/-- WHAT A ROW BLOCK'S LAST POINT WRITES BACK is its block of `G2`. -/
theorem flushed_eq (t : Fin cfg2.N) (hf : (cfg2.win 3).flush t = true) :
    (Gcn2.dat2 (F := Ideal) V c).flushed 3 t = ((cfg2.win 3).blk t).view.read (Elt Ideal) (G2 V c) := by
  have ht : t.val % 3 = 2 := (flush2_3 t).mp hf
  have hN : t.val < 18 := t.isLt
  obtain ⟨-, -, -, -, -, e5, e6⟩ := idx_facts t
  show (cfg2.win 3).cut (grid2.coords t) ((Gcn2.dat2 (F := Ideal) V c).after 3 t) = _
  rw [Gcn2.after2_3]
  have key : ∀ y : S2048x256.Idx, Gcn2.out2 (F := Ideal) V c t y = G2 V c (((cfg2.win 3).blk t).view.emb y) := fun y => by
    obtain ⟨p, q, rfl⟩ : ∃ (p : Fin 2048) (q : Fin 256), y = ix2 p q := ⟨y 0, y 1, eq_ix2 y⟩
    have r0 : (((cfg2.win 3).blk t).view.emb (ix2 p q)) 0 = (⟨2048 * (t.val / 3) + p.val, by omega⟩ : Fin 12288) :=
      Fin.ext (by show win2_3.index t (0 : Fin 2) * 2048 + 1 * p.val = 2048 * (t.val / 3) + p.val; rw [e5]; omega)
    have r1 : (((cfg2.win 3).blk t).view.emb (ix2 p q)) 1 = q :=
      Fin.ext (by show win2_3.index t (1 : Fin 2) * 256 + 1 * q.val = q.val; rw [e6]; omega)
    unfold G2
    rw [r0, r1]
    exact out2_apply V c t ht p q _ rfl
  exact funext key

/-- An index of the array is in point `t`'s block iff each coordinate is in the block's range on its axis. -/
theorem mem_blk (t : Fin cfg2.N) (i : S12288x256.Idx) :
    i ∈ ((cfg2.win 3).blk t).view.set ↔ ∀ a : Fin 2, win2_3.index t a * S2048x256.size a ≤ (i a).val
      ∧ (i a).val < win2_3.index t a * S2048x256.size a + S2048x256.size a := by
  show i ∈ ((View.whole main_v68).slice (win2_3.rect t)).set ↔ _
  rw [View.set_slice_whole, Rect.mem_set_unit]
  exact Iff.rfl

/-- Row `r` of the array is in the block of row block `r / 2048`'s last point. -/
theorem covered (i : S12288x256.Idx) : ∃ t : Fin cfg2.N, (cfg2.win 3).flush t = true ∧ i ∈ ((cfg2.win 3).blk t).view.set := by
  have hi0 : (i 0).val < 12288 := (i 0).isLt
  have hi1 : (i 1).val < 256 := (i 1).isLt
  obtain ⟨t, ht⟩ : ∃ t : Fin cfg2.N, t.val = 3 * ((i 0).val / 2048) + 2 :=
    ⟨⟨3 * ((i 0).val / 2048) + 2, by show _ < 18; omega⟩, rfl⟩
  obtain ⟨-, -, -, -, -, e5, e6⟩ := idx_facts t
  refine ⟨t, (flush2_3 t).mpr (by omega), ?_⟩
  rw [mem_blk]
  intro a
  match a with
  | ⟨0, _⟩ =>
    show win2_3.index t (0 : Fin 2) * 2048 ≤ (i 0).val ∧ (i 0).val < win2_3.index t (0 : Fin 2) * 2048 + 2048
    rw [e5]; omega
  | ⟨1, _⟩ =>
    show win2_3.index t (1 : Fin 2) * 256 ≤ (i 1).val ∧ (i 1).val < win2_3.index t (1 : Fin 2) * 256 + 256
    rw [e6]; omega

/-- THE OUTPUT ARRAY AFTER THE CALL, index by index: the specification's convolution of the adjacency, the features and
    the bias as the call finds them. -/
theorem final2 (i : Fin 12288) (j : Fin 256) :
    (Gcn2.dat2 (F := Ideal) V c).arrAt 3 cfg2.N (ix2 i j)
      = Cert.Spec.aggM (Cert.Data.mat (α := EReal) (V c main_v45)) (Cert.Data.mat (α := EReal) (V c main_v67))
          (Cert.Data.vec (α := EReal) (V c main_v64)) i j :=
  congrFun ((Gcn2.dat2 (F := Ideal) V c).arrAt_eq_of_cover 3 (G2 V c) (flushed_eq V c) covered) (ix2 i j)

end Final

end Cert.KernelIdeal.GcnVal2

end
-- ==== Proof.DecVal.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import proofs.«404591_j69982197121234_3_alg».proof.Proof.Dec3
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.DecVal

open Cert.KernelIdeal Cert.KernelIdeal.Gen
open Idealize.ShloMosaic Idealize.ShloMosaic.TcCoe Idealize.ShloMosaic.ValueIdx
open Idealize.ShloMosaic.Pipeline (Dat Cfg Window)

/-! # What the inner-product decoder call leaves in its output array

The decoder's grid is 6 × 6, row-major: point `t` is row block `t / 6` and column block `t % 6`. At a point the body
multiplies the row block of the embedding (2048 × 8) with the transpose of its column block, a product contracting the
second axis of both operands into a zero accumulator, and the 2048 × 2048 result is written back into block
`(t / 6, t % 6)` of the 12288 × 12288 output. The thirty-six blocks tile the output, so after the last point the output
at `(i, j)` is the inner product of rows `i` and `j` of the embedding. -/

/-! ## The product at an index

The dimension numbers contract axis 1 of the left operand with axis 1 of the right one; neither has a batch axis.
The left operand is read at `(p, k)`, the right one at `(q, k)`. -/

theorem lhs_dec_0 (i : S2048x2048.Idx) (q : dot_S2048x8_S2048x8_S2048x2048_1_1_0_0_n_n.contr.Idx) :
    (dot_S2048x8_S2048x8_S2048x2048_1_1_0_0_n_n.lhsIdx i q 0).val = (i 0).val := by
  unfold DotDims.lhsIdx
  rw [dif_neg (show ¬(0 : Fin S2048x8.rank) ∈ dot_S2048x8_S2048x8_S2048x2048_1_1_0_0_n_n.lhsBatch by decide), dif_pos (show (0 : Fin S2048x8.rank) ∈ dot_S2048x8_S2048x8_S2048x2048_1_1_0_0_n_n.lhsNonContracting by decide)]
  rfl
theorem lhs_dec_1 (i : S2048x2048.Idx) (q : dot_S2048x8_S2048x8_S2048x2048_1_1_0_0_n_n.contr.Idx) :
    (dot_S2048x8_S2048x8_S2048x2048_1_1_0_0_n_n.lhsIdx i q 1).val = (q ⟨0, by decide⟩).val :=
  dot_S2048x8_S2048x8_S2048x2048_1_1_0_0_n_n.lhsIdx_val_of_single rfl i q
theorem rhs_dec_0 (i : S2048x2048.Idx) (q : dot_S2048x8_S2048x8_S2048x2048_1_1_0_0_n_n.contr.Idx) :
    (dot_S2048x8_S2048x8_S2048x2048_1_1_0_0_n_n.rhsIdx i q 0).val = (i 1).val := by
  unfold DotDims.rhsIdx
  rw [dif_neg (show ¬(0 : Fin S2048x8.rank) ∈ dot_S2048x8_S2048x8_S2048x2048_1_1_0_0_n_n.rhsBatch by decide), dif_pos (show (0 : Fin S2048x8.rank) ∈ dot_S2048x8_S2048x8_S2048x2048_1_1_0_0_n_n.rhsNonContracting by decide)]
  rfl
theorem rhs_dec_1 (i : S2048x2048.Idx) (q : dot_S2048x8_S2048x8_S2048x2048_1_1_0_0_n_n.contr.Idx) :
    (dot_S2048x8_S2048x8_S2048x2048_1_1_0_0_n_n.rhsIdx i q 1).val = (q ⟨0, by decide⟩).val :=
  dot_S2048x8_S2048x8_S2048x2048_1_1_0_0_n_n.rhsIdx_val_of_single rfl i q

/-- The body's product at `(p, q)`: the sum over the eight features of row `p` of the first operand times row `q` of
    the second. -/
theorem pay_apply (x y : Vec Ideal S2048x8 .bf16) (p q : Fin 2048) :
    k3_pay1 (F := Ideal) x y (ix2 p q) = ∑ k : Fin 8, (x (ix2 p k) : EReal) * (y (ix2 q k) : EReal) := by
  unfold k3_pay1
  simp only [shapeCast_self]
  show FloatOps.matmul (F := Ideal) (φ₁ := .bf16) (φ₂ := .bf16) dot_S2048x8_S2048x8_S2048x2048_1_1_0_0_n_n none x y (constant S2048x2048 .f32 0x00000000#32) (ix2 p q) = _
  rw [Ideal.matmul_constant_zero_apply, ← Equiv.sum_comp (contrEquiv1 dot_S2048x8_S2048x8_S2048x2048_1_1_0_0_n_n 8 rfl rfl).symm]
  refine Finset.sum_congr rfl fun k _ => ?_
  have hk := contrEquiv1_symm_val dot_S2048x8_S2048x8_S2048x2048_1_1_0_0_n_n 8 rfl rfl k
  have el : dot_S2048x8_S2048x8_S2048x2048_1_1_0_0_n_n.lhsIdx (ix2 p q) ((contrEquiv1 dot_S2048x8_S2048x8_S2048x2048_1_1_0_0_n_n 8 rfl rfl).symm k) = ix2 p k := funext fun a => Fin.ext (by
    match a with
    | ⟨0, _⟩ => exact lhs_dec_0 _ _
    | ⟨1, _⟩ => exact (lhs_dec_1 _ _).trans hk)
  have er : dot_S2048x8_S2048x8_S2048x2048_1_1_0_0_n_n.rhsIdx (ix2 p q) ((contrEquiv1 dot_S2048x8_S2048x8_S2048x2048_1_1_0_0_n_n 8 rfl rfl).symm k) = ix2 q k := funext fun a => Fin.ext (by
    match a with
    | ⟨0, _⟩ => exact rhs_dec_0 _ _
    | ⟨1, _⟩ => exact (rhs_dec_1 _ _).trans hk)
  rw [el, er]

/-! ## The blocks the body reads

Window 0's block index at point `t` is `(t / 6, 0)`, window 1's `(t % 6, 0)`, the output's `(t / 6, t % 6)`: decided once
over the thirty-six points. An element of a block sits in its array, on each axis, at the block index times the block's
size plus its own coordinate. -/

theorem idx_facts : ∀ t : Fin cfg3.N, win3_0.index t (0 : Fin 2) = t.val / 6 ∧ win3_0.index t (1 : Fin 2) = 0
    ∧ win3_1.index t (0 : Fin 2) = t.val % 6 ∧ win3_1.index t (1 : Fin 2) = 0
    ∧ win3_2.index t (0 : Fin 2) = t.val / 6 ∧ win3_2.index t (1 : Fin 2) = t.val % 6 :=
  (by decide +kernel : ∀ t : Fin grid3.N, _)

section Data

variable (V : (c : Dev nD) → (b : Ref sig .tc) → Buf (Elt Ideal) ((c : Thread nD τ).loc b))

/-- The row block at point `t` is rows `2048 · (t / 6) …` of the embedding. -/
theorem rblk_apply (c : Dev nD) (t : Fin cfg3.N) (p : Fin 2048) (k : Fin 8) (r : Fin 12288)
    (hr : r.val = 2048 * (t.val / 6) + p.val) :
    Dec3.rblk (F := Ideal) V c t (ix2 p k) = (V c main_v72 : S12288x8.Idx → EReal) (ix2 r k) := by
  obtain ⟨e0, e1, -, -, -, -⟩ := idx_facts t
  unfold Dec3.rblk Dec3.iblk3
  rw [View.read_apply]
  show (V c main_v72 : S12288x8.Idx → EReal) (((cfg3.win 0).blk t).view.emb (ix2 p k)) = _
  congr 1
  funext a
  apply Fin.ext
  match a with
  | ⟨0, _⟩ => show win3_0.index t (0 : Fin 2) * 2048 + 1 * p.val = r.val; omega
  | ⟨1, _⟩ => show win3_0.index t (1 : Fin 2) * 8 + 1 * k.val = k.val; omega

/-- The column block at point `t` is rows `2048 · (t % 6) …` of the embedding. -/
theorem cblk_apply (c : Dev nD) (t : Fin cfg3.N) (q : Fin 2048) (k : Fin 8) (r : Fin 12288)
    (hr : r.val = 2048 * (t.val % 6) + q.val) :
    Dec3.cblk (F := Ideal) V c t (ix2 q k) = (V c main_v72 : S12288x8.Idx → EReal) (ix2 r k) := by
  obtain ⟨-, -, e0, e1, -, -⟩ := idx_facts t
  unfold Dec3.cblk Dec3.iblk3
  rw [View.read_apply]
  show (V c main_v72 : S12288x8.Idx → EReal) (((cfg3.win 1).blk t).view.emb (ix2 q k)) = _
  congr 1
  funext a
  apply Fin.ext
  match a with
  | ⟨0, _⟩ => show win3_1.index t (0 : Fin 2) * 2048 + 1 * q.val = r.val; omega
  | ⟨1, _⟩ => show win3_1.index t (1 : Fin 2) * 8 + 1 * k.val = k.val; omega

end Data

/-! ## From the blocks to the array -/

/-- The inner products of the rows of a 12288 × 8 array, as a 12288 × 12288 array. -/
def gram (E : S12288x8.Idx → EReal) : S12288x12288.Idx → EReal :=
  fun x => ∑ k : Fin 8, E (ix2 (x 0 : Fin 12288) k) * E (ix2 (x 1 : Fin 12288) k)

theorem gram_apply (E : S12288x8.Idx → EReal) (i j : Fin 12288) :
    gram E (ix2 i j) = ∑ k : Fin 8, E (ix2 i k) * E (ix2 j k) := rfl

section Data

variable (V : (c : Dev nD) → (b : Ref sig .tc) → Buf (Elt Ideal) ((c : Thread nD τ).loc b))

/-- After the body at point `t` the output's buffer holds the product of the point's two blocks. -/
theorem after_out (c : Dev nD) (t : Fin cfg3.N) : (Dec3.dat3 (F := Ideal) V c).after 2 t = Dec3.out3 V c t := by
  dsimp only [Dec3.dat3]

/-- What point `t` writes back is block `t` of the inner products of the embedding's rows. -/
theorem flushed_eq (c : Dev nD) (t : Fin cfg3.N) :
    (Dec3.dat3 (F := Ideal) V c).flushed 2 t
      = ((cfg3.win 2).blk t).view.read (Elt Ideal) (gram (V c main_v72)) := by
  show (cfg3.win 2).cut (grid3.coords t) ((Dec3.dat3 (F := Ideal) V c).after 2 t) = _
  rw [after_out]
  funext y
  obtain ⟨p, q, rfl⟩ : ∃ (p q : Fin 2048), y = ix2 p q := ⟨y 0, y 1, eq_ix2 y⟩
  rw [View.read_apply]
  show Dec3.out3 V c t (ix2 p q) = gram (V c main_v72) (((cfg3.win 2).blk t).view.emb (ix2 p q))
  unfold Dec3.out3
  rw [pay_apply]
  obtain ⟨-, -, -, -, e0, e1⟩ := idx_facts t
  have hp : p.val < 2048 := p.isLt
  have hq : q.val < 2048 := q.isLt
  have ht : t.val < 36 := t.isLt
  have hr : 2048 * (t.val / 6) + p.val < 12288 := by omega
  have hc : 2048 * (t.val % 6) + q.val < 12288 := by omega
  have hemb : ((cfg3.win 2).blk t).view.emb (ix2 p q)
      = ix2 (⟨2048 * (t.val / 6) + p.val, hr⟩ : Fin 12288) (⟨2048 * (t.val % 6) + q.val, hc⟩ : Fin 12288) := by
    funext a
    apply Fin.ext
    match a with
    | ⟨0, _⟩ => show win3_2.index t (0 : Fin 2) * 2048 + 1 * p.val = 2048 * (t.val / 6) + p.val; omega
    | ⟨1, _⟩ => show win3_2.index t (1 : Fin 2) * 2048 + 1 * q.val = 2048 * (t.val % 6) + q.val; omega
  rw [hemb, gram_apply]
  refine Finset.sum_congr rfl fun k _ => ?_
  rw [rblk_apply V c t p k ⟨_, hr⟩ rfl, cblk_apply V c t q k ⟨_, hc⟩ rfl]

/-- An index of the output is in point `t`'s block iff each coordinate is in the block's range on its axis. -/
theorem mem_blk (t : Fin cfg3.N) (i : S12288x12288.Idx) :
    i ∈ ((cfg3.win 2).blk t).view.set ↔ ∀ a : Fin 2, win3_2.index t a * S2048x2048.size a ≤ (i a).val
      ∧ (i a).val < win3_2.index t a * S2048x2048.size a + S2048x2048.size a := by
  show i ∈ ((View.whole main_v73).slice (win3_2.rect t)).set ↔ _
  rw [View.set_slice_whole, Rect.mem_set_unit]
  exact Iff.rfl

/-- The blocks tile the output: index `(r, s)` is in the block of point `6 · (r / 2048) + s / 2048`. -/
theorem cover (i : S12288x12288.Idx) :
    ∃ t : Fin cfg3.N, (cfg3.win 2).flush t = true ∧ i ∈ ((cfg3.win 2).blk t).view.set := by
  have h0 : (i 0).val < 12288 := (i 0).isLt
  have h1 : (i 1).val < 12288 := (i 1).isLt
  have ht : 6 * ((i 0).val / 2048) + (i 1).val / 2048 < 36 := by omega
  refine ⟨⟨6 * ((i 0).val / 2048) + (i 1).val / 2048, ht⟩, flush3_2 _, ?_⟩
  rw [mem_blk]
  obtain ⟨-, -, -, -, e0, e1⟩ := idx_facts ⟨6 * ((i 0).val / 2048) + (i 1).val / 2048, ht⟩
  dsimp only at e0 e1
  intro a
  match a with
  | ⟨0, _⟩ =>
    show win3_2.index _ (0 : Fin 2) * 2048 ≤ (i 0).val ∧ (i 0).val < win3_2.index _ (0 : Fin 2) * 2048 + 2048
    rw [e0]; omega
  | ⟨1, _⟩ =>
    show win3_2.index _ (1 : Fin 2) * 2048 ≤ (i 1).val ∧ (i 1).val < win3_2.index _ (1 : Fin 2) * 2048 + 2048
    rw [e1]; omega

/-- THE OUTPUT after the decoder call is the array of the inner products of the rows of the embedding as the call
    finds it. -/
theorem final3_eq (c : Dev nD) : (Dec3.dat3 (F := Ideal) V c).arrAt 2 cfg3.N = gram (V c main_v72) :=
  (Dec3.dat3 (F := Ideal) V c).arrAt_eq_of_cover 2 (gram (V c main_v72)) (fun t _ => flushed_eq V c t) cover

/-- The same at an index: the output at `(i, j)` is the inner product of rows `i` and `j` of the embedding `E` the call
    finds. -/
theorem final3 (c : Dev nD) (i j : Fin 12288) (E : S12288x8.Idx → EReal) (hE : V c main_v72 = E) :
    ((Dec3.dat3 (F := Ideal) V c).arrAt 2 cfg3.N : S12288x12288.Idx → EReal) (ix2 i j)
      = ∑ k : Fin 8, E (ix2 i k) * E (ix2 j k) := by
  rw [final3_eq V c, hE]
  exact gram_apply E i j

end Data

end Cert.KernelIdeal.DecVal

end
-- ==== Proof.KernelVal.lean ====
/-
  The kernel program's two results are the specification's.

  The program is a chain: three aggregation calls and a decoder call, with host operations between them. Each
  aggregation call leaves the specification's convolution `aggM` of the adjacency, the features and the bias it finds
  (clipped at zero from below in the first two calls); the host operations before it leave the dense adjacency `adj`,
  the product of the previous layer with the layer's weight, and the layer's bias. So the first call's output is the
  first hidden layer `z1K`, the second call's the second `z2K`, and the third call's the fused convolution `fusedK` of
  width 256 whose columns `0 … 127` are the reconstruction `xhatK` and whose columns `128 … 135`, clipped, are the
  embedding `zsK`; the decoder call leaves the inner products of the embedding's rows, `ahatK`.

  What the host operations between the calls leave, and what each call's array holds on exit, are taken as hypotheses
  over the buffers' contents between the program's items; each step of the chain is one small lemma.
-/
import proofs.«404591_j69982197121234_3_alg».proof.Proof.Fold
import proofs.«404591_j69982197121234_3_alg».proof.Proof.Spec
import proofs.«404591_j69982197121234_3_alg».proof.Proof.Data
import proofs.«404591_j69982197121234_3_alg».proof.Proof.Gcn0
import proofs.«404591_j69982197121234_3_alg».proof.Proof.Gcn1
import proofs.«404591_j69982197121234_3_alg».proof.Proof.Gcn2
import proofs.«404591_j69982197121234_3_alg».proof.Proof.Dec3
import proofs.«404591_j69982197121234_3_alg».proof.Proof.GcnVal0
import proofs.«404591_j69982197121234_3_alg».proof.Proof.GcnVal1
import proofs.«404591_j69982197121234_3_alg».proof.Proof.GcnVal2
import proofs.«404591_j69982197121234_3_alg».proof.Proof.DecVal
import Idealize.ShloMosaic.Lib.ValueIdx

noncomputable section

namespace Cert.KernelIdeal.KernelVal

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (c : Dev nD)

/-! ## The specification's arguments, read off the launch memory -/

/-- The index input; its rows with the self-loops appended, read as nodes: sources and targets. -/
abbrev ei : IVec Cert.Data.SE 32 := m ((c : Thread nD τ).loc main_arg1)
abbrev s : Fin Cert.Spec.Mm → Fin Cert.Spec.Nn := Cert.Data.srcF (ei m c)
abbrev d : Fin Cert.Spec.Mm → Fin Cert.Spec.Nn := Cert.Data.dstF (ei m c)
/-- The node features, and each layer's weight and bias. -/
abbrev X : Fin 12288 → Fin 128 → EReal := Cert.Data.mat (α := EReal) (m ((c : Thread nD τ).loc main_arg0))
abbrev W1 : Fin 128 → Fin 16 → EReal := Cert.Data.mat (α := EReal) (m ((c : Thread nD τ).loc main_arg2))
abbrev b1 : Fin 16 → EReal := Cert.Data.vec (α := EReal) (m ((c : Thread nD τ).loc main_arg3))
abbrev W2 : Fin 16 → Fin 8 → EReal := Cert.Data.mat (α := EReal) (m ((c : Thread nD τ).loc main_arg4))
abbrev b2 : Fin 8 → EReal := Cert.Data.vec (α := EReal) (m ((c : Thread nD τ).loc main_arg5))
abbrev Wa : Fin 8 → Fin 128 → EReal := Cert.Data.mat (α := EReal) (m ((c : Thread nD τ).loc main_arg6))
abbrev ba : Fin 128 → EReal := Cert.Data.vec (α := EReal) (m ((c : Thread nD τ).loc main_arg7))
abbrev Ws : Fin 8 → Fin 8 → EReal := Cert.Data.mat (α := EReal) (m ((c : Thread nD τ).loc main_arg8))
abbrev bs : Fin 8 → EReal := Cert.Data.vec (α := EReal) (m ((c : Thread nD τ).loc main_arg9))

/-! ## What the host operations and the calls leave: the hypotheses -/

variable
  (hadj : ∀ i k : Fin 12288, Fold.W3 m c main_v45 (ix2 i k) = Cert.Spec.adj (s m c) (d m c) i k)
  (hhw1 : ∀ (k : Fin 12288) (j : Fin 16), Fold.W3 m c main_v49 (ix2 k j) = Cert.Spec.mm (X m c) (W1 m c) k j)
  (hb1 : Fold.W3 m c main_arg3 = m ((c : Thread nD τ).loc main_arg3))
  (hW4out : Fold.W4 m c main_v50 = (Gcn0.dat0 (Fold.V3 m) c).arrAt 3 cfg0.N)
  (hhw2 : ∀ (k : Fin 12288) (j : Fin 8), Fold.W5 m c main_v53 (ix2 k j)
    = Cert.Spec.mm (Cert.Data.mat (α := EReal) (Fold.W4 m c main_v50)) (W2 m c) k j)
  (hW5adj : Fold.W5 m c main_v45 = Fold.W3 m c main_v45)
  (hW5b2 : Fold.W5 m c main_arg5 = m ((c : Thread nD τ).loc main_arg5))
  (hW6out : Fold.W6 m c main_v54 = (Gcn1.dat1 (Fold.V5 m) c).arrAt 3 cfg1.N)
  (hhwf : ∀ (k : Fin 12288) (j : Fin 256), Fold.W7 m c main_v67 (ix2 k j)
    = Cert.Spec.mm (Cert.Data.mat (α := EReal) (Fold.W6 m c main_v54)) (Cert.Spec.fuseW (Wa m c) (Ws m c)) k j)
  (hbf : ∀ j : Fin 256, Fold.W7 m c main_v64 (ix1 j) = Cert.Spec.fuseB (ba m c) (bs m c) j)
  (hW7adj : Fold.W7 m c main_v45 = Fold.W3 m c main_v45)
  (hW8out : Fold.W8 m c main_v68 = (Gcn2.dat2 (Fold.V7 m) c).arrAt 3 cfg2.N)
  (hxhat : ∀ (i : Fin 12288) (j : Fin 128), Fold.W12 m c main_v69 (ix2 i j) = Fold.W8 m c main_v68 (ix2 i ⟨j.val, by omega⟩))
  (hzs : ∀ (i : Fin 12288) (j : Fin 8), Cert.Data.mat (α := EReal) (Fold.W11 m c main_v72) i j
    = max (Cert.Data.mat (α := EReal) (Fold.W8 m c main_v68) i ⟨128 + j.val, by omega⟩) 0)
  (hW12out : Fold.W12 m c main_v73 = (Dec3.dat3 (Fold.V11 m) c).arrAt 2 cfg3.N)

/-- The dense adjacency the host operations leave, as a matrix. -/
theorem adj_eq (hadj : ∀ i k : Fin 12288, Fold.W3 m c main_v45 (ix2 i k) = Cert.Spec.adj (s m c) (d m c) i k) :
    Cert.Data.mat (α := EReal) (Fold.W3 m c main_v45) = Cert.Spec.adj (s m c) (d m c) :=
  funext fun i => funext fun k => hadj i k

section First
include hadj hhw1 hb1 hW4out

/-- THE FIRST CALL'S OUTPUT is the first hidden layer. -/
theorem z1_eq : Cert.Data.mat (α := EReal) (Fold.W4 m c main_v50)
    = Cert.Spec.z1K (s m c) (d m c) (X m c) (W1 m c) (b1 m c) := by
  funext i j
  have hA : Cert.Data.mat (α := EReal) (Fold.V3 m c main_v45) = Cert.Spec.adj (s m c) (d m c) := adj_eq m c hadj
  have hH : Cert.Data.mat (α := EReal) (Fold.V3 m c main_v49) = Cert.Spec.mm (X m c) (W1 m c) :=
    funext fun k => funext fun j => hhw1 k j
  have hB : Cert.Data.vec (α := EReal) (Fold.V3 m c main_arg3) = b1 m c := by
    show Cert.Data.vec (α := EReal) (Fold.W3 m c main_arg3) = _
    rw [hb1]
  show Fold.W4 m c main_v50 (ix2 i j) = _
  rw [hW4out, GcnVal0.final0 (Fold.V3 m) c i j, hA, hH, hB]
  rfl

end First

section Second
include hadj hhw1 hb1 hW4out hhw2 hW5adj hW5b2 hW6out

/-- THE SECOND CALL'S OUTPUT is the second hidden layer. -/
theorem z2_eq : Cert.Data.mat (α := EReal) (Fold.W6 m c main_v54)
    = Cert.Spec.z2K (s m c) (d m c) (X m c) (W1 m c) (b1 m c) (W2 m c) (b2 m c) := by
  funext i j
  have hA : Cert.Data.mat (α := EReal) (Fold.V5 m c main_v45) = Cert.Spec.adj (s m c) (d m c) := by
    show Cert.Data.mat (α := EReal) (Fold.W5 m c main_v45) = _
    rw [hW5adj]; exact adj_eq m c hadj
  have hH : Cert.Data.mat (α := EReal) (Fold.V5 m c main_v53)
      = Cert.Spec.mm (Cert.Spec.z1K (s m c) (d m c) (X m c) (W1 m c) (b1 m c)) (W2 m c) := by
    rw [← z1_eq m c hadj hhw1 hb1 hW4out]
    exact funext fun k => funext fun j => hhw2 k j
  have hB : Cert.Data.vec (α := EReal) (Fold.V5 m c main_arg5) = b2 m c := by
    show Cert.Data.vec (α := EReal) (Fold.W5 m c main_arg5) = _
    rw [hW5b2]
  show Fold.W6 m c main_v54 (ix2 i j) = _
  rw [hW6out, GcnVal1.final1 (Fold.V5 m) c i j, hA, hH, hB]
  rfl

end Second

section Third
include hadj hhw1 hb1 hW4out hhw2 hW5adj hW5b2 hW6out hhwf hbf hW7adj hW8out

/-- THE THIRD CALL'S OUTPUT is the fused convolution. -/
theorem fused_eq : Cert.Data.mat (α := EReal) (Fold.W8 m c main_v68)
    = Cert.Spec.fusedK (s m c) (d m c) (X m c) (W1 m c) (b1 m c) (W2 m c) (b2 m c) (Wa m c) (ba m c) (Ws m c) (bs m c) := by
  funext i j
  have hA : Cert.Data.mat (α := EReal) (Fold.V7 m c main_v45) = Cert.Spec.adj (s m c) (d m c) := by
    show Cert.Data.mat (α := EReal) (Fold.W7 m c main_v45) = _
    rw [hW7adj]; exact adj_eq m c hadj
  have hH : Cert.Data.mat (α := EReal) (Fold.V7 m c main_v67)
      = Cert.Spec.mm (Cert.Spec.z2K (s m c) (d m c) (X m c) (W1 m c) (b1 m c) (W2 m c) (b2 m c))
          (Cert.Spec.fuseW (Wa m c) (Ws m c)) := by
    rw [← z2_eq m c hadj hhw1 hb1 hW4out hhw2 hW5adj hW5b2 hW6out]
    exact funext fun k => funext fun j => hhwf k j
  have hB : Cert.Data.vec (α := EReal) (Fold.V7 m c main_v64) = Cert.Spec.fuseB (ba m c) (bs m c) :=
    funext fun j => hbf j
  show Fold.W8 m c main_v68 (ix2 i j) = _
  rw [hW8out, GcnVal2.final2 (Fold.V7 m) c i j, hA, hH, hB]
  rfl

end Third

section Results
include hadj hhw1 hb1 hW4out hhw2 hW5adj hW5b2 hW6out hhwf hbf hW7adj hW8out

/-- The third call's output at an index. -/
theorem fused_apply (i : Fin 12288) (j : Fin 256) : Fold.W8 m c main_v68 (ix2 i j)
    = Cert.Spec.fusedK (s m c) (d m c) (X m c) (W1 m c) (b1 m c) (W2 m c) (b2 m c) (Wa m c) (ba m c) (Ws m c) (bs m c) i j :=
  congrFun (congrFun (fused_eq m c hadj hhw1 hb1 hW4out hhw2 hW5adj hW5b2 hW6out hhwf hbf hW7adj hW8out) i) j

include hxhat in
/-- THE FIRST RESULT: the reconstruction is the fused convolution's first 128 columns. -/
theorem xhat_final (i : Fin 12288) (j : Fin 128) : Fold.W12 m c main_v69 (ix2 i j)
    = Cert.Spec.xhatK (s m c) (d m c) (X m c) (W1 m c) (b1 m c) (W2 m c) (b2 m c) (Wa m c) (ba m c) (Ws m c) (bs m c) i j := by
  rw [hxhat i j, fused_apply m c hadj hhw1 hb1 hW4out hhw2 hW5adj hW5b2 hW6out hhwf hbf hW7adj hW8out]
  rfl

include hzs in
/-- The embedding the decoder call finds: the fused convolution's columns `128 … 135`, clipped at zero from below. -/
theorem zs_eq : Cert.Data.mat (α := EReal) (Fold.W11 m c main_v72)
    = Cert.Spec.zsK (s m c) (d m c) (X m c) (W1 m c) (b1 m c) (W2 m c) (b2 m c) (Wa m c) (ba m c) (Ws m c) (bs m c) := by
  funext i j
  rw [hzs i j, fused_eq m c hadj hhw1 hb1 hW4out hhw2 hW5adj hW5b2 hW6out hhwf hbf hW7adj hW8out]
  rfl

include hzs hW12out in
/-- THE SECOND RESULT: the decoder call's output is the inner products of the embedding's rows. -/
theorem ahat_final (i j : Fin 12288) : Fold.W12 m c main_v73 (ix2 i j)
    = Cert.Spec.ahatK (s m c) (d m c) (X m c) (W1 m c) (b1 m c) (W2 m c) (b2 m c) (Wa m c) (ba m c) (Ws m c) (bs m c) i j := by
  have hz := zs_eq m c hadj hhw1 hb1 hW4out hhw2 hW5adj hW5b2 hW6out hhwf hbf hW7adj hW8out hzs
  have hk : ∀ k : Fin 8, Cert.Data.mat (α := EReal) (Fold.W11 m c main_v72) i k * Cert.Data.mat (α := EReal) (Fold.W11 m c main_v72) j k
      = Cert.Spec.zsK (s m c) (d m c) (X m c) (W1 m c) (b1 m c) (W2 m c) (b2 m c) (Wa m c) (ba m c) (Ws m c) (bs m c) i k
        * Cert.Spec.zsK (s m c) (d m c) (X m c) (W1 m c) (b1 m c) (W2 m c) (b2 m c) (Wa m c) (ba m c) (Ws m c) (bs m c) j k :=
    fun k => by rw [hz]
  have hsum : (∑ k : Fin 8, Cert.Data.mat (α := EReal) (Fold.W11 m c main_v72) i k * Cert.Data.mat (α := EReal) (Fold.W11 m c main_v72) j k)
      = Cert.Spec.ahatK (s m c) (d m c) (X m c) (W1 m c) (b1 m c) (W2 m c) (b2 m c) (Wa m c) (ba m c) (Ws m c) (bs m c) i j :=
    Finset.sum_congr rfl fun k _ => hk k
  rw [hW12out]
  exact (DecVal.final3 (Fold.V11 m) c i j (Fold.W11 m c main_v72) rfl).trans hsum

end Results

end Cert.KernelIdeal.KernelVal

end
-- ==== Proof.LibScatterCells.lean ====
import Idealize.ShloMosaic.PureOps.Ideal
import Idealize.ShloMosaic.Lib.ValueIdx

/-!
# A host scatter-add of single cells, read at an index

`out = operand.at[rows, cols].add(updates)` with `operand : [R, C]`, one pair of start coordinates per update
(`idx : [N, 2]`, both read signed: component 0 the row, component 1 the column) and `updates : [N]`: update `n` is
added into the operand's cell `(idx (n, 0), idx (n, 1))` when that cell exists and is dropped otherwise. Both operand
axes are inserted window axes, so an update has no window: it lands on exactly one cell. At the ideal instance the
result at `(r, c)` is the operand's entry plus the sum of the updates whose pair is `(r, c)`.
-/

noncomputable section

namespace Idealize.ShloMosaic.ScatterCells

open Idealize.ShloMosaic Idealize.ShloMosaic.ValueIdx

variable {R C N : Nat}

/-- The dimension numbers of a cell scatter: the updates have no window axis, both operand axes are inserted, and
    the two index components address operand axes 0 and 1 in that order. -/
abbrev dimsC (wf : ScatterDims.WF (⟨2, ![R, C]⟩ : Shape) ⟨2, ![N, 2]⟩ ⟨1, ![N]⟩ [] [0, 1] [0, 1] 1) :
    ScatterDims (⟨2, ![R, C]⟩ : Shape) ⟨2, ![N, 2]⟩ ⟨1, ![N]⟩ where
  updateWindowDims := []
  insertedWindowDims := [0, 1]
  scatterDimsToOperandDims := [0, 1]
  indexVectorDim := 1
  wf := wf

variable (wf : ScatterDims.WF (⟨2, ![R, C]⟩ : Shape) ⟨2, ![N, 2]⟩ ⟨1, ![N]⟩ [] [0, 1] [0, 1] 1)

/-- On operand axis 0 the window of update `n` starts at the pair's first component, read signed. -/
theorem start0 {w : Nat} (n : Fin N) (idx : IVec ⟨2, ![N, 2]⟩ w) :
    (dimsC wf).start (ix1 n) idx 0 = (idx (ix2 n 0)).toInt := by
  unfold ScatterDims.start
  rw [dif_pos (show (0 : Fin 2) ∈ [(0 : Fin 2), 1] by decide)]
  refine congrArg (fun k => (idx k).toInt) (funext fun b => Fin.ext ?_)
  match b with
  | ⟨0, _⟩ => rfl
  | ⟨1, _⟩ => rfl

/-- On operand axis 1 the window of update `n` starts at the pair's second component, read signed. -/
theorem start1 {w : Nat} (n : Fin N) (idx : IVec ⟨2, ![N, 2]⟩ w) :
    (dimsC wf).start (ix1 n) idx 1 = (idx (ix2 n 1)).toInt := by
  unfold ScatterDims.start
  rw [dif_pos (show (1 : Fin 2) ∈ [(0 : Fin 2), 1] by decide)]
  refine congrArg (fun k => (idx k).toInt) (funext fun b => Fin.ext ?_)
  match b with
  | ⟨0, _⟩ => rfl
  | ⟨1, _⟩ => rfl

/-- Neither operand axis is kept, so the window coordinate is `0` on both. -/
theorem window_zero (n : Fin N) (a : Fin 2) : (dimsC wf).window (ix1 n) a = 0 := by
  have h : ¬ (a : Fin (⟨2, ![R, C]⟩ : Shape).rank) ∈ (dimsC wf).sKept :=
    (show ¬ a ∈ (List.finRange 2).filter (· ∉ [(0 : Fin 2), 1]) by revert a; decide)
  unfold ScatterDims.window
  exact dif_neg h

/-- Update `n` lands on operand entry `(r, c)` exactly when its pair of start coordinates, read signed, is `(r, c)`;
    a pair outside the operand lands nowhere. -/
theorem resultIdx_iff {w : Nat} (n : Fin N) (idx : IVec ⟨2, ![N, 2]⟩ w) (r : Fin R) (c : Fin C) :
    (dimsC wf).resultIdx? (ix1 n) idx = some (ix2 r c)
      ↔ (idx (ix2 n 0)).toInt = (r.val : Int) ∧ (idx (ix2 n 1)).toInt = (c.val : Int) := by
  have hs0 := start0 wf n idx
  have hs1 := start1 wf n idx
  have hw0 := window_zero wf n 0
  have hw1 := window_zero wf n 1
  have hr := r.isLt
  have hc := c.isLt
  unfold ScatterDims.resultIdx?
  split
  · rename_i h
    rw [Option.some.injEq]
    constructor
    · intro e
      have e0 : ((dimsC wf).start (ix1 n) idx 0 + ((dimsC wf).window (ix1 n) 0 : Nat)).toNat = r.val :=
        congrArg (fun f : (⟨2, ![R, C]⟩ : Shape).Idx => (f 0).val) e
      have e1 : ((dimsC wf).start (ix1 n) idx 1 + ((dimsC wf).window (ix1 n) 1 : Nat)).toNat = c.val :=
        congrArg (fun f : (⟨2, ![R, C]⟩ : Shape).Idx => (f 1).val) e
      have h0 := (h 0).1
      have h1 := (h 1).1
      rw [hs0, hw0] at e0 h0
      rw [hs1, hw1] at e1 h1
      exact ⟨by omega, by omega⟩
    · rintro ⟨e0, e1⟩
      funext a
      apply Fin.ext
      match a with
      | ⟨0, _⟩ =>
        show ((dimsC wf).start (ix1 n) idx 0 + ((dimsC wf).window (ix1 n) 0 : Nat)).toNat = r.val
        rw [hs0, hw0, e0]; omega
      | ⟨1, _⟩ =>
        show ((dimsC wf).start (ix1 n) idx 1 + ((dimsC wf).window (ix1 n) 1 : Nat)).toNat = c.val
        rw [hs1, hw1, e1]; omega
  · rename_i h
    constructor
    · intro e; cases e
    · rintro ⟨e0, e1⟩
      refine absurd (fun a => ?_) h
      match a with
      | ⟨0, _⟩ =>
        show (0 : Int) ≤ (dimsC wf).start (ix1 n) idx 0 + ((dimsC wf).window (ix1 n) 0 : Nat)
          ∧ (dimsC wf).start (ix1 n) idx 0 + ((dimsC wf).window (ix1 n) 0 : Nat) < (R : Nat)
        rw [hs0, hw0, e0]; omega
      | ⟨1, _⟩ =>
        show (0 : Int) ≤ (dimsC wf).start (ix1 n) idx 1 + ((dimsC wf).window (ix1 n) 1 : Nat)
          ∧ (dimsC wf).start (ix1 n) idx 1 + ((dimsC wf).window (ix1 n) 1 : Nat) < (C : Nat)
        rw [hs1, hw1, e1]; omega

/-- A sum over a rank-1 index set is the sum over its coordinate range. -/
theorem sum_ix1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _
    fun i => congrArg f (eq_ix1 i)

/-- THE CELL SCATTER-ADD AT AN INDEX: the operand's entry plus the sum of the updates whose pair of start
    coordinates is `(r, c)`. -/
theorem scatterAdd_apply {w : Nat} (x : (⟨2, ![R, C]⟩ : Shape).Idx → EReal) (idx : IVec ⟨2, ![N, 2]⟩ w)
    (upd : (⟨1, ![N]⟩ : Shape).Idx → EReal) (r : Fin R) (c : Fin C) :
    Ideal.hostScatterAdd (dimsC wf) x idx upd (ix2 r c)
      = x (ix2 r c) + ∑ n : Fin N,
          if (idx (ix2 n 0)).toInt = (r.val : Int) ∧ (idx (ix2 n 1)).toInt = (c.val : Int) then upd (ix1 n) else 0 := by
  unfold Ideal.hostScatterAdd
  refine congrArg (x (ix2 r c) + ·) ?_
  rw [Finset.sum_filter, sum_ix1]
  refine Finset.sum_congr rfl fun n _ => ?_
  simp only [resultIdx_iff wf]

end Idealize.ShloMosaic.ScatterCells

end
-- ==== Proof.GlueA.lean ====
import proofs.«404591_j69982197121234_3_alg».proof.Proof.Gen.KernelIdeal.Launch
import proofs.«404591_j69982197121234_3_alg».proof.Proof.Gen.KernelIdeal.Regions
import Idealize.ShloMosaic.Lib.Pipeline.Value
import Idealize.ShloMosaic.Lib.ValueIdx
import Idealize.ShloMosaic.Lib.StableHlo.Run
import Idealize.ShloMosaic.PureOps.Ideal.Laws
import proofs.«404591_j69982197121234_3_alg».proof.Proof.Fold
import proofs.«404591_j69982197121234_3_alg».proof.Proof.Spec
import proofs.«404591_j69982197121234_3_alg».proof.Proof.Data
import proofs.«404591_j69982197121234_3_alg».proof.Proof.LibScatterCells
set_option maxRecDepth 16384

/-!
# What the first kernel call reads: the dense adjacency and the first projection

Before its first kernel the program builds, on the host, the two arrays that kernel reads besides the bias.

* The dense adjacency: a matrix of zeros into which every edge's weight is added at the cell (target, source). The
  index pairs are the two normalised index vectors laid side by side as the columns of an N × 2 array, and each
  update lands on exactly one cell, so the entry at `(i, k)` is zero plus the sum of the weights of the edges from
  `k` to `i`: `Spec.adj`. The conversion to the narrow float format is the identity on the extended reals.
* The first projection: the product of the features with the first weight matrix, both converted (the identity again),
  contracted over the 128 feature columns: `Spec.mm`.
* The bias is an argument no host operation writes: it is as at launch.

The normalised index vectors and the weights are computed by operations the reference program performs too; what they
hold is taken here as hypotheses (`hd`, `hs`, `hn`), stated over this program's own buffers.
-/

noncomputable section

namespace Cert.KernelIdeal.GlueA

open Cert.KernelIdeal Cert.KernelIdeal.Gen
open Idealize.ShloMosaic Idealize.ShloMosaic.TcCoe Idealize.ShloMosaic.ValueIdx
open Idealize.SL.Sem
open Idealize.ShloMosaic.StableHlo

/-! ## Each array as one operation applied to the arrays before it

Every host operation writes a buffer of its own once, so after the stretch a result buffer holds its operation's
function applied to what the operand buffers hold after the stretch. Stated for any float instance. -/

section Terms

variable {F : FTy → Type} [FloatOps F]
variable (m : (ℓ : Loc nD τ sig) → Buf (Elt F) ℓ) (c : Dev nD)

/-- The adjacency in the narrow format is the conversion of the scattered matrix. -/
theorem adjB_term :
    (Fold.W3 m c main_v45 : (⟨S12288x12288, .bf16⟩ : BufTy).Contents (Elt F))
      = truncf .bf16 (Fold.W3 m c main_v44 : (⟨S12288x12288, .f32⟩ : BufTy).Contents (Elt F)) bitsLt_bf16_f32 := by
  dsimp only [Fold.W3]
  simp only [hostOps0_2]
  after_results_simp

/-- The scattered matrix: the weights added into the zero matrix at the index pairs. -/
theorem adjF_term :
    (Fold.W3 m c main_v44 : (⟨S12288x12288, .f32⟩ : BufTy).Contents (Elt F))
      = Host.scatterAdd scatter_S12288x12288_S405504x2_S405504_n_01_01_1
          (Fold.W3 m c main_v30 : (⟨S12288x12288, .f32⟩ : BufTy).Contents (Elt F))
          (Fold.W3 m c main_v43 : (⟨S405504x2, .i32⟩ : BufTy).Contents (Elt F))
          (Fold.W3 m c main_v29 : (⟨S405504, .f32⟩ : BufTy).Contents (Elt F)) := by
  dsimp only [Fold.W3]
  simp only [hostOps0_2]
  after_results_simp

/-- The zero matrix: a broadcast of the constant with all bits clear. -/
theorem zeros_term :
    (Fold.W3 m c main_v30 : (⟨S12288x12288, .f32⟩ : BufTy).Contents (Elt F))
      = broadcastInDim S12288x12288 ![] bcast_S_S12288x12288 (constant (F := F) S_ .f32 0x00000000#32) := by
  dsimp only [Fold.W3]
  simp only [hostOps0_2]
  after_results_simp

/-- The column of targets and the column of sources: each index vector given a second axis of extent one. -/
theorem dcol_term :
    (Fold.W3 m c main_v41 : (⟨S405504x1, .i32⟩ : BufTy).Contents (Elt F))
      = broadcastInDim S405504x1 ![0] bcast_S405504_S405504x1_0
          (Fold.W3 m c main_v35 : (⟨S405504, .i32⟩ : BufTy).Contents (Elt F)) := by
  dsimp only [Fold.W3]
  simp only [hostOps0_2]
  after_results_simp

theorem scol_term :
    (Fold.W3 m c main_v42 : (⟨S405504x1, .i32⟩ : BufTy).Contents (Elt F))
      = broadcastInDim S405504x1 ![0] bcast_S405504_S405504x1_0
          (Fold.W3 m c main_v40 : (⟨S405504, .i32⟩ : BufTy).Contents (Elt F)) := by
  dsimp only [Fold.W3]
  simp only [hostOps0_2]
  after_results_simp

/-- Two columns side by side depend only on the columns. -/
theorem pair_congr {α : Type} {a a' b b' : S405504x1.Idx → α} (ha : a = a') (hb : b = b') :
    concatenate S405504x2 1 [⟨S405504x1, a⟩, ⟨S405504x1, b⟩] concatenates_S405504x1_S405504x1_S405504x2_d1
      = concatenate S405504x2 1 [⟨S405504x1, a'⟩, ⟨S405504x1, b'⟩] concatenates_S405504x1_S405504x1_S405504x2_d1 := by
  subst ha; subst hb; rfl

/-- The index pairs: the two columns side by side, targets first. -/
theorem pairs_term :
    (Fold.W3 m c main_v43 : (⟨S405504x2, .i32⟩ : BufTy).Contents (Elt F))
      = concatenate S405504x2 1
          [⟨S405504x1, (Fold.W3 m c main_v41 : (⟨S405504x1, .i32⟩ : BufTy).Contents (Elt F))⟩,
           ⟨S405504x1, (Fold.W3 m c main_v42 : (⟨S405504x1, .i32⟩ : BufTy).Contents (Elt F))⟩]
          concatenates_S405504x1_S405504x1_S405504x2_d1 := by
  dsimp only [Fold.W3]
  simp only [hostOps0_2]
  after_results_simp
  refine pair_congr ?_ ?_ <;> after_results_simp

/-- The first projection: both factors converted, multiplied, the product converted. -/
theorem proj_term :
    (Fold.W3 m c main_v49 : (⟨S12288x16, .bf16⟩ : BufTy).Contents (Elt F))
      = truncf .bf16 (Host.dotGeneral dot_S12288x128_S128x16_S12288x16_1_0_0_1_n_n none
          (truncf .bf16 (Fold.W3 m c main_arg0 : (⟨S12288x128, .f32⟩ : BufTy).Contents (Elt F)) bitsLt_bf16_f32)
          (truncf .bf16 (Fold.W3 m c main_arg2 : (⟨S128x16, .f32⟩ : BufTy).Contents (Elt F)) bitsLt_bf16_f32))
          bitsLt_bf16_f32 := by
  dsimp only [Fold.W3]
  simp only [hostOps0_2]
  after_results_simp

/-- No host operation writes an argument: the features, the first weight matrix and the first bias are as at launch. -/
theorem x_kept : Fold.W3 m c main_arg0 = m ((c : Thread nD τ).loc main_arg0) :=
  (Gen.V3_of m c main_arg0 (by decide)).trans <| (Gen.V2_of m c main_arg0 (by decide)).trans <|
    (Gen.V1_of m c main_arg0 (by decide)).trans rfl
theorem w1_kept : Fold.W3 m c main_arg2 = m ((c : Thread nD τ).loc main_arg2) :=
  (Gen.V3_of m c main_arg2 (by decide)).trans <| (Gen.V2_of m c main_arg2 (by decide)).trans <|
    (Gen.V1_of m c main_arg2 (by decide)).trans rfl
theorem b1_kept : Fold.W3 m c main_arg3 = m ((c : Thread nD τ).loc main_arg3) :=
  (Gen.V3_of m c main_arg3 (by decide)).trans <| (Gen.V2_of m c main_arg3 (by decide)).trans <|
    (Gen.V1_of m c main_arg3 (by decide)).trans rfl

end Terms

/-! ## The layout operations read at an index -/

section Layout

/-- Component 0 of pair `n` is the first column's entry `n`. -/
theorem pair_fst {α : Type} (a b : S405504x1.Idx → α) (n : Fin 405504) :
    concatenate S405504x2 1 [⟨S405504x1, a⟩, ⟨S405504x1, b⟩] concatenates_S405504x1_S405504x1_S405504x2_d1 (ix2 n 0) = a (ix2 n 0) :=
  concatenate_pair_apply_left (1 : Fin S405504x2.rank) a b concatenates_S405504x1_S405504x1_S405504x2_d1 (ix2 n 0) rfl (ix2 n 0)
    (fun q => match q with | ⟨0, _⟩ => rfl | ⟨1, _⟩ => rfl)

/-- Component 1 of pair `n` is the second column's entry `n`. -/
theorem pair_snd {α : Type} (a b : S405504x1.Idx → α) (n : Fin 405504) :
    concatenate S405504x2 1 [⟨S405504x1, a⟩, ⟨S405504x1, b⟩] concatenates_S405504x1_S405504x1_S405504x2_d1 (ix2 n 1) = b (ix2 n 0) :=
  concatenate_pair_apply_right (1 : Fin S405504x2.rank) a b concatenates_S405504x1_S405504x1_S405504x2_d1 (ix2 n 1) rfl rfl (ix2 n 0)
    (fun q hq => match q, hq with | ⟨0, _⟩, _ => rfl | ⟨1, _⟩, hq => absurd rfl hq) rfl

/-- A vector given a second axis of extent one reads the vector. -/
theorem col_at {α : Type} (v : S405504.Idx → α) (n : Fin 405504) :
    broadcastInDim S405504x1 ![0] bcast_S405504_S405504x1_0 v (ix2 n 0) = v (ix1 n) :=
  broadcastInDim_apply _ bcast_S405504_S405504x1_0 v (ix2 n 0) (ix1 n) (fun a => match a with
    | ⟨0, _⟩ => by show n.val = if (405504 : Nat) = 1 then 0 else n.val; rw [if_neg (by decide)])

/-- The zero matrix reads zero on the extended reals. -/
theorem zeros_at (j : S12288x12288.Idx) :
    broadcastInDim S12288x12288 ![] bcast_S_S12288x12288 (constant (F := Ideal) S_ .f32 0x00000000#32) j = (0 : EReal) := by
  rw [broadcastInDim_apply _ bcast_S_S12288x12288 _ j (fun a => a.elim0) (fun a => a.elim0)]
  exact Ideal.ofBits_zero_f32

end Layout

/-! ## The first projection's contraction, axis by axis -/

section Dot

theorem lhs_axis0 (i : S12288x16.Idx) (q : dot_S12288x128_S128x16_S12288x16_1_0_0_1_n_n.contr.Idx) :
    (dot_S12288x128_S128x16_S12288x16_1_0_0_1_n_n.lhsIdx i q 0).val = (i 0).val := by
  unfold DotDims.lhsIdx
  rw [dif_neg (show ¬(0 : Fin S12288x128.rank) ∈ dot_S12288x128_S128x16_S12288x16_1_0_0_1_n_n.lhsBatch by decide),
    dif_pos (show (0 : Fin S12288x128.rank) ∈ dot_S12288x128_S128x16_S12288x16_1_0_0_1_n_n.lhsNonContracting by decide)]
  rfl
theorem lhs_axis1 (i : S12288x16.Idx) (q : dot_S12288x128_S128x16_S12288x16_1_0_0_1_n_n.contr.Idx) :
    (dot_S12288x128_S128x16_S12288x16_1_0_0_1_n_n.lhsIdx i q 1).val = (q ⟨0, by decide⟩).val :=
  dot_S12288x128_S128x16_S12288x16_1_0_0_1_n_n.lhsIdx_val_of_single rfl i q
theorem rhs_axis0 (i : S12288x16.Idx) (q : dot_S12288x128_S128x16_S12288x16_1_0_0_1_n_n.contr.Idx) :
    (dot_S12288x128_S128x16_S12288x16_1_0_0_1_n_n.rhsIdx i q 0).val = (q ⟨0, by decide⟩).val :=
  dot_S12288x128_S128x16_S12288x16_1_0_0_1_n_n.rhsIdx_val_of_single rfl i q
theorem rhs_axis1 (i : S12288x16.Idx) (q : dot_S12288x128_S128x16_S12288x16_1_0_0_1_n_n.contr.Idx) :
    (dot_S12288x128_S128x16_S12288x16_1_0_0_1_n_n.rhsIdx i q 1).val = (i 1).val := by
  unfold DotDims.rhsIdx
  rw [dif_neg (show ¬(1 : Fin S128x16.rank) ∈ dot_S12288x128_S128x16_S12288x16_1_0_0_1_n_n.rhsBatch by decide),
    dif_pos (show (1 : Fin S128x16.rank) ∈ dot_S12288x128_S128x16_S12288x16_1_0_0_1_n_n.rhsNonContracting by decide)]
  rfl

/-- On the extended reals the host's product of a 12288 × 128 by a 128 × 16 matrix is the sum over the 128 columns. -/
theorem dot_at (x : FVec Ideal S12288x128 .bf16) (w : FVec Ideal S128x16 .bf16) (k : Fin 12288) (j : Fin 16) :
    Host.dotGeneral dot_S12288x128_S128x16_S12288x16_1_0_0_1_n_n none x w (ix2 k j)
      = ∑ l : Fin 128, x (ix2 k l) * w (ix2 l j) := by
  simp only [Host.dotGeneral]
  rw [Ideal.dotGeneral_apply, ← Equiv.sum_comp (contrEquiv1 dot_S12288x128_S128x16_S12288x16_1_0_0_1_n_n 128 rfl rfl).symm]
  refine Finset.sum_congr rfl fun l _ => ?_
  have hl := contrEquiv1_symm_val dot_S12288x128_S128x16_S12288x16_1_0_0_1_n_n 128 rfl rfl l
  have el : dot_S12288x128_S128x16_S12288x16_1_0_0_1_n_n.lhsIdx (ix2 k j) ((contrEquiv1 dot_S12288x128_S128x16_S12288x16_1_0_0_1_n_n 128 rfl rfl).symm l) = ix2 k l :=
    funext fun a => Fin.ext (by
      match a with
      | ⟨0, _⟩ => exact lhs_axis0 _ _
      | ⟨1, _⟩ => exact (lhs_axis1 _ _).trans hl)
  have er : dot_S12288x128_S128x16_S12288x16_1_0_0_1_n_n.rhsIdx (ix2 k j) ((contrEquiv1 dot_S12288x128_S128x16_S12288x16_1_0_0_1_n_n 128 rfl rfl).symm l) = ix2 l j :=
    funext fun a => Fin.ext (by
      match a with
      | ⟨0, _⟩ => exact (rhs_axis0 _ _).trans hl
      | ⟨1, _⟩ => exact rhs_axis1 _ _)
  rw [el, er]

end Dot

/-! ## The two arrays at an index, on the extended reals

First over arrays that are only known through the equations above, so that nothing of the program is unfolded; then
at the program's buffers. -/

section Core

variable {s d : Fin Cert.Spec.Mm → Fin Cert.Spec.Nn}

/-- A matrix of zeros into which weight `n` is added at the cell (target of `n`, source of `n`), the pairs being two
    index vectors laid side by side as columns, holds at `(i, k)` zero plus the weights of the edges from `k` to `i`. -/
theorem adj_core
    (a45 : FVec Ideal S12288x12288 .bf16) (a44 z : FVec Ideal S12288x12288 .f32)
    (pairs : IVec S405504x2 32) (dcol scol : IVec S405504x1 32) (dv sv : IVec S405504 32)
    (w : FVec Ideal S405504 .f32)
    (h45 : a45 = truncf .bf16 a44 bitsLt_bf16_f32)
    (h44 : a44 = Host.scatterAdd scatter_S12288x12288_S405504x2_S405504_n_01_01_1 z pairs w)
    (hz : z = broadcastInDim S12288x12288 ![] bcast_S_S12288x12288 (constant (F := Ideal) S_ .f32 0x00000000#32))
    (hp : pairs = concatenate S405504x2 1 [⟨S405504x1, dcol⟩, ⟨S405504x1, scol⟩] concatenates_S405504x1_S405504x1_S405504x2_d1)
    (hdc : dcol = broadcastInDim S405504x1 ![0] bcast_S405504_S405504x1_0 dv)
    (hsc : scol = broadcastInDim S405504x1 ![0] bcast_S405504_S405504x1_0 sv)
    (hd : ∀ e : Fin 405504, (dv (ix1 e)).toInt = ((d e).val : ℤ))
    (hs : ∀ e : Fin 405504, (sv (ix1 e)).toInt = ((s e).val : ℤ))
    (hn : ∀ e : Fin 405504, w (ix1 e) = Cert.Spec.nrm s d e) (i k : Fin 12288) :
    a45 (ix2 i k) = Cert.Spec.adj s d i k := by
  have hz' : z (ix2 i k) = 0 := by rw [hz]; exact zeros_at _
  have h0 : ∀ n : Fin 405504, pairs (ix2 n 0) = dv (ix1 n) := fun n => by rw [hp, pair_fst, hdc, col_at]
  have h1 : ∀ n : Fin 405504, pairs (ix2 n 1) = sv (ix1 n) := fun n => by rw [hp, pair_snd, hsc, col_at]
  rw [h45]
  show a44 (ix2 i k) = _
  rw [h44]
  show Ideal.hostScatterAdd (ScatterCells.dimsC (R := 12288) (C := 12288) (N := 405504) scatter_S12288x12288_S405504x2_S405504_n_01_01_1_wf)
      z pairs w (ix2 i k) = _
  rw [ScatterCells.scatterAdd_apply, hz']
  unfold Cert.Spec.adj
  refine congrArg (fun t : EReal => 0 + t) (Finset.sum_congr rfl fun n _ => ?_)
  rw [h0 n, h1 n, hd n, hs n, hn n]
  exact if_congr (and_congr (Nat.cast_inj.trans Fin.val_inj) (Nat.cast_inj.trans Fin.val_inj)) rfl rfl

/-- The product of two matrices converted to the narrow format, itself converted, is on the extended reals their
    product. -/
theorem hw1_core
    (a49 : FVec Ideal S12288x16 .bf16) (x' x : FVec Ideal S12288x128 .f32) (w' w1 : FVec Ideal S128x16 .f32)
    (h49 : a49 = truncf .bf16 (Host.dotGeneral dot_S12288x128_S128x16_S12288x16_1_0_0_1_n_n none
        (truncf .bf16 x' bitsLt_bf16_f32) (truncf .bf16 w' bitsLt_bf16_f32)) bitsLt_bf16_f32)
    (hx : x' = x) (hw : w' = w1) (k : Fin 12288) (j : Fin 16) :
    a49 (ix2 k j) = Cert.Spec.mm (Cert.Data.mat x) (Cert.Data.mat w1) k j := by
  subst h49 hx hw
  unfold Cert.Spec.mm Cert.Data.mat
  exact dot_at x' w' k j

end Core

section Values

variable (m : (ℓ : Loc nD τ sig) → Buf (Elt Ideal) ℓ) (c : Dev nD)

/-- The index input. -/
abbrev eiOf : IVec Cert.Data.SE 32 := m ((c : Thread nD τ).loc main_arg1)

variable
  (hd : ∀ e : Fin 405504, ((Fold.W3 m c main_v35 : (⟨S405504, .i32⟩ : BufTy).Contents (Elt Ideal)) (ix1 e)).toInt
      = ((Cert.Data.dstF (eiOf m c) e).val : ℤ))
  (hs : ∀ e : Fin 405504, ((Fold.W3 m c main_v40 : (⟨S405504, .i32⟩ : BufTy).Contents (Elt Ideal)) (ix1 e)).toInt
      = ((Cert.Data.srcF (eiOf m c) e).val : ℤ))
  (hn : ∀ e : Fin 405504, (Fold.W3 m c main_v29 : (⟨S405504, .f32⟩ : BufTy).Contents (Elt Ideal)) (ix1 e)
      = Cert.Spec.nrm (Cert.Data.srcF (eiOf m c)) (Cert.Data.dstF (eiOf m c)) e)

include hd hs hn in
/-- THE DENSE ADJACENCY: entry `(i, k)` is zero plus the sum of the weights of the edges from `k` to `i`. -/
theorem adj_at (i k : Fin 12288) :
    (Fold.W3 m c main_v45 : (⟨S12288x12288, .bf16⟩ : BufTy).Contents (Elt Ideal)) (ix2 i k)
      = Cert.Spec.adj (Cert.Data.srcF (eiOf m c)) (Cert.Data.dstF (eiOf m c)) i k :=
  adj_core _ _ _ _ _ _ _ _ _ (adjB_term m c) (adjF_term m c) (zeros_term m c) (pairs_term m c) (dcol_term m c)
    (scol_term m c) hd hs hn i k

/-- THE FIRST PROJECTION: entry `(k, j)` is the features' row `k` against the first weight matrix's column `j`. -/
theorem hw1_at (k : Fin 12288) (j : Fin 16) :
    (Fold.W3 m c main_v49 : (⟨S12288x16, .bf16⟩ : BufTy).Contents (Elt Ideal)) (ix2 k j)
      = Cert.Spec.mm
          (Cert.Data.mat (m ((c : Thread nD τ).loc main_arg0) : (⟨S12288x128, .f32⟩ : BufTy).Contents (Elt Ideal)))
          (Cert.Data.mat (m ((c : Thread nD τ).loc main_arg2) : (⟨S128x16, .f32⟩ : BufTy).Contents (Elt Ideal))) k j :=
  hw1_core _ _ _ _ _ (proj_term m c) (x_kept m c) (w1_kept m c) k j

end Values

end Cert.KernelIdeal.GlueA

end
-- ==== Proof.GlueB.lean ====
/-
  What the kernel program's host operations between and after its calls compute, entry by entry, at the extended reals.

  Between the first and the second call the host multiplies the first call's output with the second weight matrix;
  between the second and the third it lays the two heads' weights side by side in 256 columns (zero elsewhere), the
  two biases likewise, and multiplies the second call's output with the fused weights; after the third call it cuts
  the two heads out of the 256 columns, clips the structure head at zero and narrows it for the decoder call.
  A change of float format is the identity at the extended reals, a host product is the plain sum over the contracted
  axis, a slice reads the operand at the shifted entry, and a scatter that SETS one window reads the update inside the
  window and the operand outside it. Beside these: every call leaves its output's array at what its write-backs fold
  to, and the dense adjacency, an input of the three aggregation calls, is never written after it is built.
-/
import proofs.«404591_j69982197121234_3_alg».proof.Proof.Fold
import proofs.«404591_j69982197121234_3_alg».proof.Proof.Spec
import proofs.«404591_j69982197121234_3_alg».proof.Proof.Data
import Idealize.ShloMosaic.Lib.StableHlo.Run
import Idealize.ShloMosaic.Lib.ValueIdx
import Idealize.ShloMosaic.PureOps.Ideal
import Idealize.ShloMosaic.PureOps.Ideal.Laws
set_option maxRecDepth 16384

noncomputable section

namespace Cert.KernelIdeal.GlueB

open Cert.KernelIdeal Cert.KernelIdeal.Gen
open Idealize.ShloMosaic Idealize.ShloMosaic.TcCoe Idealize.ShloMosaic.Tactic
open Idealize.ShloMosaic.ValueIdx
open Idealize.ShloMosaic.Pipeline (Dat Cfg Window BodyObligation cellOf)
open Cert.Data (mat vec)

variable (m : (ℓ : Loc nD τ sig) → Buf (Elt Ideal) ℓ) (c : Dev nD)

/-! ## The calls' outputs, and the buffers a call or a stretch leaves as it found them -/

/-- The first call leaves its output's array at what its write-backs fold to. -/
theorem W4_out : Fold.W4 m c main_v50 = (Gcn0.dat0 (Fold.V3 m) c).arrAt 3 cfg0.N := by
  unfold Fold.W4
  exact Pipeline.withArrays_arr spec0 Gen.launch0.win.arr_inj c _ _ 3

/-- The dense adjacency is an input window's array of the first call: no write-back touches it. -/
theorem W4_adj : Fold.W4 m c main_v45 = Fold.W3 m c main_v45 := by
  unfold Fold.W4
  exact (Pipeline.withArrays_arr spec0 Gen.launch0.win.arr_inj c _ _ 0).trans
    (((Gcn0.dat0 (Fold.V3 m) c).arrAt_in 0 rfl _).trans (Gcn0.A_eq0 (Fold.V3 m) c 0))

/-- A buffer that is none of the first call's arrays is left as entered. -/
theorem W4_of_ne (b : Ref sig .tc) (hb : ∀ w, Pipeline.arrRef spec0 w ≠ b) : Fold.W4 m c b = Fold.W3 m c b := by
  unfold Fold.W4; exact Pipeline.withArrays_of_ne spec0 c _ _ b hb

/-- A buffer no stretch before the first call writes holds its launch contents at that call's entry. -/
theorem W3_of (r : Ref sig .tc) (h0 : r ∉ hostOps0_W) (h1 : r ∉ hostOps0_1_W) (h2 : r ∉ hostOps0_2_W) :
    Fold.W3 m c r = m ((c : Thread nD τ).loc r) :=
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0).trans rfl

theorem W4_arg4 : Fold.W4 m c main_arg4 = m ((c : Thread nD τ).loc main_arg4) :=
  (W4_of_ne m c main_arg4 (by decide)).trans (W3_of m c main_arg4 (by decide) (by decide) (by decide))

theorem W5_adj : Fold.W5 m c main_v45 = Fold.W3 m c main_v45 :=
  (StableHlo.after_of_writes_sub hostOps1 _ hostOps1_writes (by decide)).trans (W4_adj m c)

/-- The second bias reaches the second call as launched. -/
theorem W5_b2 : Fold.W5 m c main_arg5 = m ((c : Thread nD τ).loc main_arg5) :=
  (StableHlo.after_of_writes_sub hostOps1 _ hostOps1_writes (by decide)).trans <|
  (W4_of_ne m c main_arg5 (by decide)).trans (W3_of m c main_arg5 (by decide) (by decide) (by decide))

theorem W6_out : Fold.W6 m c main_v54 = (Gcn1.dat1 (Fold.V5 m) c).arrAt 3 cfg1.N := by
  unfold Fold.W6
  exact Pipeline.withArrays_arr spec1 Gen.launch1.win.arr_inj c _ _ 3

theorem W6_adj : Fold.W6 m c main_v45 = Fold.W3 m c main_v45 := by
  unfold Fold.W6
  exact (Pipeline.withArrays_arr spec1 Gen.launch1.win.arr_inj c _ _ 0).trans
    ((((Gcn1.dat1 (Fold.V5 m) c).arrAt_in 0 rfl _).trans (Gcn1.A_eq1 (Fold.V5 m) c 0)).trans (W5_adj m c))

/-- A buffer that is none of the second call's arrays is left as entered. -/
theorem W6_of_ne (b : Ref sig .tc) (hb : ∀ w, Pipeline.arrRef spec1 w ≠ b) : Fold.W6 m c b = Fold.W5 m c b := by
  unfold Fold.W6; exact Pipeline.withArrays_of_ne spec1 c _ _ b hb

theorem W7_adj : Fold.W7 m c main_v45 = Fold.W3 m c main_v45 :=
  (StableHlo.after_of_writes_sub hostOps2 _ hostOps2_writes (by decide)).trans (W6_adj m c)

theorem W8_out : Fold.W8 m c main_v68 = (Gcn2.dat2 (Fold.V7 m) c).arrAt 3 cfg2.N := by
  unfold Fold.W8
  exact Pipeline.withArrays_arr spec2 Gen.launch2.win.arr_inj c _ _ 3

/-- The decoder call's output at the end of the program. -/
theorem W12_out : Fold.W12 m c main_v73 = (Dec3.dat3 (Fold.V11 m) c).arrAt 2 cfg3.N := by
  unfold Fold.W12
  exact Function.update_self ..

/-! ## The second projection -/

/-- The second projection as the host computes it: the weights and the product narrowed to the 16-bit format, which at
    the extended reals changes nothing. -/
def proj2 (h : FVec Ideal S12288x16 .bf16) (w : FVec Ideal S16x8 .f32) : FVec Ideal S12288x8 .bf16 :=
  truncf (F := Ideal) (φ := .f32) .bf16
    (Host.dotGeneral (F := Ideal) (φ₁ := .bf16) (φ₂ := .bf16) dot_S12288x16_S16x8_S12288x8_1_0_0_1_n_n none h
      (truncf (F := Ideal) (φ := .f32) .bf16 w bitsLt_bf16_f32)) bitsLt_bf16_f32

/-- The second projection's host stretch, as the operations' composed term. -/
theorem W5_v53_eq : Fold.W5 m c main_v53 = proj2 (Fold.W4 m c main_v50) (Fold.W4 m c main_arg4) := by
  show StableHlo.after hostOps1 _ (Proc.devRef .tc main_v53) = _
  after_results
  rfl

theorem lhs_proj2_0 (i : S12288x8.Idx) (q : dot_S12288x16_S16x8_S12288x8_1_0_0_1_n_n.contr.Idx) :
    (dot_S12288x16_S16x8_S12288x8_1_0_0_1_n_n.lhsIdx i q 0).val = (i 0).val := by
  unfold DotDims.lhsIdx
  rw [dif_neg (show ¬(0 : Fin S12288x16.rank) ∈ dot_S12288x16_S16x8_S12288x8_1_0_0_1_n_n.lhsBatch by decide), dif_pos (show (0 : Fin S12288x16.rank) ∈ dot_S12288x16_S16x8_S12288x8_1_0_0_1_n_n.lhsNonContracting by decide)]
  rfl
theorem lhs_proj2_1 (i : S12288x8.Idx) (q : dot_S12288x16_S16x8_S12288x8_1_0_0_1_n_n.contr.Idx) :
    (dot_S12288x16_S16x8_S12288x8_1_0_0_1_n_n.lhsIdx i q 1).val = (q ⟨0, by decide⟩).val :=
  dot_S12288x16_S16x8_S12288x8_1_0_0_1_n_n.lhsIdx_val_of_single rfl i q
theorem rhs_proj2_0 (i : S12288x8.Idx) (q : dot_S12288x16_S16x8_S12288x8_1_0_0_1_n_n.contr.Idx) :
    (dot_S12288x16_S16x8_S12288x8_1_0_0_1_n_n.rhsIdx i q 0).val = (q ⟨0, by decide⟩).val :=
  dot_S12288x16_S16x8_S12288x8_1_0_0_1_n_n.rhsIdx_val_of_single rfl i q
theorem rhs_proj2_1 (i : S12288x8.Idx) (q : dot_S12288x16_S16x8_S12288x8_1_0_0_1_n_n.contr.Idx) :
    (dot_S12288x16_S16x8_S12288x8_1_0_0_1_n_n.rhsIdx i q 1).val = (i 1).val := by
  unfold DotDims.rhsIdx
  rw [dif_neg (show ¬(1 : Fin S16x8.rank) ∈ dot_S12288x16_S16x8_S12288x8_1_0_0_1_n_n.rhsBatch by decide), dif_pos (show (1 : Fin S16x8.rank) ∈ dot_S12288x16_S16x8_S12288x8_1_0_0_1_n_n.rhsNonContracting by decide)]
  rfl

/-- At an entry the second projection is the sum over the 16 hidden features. -/
theorem proj2_apply (h : FVec Ideal S12288x16 .bf16) (w : FVec Ideal S16x8 .f32) (k : Fin 12288) (j : Fin 8) :
    proj2 h w (ix2 k j) = ∑ l : Fin 16, h (ix2 k l) * w (ix2 l j) := by
  unfold proj2
  show FloatOps.dotGeneral (F := Ideal) dot_S12288x16_S16x8_S12288x8_1_0_0_1_n_n none .single h (truncf (F := Ideal) (φ := .f32) .bf16 w bitsLt_bf16_f32) (ix2 k j) = _
  rw [Ideal.dotGeneral_apply, ← Equiv.sum_comp (ValueIdx.contrEquiv1 dot_S12288x16_S16x8_S12288x8_1_0_0_1_n_n 16 rfl rfl).symm]
  refine Finset.sum_congr rfl fun l _ => ?_
  have hk := ValueIdx.contrEquiv1_symm_val dot_S12288x16_S16x8_S12288x8_1_0_0_1_n_n 16 rfl rfl l
  have el : dot_S12288x16_S16x8_S12288x8_1_0_0_1_n_n.lhsIdx (ix2 k j) ((ValueIdx.contrEquiv1 dot_S12288x16_S16x8_S12288x8_1_0_0_1_n_n 16 rfl rfl).symm l) = ix2 k l := funext fun a => Fin.ext (by
    match a with
    | ⟨0, _⟩ => exact lhs_proj2_0 _ _
    | ⟨1, _⟩ => exact (lhs_proj2_1 _ _).trans hk)
  have er : dot_S12288x16_S16x8_S12288x8_1_0_0_1_n_n.rhsIdx (ix2 k j) ((ValueIdx.contrEquiv1 dot_S12288x16_S16x8_S12288x8_1_0_0_1_n_n 16 rfl rfl).symm l) = ix2 l j := funext fun a => Fin.ext (by
    match a with
    | ⟨0, _⟩ => exact (rhs_proj2_0 _ _).trans hk
    | ⟨1, _⟩ => exact rhs_proj2_1 _ _)
  rw [el, er]
  rfl

/-- The second call's features: the first call's output times the second weight matrix. -/
theorem hw2_at (k : Fin 12288) (j : Fin 8) :
    (Fold.W5 m c main_v53 : S12288x8.Idx → EReal) (ix2 k j)
      = Cert.Spec.mm (mat (Fold.W4 m c main_v50 : S12288x16.Idx → EReal)) (mat (m ((c : Thread nD τ).loc main_arg4) : S16x8.Idx → EReal)) k j := by
  rw [W5_v53_eq, W4_arg4]
  exact proj2_apply _ _ k j

/-! ## A scatter that sets one window, read at an entry

`Host.scatter` folds its update entries in row-major order, each step rewriting the one entry of the result its
update entry lands on. When every update entry lands inside the operand, and no two on one entry, the result reads the
update at the entry an update entry lands on and the operand at every other entry. -/

section SetScatter

/-- A left fold of pointwise rewrites, read at a point none of the steps touches. -/
theorem foldl_untouched {I N α : Type} (step : (I → α) → N → (I → α)) (i' : I) :
    ∀ (l : List N) (x : I → α), (∀ n ∈ l, ∀ r, step r n i' = r i') → l.foldl step x i' = x i'
  | [], _, _ => rfl
  | a :: l, x, h => by
    rw [List.foldl_cons, foldl_untouched step i' l _ fun n hn => h n (List.mem_cons_of_mem _ hn)]
    exact h a List.mem_cons_self x

/-- The same fold read at a point exactly one of the steps writes, the others leaving it. -/
theorem foldl_touched_once {I N α : Type} (step : (I → α) → N → (I → α)) (i' : I) (n0 : N) (v : α)
    (hv : ∀ r, step r n0 i' = v) :
    ∀ (l : List N) (x : I → α), l.Nodup → n0 ∈ l → (∀ n ∈ l, n ≠ n0 → ∀ r, step r n i' = r i') → l.foldl step x i' = v
  | [], _, _, h, _ => absurd h List.not_mem_nil
  | a :: l, x, hnd, hmem, h => by
    rw [List.foldl_cons]
    by_cases ha : a = n0
    · subst ha
      rw [foldl_untouched step i' l _ fun n hn =>
        h n (List.mem_cons_of_mem _ hn) (fun e => (List.nodup_cons.mp hnd).1 (e ▸ hn))]
      exact hv x
    · exact foldl_touched_once step i' n0 v hv l _ (List.nodup_cons.mp hnd).2
        ((List.mem_cons.mp hmem).resolve_left fun e => ha e.symm) fun n hn => h n (List.mem_cons_of_mem _ hn)

variable {s si u : Shape} {α : Type} {w : ℕ}

/-- Where update entry `j0` lands, the set-scatter reads the update at `j0`. -/
theorem scatter_set_hit (d : ScatterDims s si u) (x : s.Idx → α) (idx : IVec si w) (upd : u.Idx → α) (g : u.Idx → s.Idx)
    (hg : Function.Injective g) (hres : ∀ j, d.resultIdx? j idx = some (g j)) (j0 : u.Idx) :
    Host.scatter d (fun _ b => b) x idx upd (g j0) = upd j0 := by
  unfold Host.scatter
  refine foldl_touched_once _ (g j0) (u.rowMajor j0) (upd j0) (fun r => ?_) _ x (List.nodup_finRange _) (List.mem_finRange _)
    fun n _ hn r => ?_
  · dsimp only
    rw [Equiv.symm_apply_apply, hres]
    dsimp only
    rw [if_pos rfl]
  · dsimp only
    rw [hres]
    dsimp only
    exact if_neg fun e => hn ((u.rowMajor.apply_symm_apply n).symm.trans (congrArg u.rowMajor (hg e).symm))

/-- At an entry no update entry lands on, the set-scatter reads the operand. -/
theorem scatter_set_miss (d : ScatterDims s si u) (x : s.Idx → α) (idx : IVec si w) (upd : u.Idx → α) (g : u.Idx → s.Idx)
    (hres : ∀ j, d.resultIdx? j idx = some (g j)) (i' : s.Idx) (hi : ∀ j, g j ≠ i') :
    Host.scatter d (fun _ b => b) x idx upd i' = x i' := by
  unfold Host.scatter
  refine foldl_untouched _ i' _ x fun n _ r => ?_
  dsimp only
  rw [hres]
  dsimp only
  exact if_neg fun e => hi _ e.symm

end SetScatter

/-! ### A block of columns set into a matrix, a block of entries set into a vector -/

section SetColumns

variable {R C K : Nat}

/-- The dimension numbers of setting an `R × K` update into an `R × C` operand at a column offset read off one index:
    both update axes are window axes, none is inserted, the index addresses the column axis. -/
abbrev dimsCols (wf : ScatterDims.WF (⟨2, ![R, C]⟩ : Shape) ⟨1, ![1]⟩ ⟨2, ![R, K]⟩ [0, 1] [] [1] 0) :
    ScatterDims (⟨2, ![R, C]⟩ : Shape) ⟨1, ![1]⟩ ⟨2, ![R, K]⟩ where
  updateWindowDims := [0, 1]
  insertedWindowDims := []
  scatterDimsToOperandDims := [1]
  indexVectorDim := 0
  wf := wf

variable (wf : ScatterDims.WF (⟨2, ![R, C]⟩ : Shape) ⟨1, ![1]⟩ ⟨2, ![R, K]⟩ [0, 1] [] [1] 0)

theorem cols_start0 {w : Nat} (l : Fin R) (q : Fin K) (idx : IVec ⟨1, ![1]⟩ w) :
    (dimsCols wf).start (ix2 l q) idx 0 = 0 := by
  unfold ScatterDims.start
  rw [dif_neg (show ¬ (0 : Fin 2) ∈ [(1 : Fin 2)] by decide)]

theorem cols_start1 {w : Nat} (l : Fin R) (q : Fin K) (idx : IVec ⟨1, ![1]⟩ w) (o : Nat) (ho : ∀ k, (idx k).toInt = (o : Int)) :
    (dimsCols wf).start (ix2 l q) idx 1 = (o : Int) := by
  unfold ScatterDims.start
  rw [dif_pos (show (1 : Fin 2) ∈ [(1 : Fin 2)] by decide)]
  exact ho _

theorem cols_window0 (l : Fin R) (q : Fin K) : (dimsCols wf).window (ix2 l q) 0 = l.val := by
  have h : (0 : Fin (⟨2, ![R, C]⟩ : Shape).rank) ∈ (dimsCols wf).sKept :=
    (show (0 : Fin 2) ∈ (List.finRange 2).filter (· ∉ ([] : List (Fin 2))) by decide)
  unfold ScatterDims.window
  exact (dif_pos h).trans rfl

theorem cols_window1 (l : Fin R) (q : Fin K) : (dimsCols wf).window (ix2 l q) 1 = q.val := by
  have h : (1 : Fin (⟨2, ![R, C]⟩ : Shape).rank) ∈ (dimsCols wf).sKept :=
    (show (1 : Fin 2) ∈ (List.finRange 2).filter (· ∉ ([] : List (Fin 2))) by decide)
  unfold ScatterDims.window
  exact (dif_pos h).trans rfl

/-- Update entry `(l, q)` lands on operand entry `(l, o + q)`, where `o` is the column offset the index holds. -/
theorem cols_resultIdx {w : Nat} (l : Fin R) (q : Fin K) (idx : IVec ⟨1, ![1]⟩ w) (o : Nat) (ho : ∀ k, (idx k).toInt = (o : Int))
    (hK : o + K ≤ C) :
    (dimsCols wf).resultIdx? (ix2 l q) idx = some (ix2 l ⟨o + q.val, by have := q.isLt; omega⟩) := by
  have hs0 := cols_start0 wf l q idx
  have hs1 := cols_start1 wf l q idx o ho
  have hw0 := cols_window0 wf l q
  have hw1 := cols_window1 wf l q
  have hl := l.isLt
  have hq := q.isLt
  unfold ScatterDims.resultIdx?
  have h : ∀ a, 0 ≤ (dimsCols wf).start (ix2 l q) idx a + (dimsCols wf).window (ix2 l q) a ∧
      (dimsCols wf).start (ix2 l q) idx a + (dimsCols wf).window (ix2 l q) a < (⟨2, ![R, C]⟩ : Shape).size a := fun a =>
    match a with
    | ⟨0, _⟩ => by
      show 0 ≤ (dimsCols wf).start (ix2 l q) idx 0 + ((dimsCols wf).window (ix2 l q) 0 : Nat) ∧
        (dimsCols wf).start (ix2 l q) idx 0 + ((dimsCols wf).window (ix2 l q) 0 : Nat) < (R : Int)
      rw [hs0, hw0]; omega
    | ⟨1, _⟩ => by
      show 0 ≤ (dimsCols wf).start (ix2 l q) idx 1 + ((dimsCols wf).window (ix2 l q) 1 : Nat) ∧
        (dimsCols wf).start (ix2 l q) idx 1 + ((dimsCols wf).window (ix2 l q) 1 : Nat) < (C : Int)
      rw [hs1, hw1]; omega
  rw [dif_pos h]
  refine congrArg some (funext fun a => Fin.ext ?_)
  match a with
  | ⟨0, _⟩ =>
    show ((dimsCols wf).start (ix2 l q) idx 0 + ((dimsCols wf).window (ix2 l q) 0 : Nat)).toNat = l.val
    rw [hs0, hw0]; omega
  | ⟨1, _⟩ =>
    show ((dimsCols wf).start (ix2 l q) idx 1 + ((dimsCols wf).window (ix2 l q) 1 : Nat)).toNat = o + q.val
    rw [hs1, hw1]; omega

/-- Setting an `R × K` block into an `R × C` matrix at column offset `o`: inside columns `o … o + K − 1` the block,
    elsewhere the matrix. -/
theorem setCols_apply {α : Type} {w : Nat} (x : (⟨2, ![R, C]⟩ : Shape).Idx → α) (idx : IVec ⟨1, ![1]⟩ w)
    (upd : (⟨2, ![R, K]⟩ : Shape).Idx → α) (o : Nat) (ho : ∀ k, (idx k).toInt = (o : Int)) (hK : o + K ≤ C) (r : Fin R) (c : Fin C) :
    Host.scatter (dimsCols wf) (fun _ b => b) x idx upd (ix2 r c) =
      if h : o ≤ c.val ∧ c.val < o + K then upd (ix2 r ⟨c.val - o, by omega⟩) else x (ix2 r c) := by
  let g : (⟨2, ![R, K]⟩ : Shape).Idx → (⟨2, ![R, C]⟩ : Shape).Idx := fun j =>
    ix2 (j 0) ⟨o + (j 1).val, by have := (j 1).isLt; show o + (j 1).val < C; have : ((j 1).val) < K := (j 1).isLt; omega⟩
  have hres : ∀ j, (dimsCols wf).resultIdx? j idx = some (g j) := fun j => by
    obtain ⟨a, b, rfl⟩ : ∃ a b, j = ix2 a b := ⟨j 0, j 1, eq_ix2 j⟩
    exact cols_resultIdx wf a b idx o ho hK
  by_cases h : o ≤ c.val ∧ c.val < o + K
  · rw [dif_pos h]
    have e : ix2 r c = g (ix2 r ⟨c.val - o, by omega⟩) :=
      congrArg (ix2 r) (Fin.ext (by show c.val = o + (c.val - o); omega))
    rw [e]
    refine scatter_set_hit (dimsCols wf) x idx upd g (fun j j' e => ?_) hres _
    have e0 : (j 0).val = (j' 0).val := congrArg (fun f : (⟨2, ![R, C]⟩ : Shape).Idx => (f 0).val) e
    have e1 : o + (j 1).val = o + (j' 1).val := congrArg (fun f : (⟨2, ![R, C]⟩ : Shape).Idx => (f 1).val) e
    funext a
    match a with
    | ⟨0, _⟩ => exact Fin.ext e0
    | ⟨1, _⟩ => exact Fin.ext (Nat.add_left_cancel e1)
  · rw [dif_neg h]
    refine scatter_set_miss (dimsCols wf) x idx upd g hres _ fun j e => h ?_
    have e1 : o + (j 1).val = c.val := congrArg (fun f : (⟨2, ![R, C]⟩ : Shape).Idx => (f 1).val) e
    have : (j 1).val < K := (j 1).isLt
    omega

end SetColumns

section SetEntries

variable {C K : Nat}

/-- The dimension numbers of setting a `K`-vector into a `C`-vector at an offset read off one index. -/
abbrev dimsVec (wf : ScatterDims.WF (⟨1, ![C]⟩ : Shape) ⟨1, ![1]⟩ ⟨1, ![K]⟩ [0] [] [0] 0) :
    ScatterDims (⟨1, ![C]⟩ : Shape) ⟨1, ![1]⟩ ⟨1, ![K]⟩ where
  updateWindowDims := [0]
  insertedWindowDims := []
  scatterDimsToOperandDims := [0]
  indexVectorDim := 0
  wf := wf

variable (wf : ScatterDims.WF (⟨1, ![C]⟩ : Shape) ⟨1, ![1]⟩ ⟨1, ![K]⟩ [0] [] [0] 0)

theorem vec_start0 {w : Nat} (q : Fin K) (idx : IVec ⟨1, ![1]⟩ w) (o : Nat) (ho : ∀ k, (idx k).toInt = (o : Int)) :
    (dimsVec wf).start (ix1 q) idx 0 = (o : Int) := by
  unfold ScatterDims.start
  rw [dif_pos (show (0 : Fin 1) ∈ [(0 : Fin 1)] by decide)]
  exact ho _

theorem vec_window0 (q : Fin K) : (dimsVec wf).window (ix1 q) 0 = q.val := by
  have h : (0 : Fin (⟨1, ![C]⟩ : Shape).rank) ∈ (dimsVec wf).sKept :=
    (show (0 : Fin 1) ∈ (List.finRange 1).filter (· ∉ ([] : List (Fin 1))) by decide)
  unfold ScatterDims.window
  exact (dif_pos h).trans rfl

/-- Update entry `q` lands on operand entry `o + q`. -/
theorem vec_resultIdx {w : Nat} (q : Fin K) (idx : IVec ⟨1, ![1]⟩ w) (o : Nat) (ho : ∀ k, (idx k).toInt = (o : Int))
    (hK : o + K ≤ C) :
    (dimsVec wf).resultIdx? (ix1 q) idx = some (ix1 ⟨o + q.val, by have := q.isLt; omega⟩) := by
  have hs0 := vec_start0 wf q idx o ho
  have hw0 := vec_window0 wf q
  have hq := q.isLt
  unfold ScatterDims.resultIdx?
  have h : ∀ a, 0 ≤ (dimsVec wf).start (ix1 q) idx a + (dimsVec wf).window (ix1 q) a ∧
      (dimsVec wf).start (ix1 q) idx a + (dimsVec wf).window (ix1 q) a < (⟨1, ![C]⟩ : Shape).size a := fun a =>
    match a with
    | ⟨0, _⟩ => by
      show 0 ≤ (dimsVec wf).start (ix1 q) idx 0 + ((dimsVec wf).window (ix1 q) 0 : Nat) ∧
        (dimsVec wf).start (ix1 q) idx 0 + ((dimsVec wf).window (ix1 q) 0 : Nat) < (C : Int)
      rw [hs0, hw0]; omega
  rw [dif_pos h]
  refine congrArg some (funext fun a => Fin.ext ?_)
  match a with
  | ⟨0, _⟩ =>
    show ((dimsVec wf).start (ix1 q) idx 0 + ((dimsVec wf).window (ix1 q) 0 : Nat)).toNat = o + q.val
    rw [hs0, hw0]; omega

/-- Setting a `K`-vector into a `C`-vector at offset `o`: inside entries `o … o + K − 1` the update, elsewhere the
    operand. -/
theorem setVec_apply {α : Type} {w : Nat} (x : (⟨1, ![C]⟩ : Shape).Idx → α) (idx : IVec ⟨1, ![1]⟩ w)
    (upd : (⟨1, ![K]⟩ : Shape).Idx → α) (o : Nat) (ho : ∀ k, (idx k).toInt = (o : Int)) (hK : o + K ≤ C) (c : Fin C) :
    Host.scatter (dimsVec wf) (fun _ b => b) x idx upd (ix1 c) =
      if h : o ≤ c.val ∧ c.val < o + K then upd (ix1 ⟨c.val - o, by omega⟩) else x (ix1 c) := by
  let g : (⟨1, ![K]⟩ : Shape).Idx → (⟨1, ![C]⟩ : Shape).Idx := fun j =>
    ix1 ⟨o + (j 0).val, by show o + (j 0).val < C; have : ((j 0).val) < K := (j 0).isLt; omega⟩
  have hres : ∀ j, (dimsVec wf).resultIdx? j idx = some (g j) := fun j => by
    obtain ⟨a, rfl⟩ : ∃ a, j = ix1 a := ⟨j 0, eq_ix1 j⟩
    exact vec_resultIdx wf a idx o ho hK
  by_cases h : o ≤ c.val ∧ c.val < o + K
  · rw [dif_pos h]
    have e : ix1 c = g (ix1 ⟨c.val - o, by omega⟩) :=
      congrArg ix1 (Fin.ext (by show c.val = o + (c.val - o); omega))
    rw [e]
    refine scatter_set_hit (dimsVec wf) x idx upd g (fun j j' e => ?_) hres _
    have e0 : o + (j 0).val = o + (j' 0).val := congrArg (fun f : (⟨1, ![C]⟩ : Shape).Idx => (f 0).val) e
    funext a
    match a with
    | ⟨0, _⟩ => exact Fin.ext (Nat.add_left_cancel e0)
  · rw [dif_neg h]
    refine scatter_set_miss (dimsVec wf) x idx upd g hres _ fun j e => h ?_
    have e0 : o + (j 0).val = c.val := congrArg (fun f : (⟨1, ![C]⟩ : Shape).Idx => (f 0).val) e
    have : (j 0).val < K := (j 0).isLt
    omega

end SetEntries

/-! ## The fused heads -/

/-- A buffer that is an array of neither of the first two calls and that no stretch up to the second call writes holds
    its launch contents at the second call's exit. -/
theorem W6_of (r : Ref sig .tc) (hb1 : ∀ w, Pipeline.arrRef spec1 w ≠ r) (h1 : r ∉ hostOps1_W)
    (hb0 : ∀ w, Pipeline.arrRef spec0 w ≠ r) (h00 : r ∉ hostOps0_W) (h01 : r ∉ hostOps0_1_W) (h02 : r ∉ hostOps0_2_W) :
    Fold.W6 m c r = m ((c : Thread nD τ).loc r) :=
  (W6_of_ne m c r hb1).trans <| (StableHlo.after_of_writes_sub hostOps1 _ hostOps1_writes h1).trans <|
  (W4_of_ne m c r hb0).trans (W3_of m c r h00 h01 h02)

/-- The two heads' biases side by side in 256 entries as the host builds them: zeros, then the attribute head's 128
    set from entry 0, then the structure head's 8 set from entry 128. -/
def fuseBT (b7 : FVec Ideal S128 .f32) (b9 : FVec Ideal S8 .f32) : FVec Ideal S256 .f32 :=
  Host.scatter scatter_S256_S1_S8_0_n_0_0 (fun _ b => b)
    (Host.scatter scatter_S256_S1_S128_0_n_0_0 (fun _ b => b)
      (broadcastInDim S256 ![] bcast_S_S256 (constant (F := Ideal) S_ .f32 0x00000000#32))
      (broadcastInDim S1 ![] bcast_S_S1 (constantI S_ 32 0#32)) b7)
    (broadcastInDim S1 ![] bcast_S_S1 (constantI S_ 32 128#32)) b9

/-- The two heads' weights side by side in 256 columns, likewise. -/
def fuseWT (w6 : FVec Ideal S8x128 .f32) (w8 : FVec Ideal S8x8 .f32) : FVec Ideal S8x256 .f32 :=
  Host.scatter scatter_S8x256_S1_S8x8_01_n_1_0 (fun _ b => b)
    (Host.scatter scatter_S8x256_S1_S8x128_01_n_1_0 (fun _ b => b)
      (broadcastInDim S8x256 ![] bcast_S_S8x256 (constant (F := Ideal) S_ .f32 0x00000000#32))
      (broadcastInDim S1 ![] bcast_S_S1 (constantI S_ 32 0#32)) w6)
    (broadcastInDim S1 ![] bcast_S_S1 (constantI S_ 32 128#32)) w8

/-- The fused projection as the host computes it. -/
def projF (h : FVec Ideal S12288x8 .bf16) (wf : FVec Ideal S8x256 .f32) : FVec Ideal S12288x256 .bf16 :=
  truncf (F := Ideal) (φ := .f32) .bf16
    (Host.dotGeneral (F := Ideal) (φ₁ := .bf16) (φ₂ := .bf16) dot_S12288x8_S8x256_S12288x256_1_0_0_1_n_n none h
      (truncf (F := Ideal) (φ := .f32) .bf16 wf bitsLt_bf16_f32)) bitsLt_bf16_f32

theorem W7_v64_eq : Fold.W7 m c main_v64 = fuseBT (Fold.W6 m c main_arg7) (Fold.W6 m c main_arg9) := by
  show StableHlo.after hostOps2 _ (Proc.devRef .tc main_v64) = _
  after_results
  rfl

theorem W7_v67_eq : Fold.W7 m c main_v67 =
    projF (Fold.W6 m c main_v54) (fuseWT (Fold.W6 m c main_arg6) (Fold.W6 m c main_arg8)) := by
  show StableHlo.after hostOps2 _ (Proc.devRef .tc main_v67) = _
  after_results
  rfl

/-- The index a set-scatter of this program reads its offset from holds the literal it was broadcast from. -/
theorem idx0_toInt (k : S1.Idx) : ((broadcastInDim S1 ![] bcast_S_S1 (constantI S_ 32 0#32) : IVec S1 32) k).toInt = ((0 : Nat) : Int) := by
  show (0#32 : BitVec 32).toInt = ((0 : Nat) : Int); decide
theorem idx128_toInt (k : S1.Idx) : ((broadcastInDim S1 ![] bcast_S_S1 (constantI S_ 32 128#32) : IVec S1 32) k).toInt = ((128 : Nat) : Int) := by
  show (128#32 : BitVec 32).toInt = ((128 : Nat) : Int); decide

/-- The fused bias at an entry is the specification's. -/
theorem fuseBT_apply (b7 : FVec Ideal S128 .f32) (b9 : FVec Ideal S8 .f32) (j : Fin 256) :
    fuseBT b7 b9 (ix1 j) = Cert.Spec.fuseB (vec b7) (vec b9) j := by
  unfold fuseBT
  refine (setVec_apply (C := 256) (K := 8) scatter_S256_S1_S8_0_n_0_0_wf _ _ b9 128 idx128_toInt (by decide) j).trans ?_
  unfold Cert.Spec.fuseB Cert.Data.vec
  by_cases h1 : j.val < 128
  · rw [dif_neg (show ¬ (128 ≤ j.val ∧ j.val < 128 + 8) by omega), dif_pos h1]
    refine (setVec_apply (C := 256) (K := 128) scatter_S256_S1_S128_0_n_0_0_wf _ _ b7 0 idx0_toInt (by decide) j).trans ?_
    rw [dif_pos (show 0 ≤ j.val ∧ j.val < 0 + 128 by omega)]
    exact congrArg (fun t => b7 (ix1 t)) (Fin.ext (Nat.sub_zero _))
  · rw [dif_neg h1]
    by_cases h2 : j.val < 136
    · rw [dif_pos (show 128 ≤ j.val ∧ j.val < 128 + 8 by omega), dif_pos h2]
    · rw [dif_neg (show ¬ (128 ≤ j.val ∧ j.val < 128 + 8) by omega), dif_neg h2]
      refine (setVec_apply (C := 256) (K := 128) scatter_S256_S1_S128_0_n_0_0_wf _ _ b7 0 idx0_toInt (by decide) j).trans ?_
      rw [dif_neg (show ¬ (0 ≤ j.val ∧ j.val < 0 + 128) by omega)]
      exact Ideal.ofBits_zero_f32

/-- The fused weights at an entry are the specification's. -/
theorem fuseWT_apply (w6 : FVec Ideal S8x128 .f32) (w8 : FVec Ideal S8x8 .f32) (l : Fin 8) (j : Fin 256) :
    fuseWT w6 w8 (ix2 l j) = Cert.Spec.fuseW (mat w6) (mat w8) l j := by
  unfold fuseWT
  refine (setCols_apply (R := 8) (C := 256) (K := 8) scatter_S8x256_S1_S8x8_01_n_1_0_wf _ _ w8 128 idx128_toInt (by decide) l j).trans ?_
  unfold Cert.Spec.fuseW Cert.Data.mat
  by_cases h1 : j.val < 128
  · rw [dif_neg (show ¬ (128 ≤ j.val ∧ j.val < 128 + 8) by omega), dif_pos h1]
    refine (setCols_apply (R := 8) (C := 256) (K := 128) scatter_S8x256_S1_S8x128_01_n_1_0_wf _ _ w6 0 idx0_toInt (by decide) l j).trans ?_
    rw [dif_pos (show 0 ≤ j.val ∧ j.val < 0 + 128 by omega)]
    exact congrArg (fun t => w6 (ix2 l t)) (Fin.ext (Nat.sub_zero _))
  · rw [dif_neg h1]
    by_cases h2 : j.val < 136
    · rw [dif_pos (show 128 ≤ j.val ∧ j.val < 128 + 8 by omega), dif_pos h2]
    · rw [dif_neg (show ¬ (128 ≤ j.val ∧ j.val < 128 + 8) by omega), dif_neg h2]
      refine (setCols_apply (R := 8) (C := 256) (K := 128) scatter_S8x256_S1_S8x128_01_n_1_0_wf _ _ w6 0 idx0_toInt (by decide) l j).trans ?_
      rw [dif_neg (show ¬ (0 ≤ j.val ∧ j.val < 0 + 128) by omega)]
      exact Ideal.ofBits_zero_f32

theorem lhs_projF_0 (i : S12288x256.Idx) (q : dot_S12288x8_S8x256_S12288x256_1_0_0_1_n_n.contr.Idx) :
    (dot_S12288x8_S8x256_S12288x256_1_0_0_1_n_n.lhsIdx i q 0).val = (i 0).val := by
  unfold DotDims.lhsIdx
  rw [dif_neg (show ¬(0 : Fin S12288x8.rank) ∈ dot_S12288x8_S8x256_S12288x256_1_0_0_1_n_n.lhsBatch by decide), dif_pos (show (0 : Fin S12288x8.rank) ∈ dot_S12288x8_S8x256_S12288x256_1_0_0_1_n_n.lhsNonContracting by decide)]
  rfl
theorem lhs_projF_1 (i : S12288x256.Idx) (q : dot_S12288x8_S8x256_S12288x256_1_0_0_1_n_n.contr.Idx) :
    (dot_S12288x8_S8x256_S12288x256_1_0_0_1_n_n.lhsIdx i q 1).val = (q ⟨0, by decide⟩).val :=
  dot_S12288x8_S8x256_S12288x256_1_0_0_1_n_n.lhsIdx_val_of_single rfl i q
theorem rhs_projF_0 (i : S12288x256.Idx) (q : dot_S12288x8_S8x256_S12288x256_1_0_0_1_n_n.contr.Idx) :
    (dot_S12288x8_S8x256_S12288x256_1_0_0_1_n_n.rhsIdx i q 0).val = (q ⟨0, by decide⟩).val :=
  dot_S12288x8_S8x256_S12288x256_1_0_0_1_n_n.rhsIdx_val_of_single rfl i q
theorem rhs_projF_1 (i : S12288x256.Idx) (q : dot_S12288x8_S8x256_S12288x256_1_0_0_1_n_n.contr.Idx) :
    (dot_S12288x8_S8x256_S12288x256_1_0_0_1_n_n.rhsIdx i q 1).val = (i 1).val := by
  unfold DotDims.rhsIdx
  rw [dif_neg (show ¬(1 : Fin S8x256.rank) ∈ dot_S12288x8_S8x256_S12288x256_1_0_0_1_n_n.rhsBatch by decide), dif_pos (show (1 : Fin S8x256.rank) ∈ dot_S12288x8_S8x256_S12288x256_1_0_0_1_n_n.rhsNonContracting by decide)]
  rfl

/-- At an entry the fused projection is the sum over the 8 latent features. -/
theorem projF_apply (h : FVec Ideal S12288x8 .bf16) (wf : FVec Ideal S8x256 .f32) (k : Fin 12288) (j : Fin 256) :
    projF h wf (ix2 k j) = ∑ l : Fin 8, h (ix2 k l) * wf (ix2 l j) := by
  unfold projF
  show FloatOps.dotGeneral (F := Ideal) dot_S12288x8_S8x256_S12288x256_1_0_0_1_n_n none .single h (truncf (F := Ideal) (φ := .f32) .bf16 wf bitsLt_bf16_f32) (ix2 k j) = _
  rw [Ideal.dotGeneral_apply, ← Equiv.sum_comp (ValueIdx.contrEquiv1 dot_S12288x8_S8x256_S12288x256_1_0_0_1_n_n 8 rfl rfl).symm]
  refine Finset.sum_congr rfl fun l _ => ?_
  have hk := ValueIdx.contrEquiv1_symm_val dot_S12288x8_S8x256_S12288x256_1_0_0_1_n_n 8 rfl rfl l
  have el : dot_S12288x8_S8x256_S12288x256_1_0_0_1_n_n.lhsIdx (ix2 k j) ((ValueIdx.contrEquiv1 dot_S12288x8_S8x256_S12288x256_1_0_0_1_n_n 8 rfl rfl).symm l) = ix2 k l := funext fun a => Fin.ext (by
    match a with
    | ⟨0, _⟩ => exact lhs_projF_0 _ _
    | ⟨1, _⟩ => exact (lhs_projF_1 _ _).trans hk)
  have er : dot_S12288x8_S8x256_S12288x256_1_0_0_1_n_n.rhsIdx (ix2 k j) ((ValueIdx.contrEquiv1 dot_S12288x8_S8x256_S12288x256_1_0_0_1_n_n 8 rfl rfl).symm l) = ix2 l j := funext fun a => Fin.ext (by
    match a with
    | ⟨0, _⟩ => exact (rhs_projF_0 _ _).trans hk
    | ⟨1, _⟩ => exact rhs_projF_1 _ _)
  rw [el, er]
  rfl

/-- The third call's bias: the two heads' biases side by side. -/
theorem bf_at (j : Fin 256) :
    (Fold.W7 m c main_v64 : S256.Idx → EReal) (ix1 j)
      = Cert.Spec.fuseB (vec (m ((c : Thread nD τ).loc main_arg7) : S128.Idx → EReal)) (vec (m ((c : Thread nD τ).loc main_arg9) : S8.Idx → EReal)) j := by
  rw [W7_v64_eq, W6_of m c main_arg7 (by decide) (by decide) (by decide) (by decide) (by decide) (by decide),
    W6_of m c main_arg9 (by decide) (by decide) (by decide) (by decide) (by decide) (by decide)]
  exact fuseBT_apply _ _ j

/-- The third call's features: the second call's output times the two heads' weights side by side. -/
theorem hwf_at (k : Fin 12288) (j : Fin 256) :
    (Fold.W7 m c main_v67 : S12288x256.Idx → EReal) (ix2 k j)
      = Cert.Spec.mm (mat (Fold.W6 m c main_v54 : S12288x8.Idx → EReal))
          (Cert.Spec.fuseW (mat (m ((c : Thread nD τ).loc main_arg6) : S8x128.Idx → EReal)) (mat (m ((c : Thread nD τ).loc main_arg8) : S8x8.Idx → EReal))) k j := by
  rw [W7_v67_eq, W6_of m c main_arg6 (by decide) (by decide) (by decide) (by decide) (by decide) (by decide),
    W6_of m c main_arg8 (by decide) (by decide) (by decide) (by decide) (by decide) (by decide)]
  refine (projF_apply _ _ k j).trans ?_
  unfold Cert.Spec.mm
  refine Finset.sum_congr rfl fun l _ => ?_
  rw [fuseWT_apply]
  rfl

/-! ## After the fused call: the two slices, the clipping, the narrowing -/

/-- The two heads cut out of the fused call's 256 columns. -/
theorem W9_v69_eq : Fold.W9 m c main_v69 =
    extractStridedSlice (α := EReal) S12288x128 ![0, 0] (Fold.W8 m c main_v68 : S12288x256.Idx → EReal) slices_S12288x256_S12288x128_0_0 := by
  show StableHlo.after hostOps3 _ (Proc.devRef .tc main_v69) = _
  after_results

theorem W9_v70_eq : Fold.W9 m c main_v70 =
    extractStridedSlice (α := EReal) S12288x8 ![0, 128] (Fold.W8 m c main_v68 : S12288x256.Idx → EReal) slices_S12288x256_S12288x8_0_128 := by
  show StableHlo.after hostOps3 _ (Proc.devRef .tc main_v70) = _
  after_results

/-- The clipping of the structure head at zero, -/
theorem W10_v71_eq : Fold.W10 m c main_v71 =
    maximumf (F := Ideal) (s := S12288x8) (φ := .f32) (Fold.W9 m c main_v70)
      (broadcastInDim S12288x8 ![] bcast_S_S12288x8 (constant (F := Ideal) S_ .f32 0x00000000#32)) := by
  show StableHlo.after hostOps3_1 _ (Proc.devRef .tc main_v71) = _
  after_results
  rfl

/-- and its narrowing to the 16-bit format. -/
theorem W11_v72_eq : Fold.W11 m c main_v72 = truncf (F := Ideal) (s := S12288x8) (φ := .f32) .bf16 (Fold.W10 m c main_v71) bitsLt_bf16_f32 := by
  show StableHlo.after hostOps3_2 _ (Proc.devRef .tc main_v72) = _
  after_results

/-- A slice of the 256 columns from column 0, read at an entry. -/
theorem slice0_apply (x : S12288x256.Idx → EReal) (i : Fin 12288) (j : Fin 128) :
    extractStridedSlice (α := EReal) S12288x128 ![0, 0] x slices_S12288x256_S12288x128_0_0 (ix2 i j) = x (ix2 i ⟨j.val, by omega⟩) :=
  Idealize.ShloMosaic.extractStridedSlice_apply _ x _ (ix2 i j) (ix2 i ⟨j.val, by omega⟩) fun a => match a with
    | ⟨0, _⟩ => by show i.val = 0 + i.val; omega
    | ⟨1, _⟩ => by show j.val = 0 + j.val; omega

/-- A slice of the 256 columns from column 128, read at an entry. -/
theorem slice128_apply (x : S12288x256.Idx → EReal) (i : Fin 12288) (j : Fin 8) :
    extractStridedSlice (α := EReal) S12288x8 ![0, 128] x slices_S12288x256_S12288x8_0_128 (ix2 i j) = x (ix2 i ⟨128 + j.val, by omega⟩) :=
  Idealize.ShloMosaic.extractStridedSlice_apply _ x _ (ix2 i j) (ix2 i ⟨128 + j.val, by omega⟩) fun a => match a with
    | ⟨0, _⟩ => by show i.val = 0 + i.val; omega
    | ⟨1, _⟩ => by show 128 + j.val = 128 + j.val; rfl

/-- The attribute head the program returns: the fused call's first 128 columns. -/
theorem xhat_at (i : Fin 12288) (j : Fin 128) :
    (Fold.W12 m c main_v69 : S12288x128.Idx → EReal) (ix2 i j) = (Fold.W8 m c main_v68 : S12288x256.Idx → EReal) (ix2 i ⟨j.val, by omega⟩) := by
  have e : Fold.W12 m c main_v69 = Fold.W9 m c main_v69 := by
    unfold Fold.W12
    exact (Function.update_of_ne (StableHlo.devRef_ne_of_ne (by decide)) _ _).trans <|
      (StableHlo.after_of_writes_sub hostOps3_2 _ hostOps3_2_writes (by decide)).trans
      (StableHlo.after_of_writes_sub hostOps3_1 _ hostOps3_1_writes (by decide))
  rw [e, W9_v69_eq]
  exact slice0_apply _ i j

/-- The decoder's input: the fused call's columns 128 to 135 clipped at zero from below. -/
theorem zs_at (i : Fin 12288) (j : Fin 8) :
    (Fold.W11 m c main_v72 : S12288x8.Idx → EReal) (ix2 i j) = max (α := EReal) ((Fold.W8 m c main_v68 : S12288x256.Idx → EReal) (ix2 i ⟨128 + j.val, by omega⟩)) 0 := by
  rw [W11_v72_eq, W10_v71_eq, W9_v70_eq]
  show max (α := EReal) (extractStridedSlice (α := EReal) S12288x8 ![0, 128] (Fold.W8 m c main_v68 : S12288x256.Idx → EReal) slices_S12288x256_S12288x8_0_128 (ix2 i j)) (Ideal.ofBits .f32 0x00000000#32) = _
  rw [slice128_apply, Ideal.ofBits_zero_f32]

end Cert.KernelIdeal.GlueB

end
-- ==== Proof.Bridge.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Fold
import proofs.«404591_j69982197121234_3_alg».proof.Proof.RefRead
import Idealize.ShloMosaic.Lib.StableHlo.Run
set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel program's first host operations are the reference's

Both programs begin with the same thirty operations on the index input: the edge lists with the self-loops appended,
the degrees, their inverse square roots and the edge weights. What the kernel program's first three host stretches
leave in the weights' buffer, and in its two normalised index vectors, is therefore what the reference's operations
compute from the same input: the two composed terms are one term. -/

open Idealize.ShloMosaic.StableHlo

variable (m : (ℓ : Loc nD τ sig) → Buf (Elt F) ℓ)

set_option maxHeartbeats 4000000 in
/-- The edge weights. -/
theorem weights (c : Dev nD) :
    (Fold.W3 m c main_v29 : (⟨S405504, .f32⟩ : BufTy).Contents (Elt F))
      = Cert.ReferenceIdeal.ReadP.val_main_v29 (F := F) (m ((c : Thread nD τ).loc main_arg1)) := by
  dsimp only [Fold.W3, Fold.W2, Fold.W1, Fold.W0]
  simp only [hostOps0, hostOps0_1, hostOps0_2]
  after_results_simp
  rfl

set_option maxHeartbeats 4000000 in
/-- The targets, a negative word shifted by the node count: the dense adjacency's row indices. -/
theorem targets (c : Dev nD) :
    (Fold.W3 m c main_v35 : (⟨S405504, .i32⟩ : BufTy).Contents (Elt F))
      = Cert.ReferenceIdeal.ReadP.val_main_v26 (F := F) (m ((c : Thread nD τ).loc main_arg1)) := by
  dsimp only [Fold.W3, Fold.W2, Fold.W1, Fold.W0]
  simp only [hostOps0, hostOps0_1, hostOps0_2]
  after_results_simp
  rfl

set_option maxHeartbeats 4000000 in
/-- The sources, likewise: its column indices. -/
theorem sources (c : Dev nD) :
    (Fold.W3 m c main_v40 : (⟨S405504, .i32⟩ : BufTy).Contents (Elt F))
      = Cert.ReferenceIdeal.ReadP.val_main_v19 (F := F) (m ((c : Thread nD τ).loc main_arg1)) := by
  dsimp only [Fold.W3, Fold.W2, Fold.W1, Fold.W0]
  simp only [hostOps0, hostOps0_1, hostOps0_2]
  after_results_simp
  rfl

end Cert.KernelIdeal.Bridge

end
-- ==== Proof.KernelAsm.lean ====
import proofs.«404591_j69982197121234_3_alg».proof.Proof.Gen.KernelIdeal.Launch
import proofs.«404591_j69982197121234_3_alg».proof.Proof.Gen.KernelIdeal.Skeleton
import proofs.«404591_j69982197121234_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«404591_j69982197121234_3_alg».proof.Proof.Fold
import proofs.«404591_j69982197121234_3_alg».proof.Proof.KernelVal
import proofs.«404591_j69982197121234_3_alg».proof.Proof.GlueA
import proofs.«404591_j69982197121234_3_alg».proof.Proof.GlueB
import proofs.«404591_j69982197121234_3_alg».proof.Proof.Bridge
import proofs.«404591_j69982197121234_3_alg».proof.Proof.RefNorm
set_option maxRecDepth 16384

noncomputable section

namespace Cert.KernelIdeal.KernelAsm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel program's two results are the specification's

Where every entry of the index input is a node: the first host operations are the reference's (one term under two
names), so the edge weights and the two index vectors of the dense adjacency's scatter read as the specification's
`nrm`, targets and sources; the host operations before, between and after the calls read as the dense adjacency, the
projections, the fused heads' weight and bias, the slices; each call's output array is the accumulated product its
body leaves; chained, the reconstruction is `xhatK` and the decoded adjacency `ahatK`. -/

open Cert.Spec Cert.Data Idealize.ShloMosaic.ValueIdx

variable (m : (ℓ : Loc nD τ sig) → Buf (Elt Ideal) ℓ) (c : Dev nD)

section

/-- The scatter's row indices are the edges' targets, -/
theorem targets_at (h : Cert.Data.InRange (m ((c.tc : Thread nD τ).loc main_arg1))) (e : Fin 405504) :
    ((Fold.W3 m c main_v35 : (⟨S405504, .i32⟩ : BufTy).Contents (Elt Ideal)) (ix1 e)).toInt = ((Cert.Data.dstF (GlueA.eiOf m c) e).val : ℤ) :=
  (congrArg (fun v : (⟨S405504, .i32⟩ : BufTy).Contents (Elt Ideal) => (v (ix1 e)).toInt) (Bridge.targets (F := Ideal) m c)).trans
    (Cert.ReferenceIdeal.RefNorm.dst_nrm _ h e)

/-- its column indices their sources, -/
theorem sources_at (h : Cert.Data.InRange (m ((c.tc : Thread nD τ).loc main_arg1))) (e : Fin 405504) :
    ((Fold.W3 m c main_v40 : (⟨S405504, .i32⟩ : BufTy).Contents (Elt Ideal)) (ix1 e)).toInt = ((Cert.Data.srcF (GlueA.eiOf m c) e).val : ℤ) :=
  (congrArg (fun v : (⟨S405504, .i32⟩ : BufTy).Contents (Elt Ideal) => (v (ix1 e)).toInt) (Bridge.sources (F := Ideal) m c)).trans
    (Cert.ReferenceIdeal.RefNorm.src_nrm _ h e)

/-- and the scattered values the edges' weights. -/
theorem weights_at (h : Cert.Data.InRange (m ((c.tc : Thread nD τ).loc main_arg1))) (e : Fin 405504) :
    (Fold.W3 m c main_v29 : (⟨S405504, .f32⟩ : BufTy).Contents (Elt Ideal)) (ix1 e)
      = Cert.Spec.nrm (Cert.Data.srcF (GlueA.eiOf m c)) (Cert.Data.dstF (GlueA.eiOf m c)) e :=
  (congrFun (Bridge.weights (F := Ideal) m c) (ix1 e)).trans (Cert.ReferenceIdeal.RefNorm.nrm_at _ h e)

/-- The kernel's reconstruction, row `i`, feature `j`. -/
theorem xhat (h : Cert.Data.InRange (m ((c.tc : Thread Cert.KernelIdeal.nD Cert.KernelIdeal.τ).loc Cert.KernelIdeal.main_arg1))) (i : Fin 12288) (j : Fin 128) :
    (Fold.W12 (F := Ideal) m c main_v69 : S12288x128.Idx → EReal) (ix2 i j)
      = Cert.Spec.xhatK (Cert.Data.srcF (m ((c.tc : Thread Cert.KernelIdeal.nD Cert.KernelIdeal.τ).loc Cert.KernelIdeal.main_arg1))) (Cert.Data.dstF (m ((c.tc : Thread Cert.KernelIdeal.nD Cert.KernelIdeal.τ).loc Cert.KernelIdeal.main_arg1)))
          (Cert.Data.mat (α := EReal) (a := 12288) (b := 128) (m ((c.tc : Thread Cert.KernelIdeal.nD Cert.KernelIdeal.τ).loc Cert.KernelIdeal.main_arg0))) (Cert.Data.mat (α := EReal) (a := 128) (b := 16) (m ((c.tc : Thread Cert.KernelIdeal.nD Cert.KernelIdeal.τ).loc Cert.KernelIdeal.main_arg2)))
          (Cert.Data.vec (α := EReal) (a := 16) (m ((c.tc : Thread Cert.KernelIdeal.nD Cert.KernelIdeal.τ).loc Cert.KernelIdeal.main_arg3))) (Cert.Data.mat (α := EReal) (a := 16) (b := 8) (m ((c.tc : Thread Cert.KernelIdeal.nD Cert.KernelIdeal.τ).loc Cert.KernelIdeal.main_arg4)))
          (Cert.Data.vec (α := EReal) (a := 8) (m ((c.tc : Thread Cert.KernelIdeal.nD Cert.KernelIdeal.τ).loc Cert.KernelIdeal.main_arg5))) (Cert.Data.mat (α := EReal) (a := 8) (b := 128) (m ((c.tc : Thread Cert.KernelIdeal.nD Cert.KernelIdeal.τ).loc Cert.KernelIdeal.main_arg6)))
          (Cert.Data.vec (α := EReal) (a := 128) (m ((c.tc : Thread Cert.KernelIdeal.nD Cert.KernelIdeal.τ).loc Cert.KernelIdeal.main_arg7))) (Cert.Data.mat (α := EReal) (a := 8) (b := 8) (m ((c.tc : Thread Cert.KernelIdeal.nD Cert.KernelIdeal.τ).loc Cert.KernelIdeal.main_arg8)))
          (Cert.Data.vec (α := EReal) (a := 8) (m ((c.tc : Thread Cert.KernelIdeal.nD Cert.KernelIdeal.τ).loc Cert.KernelIdeal.main_arg9))) i j :=
  KernelVal.xhat_final m c (GlueA.adj_at m c (targets_at m c h) (sources_at m c h) (weights_at m c h)) (GlueA.hw1_at m c)
    (GlueA.b1_kept m c) (GlueB.W4_out m c) (GlueB.hw2_at m c) (GlueB.W5_adj m c) (GlueB.W5_b2 m c) (GlueB.W6_out m c)
    (GlueB.hwf_at m c) (GlueB.bf_at m c) (GlueB.W7_adj m c) (GlueB.W8_out m c) (GlueB.xhat_at m c) i j

/-- The kernel's decoded adjacency, nodes `i`, `j`. -/
theorem ahat (h : Cert.Data.InRange (m ((c.tc : Thread Cert.KernelIdeal.nD Cert.KernelIdeal.τ).loc Cert.KernelIdeal.main_arg1))) (i j : Fin 12288) :
    (Fold.W12 (F := Ideal) m c main_v73 : S12288x12288.Idx → EReal) (ix2 i j)
      = Cert.Spec.ahatK (Cert.Data.srcF (m ((c.tc : Thread Cert.KernelIdeal.nD Cert.KernelIdeal.τ).loc Cert.KernelIdeal.main_arg1))) (Cert.Data.dstF (m ((c.tc : Thread Cert.KernelIdeal.nD Cert.KernelIdeal.τ).loc Cert.KernelIdeal.main_arg1)))
          (Cert.Data.mat (α := EReal) (a := 12288) (b := 128) (m ((c.tc : Thread Cert.KernelIdeal.nD Cert.KernelIdeal.τ).loc Cert.KernelIdeal.main_arg0))) (Cert.Data.mat (α := EReal) (a := 128) (b := 16) (m ((c.tc : Thread Cert.KernelIdeal.nD Cert.KernelIdeal.τ).loc Cert.KernelIdeal.main_arg2)))
          (Cert.Data.vec (α := EReal) (a := 16) (m ((c.tc : Thread Cert.KernelIdeal.nD Cert.KernelIdeal.τ).loc Cert.KernelIdeal.main_arg3))) (Cert.Data.mat (α := EReal) (a := 16) (b := 8) (m ((c.tc : Thread Cert.KernelIdeal.nD Cert.KernelIdeal.τ).loc Cert.KernelIdeal.main_arg4)))
          (Cert.Data.vec (α := EReal) (a := 8) (m ((c.tc : Thread Cert.KernelIdeal.nD Cert.KernelIdeal.τ).loc Cert.KernelIdeal.main_arg5))) (Cert.Data.mat (α := EReal) (a := 8) (b := 128) (m ((c.tc : Thread Cert.KernelIdeal.nD Cert.KernelIdeal.τ).loc Cert.KernelIdeal.main_arg6)))
          (Cert.Data.vec (α := EReal) (a := 128) (m ((c.tc : Thread Cert.KernelIdeal.nD Cert.KernelIdeal.τ).loc Cert.KernelIdeal.main_arg7))) (Cert.Data.mat (α := EReal) (a := 8) (b := 8) (m ((c.tc : Thread Cert.KernelIdeal.nD Cert.KernelIdeal.τ).loc Cert.KernelIdeal.main_arg8)))
          (Cert.Data.vec (α := EReal) (a := 8) (m ((c.tc : Thread Cert.KernelIdeal.nD Cert.KernelIdeal.τ).loc Cert.KernelIdeal.main_arg9))) i j :=
  KernelVal.ahat_final m c (GlueA.adj_at m c (targets_at m c h) (sources_at m c h) (weights_at m c h)) (GlueA.hw1_at m c)
    (GlueA.b1_kept m c) (GlueB.W4_out m c) (GlueB.hw2_at m c) (GlueB.W5_adj m c) (GlueB.W5_b2 m c) (GlueB.W6_out m c)
    (GlueB.hwf_at m c) (GlueB.bf_at m c) (GlueB.W7_adj m c) (GlueB.W8_out m c) (fun i j => GlueB.zs_at m c i j)
    (GlueB.W12_out m c) i j

end

end Cert.KernelIdeal.KernelAsm

end
-- ==== Proof.lean ====
/-
  The certificate of the graph-autoencoder kernel against its reference.

  THE CLAIM holds on the evident domain of the index input: every entry of `edge_index` is a node (0 ≤ · < 12288).
  Both programs build the edge list with one self-loop per node appended, count each node's in-degree, take its inverse
  square root and weight an edge by the product at its two ends. A graph convolution of features `h` is, in the
  reference, a sum over the edges into a node of the source's features times the edge's weight; the kernel first sums
  the weights of the parallel edges from `k` to `i` into a dense 12288 × 12288 matrix and then multiplies that matrix
  with `h` on the matrix unit, three column blocks of 4096 accumulated in a scratch, bias and clipping at the last
  block. The two are equal on the extended reals because every weight is nonnegative: a factor distributes over a sum
  of nonnegative terms whatever the factor is, and the edges into a node split by their source. The kernel runs the
  reconstruction head and the structure head as one convolution 256 columns wide and slices it; the decoder is the
  same inner product of rows on both sides. Changes of float format are the identity on the extended reals.

  Frames: each kernel program's @main is twelve items, eight stretches of host operations and four kernel calls; every
  call's body is run symbolically at each of its control cases, the aggregation calls carrying their accumulator in
  the scratch from point to point, the decoder reading one array through two windows, each holding half of it. The
  reference is host operations only. `preserves` asks nothing: the idealized kernel is the kernel's own text.
-/
import proofs.«404591_j69982197121234_3_alg».proof.Defs
import proofs.«404591_j69982197121234_3_alg».proof.Proof.Gen.Kernel
import proofs.«404591_j69982197121234_3_alg».proof.Proof.Gen.KernelIdeal
import proofs.«404591_j69982197121234_3_alg».proof.Proof.Gen.ReferenceIdeal
import proofs.«404591_j69982197121234_3_alg».proof.Proof.Gen.Pre_finite_inputs
import proofs.«404591_j69982197121234_3_alg».proof.Proof.Run
import proofs.«404591_j69982197121234_3_alg».proof.Proof.Kernel_Run
import proofs.«404591_j69982197121234_3_alg».proof.Proof.RefAsm
import proofs.«404591_j69982197121234_3_alg».proof.Proof.PreRange
import proofs.«404591_j69982197121234_3_alg».proof.Proof.SpecLaw
import proofs.«404591_j69982197121234_3_alg».proof.Proof.KernelAsm
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_k : Cert.frame_Kernel := fun m ρ _ => Cert.Kernel.Run.frame (F := Bits) m ρ
/-- So does its reading over the extended reals. -/
theorem frame_ki : Cert.frame_KernelIdeal := fun m ρ _ => Cert.KernelIdeal.Run.frame (F := Ideal) m ρ
/-- The reference is host operations only: its run, the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The kernel program's run with its two results named: the reconstruction and the decoded adjacency end at what the
    last item leaves, the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v69) = Cert.KernelIdeal.Fold.W12 m c Cert.KernelIdeal.main_v69
          ∧ r.2.mem ((c.tc : Thread Cert.KernelIdeal.nD Cert.KernelIdeal.τ).loc Cert.KernelIdeal.main_v73) = Cert.KernelIdeal.Fold.W12 m c Cert.KernelIdeal.main_v73
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c =>
    ⟨h c _ (Cert.KernelIdeal.Run.mem_uc Cert.KernelIdeal.main_v69 (by decide)),
     h c _ (Cert.KernelIdeal.Run.mem_uc Cert.KernelIdeal.main_v73 (by decide)),
     (h c _ (Cert.KernelIdeal.Run.mem_uc Cert.KernelIdeal.main_arg0 (by decide))).trans (Cert.KernelIdeal.Run.W12_main_arg0 m c),
     (h c _ (Cert.KernelIdeal.Run.mem_uc Cert.KernelIdeal.main_arg1 (by decide))).trans (Cert.KernelIdeal.Run.W12_main_arg1 m c),
     (h c _ (Cert.KernelIdeal.Run.mem_uc Cert.KernelIdeal.main_arg2 (by decide))).trans (Cert.KernelIdeal.Run.W12_main_arg2 m c),
     (h c _ (Cert.KernelIdeal.Run.mem_uc Cert.KernelIdeal.main_arg3 (by decide))).trans (Cert.KernelIdeal.Run.W12_main_arg3 m c),
     (h c _ (Cert.KernelIdeal.Run.mem_uc Cert.KernelIdeal.main_arg4 (by decide))).trans (Cert.KernelIdeal.Run.W12_main_arg4 m c),
     (h c _ (Cert.KernelIdeal.Run.mem_uc Cert.KernelIdeal.main_arg5 (by decide))).trans (Cert.KernelIdeal.Run.W12_main_arg5 m c),
     (h c _ (Cert.KernelIdeal.Run.mem_uc Cert.KernelIdeal.main_arg6 (by decide))).trans (Cert.KernelIdeal.Run.W12_main_arg6 m c),
     (h c _ (Cert.KernelIdeal.Run.mem_uc Cert.KernelIdeal.main_arg7 (by decide))).trans (Cert.KernelIdeal.Run.W12_main_arg7 m c),
     (h c _ (Cert.KernelIdeal.Run.mem_uc Cert.KernelIdeal.main_arg8 (by decide))).trans (Cert.KernelIdeal.Run.W12_main_arg8 m c),
     (h c _ (Cert.KernelIdeal.Run.mem_uc Cert.KernelIdeal.main_arg9 (by decide))).trans (Cert.KernelIdeal.Run.W12_main_arg9 m c)⟩)
    (Cert.KernelIdeal.Run.run_all (F := Ideal) m ρ)

/-- Over the extended reals the two programs, run from memories that agree on the arguments, end with equal results:
    index by index each side is the specification's function of the arguments (the kernel's by its calls' accumulations
    and its host operations, the reference's by its layers), and the two specifications are one function. -/
theorem algebraic : Cert.algebraic_KernelIdeal_ReferenceIdeal := by
  intro m ρ m' ρ' hpre hagree
  have hR : ∀ c : Dev Cert.KernelIdeal.nD,
      Cert.Data.InRange (m ((c.tc : Thread Cert.KernelIdeal.nD Cert.KernelIdeal.τ).loc Cert.KernelIdeal.main_arg1)) :=
    fun c => Cert.PreRange.inRange_of_pre m hpre c
  refine ⟨fun c => Cert.KernelIdeal.Fold.W12 (F := Ideal) m c Cert.KernelIdeal.main_v69,
    fun c => Cert.KernelIdeal.Fold.W12 (F := Ideal) m c Cert.KernelIdeal.main_v73, kernel_run m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · obtain ⟨a0, a1, a2, a3, a4, a5, a6, a7, a8, a9⟩ := hagree c
    have hR' : Cert.Data.InRange (m' ((c.tc : Thread Cert.ReferenceIdeal.nD Cert.ReferenceIdeal.τ).loc Cert.ReferenceIdeal.main_arg1)) := by
      rw [a1]; exact hR c
    funext idx
    obtain ⟨i, j, rfl⟩ : ∃ (i : Fin 12288) (j : Fin 128), idx = ix2 i j := ⟨idx 0, idx 1, eq_ix2 idx⟩
    refine (Cert.ReferenceIdeal.RefAsm.out0 m' c hR' i j).trans ?_
    rw [a0, a1, a2, a3, a4, a5, a6, a7]
    exact ((Cert.KernelIdeal.KernelAsm.xhat m c (hR c) i j).trans (congrFun (congrFun (Cert.Spec.xhatK_eq _ _ _ _ _ _ _ _ _ _ _) i) j)).symm
  · obtain ⟨a0, a1, a2, a3, a4, a5, a6, a7, a8, a9⟩ := hagree c
    have hR' : Cert.Data.InRange (m' ((c.tc : Thread Cert.ReferenceIdeal.nD Cert.ReferenceIdeal.τ).loc Cert.ReferenceIdeal.main_arg1)) := by
      rw [a1]; exact hR c
    funext idx
    obtain ⟨i, j, rfl⟩ : ∃ (i j : Fin 12288), idx = ix2 i j := ⟨idx 0, idx 1, eq_ix2 idx⟩
    refine (Cert.ReferenceIdeal.RefAsm.out1 m' c hR' i j).trans ?_
    rw [a0, a1, a2, a3, a4, a5, a8, a9]
    exact ((Cert.KernelIdeal.KernelAsm.ahat m c (hR c) i j).trans (congrFun (congrFun (Cert.Spec.ahatK_eq _ _ _ _ _ _ _ _ _ _ _) i) j)).symm

/-- The five conjuncts, under the programs' and the precondition's stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
